-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 2048]⟩ 2 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 128]⟩ ⟨3, ![4, 256, 2048]⟩ 2 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x128 : Shape := ⟨3, ![4, 256, 128]⟩
abbrev S4x128 : Shape := ⟨2, ![4, 128]⟩
abbrev S128x128 : Shape := ⟨2, ![128, 128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x256x128 .f32) (main_arg1 : FVec F S4x128 .f32) (main_arg2 : FVec F S128x128 .f32) (main_arg3 : FVec F S128x128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Pre_finite_inputs_ReferenceIdeal.lean ====
abbrev S4x256x2048 : Shape := ⟨3, ![4, 256, 2048]⟩
abbrev S4x128 : Shape := ⟨2, ![4, 128]⟩
abbrev S128x2048 : Shape := ⟨2, ![128, 2048]⟩
abbrev S_ : Shape := ⟨0, ![]⟩

class Facts : Prop where
  bcast_S_S4x256x2048 : S_.BroadcastsInDim S4x256x2048 (![] : Fin 0 → Fin S4x256x2048.rank)
  reducesTo_S4x256x2048_S_d0_1_2 : S4x256x2048.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x2048 : S_.BroadcastsInDim S128x2048 (![] : Fin 0 → Fin S128x2048.rank)
  reducesTo_S128x2048_S_d0_1 : S128x2048.ReducesTo [0, 1] S_

variable [Facts]

def fn_part1 {F : FTy → Type} [FloatOps F] (main_v13 : IVec S_ 1) (main_v16 : IVec S128x2048 1) : IVec S_ 1 :=
  let main_c_5 : IVec S_ 1 := constantI S_ 1 1#1
  let main_v17 : IVec S_ 1 := (fun x v => Host.reduce IntOp.andi x v reducesTo_S128x2048_S_d0_1 h_S_) main_v16 main_c_5
  let main_v18 : IVec S_ 1 := andi main_v13 main_v17
  main_v18

def fn {F : FTy → Type} [FloatOps F] (main_arg0 : FVec F S4x256x2048 .f32) (main_arg1 : FVec F S4x128 .f32) (main_arg2 : FVec F S128x2048 .f32) (main_arg3 : FVec F S128x2048 .f32) : IVec S_ 1 :=
  let main_v0 : FVec F S4x256x2048 .f32 := Host.absf main_arg0
  let main_cst : FVec F S_ .f32 := constant S_ .f32 0x7F800000#32
  let main_v1 : FVec F S4x256x2048 .f32 := broadcastInDim S4x256x2048 ![] bcast_S_S4x256x2048 main_cst
  let main_v2 : IVec S4x256x2048 1 := cmpf .olt main_v0 main_v1
  let main_c : IVec S_ 1 := constantI S_ 1 1#1
  let main_v3 : IVec S_ 1 := (fun x v => Host.reduce IntOp.andi x v reducesTo_S4x256x2048_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S128x2048 .f32 := Host.absf main_arg3
  let main_cst_4 : FVec F S_ .f32 := constant S_ .f32 0x7F800000#32
  let main_v15 : FVec F S128x2048 .f32 := broadcastInDim S128x2048 ![] bcast_S_S128x2048 main_cst_4
  let main_v16 : IVec S128x2048 1 := cmpf .olt main_v14 main_v15
  fn_part1 (F := F) main_v13 main_v16
-- ==== Kernel.lean ====
abbrev S4x256x128 : Shape := ⟨3, ![4, 256, 128]⟩
abbrev S4x128 : Shape := ⟨2, ![4, 128]⟩
abbrev S128x128 : Shape := ⟨2, ![128, 128]⟩
abbrev S8x256 : Shape := ⟨2, ![8, 256]⟩
abbrev S16x8x256 : Shape := ⟨3, ![16, 8, 256]⟩
abbrev S16 : Shape := ⟨1, ![16]⟩
abbrev S_ : Shape := ⟨0, ![]⟩
abbrev S4x256 : Shape := ⟨2, ![4, 256]⟩
abbrev S1 : Shape := ⟨1, ![1]⟩
abbrev S1x8x256 : Shape := ⟨3, ![1, 8, 256]⟩
abbrev S256x8 : Shape := ⟨2, ![256, 8]⟩
abbrev S256x1 : Shape := ⟨2, ![256, 1]⟩
abbrev S1x256x128 : Shape := ⟨3, ![1, 256, 128]⟩
abbrev S256x128 : Shape := ⟨2, ![256, 128]⟩
abbrev S1x128 : Shape := ⟨2, ![1, 128]⟩

abbrev nBuf : Space → Nat
  | .hbm => 5
  | .vmem => 7
  | .smem => 0
  | _ => 0

abbrev bufTy : (tb : Table) → Fin (tcTables nBuf tb) → BufTy
  | .hbm, ⟨0, _⟩ => ⟨S4x256x128, .f32⟩
  | .hbm, ⟨1, _⟩ => ⟨S4x128, .f32⟩
  | .hbm, ⟨2, _⟩ => ⟨S128x128, .f32⟩
  | .hbm, ⟨3, _⟩ => ⟨S128x128, .f32⟩
  | .hbm, ⟨4, _⟩ => ⟨S4x256x128, .f32⟩
  | .local _ .vmem, ⟨0, _⟩ => ⟨S4x256x128, .f32⟩
  | .local _ .vmem, ⟨1, _⟩ => ⟨S4x128, .f32⟩
  | .local _ .vmem, ⟨2, _⟩ => ⟨S128x128, .f32⟩
  | .local _ .vmem, ⟨3, _⟩ => ⟨S128x128, .f32⟩
  | .local _ .vmem, ⟨4, _⟩ => ⟨S4x256x128, .f32⟩
  | .local _ .vmem, ⟨5, _⟩ => ⟨S8x256, .f32⟩
  | .local _ .vmem, ⟨6, _⟩ => ⟨S16x8x256, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v73 : BitVec 32 := Scalar.addi v2 c1_i32_66
  let c16_i32_67 : BitVec 32 := 16#32
  let v74 : BitVec 32 := Scalar.remsi v73 c16_i32_67
  let c1_i32_71 : BitVec 32 := 1#32
  let v75 : BitVec 32 := Scalar.muli v74 c1_i32_71
  let v76 : BitVec 32 := Scalar.addi c0_i32_72 v75
  v76.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v83 : BitVec 32 := Scalar.addi v2 c2_i32_75
  let c16_i32_76 : BitVec 32 := 16#32
  let v84 : BitVec 32 := Scalar.remsi v83 c16_i32_76
  let c1_i32_80 : BitVec 32 := 1#32
  let v85 : BitVec 32 := Scalar.muli v84 c1_i32_80
  let v86 : BitVec 32 := Scalar.addi c0_i32_81 v85
  v86.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_84 : BitVec 32 := 3#32
  let v93 : BitVec 32 := Scalar.addi v2 c3_i32_84
  let c16_i32_85 : BitVec 32 := 16#32
  let v94 : BitVec 32 := Scalar.remsi v93 c16_i32_85
  let c1_i32_89 : BitVec 32 := 1#32
  let v95 : BitVec 32 := Scalar.muli v94 c1_i32_89
  let v96 : BitVec 32 := Scalar.addi c0_i32_90 v95
  v96.toNat
def k0_dev19 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v103 : BitVec 32 := Scalar.addi v2 c4_i32_93
  let c16_i32_94 : BitVec 32 := 16#32
  let v104 : BitVec 32 := Scalar.remsi v103 c16_i32_94
  let c1_i32_98 : BitVec 32 := 1#32
  let v105 : BitVec 32 := Scalar.muli v104 c1_i32_98
  let v106 : BitVec 32 := Scalar.addi c0_i32_99 v105
  v106.toNat
def k0_dev20 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_102 : BitVec 32 := 5#32
  let v113 : BitVec 32 := Scalar.addi v2 c5_i32_102
  let c16_i32_103 : BitVec 32 := 16#32
  let v114 : BitVec 32 := Scalar.remsi v113 c16_i32_103
  let c1_i32_107 : BitVec 32 := 1#32
  let v115 : BitVec 32 := Scalar.muli v114 c1_i32_107
  let v116 : BitVec 32 := Scalar.addi c0_i32_108 v115
  v116.toNat
def k0_dev21 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_111 : BitVec 32 := 6#32
  let v123 : BitVec 32 := Scalar.addi v2 c6_i32_111
  let c16_i32_112 : BitVec 32 := 16#32
  let v124 : BitVec 32 := Scalar.remsi v123 c16_i32_112
  let c1_i32_116 : BitVec 32 := 1#32
  let v125 : BitVec 32 := Scalar.muli v124 c1_i32_116
  let v126 : BitVec 32 := Scalar.addi c0_i32_117 v125
  v126.toNat
def k0_dev22 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_120 : BitVec 32 := 7#32
  let v133 : BitVec 32 := Scalar.addi v2 c7_i32_120
  let c16_i32_121 : BitVec 32 := 16#32
  let v134 : BitVec 32 := Scalar.remsi v133 c16_i32_121
  let c1_i32_125 : BitVec 32 := 1#32
  let v135 : BitVec 32 := Scalar.muli v134 c1_i32_125
  let v136 : BitVec 32 := Scalar.addi c0_i32_126 v135
  v136.toNat
def k0_dev23 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_129 : BitVec 32 := 8#32
  let v143 : BitVec 32 := Scalar.addi v2 c8_i32_129
  let c16_i32_130 : BitVec 32 := 16#32
  let v144 : BitVec 32 := Scalar.remsi v143 c16_i32_130
  let c1_i32_134 : BitVec 32 := 1#32
  let v145 : BitVec 32 := Scalar.muli v144 c1_i32_134
  let v146 : BitVec 32 := Scalar.addi c0_i32_135 v145
  v146.toNat
def k0_dev24 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_138 : BitVec 32 := 9#32
  let v153 : BitVec 32 := Scalar.addi v2 c9_i32_138
  let c16_i32_139 : BitVec 32 := 16#32
  let v154 : BitVec 32 := Scalar.remsi v153 c16_i32_139
  let c1_i32_143 : BitVec 32 := 1#32
  let v155 : BitVec 32 := Scalar.muli v154 c1_i32_143
  let v156 : BitVec 32 := Scalar.addi c0_i32_144 v155
  v156.toNat
def k0_dev25 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_147 : BitVec 32 := 10#32
  let v163 : BitVec 32 := Scalar.addi v2 c10_i32_147
  let c16_i32_148 : BitVec 32 := 16#32
  let v164 : BitVec 32 := Scalar.remsi v163 c16_i32_148
  let c1_i32_152 : BitVec 32 := 1#32
  let v165 : BitVec 32 := Scalar.muli v164 c1_i32_152
  let v166 : BitVec 32 := Scalar.addi c0_i32_153 v165
  v166.toNat
def k0_dev26 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_156 : BitVec 32 := 11#32
  let v173 : BitVec 32 := Scalar.addi v2 c11_i32_156
  let c16_i32_157 : BitVec 32 := 16#32
  let v174 : BitVec 32 := Scalar.remsi v173 c16_i32_157
  let c1_i32_161 : BitVec 32 := 1#32
  let v175 : BitVec 32 := Scalar.muli v174 c1_i32_161
  let v176 : BitVec 32 := Scalar.addi c0_i32_162 v175
  v176.toNat
def k0_dev27 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_165 : BitVec 32 := 12#32
  let v183 : BitVec 32 := Scalar.addi v2 c12_i32_165
  let c16_i32_166 : BitVec 32 := 16#32
  let v184 : BitVec 32 := Scalar.remsi v183 c16_i32_166
  let c1_i32_170 : BitVec 32 := 1#32
  let v185 : BitVec 32 := Scalar.muli v184 c1_i32_170
  let v186 : BitVec 32 := Scalar.addi c0_i32_171 v185
  v186.toNat
def k0_dev28 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_174 : BitVec 32 := 13#32
  let v193 : BitVec 32 := Scalar.addi v2 c13_i32_174
  let c16_i32_175 : BitVec 32 := 16#32
  let v194 : BitVec 32 := Scalar.remsi v193 c16_i32_175
  let c1_i32_179 : BitVec 32 := 1#32
  let v195 : BitVec 32 := Scalar.muli v194 c1_i32_179
  let v196 : BitVec 32 := Scalar.addi c0_i32_180 v195
  v196.toNat
def k0_dev29 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_183 : BitVec 32 := 14#32
  let v203 : BitVec 32 := Scalar.addi v2 c14_i32_183
  let c16_i32_184 : BitVec 32 := 16#32
  let v204 : BitVec 32 := Scalar.remsi v203 c16_i32_184
  let c1_i32_188 : BitVec 32 := 1#32
  let v205 : BitVec 32 := Scalar.muli v204 c1_i32_188
  let v206 : BitVec 32 := Scalar.addi c0_i32_189 v205
  v206.toNat
def k0_dev30 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_192 : BitVec 32 := 15#32
  let v213 : BitVec 32 := Scalar.addi v2 c15_i32_192
  let c16_i32_193 : BitVec 32 := 16#32
  let v214 : BitVec 32 := Scalar.remsi v213 c16_i32_193
  let c1_i32_197 : BitVec 32 := 1#32
  let v215 : BitVec 32 := Scalar.muli v214 c1_i32_197
  let v216 : BitVec 32 := Scalar.addi c0_i32_198 v215
  v216.toNat
abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  reduces_S4x256x128_S4x256 : S4x256x128.Reduces [2] S4x256
  concatenates_S4x256_S4x256_S8x256_d0 : Shape.Concatenates [S4x256, S4x256] S8x256 0
  inb_S8x256_S8x256_0_0 : ∀ a, (![0, 0] : Fin 2 → Nat) a + S8x256.size a ≤ S8x256.size a
  h_S8x256 : 0 < S8x256.numel
  shapeCasts_S8x256_S8x256 : S8x256.ShapeCasts S8x256
  hamt_15 : (15#32 : BitVec 32).msb = false
  inb_S16_S1_1 : ∀ a, (![1] : Fin 1 → Nat) a + S1.size a ≤ S16.size a
  squeezes_S1_S_ : S1.Squeezes S_
  inb_S16x8x256_S1x8x256_1_0_0 : ∀ a, (![1, 0, 0] : Fin 3 → Nat) a + S1x8x256.size a ≤ S16x8x256.size a
  squeezes_S1x8x256_S8x256 : S1x8x256.Squeezes S8x256
  inb_S16_S1_2 : ∀ a, (![2] : Fin 1 → Nat) a + S1.size a ≤ S16.size a
  inb_S16x8x256_S1x8x256_2_0_0 : ∀ a, (![2, 0, 0] : Fin 3 → Nat) a + S1x8x256.size a ≤ S16x8x256.size a
  inb_S16_S1_3 : ∀ a, (![3] : Fin 1 → Nat) a + S1.size a ≤ S16.size a
  inb_S16x8x256_S1x8x256_3_0_0 : ∀ a, (![3, 0, 0] : Fin 3 → Nat) a + S1x8x256.size a ≤ S16x8x256.size a
  inb_S16_S1_4 : ∀ a, (![4] : Fin 1 → Nat) a + S1.size a ≤ S16.size a
  inb_S16x8x256_S1x8x256_4_0_0 : ∀ a, (![4, 0, 0] : Fin 3 → Nat) a + S1x8x256.size a ≤ S16x8x256.size a
  inb_S16_S1_5 : ∀ a, (![5] : Fin 1 → Nat) a + S1.size a ≤ S16.size a
  inb_S16x8x256_S1x8x256_5_0_0 : ∀ a, (![5, 0, 0] : Fin 3 → Nat) a + S1x8x256.size a ≤ S16x8x256.size a
  inb_S16_S1_6 : ∀ a, (![6] : Fin 1 → Nat) a + S1.size a ≤ S16.size a
  inb_S16x8x256_S1x8x256_6_0_0 : ∀ a, (![6, 0, 0] : Fin 3 → Nat) a + S1x8x256.size a ≤ S16x8x256.size a
  inb_S16_S1_7 : ∀ a, (![7] : Fin 1 → Nat) a + S1.size a ≤ S16.size a
  inb_S16x8x256_S1x8x256_7_0_0 : ∀ a, (![7, 0, 0] : Fin 3 → Nat) a + S1x8x256.size a ≤ S16x8x256.size a
  inb_S16_S1_8 : ∀ a, (![8] : Fin 1 → Nat) a + S1.size a ≤ S16.size a
  inb_S16x8x256_S1x8x256_8_0_0 : ∀ a, (![8, 0, 0] : Fin 3 → Nat) a + S1x8x256.size a ≤ S16x8x256.size a
  inb_S16_S1_9 : ∀ a, (![9] : Fin 1 → Nat) a + S1.size a ≤ S16.size a
  inb_S16x8x256_S1x8x256_9_0_0 : ∀ a, (![9, 0, 0] : Fin 3 → Nat) a + S1x8x256.size a ≤ S16x8x256.size a
  inb_S16_S1_10 : ∀ a, (![10] : Fin 1 → Nat) a + S1.size a ≤ S16.size a
  inb_S16x8x256_S1x8x256_10_0_0 : ∀ a, (![10, 0, 0] : Fin 3 → Nat) a + S1x8x256.size a ≤ S16x8x256.size a
  inb_S16_S1_11 : ∀ a, (![11] : Fin 1 → Nat) a + S1.size a ≤ S16.size a
  inb_S16x8x256_S1x8x256_11_0_0 : ∀ a, (![11, 0, 0] : Fin 3 → Nat) a + S1x8x256.size a ≤ S16x8x256.size a
  inb_S16_S1_12 : ∀ a, (![12] : Fin 1 → Nat) a + S1.size a ≤ S16.size a
  inb_S16x8x256_S1x8x256_12_0_0 : ∀ a, (![12, 0, 0] : Fin 3 → Nat) a + S1x8x256.size a ≤ S16x8x256.size a
  inb_S16_S1_13 : ∀ a, (![13] : Fin 1 → Nat) a + S1.size a ≤ S16.size a
  inb_S16x8x256_S1x8x256_13_0_0 : ∀ a, (![13, 0, 0] : Fin 3 → Nat) a + S1x8x256.size a ≤ S16x8x256.size a
  inb_S16_S1_14 : ∀ a, (![14] : Fin 1 → Nat) a + S1.size a ≤ S16.size a
  inb_S16x8x256_S1x8x256_14_0_0 : ∀ a, (![14, 0, 0] : Fin 3 → Nat) a + S1x8x256.size a ≤ S16x8x256.size a
  inb_S16_S1_15 : ∀ a, (![15] : Fin 1 → Nat) a + S1.size a ≤ S16.size a
  inb_S16x8x256_S1x8x256_15_0_0 : ∀ a, (![15, 0, 0] : Fin 3 → Nat) a + S1x8x256.size a ≤ S16x8x256.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  h_S1x8x256 : 0 < S1x8x256.numel
  shapeCasts_S1x8x256_S8x256 : S1x8x256.ShapeCasts S8x256
  transposes_S8x256_p1_0_S256x8 : S8x256.Transposes [1, 0] S256x8
  slices_S256x8_o0_0_S256x1 : S256x8.Slices ![0, 0] S256x1
  slices_S256x8_o0_4_S256x1 : S256x8.Slices ![0, 4] S256x1
  slices_S4x256x128_o0_0_0_S1x256x128 : S4x256x128.Slices ![0, 0, 0] S1x256x128
  shapeCasts_S1x256x128_S256x128 : S1x256x128.ShapeCasts S256x128
  broadcasts_S256x1_S256x128 : S256x1.Broadcasts S256x128
  slices_S4x128_o0_0_S1x128 : S4x128.Slices ![0, 0] S1x128
  broadcasts_S1x128_S256x128 : S1x128.Broadcasts S256x128
  inb_S4x256x128_S1x256x128_0_0_0 : ∀ a, (![0, 0, 0] : Fin 3 → Nat) a + S1x256x128.size a ≤ S4x256x128.size a
  h_S1x256x128 : 0 < S1x256x128.numel
  shapeCasts_S256x128_S1x256x128 : S256x128.ShapeCasts S1x256x128
  slices_S256x8_o0_1_S256x1 : S256x8.Slices ![0, 1] S256x1
  slices_S256x8_o0_5_S256x1 : S256x8.Slices ![0, 5] S256x1
  slices_S4x256x128_o1_0_0_S1x256x128 : S4x256x128.Slices ![1, 0, 0] S1x256x128
  slices_S4x128_o1_0_S1x128 : S4x128.Slices ![1, 0] S1x128
  inb_S4x256x128_S1x256x128_1_0_0 : ∀ a, (![1, 0, 0] : Fin 3 → Nat) a + S1x256x128.size a ≤ S4x256x128.size a
  slices_S256x8_o0_2_S256x1 : S256x8.Slices ![0, 2] S256x1
  slices_S256x8_o0_6_S256x1 : S256x8.Slices ![0, 6] S256x1
  slices_S4x256x128_o2_0_0_S1x256x128 : S4x256x128.Slices ![2, 0, 0] S1x256x128
  slices_S4x128_o2_0_S1x128 : S4x128.Slices ![2, 0] S1x128
  inb_S4x256x128_S1x256x128_2_0_0 : ∀ a, (![2, 0, 0] : Fin 3 → Nat) a + S1x256x128.size a ≤ S4x256x128.size a
  slices_S256x8_o0_3_S256x1 : S256x8.Slices ![0, 3] S256x1
  slices_S256x8_o0_7_S256x1 : S256x8.Slices ![0, 7] S256x1
  slices_S4x256x128_o3_0_0_S1x256x128 : S4x256x128.Slices ![3, 0, 0] S1x256x128
  slices_S4x128_o3_0_S1x128 : S4x128.Slices ![3, 0] S1x128
  inb_S4x256x128_S1x256x128_3_0_0 : ∀ a, (![3, 0, 0] : Fin 3 → Nat) a + S1x256x128.size a ≤ S4x256x128.size a
  dot_S4x128_S128x128_S4x128_1_0_0_1_n_n_wf : DotDims.WF S4x128 S128x128 S4x128 [1] [0] [0] [1] [] []
  hcc0_scratch2 : 5 + S16.numel ≤ 37
  hcc0_scratch3 : 21 + S16.numel ≤ 37
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch2 : DmaSems sig S16 := SemArray.consecutive 5 S16 hcc0_scratch2
abbrev cc0_scratch3 : DmaSems sig S16 := SemArray.consecutive 21 S16 hcc0_scratch3
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x2048 : Shape := ⟨3, ![4, 256, 2048]⟩
abbrev S4x128 : Shape := ⟨2, ![4, 128]⟩
abbrev S128x2048 : Shape := ⟨2, ![128, 2048]⟩
abbrev S_ : Shape := ⟨0, ![]⟩
abbrev S4x256 : Shape := ⟨2, ![4, 256]⟩
abbrev S4x256x1 : Shape := ⟨3, ![4, 256, 1]⟩
abbrev S4x2048 : Shape := ⟨2, ![4, 2048]⟩
abbrev S4x1x2048 : Shape := ⟨3, ![4, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x128, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .i32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x2048, .f32⟩
  | .hbm, ⟨18, _⟩ => ⟨S4x256x2048, .f32⟩
  | .hbm, ⟨19, _⟩ => ⟨S4x256x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x256, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x2048, .f32⟩
  | .hbm, ⟨35, _⟩ => ⟨S4x256x2048, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x2048, .f32⟩
  | .hbm, ⟨41, _⟩ => ⟨S4x256x2048, .f32⟩
  | .hbm, ⟨42, _⟩ => ⟨S4x2048, .f32⟩
  | .hbm, ⟨43, _⟩ => ⟨S4x2048, .f32⟩
  | .hbm, ⟨44, _⟩ => ⟨S4x1x2048, .f32⟩
  | .hbm, ⟨45, _⟩ => ⟨S_, .f32⟩
  | .hbm, ⟨46, _⟩ => ⟨S4x1x2048, .f32⟩
  | .hbm, ⟨47, _⟩ => ⟨S4x1x2048, .f32⟩
  | .hbm, ⟨48, _⟩ => ⟨S4x256x2048, .f32⟩
  | .hbm, ⟨49, _⟩ => ⟨S4x256x2048, .f32⟩
  | .hbm, ⟨50, _⟩ => ⟨S4x1x2048, .f32⟩
  | .hbm, ⟨51, _⟩ => ⟨S4x256x2048, .f32⟩
  | .hbm, ⟨52, _⟩ => ⟨S4x256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x256x2048_S4x256_d2 : S4x256x2048.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x2048_0_1_2 : S4x256x1.BroadcastsInDim S4x256x2048 (![0, 1, 2] : Fin 3 → Fin S4x256x2048.rank)
  bcast_S4x2048_S4x1x2048_0_2 : S4x2048.BroadcastsInDim S4x1x2048 (![0, 2] : Fin 2 → Fin S4x1x2048.rank)
  bcast_S_S4x1x2048 : S_.BroadcastsInDim S4x1x2048 (![] : Fin 0 → Fin S4x1x2048.rank)
  bcast_S4x1x2048_S4x256x2048_0_1_2 : S4x1x2048.BroadcastsInDim S4x256x2048 (![0, 1, 2] : Fin 3 → Fin S4x256x2048.rank)
  dot_S4x128_S128x2048_S4x2048_1_0_0_1_n_n_wf : DotDims.WF S4x128 S128x2048 S4x2048 [1] [0] [0] [1] [] []

variable [Facts₀]

def dot_S4x128_S128x2048_S4x2048_1_0_0_1_n_n : DotDims S4x128 S128x2048 S4x2048 where
  lhsContracting := [1]
  rhsContracting := [0]
  lhsNonContracting := [0]
  rhsNonContracting := [1]
  lhsBatch := []
  rhsBatch := []
  wf := dot_S4x128_S128x2048_S4x2048_1_0_0_1_n_n_wf

class Facts : Prop extends Facts₀ where

variable [Facts]
-- ==== Proof.Spec.lean ====
/-
  The layer this certificate is about, as mathematics on the extended reals, with no program in sight.

  Reference side (`G`): adaptive layer norm over the WHOLE channel axis of 2048,
    μ = (Σ_k x[b,s,k]) / 2048,  v = (Σ_k (x[b,s,k] − μ)²) / 2048,
    G[b,s,j] = (x[b,s,j] − μ) / √(v + ε) · (1 + Σ_k t[b,k]·ws[k,j]) + Σ_k t[b,k]·wh[k,j].
  Kernel side (`Kat`): device c holds channels [128c, 128c+128); the first and second moments are summed
  over all 16 devices' blocks and scaled by 2⁻¹¹; the variance is E[x²] − (E[x])², the normaliser an
  inverse square root.  The two agree wherever x is finite (`block_G`).
-/
import Idealize.ShloMosaic.PureOps.Ideal
import Idealize.ShloMosaic.PureOps.Ideal.Laws
import Idealize.ShloMosaic.Lib.ValueIdx
import Idealize.ShloMosaic.Lib.Layout

noncomputable section

namespace Cert.Spec

open Idealize.ShloMosaic

abbrev SXw : Shape := ⟨3, ![4, 256, 2048]⟩
abbrev SXb : Shape := ⟨3, ![4, 256, 128]⟩
abbrev STe : Shape := ⟨2, ![4, 128]⟩
abbrev SWw : Shape := ⟨2, ![128, 2048]⟩
abbrev SWb : Shape := ⟨2, ![128, 128]⟩

/-- The four float words the two programs spell: ε = f32(1e-5), 1, 2048 and 2⁻¹¹. -/
def cEps : EReal := Ideal.ofBits .f32 0x3727C5AC#32
def cOne : EReal := Ideal.ofBits .f32 0x3F800000#32
def c2048 : EReal := Ideal.ofBits .f32 0x45000000#32
def cInv : EReal := Ideal.ofBits .f32 0x3A000000#32

/-- The reference's result at row (b, s), channel j of the whole arrays. -/
def Gat (x : SXw.Idx → EReal) (t : STe.Idx → EReal) (ws wh : SWw.Idx → EReal) (b : Fin 4) (s : Fin 256) (j : Fin 2048) : EReal :=
  let μ : EReal := Ideal.div (∑ k : Fin 2048, x (ValueIdx.ix3 b s k)) c2048
  let v : EReal := Ideal.div (∑ k : Fin 2048, (x (ValueIdx.ix3 b s k) - μ) * (x (ValueIdx.ix3 b s k) - μ)) c2048
  Ideal.div (x (ValueIdx.ix3 b s j) - μ) (Ideal.sqrt (v + cEps)) * (cOne + ∑ k : Fin 128, t (ValueIdx.ix2 b k) * ws (ValueIdx.ix2 k j))
    + ∑ k : Fin 128, t (ValueIdx.ix2 b k) * wh (ValueIdx.ix2 k j)

/-- The reference's whole result array. -/
def G (x : SXw.Idx → EReal) (t : STe.Idx → EReal) (ws wh : SWw.Idx → EReal) : SXw.Idx → EReal :=
  fun i => Gat x t ws wh (i 0) (i 1) (i 2)

/-- Device `c`'s result at row (b, s), local channel j, from every device's block of x (`xs`), the shared t,
    and device `c`'s own blocks of the two weight matrices. -/
def Kat (xs : Fin 16 → SXb.Idx → EReal) (t : STe.Idx → EReal) (wsb whb : SWb.Idx → EReal) (c : Fin 16)
    (b : Fin 4) (s : Fin 256) (j : Fin 128) : EReal :=
  let m : EReal := (∑ d : Fin 16, ∑ l : Fin 128, xs d (ValueIdx.ix3 b s l)) * cInv
  let e2 : EReal := (∑ d : Fin 16, ∑ l : Fin 128, xs d (ValueIdx.ix3 b s l) * xs d (ValueIdx.ix3 b s l)) * cInv
  (xs c (ValueIdx.ix3 b s j) - m) * Ideal.rsqrt (e2 - m * m + cEps) * (cOne + ∑ k : Fin 128, t (ValueIdx.ix2 b k) * wsb (ValueIdx.ix2 k j))
    + ∑ k : Fin 128, t (ValueIdx.ix2 b k) * whb (ValueIdx.ix2 k j)

/-- Device `c`'s whole result block. -/
def K (xs : Fin 16 → SXb.Idx → EReal) (t : STe.Idx → EReal) (wsb whb : SWb.Idx → EReal) (c : Fin 16) : SXb.Idx → EReal :=
  fun i => Kat xs t wsb whb c (i 0) (i 1) (i 2)

/-! ## The four words -/

/-- The word for 2048 denotes the real 2048. -/
theorem c2048_eq : c2048 = ((2048 : ℝ) : EReal) := by
  simp [c2048, Ideal.ofBits, Ideal.ieee, -EReal.coe_mul] <;> norm_num

/-- The word for 2⁻¹¹ denotes the real 1/2048. -/
theorem cInv_eq : cInv = ((1 / 2048 : ℝ) : EReal) := by
  simp [cInv, Ideal.ofBits, Ideal.ieee, -EReal.coe_mul] <;> norm_num

/-- The word for ε denotes a positive real. -/
theorem cEps_pos : ∃ r : ℝ, 0 < r ∧ cEps = (r : EReal) := by
  refine ⟨10995116 * (2 : ℝ) ^ (-40 : ℤ), by positivity, ?_⟩
  simp [cEps, Ideal.ofBits, Ideal.ieee, -EReal.coe_mul] <;> norm_num

/-- Dividing by 2048 is multiplying by 2⁻¹¹, for every extended real. -/
theorem div_c2048 (a : EReal) : Ideal.div a c2048 = a * cInv := by
  rw [c2048_eq, cInv_eq, Ideal.div_coe (by norm_num)]

/-! ## Sums -/

/-- A finite sum of reals, read in the extended reals, is the real sum read there. -/
theorem coe_sum {ι : Type} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- Sixteen blocks of 128 channels are the 2048 channels: channel 128 d + l is channel l of block d. -/
def chanEquiv : Fin 16 × Fin 128 ≃ Fin 2048 where
  toFun p := ⟨p.1.val * 128 + p.2.val, by have := p.1.isLt; have := p.2.isLt; omega⟩
  invFun k := (⟨k.val / 128, by have := k.isLt; omega⟩, ⟨k.val % 128, by omega⟩)
  left_inv p := by
    have := p.1.isLt; have := p.2.isLt
    refine Prod.ext (Fin.ext ?_) (Fin.ext ?_)
    · show (p.1.val * 128 + p.2.val) / 128 = p.1.val
      omega
    · show (p.1.val * 128 + p.2.val) % 128 = p.2.val
      omega
  right_inv k := by
    refine Fin.ext ?_
    show k.val / 128 * 128 + k.val % 128 = k.val
    omega

/-- So a sum over the blocks of the sums within each block is the sum over all channels. -/
theorem sum_blocks {M : Type} [AddCommMonoid M] (f : Fin 2048 → M) :
    ∑ d : Fin 16, ∑ l : Fin 128, f ⟨d.val * 128 + l.val, by have := d.isLt; have := l.isLt; omega⟩ = ∑ k : Fin 2048, f k := by
  rw [← Equiv.sum_comp chanEquiv f, Fintype.sum_prod_type]
  rfl

/-! ## The variance, in the reals -/

/-- The mean of the squared deviations from the mean is the mean of the squares less the square of the mean. -/
theorem real_var (r : Fin 2048 → ℝ) (μ : ℝ) (hμ : μ = (∑ k, r k) * (1 / 2048)) :
    (∑ k, r k * r k) * (1 / 2048) - μ * μ = (∑ k, (r k - μ) * (r k - μ)) * (1 / 2048) := by
  have h : ∑ k, (r k - μ) * (r k - μ) = (∑ k, r k * r k) - 2 * μ * (∑ k, r k) + 2048 * (μ * μ) := by
    have e : (2048 : ℝ) * (μ * μ) = ∑ _k : Fin 2048, μ * μ := by simp
    rw [Finset.mul_sum, e, ← Finset.sum_sub_distrib, ← Finset.sum_add_distrib]
    exact Finset.sum_congr rfl fun k _ => by ring
  have hs : ∑ k, r k = 2048 * μ := by rw [hμ]; ring
  rw [h, hs]; ring

/-! ## The normaliser -/

/-- Dividing by the square root of a positive real is multiplying by its inverse square root. -/
theorem div_sqrt_eq (a : EReal) (p : ℝ) (hp : 0 < p) :
    Ideal.div a (Ideal.sqrt (p : EReal)) = a * Ideal.rsqrt (p : EReal) := by
  rw [Ideal.sqrt_coe, Ideal.rsqrt_coe, if_neg (not_lt.mpr hp.le), if_neg (not_lt.mpr hp.le), if_neg hp.ne',
    Ideal.div_coe (Real.sqrt_pos.mpr hp).ne', one_div]

/-- Where every entry is a real, the two arguments of the normalisers are one positive real: the variance as the mean
    of squared deviations, and as the mean of squares less the squared mean, each plus ε. -/
theorem var_eq (X : Fin 2048 → EReal) (hX : ∀ k, ∃ r : ℝ, X k = (r : EReal)) :
    ∃ p : ℝ, 0 < p ∧
      (∑ k, (X k - (∑ k, X k) * cInv) * (X k - (∑ k, X k) * cInv)) * cInv + cEps = (p : EReal) ∧
      (∑ k, X k * X k) * cInv - (∑ k, X k) * cInv * ((∑ k, X k) * cInv) + cEps = (p : EReal) := by
  choose r hr using hX
  obtain ⟨ε, hε, hE⟩ := cEps_pos
  obtain rfl : X = fun k => ((r k : ℝ) : EReal) := funext hr
  refine ⟨(∑ k, (r k - (∑ k, r k) * (1 / 2048)) * (r k - (∑ k, r k) * (1 / 2048))) * (1 / 2048) + ε, ?_, ?_, ?_⟩
  · have h0 : 0 ≤ ∑ k, (r k - (∑ k, r k) * (1 / 2048)) * (r k - (∑ k, r k) * (1 / 2048)) :=
      Finset.sum_nonneg fun k _ => mul_self_nonneg _
    have h1 : 0 ≤ (∑ k, (r k - (∑ k, r k) * (1 / 2048)) * (r k - (∑ k, r k) * (1 / 2048))) * (1 / 2048) :=
      mul_nonneg h0 (by norm_num)
    linarith
  · rw [cInv_eq, hE]
    simp only [coe_sum, ← EReal.coe_sub, ← EReal.coe_mul, ← EReal.coe_add]
  · rw [cInv_eq, hE]
    simp only [coe_sum, ← EReal.coe_sub, ← EReal.coe_mul, ← EReal.coe_add]
    rw [real_var r _ rfl]

/-- The normalised entry: the reference's quotient by the square root is the kernel's product with the inverse square root. -/
theorem head_eq (X : Fin 2048 → EReal) (hX : ∀ k, ∃ r : ℝ, X k = (r : EReal)) (j : Fin 2048) :
    Ideal.div (X j - Ideal.div (∑ k, X k) c2048)
        (Ideal.sqrt (Ideal.div (∑ k, (X k - Ideal.div (∑ k, X k) c2048) * (X k - Ideal.div (∑ k, X k) c2048)) c2048 + cEps))
      = (X j - (∑ k, X k) * cInv)
          * Ideal.rsqrt ((∑ k, X k * X k) * cInv - (∑ k, X k) * cInv * ((∑ k, X k) * cInv) + cEps) := by
  obtain ⟨p, hp, h1, h2⟩ := var_eq X hX
  simp only [div_c2048]
  rw [h1, h2]
  exact div_sqrt_eq _ p hp

/-! ## Where a block's index lands -/

/-- Entry (b, s, l) of block d of the activations is entry (b, s, 128 d + l) of the whole. -/
theorem idx_x (d : Fin 16) (b : Fin 4) (s : Fin 256) (l : Fin 128) (h : Layout.Tiles SXb SXw 2 16) :
    h.idx d (ValueIdx.ix3 b s l)
      = ValueIdx.ix3 b s (⟨d.val * 128 + l.val, by have := d.isLt; have := l.isLt; omega⟩ : Fin 2048) := by
  funext a
  refine Fin.ext ?_
  match a with
  | ⟨0, _⟩ => rfl
  | ⟨1, _⟩ => rfl
  | ⟨2, _⟩ => rfl

/-- Entry (k, j) of block c of a weight matrix is entry (k, 128 c + j) of the whole. -/
theorem idx_w (c : Fin 16) (k : Fin 128) (j : Fin 128) (h : Layout.Tiles SWb SWw 1 16) :
    h.idx c (ValueIdx.ix2 k j)
      = ValueIdx.ix2 k (⟨c.val * 128 + j.val, by have := c.isLt; have := j.isLt; omega⟩ : Fin 2048) := by
  funext a
  refine Fin.ext ?_
  match a with
  | ⟨0, _⟩ => rfl
  | ⟨1, _⟩ => rfl

/-! ## One entry -/

/-- At row (b, s) and local channel j of device c: the reference at channel 128 c + j is the kernel's value. -/
theorem at_eq (x : SXw.Idx → EReal) (t : STe.Idx → EReal) (ws wh : SWw.Idx → EReal)
    (hx : ∀ i, ∃ r : ℝ, x i = (r : EReal)) (c : Fin 16) (b : Fin 4) (s : Fin 256) (j : Fin 128) :
    Gat x t ws wh b s ⟨c.val * 128 + j.val, by have := c.isLt; have := j.isLt; omega⟩
      = Kat (fun d => Layout.block SXb SXw 2 16 d x) t (Layout.block SWb SWw 1 16 c ws) (Layout.block SWb SWw 1 16 c wh) c b s j := by
  have hX : ∀ k : Fin 2048, ∃ r : ℝ, x (ValueIdx.ix3 b s k) = (r : EReal) := fun k => hx _
  have hh := head_eq (fun k => x (ValueIdx.ix3 b s k)) hX ⟨c.val * 128 + j.val, by have := c.isLt; have := j.isLt; omega⟩
  have hs1 := sum_blocks (fun k => x (ValueIdx.ix3 b s k))
  have hs2 := sum_blocks (fun k => x (ValueIdx.ix3 b s k) * x (ValueIdx.ix3 b s k))
  beta_reduce at hh hs1 hs2
  simp only [Gat, Kat, Layout.block_apply, idx_x, idx_w]
  rw [hs1, hs2, hh]

/-- THE BRIDGE: where every entry of x is a real number, block `c` of the reference's result is device `c`'s
    result computed from the blocks. -/
theorem block_G (x : SXw.Idx → EReal) (t : STe.Idx → EReal) (ws wh : SWw.Idx → EReal)
    (hx : ∀ i, ∃ r : ℝ, x i = (r : EReal)) (c : Fin 16) :
    Layout.block SXb SXw 2 16 c (G x t ws wh)
      = K (fun d => Layout.block SXb SXw 2 16 d x) t (Layout.block SWb SWw 1 16 c ws) (Layout.block SWb SWw 1 16 c wh) c := by
  funext i
  obtain ⟨b, s, j, rfl⟩ : ∃ (b : Fin 4) (s : Fin 256) (j : Fin 128), i = ValueIdx.ix3 b s j :=
    ⟨i 0, i 1, i 2, ValueIdx.eq_ix3 i⟩
  rw [Layout.block_apply, idx_x]
  exact at_eq x t ws wh hx c b s j

/-- info: 'Cert.Spec.block_G' depends on axioms: [propext, Classical.choice, Quot.sound] -/
#guard_msgs in #print axioms block_G

end Cert.Spec

end
-- ==== Proof.Finite.lean ====
/-
  The finiteness precondition, read.

  The printed predicate computes, for each of the four arrays a device holds, the conjunction over every
  entry `a` of "|a| < +∞" (an absolute value, a comparison with the word 0x7F800000, a reduction by `and`
  over all axes from the constant 1), and then the conjunction of the four results.  On the extended reals
  |a| is max a (−a) and the word 0x7F800000 is ⊤, so the predicate being 1 says of every entry of the first
  array that max a (−a) < ⊤: the entry is neither ⊤ nor ⊥ (whose negation is ⊤), hence a real number
  (`block_real`).

  The whole array of shape [4, 256, 2048] is cut along its last axis into 16 blocks of shape [4, 256, 128].
  Every index (b, s, k) of the whole array lies in block k / 128 at (b, s, k % 128), since
  (k / 128) · 128 + k % 128 = k; so a property every block has entrywise, the whole array has entrywise
  (`whole_real`).
-/
import proofs.«900516_g7700000000000517_dist_diff_adaln_cshard_i_b4_s256_c128_v7x_i16_bf16_1_alg».proof.Pre_finite_inputs_Kernel
import proofs.«900516_g7700000000000517_dist_diff_adaln_cshard_i_b4_s256_c128_v7x_i16_bf16_1_alg».proof.Proof.Gen.Pre_finite_inputs_Kernel
import proofs.«900516_g7700000000000517_dist_diff_adaln_cshard_i_b4_s256_c128_v7x_i16_bf16_1_alg».proof.Proof.Spec
import Idealize.ShloMosaic.Lib.ReduceAll
import Idealize.ShloMosaic.Lib.ValueIdx
import Idealize.ShloMosaic.Lib.Layout
import Idealize.ShloMosaic.PureOps.Ideal
import Idealize.ShloMosaic.PureOps.Ideal.Laws

noncomputable section

namespace Cert.Finite

open Idealize.ShloMosaic

/-! ## Extended reals: what "|a| < +∞" says -/

/-- The shape of rank 0 has one index: there is no axis to choose a coordinate on. -/
instance : Subsingleton Cert.Pre_finite_inputs_Kernel.S_.Idx := ⟨fun _ _ => funext fun d => d.elim0⟩

/-- The f32 word 0x7F800000 (sign 0, exponent all ones, significand 0) denotes +∞. -/
theorem inf_word : Ideal.ofBits .f32 0x7F800000#32 = (⊤ : EReal) := by
  simp [Ideal.ofBits, Ideal.ieee]

/-- An extended real `a` with max a (−a) < ⊤ is a real number: a < ⊤ excludes ⊤, and −a < ⊤ excludes ⊥,
    whose negation is ⊤. -/
theorem real_of_abs_lt_top (a : EReal) (h : max a (-a) < ⊤) : ∃ r : ℝ, a = (r : EReal) := by
  have h1 : a < ⊤ := (max_lt_iff.1 h).1
  have h2 : -a < ⊤ := (max_lt_iff.1 h).2
  induction a using EReal.rec with
  | bot => rw [EReal.neg_bot] at h2; exact absurd h2 (lt_irrefl _)
  | coe r => exact ⟨r, rfl⟩
  | top => exact absurd h1 (lt_irrefl _)

/-- The ordered comparison "less than" of two extended reals answers 1 only where the first is below the second. -/
theorem lt_of_cmp_olt (u v : EReal) (h : Ideal.cmp .olt u v = 1#1) : u < v := by
  have h' : BitVec.ofBool (decide (u < v)) = 1#1 := h
  by_cases hlt : u < v
  · exact hlt
  · rw [decide_eq_false hlt] at h'
    exact absurd h' (by decide)

/-- A conjunction of two `i1` arrays, read at an index. -/
theorem andi_apply {s : Shape} {w : Nat} (u v : IVec s w) (j : s.Idx) : andi u v j = IntOp.andi (u j) (v j) := rfl

/-! ## One device -/

/-- One device: the precondition's word is 1 ⇒ every entry of that device's x block is real. -/
theorem block_real (x : FVec Ideal Cert.Pre_finite_inputs_Kernel.S4x256x128 .f32) (t : FVec Ideal Cert.Pre_finite_inputs_Kernel.S4x128 .f32)
    (ws wh : FVec Ideal Cert.Pre_finite_inputs_Kernel.S128x128 .f32)
    (h : Cert.Pre_finite_inputs_Kernel.fn (F := Ideal) x t ws wh = (fun _ => 1#1)) : ∀ i, ∃ r : ℝ, x i = (r : EReal) := by
  intro i
  -- the predicate's one word
  have h0 := congrFun h ValueIdx.ix0
  dsimp only [Cert.Pre_finite_inputs_Kernel.fn, Cert.Pre_finite_inputs_Kernel.fn_part1] at h0
  -- it is ((all x ∧ all t) ∧ all ws) ∧ all wh; keep the first conjunct
  rw [andi_apply, IntOp.andi_eq_one, andi_apply, IntOp.andi_eq_one, andi_apply, IntOp.andi_eq_one] at h0
  obtain ⟨⟨⟨hx, _⟩, _⟩, _⟩ := h0
  -- a reduction by `and` over all axes that is 1 met a 1 at every index
  have e := Host.reduce_andi_all _ _ _ _ _ hx i
  -- at index i that 1 is the comparison of |x i| with the word for +∞
  have e' : Ideal.cmp .olt (max (x i : EReal) (-(x i : EReal))) (Ideal.ofBits .f32 0x7F800000#32) = 1#1 := e
  rw [inf_word] at e'
  exact real_of_abs_lt_top (x i) (lt_of_cmp_olt _ _ e')

/-! ## All devices -/

/-- The whole shape [4, 256, 2048] is the block shape [4, 256, 128] laid 16 times along the last axis. -/
theorem tiles : Layout.Tiles Cert.Spec.SXb Cert.Spec.SXw 2 16 := by decide

/-- Index (b, s, k) of the whole array is index (b, s, k % 128) of block k / 128. -/
theorem idx_of_whole (i : Cert.Spec.SXw.Idx) (hc : (i 2).val / 128 < 16) (h0 : (i 0).val < 4) (h1 : (i 1).val < 256)
    (h2 : (i 2).val % 128 < 128) :
    tiles.idx (⟨(i 2).val / 128, hc⟩ : Fin 16)
      (ValueIdx.ix3 (⟨(i 0).val, h0⟩ : Fin 4) (⟨(i 1).val, h1⟩ : Fin 256) (⟨(i 2).val % 128, h2⟩ : Fin 128)) = i := by
  funext b
  apply Fin.ext
  rw [Layout.Tiles.idx_val]
  match b with
  | ⟨0, _⟩ => rfl
  | ⟨1, _⟩ => rfl
  | ⟨2, _⟩ =>
    show (if (2 : ℕ) = 2 then (i 2).val / 128 * 128 + (i 2).val % 128 else (i 2).val % 128) = (i 2).val
    rw [if_pos rfl]
    exact Nat.div_add_mod' (i 2).val 128

/-- All devices: if every block of the whole array is entrywise real, the whole array is. -/
theorem whole_real (X : Cert.Spec.SXw.Idx → EReal)
    (h : ∀ c : Fin 16, ∀ i, ∃ r : ℝ, (Idealize.ShloMosaic.Layout.block Cert.Spec.SXb Cert.Spec.SXw 2 16 c X) i = (r : EReal)) :
    ∀ i, ∃ r : ℝ, X i = (r : EReal) := by
  intro i
  have h0 : (i 0).val < 4 := (i 0).isLt
  have h1 : (i 1).val < 256 := (i 1).isLt
  have h2 : (i 2).val < 2048 := (i 2).isLt
  have hc : (i 2).val / 128 < 16 := by omega
  have hm : (i 2).val % 128 < 128 := Nat.mod_lt _ (by decide)
  obtain ⟨r, hr⟩ := h ⟨(i 2).val / 128, hc⟩
    (ValueIdx.ix3 (⟨(i 0).val, h0⟩ : Fin 4) (⟨(i 1).val, h1⟩ : Fin 256) (⟨(i 2).val % 128, hm⟩ : Fin 128))
  refine ⟨r, ?_⟩
  -- the block's entry IS the whole array's entry at the image index
  have hr' : X (tiles.idx (⟨(i 2).val / 128, hc⟩ : Fin 16)
      (ValueIdx.ix3 (⟨(i 0).val, h0⟩ : Fin 4) (⟨(i 1).val, h1⟩ : Fin 256) (⟨(i 2).val % 128, hm⟩ : Fin 128))) = (r : EReal) := hr
  rw [idx_of_whole i hc h0 h1 hm] at hr'
  exact hr'

/-- info: 'Cert.Finite.block_real' depends on axioms: [propext, Classical.choice, Quot.sound] -/
#guard_msgs in #print axioms block_real
/-- info: 'Cert.Finite.whole_real' depends on axioms: [propext, Classical.choice, Quot.sound] -/
#guard_msgs in #print axioms whole_real

end Cert.Finite

end
-- ==== Proof.RefRun.lean ====
/-
  The reference program's run.

  The reference is a straight line of forty-nine array operations: twenty-six of its own, the twenty of the
  variance helper it calls once (the row mean again, the centered squares summed over the channel axis and divided
  by the count 2048 − 0, the comparison "count > 0"), and the three of the select helper that the variance helper
  calls (it picks the quotient where the comparison holds and a not-a-number constant elsewhere).  Listed in order
  over their own buffers they are one list `ops`; the program is `seq ops`, so every weakly fair execution
  terminates with each buffer at the fold of the operations' results over the launch contents.  Read at the result
  buffer, that fold is one pure term of the four argument arrays, `refTerm`, built below from its stages:

    meanCol x   : the row sums of x from 0, kept as a column, divided by the constant 2048;
    centered x  : x minus that column broadcast along the channel axis;
    varCol x    : select (varCount > 0) ((row sums of centered² from 0, as a column) / varCount) (the not-a-number constant);
    normed x    : centered x divided by the broadcast square root of (varCol x + ε);
    projRow t w : the product t · w (contracting the 128 axis), given a unit middle axis;
    refTerm     : normed x · broadcast (1 + projRow t ws) + broadcast (projRow t wh).

  Everything here is stated for an arbitrary float family: no operation is opened, and the equation between the
  fold and `refTerm` only compares two spellings of one term.
-/
import proofs.«900516_g7700000000000517_dist_diff_adaln_cshard_i_b4_s256_c128_v7x_i16_bf16_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The stages of the result, as pure terms -/

/-- The row mean as a column: Σ_k x[b,s,k], summed from the constant 0, over the constant 2048. -/
def meanCol (x : FVec F S4x256x2048 .f32) : FVec F S4x256x1 .f32 :=
  Host.divf
    (broadcastInDim S4x256x1 ![0, 1] bcast_S4x256_S4x256x1_0_1
      (Host.reduceAdd x (constant (F := F) S_ .f32 0x00000000#32) reducesTo_S4x256x2048_S4x256_d2 h_S_))
    (broadcastInDim S4x256x1 ![] bcast_S_S4x256x1 (constant (F := F) S_ .f32 0x45000000#32))

/-- x minus its row mean, the mean broadcast along the channel axis. -/
def centered (x : FVec F S4x256x2048 .f32) : FVec F S4x256x2048 .f32 :=
  subf x (broadcastInDim S4x256x2048 ![0, 1, 2] bcast_S4x256x1_S4x256x2048_0_1_2 (meanCol x))

/-- The variance's divisor: the constant 2048 minus the integer 0 converted to a float. -/
def varCount : FVec F S_ .f32 :=
  subf (constant (F := F) S_ .f32 0x45000000#32) (sitofp (F := F) .f32 (constantI S_ 32 0#32))

/-- The row variance as a column: where count > 0 the sum of the centered squares (from 0) over the count, and the
    not-a-number constant elsewhere. -/
def varCol (x : FVec F S4x256x2048 .f32) : FVec F S4x256x1 .f32 :=
  select
    (broadcastInDim S4x256x1 ![] bcast_S_S4x256x1
      (cmpf (F := F) .ogt (varCount (F := F)) (constant (F := F) S_ .f32 0x00000000#32)))
    (Host.divf
      (broadcastInDim S4x256x1 ![0, 1] bcast_S4x256_S4x256x1_0_1
        (Host.reduceAdd (mulf (centered x) (centered x)) (constant (F := F) S_ .f32 0x00000000#32)
          reducesTo_S4x256x2048_S4x256_d2 h_S_))
      (broadcastInDim S4x256x1 ![] bcast_S_S4x256x1 (varCount (F := F))))
    (broadcastInDim S4x256x1 ![] bcast_S_S4x256x1 (constant (F := F) S_ .f32 0x7FC00000#32))

/-- The normalized rows: the centered rows over the broadcast square root of variance plus ε. -/
def normed (x : FVec F S4x256x2048 .f32) : FVec F S4x256x2048 .f32 :=
  Host.divf (centered x)
    (broadcastInDim S4x256x2048 ![0, 1, 2] bcast_S4x256x1_S4x256x2048_0_1_2
      (Host.sqrt (addf (varCol x)
        (broadcastInDim S4x256x1 ![] bcast_S_S4x256x1 (constant (F := F) S_ .f32 0x3727C5AC#32)))))

/-- The projection t · w (the 128 axis contracted), with a unit middle axis. -/
def projRow (t : FVec F S4x128 .f32) (w : FVec F S128x2048 .f32) : FVec F S4x1x2048 .f32 :=
  broadcastInDim S4x1x2048 ![0, 2] bcast_S4x2048_S4x1x2048_0_2
    (Host.dotGeneral dot_S4x128_S128x2048_S4x2048_1_0_0_1_n_n none t w)

/-- The reference's result as one term of its four arguments. -/
def refTerm (x : FVec F S4x256x2048 .f32) (t : FVec F S4x128 .f32) (ws wh : FVec F S128x2048 .f32) :
    FVec F S4x256x2048 .f32 :=
  addf
    (mulf (normed x)
      (broadcastInDim S4x256x2048 ![0, 1, 2] bcast_S4x1x2048_S4x256x2048_0_1_2
        (addf (broadcastInDim S4x1x2048 ![] bcast_S_S4x1x2048 (constant (F := F) S_ .f32 0x3F800000#32)) (projRow t ws))))
    (broadcastInDim S4x256x2048 ![0, 1, 2] bcast_S4x1x2048_S4x256x2048_0_1_2 (projRow t wh))

/-! ## The program as a list of operations -/

/-- The forty-nine operations in program order: the reference's first seven; the variance helper's twenty over its
    own buffers (its arguments are x and the integer constant 0); the select helper's three over its own buffers
    (its arguments are the comparison, the quotient and the not-a-number constant; its result is the variance
    column the reference goes on with); the reference's last nineteen. -/
abbrev ops : List (HloOp τ sig (Elt F)) :=
  [ nullary main_cst (constant S_ .f32 0x00000000#32),
    binary main_arg0 main_cst main_v0 ((fun x v => Host.reduceAdd x v reducesTo_S4x256x2048_S4x256_d2 h_S_) : (⟨S4x256x2048, .f32⟩ : BufTy).Contents (Elt F) → (⟨S_, .f32⟩ : BufTy).Contents (Elt F) → (⟨S4x256, .f32⟩ : BufTy).Contents (Elt F)),
    unary main_v0 main_v1 (broadcastInDim S4x256x1 ![0, 1] bcast_S4x256_S4x256x1_0_1 : (⟨S4x256, .f32⟩ : BufTy).Contents (Elt F) → (⟨S4x256x1, .f32⟩ : BufTy).Contents (Elt F)),
    nullary main_cst_0 (constant S_ .f32 0x45000000#32),
    unary main_cst_0 main_v2 (broadcastInDim S4x256x1 ![] bcast_S_S4x256x1 : (⟨S_, .f32⟩ : BufTy).Contents (Elt F) → (⟨S4x256x1, .f32⟩ : BufTy).Contents (Elt F)),
    binary main_v1 main_v2 main_v3 (Host.divf : (⟨S4x256x1, .f32⟩ : BufTy).Contents (Elt F) → (⟨S4x256x1, .f32⟩ : BufTy).Contents (Elt F) → (⟨S4x256x1, .f32⟩ : BufTy).Contents (Elt F)),
    nullary main_c (constantI S_ 32 0#32),
    TRef.nullary main_call0.cst (constant (F := F) S_ .f32 0x00000000#32),
    TRef.binary (.of main_arg0 : TRef sig ⟨S4x256x2048, .f32⟩) main_call0.cst main_call0.v0
      (fun x v => Host.reduceAdd x v reducesTo_S4x256x2048_S4x256_d2 h_S_),
    TRef.unary main_call0.v0 main_call0.v1 (broadcastInDim S4x256x1 ![0, 1] bcast_S4x256_S4x256x1_0_1),
    TRef.nullary main_call0.cst_0 (constant (F := F) S_ .f32 0x45000000#32),
    TRef.unary main_call0.cst_0 main_call0.v2 (broadcastInDim S4x256x1 ![] bcast_S_S4x256x1),
    TRef.binary main_call0.v1 main_call0.v2 main_call0.v3 Host.divf,
    TRef.unary main_call0.v3 main_call0.v4 (broadcastInDim S4x256x2048 ![0, 1, 2] bcast_S4x256x1_S4x256x2048_0_1_2),
    TRef.binary (.of main_arg0 : TRef sig ⟨S4x256x2048, .f32⟩) main_call0.v4 main_call0.v5 subf,
    TRef.binary main_call0.v5 main_call0.v5 main_call0.v6 mulf,
    TRef.unary (.of main_c : TRef sig ⟨S_, .i32⟩) main_call0.v7 (sitofp (F := F) .f32),
    TRef.nullary main_call0.cst_1 (constant (F := F) S_ .f32 0x45000000#32),
    TRef.binary main_call0.cst_1 main_call0.v7 main_call0.v8 subf,
    TRef.nullary main_call0.cst_2 (constant (F := F) S_ .f32 0x00000000#32),
    TRef.binary main_call0.v6 main_call0.cst_2 main_call0.v9
      (fun x v => Host.reduceAdd x v reducesTo_S4x256x2048_S4x256_d2 h_S_),
    TRef.unary main_call0.v9 main_call0.v10 (broadcastInDim S4x256x1 ![0, 1] bcast_S4x256_S4x256x1_0_1),
    TRef.unary main_call0.v8 main_call0.v11 (broadcastInDim S4x256x1 ![] bcast_S_S4x256x1),
    TRef.binary main_call0.v10 main_call0.v11 main_call0.v12 Host.divf,
    TRef.nullary main_call0.cst_3 (constant (F := F) S_ .f32 0x00000000#32),
    TRef.binary main_call0.v8 main_call0.cst_3 main_call0.v13 (cmpf (F := F) .ogt),
    TRef.nullary main_call0.cst_4 (constant (F := F) S_ .f32 0x7FC00000#32),
    TRef.unary main_call0.cst_4 main_call0.call0.v0 id,
    TRef.unary main_call0.call0.v0 main_call0.call0.v1 (broadcastInDim S4x256x1 ![] bcast_S_S4x256x1),
    TRef.ternary main_call0.v13 main_call0.v12 main_call0.call0.v1 main_call0.call0.v2
      (fun p a b => select (broadcastInDim S4x256x1 ![] bcast_S_S4x256x1 p) a b),
    unary main_v3 main_v5 (broadcastInDim S4x256x2048 ![0, 1, 2] bcast_S4x256x1_S4x256x2048_0_1_2 : (⟨S4x256x1, .f32⟩ : BufTy).Contents (Elt F) → (⟨S4x256x2048, .f32⟩ : BufTy).Contents (Elt F)),
    binary main_arg0 main_v5 main_v6 (subf : (⟨S4x256x2048, .f32⟩ : BufTy).Contents (Elt F) → (⟨S4x256x2048, .f32⟩ : BufTy).Contents (Elt F) → (⟨S4x256x2048, .f32⟩ : BufTy).Contents (Elt F)),
    nullary main_cst_1 (constant S_ .f32 0x3727C5AC#32),
    unary main_cst_1 main_v7 (broadcastInDim S4x256x1 ![] bcast_S_S4x256x1 : (⟨S_, .f32⟩ : BufTy).Contents (Elt F) → (⟨S4x256x1, .f32⟩ : BufTy).Contents (Elt F)),
    binary main_v4 main_v7 main_v8 (addf : (⟨S4x256x1, .f32⟩ : BufTy).Contents (Elt F) → (⟨S4x256x1, .f32⟩ : BufTy).Contents (Elt F) → (⟨S4x256x1, .f32⟩ : BufTy).Contents (Elt F)),
    unary main_v8 main_v9 (Host.sqrt : (⟨S4x256x1, .f32⟩ : BufTy).Contents (Elt F) → (⟨S4x256x1, .f32⟩ : BufTy).Contents (Elt F)),
    unary main_v9 main_v10 (broadcastInDim S4x256x2048 ![0, 1, 2] bcast_S4x256x1_S4x256x2048_0_1_2 : (⟨S4x256x1, .f32⟩ : BufTy).Contents (Elt F) → (⟨S4x256x2048, .f32⟩ : BufTy).Contents (Elt F)),
    binary main_v6 main_v10 main_v11 (Host.divf : (⟨S4x256x2048, .f32⟩ : BufTy).Contents (Elt F) → (⟨S4x256x2048, .f32⟩ : BufTy).Contents (Elt F) → (⟨S4x256x2048, .f32⟩ : BufTy).Contents (Elt F)),
    binary main_arg1 main_arg2 main_v12 ((fun l r => Host.dotGeneral dot_S4x128_S128x2048_S4x2048_1_0_0_1_n_n none l r) : (⟨S4x128, .f32⟩ : BufTy).Contents (Elt F) → (⟨S128x2048, .f32⟩ : BufTy).Contents (Elt F) → (⟨S4x2048, .f32⟩ : BufTy).Contents (Elt F)),
    binary main_arg1 main_arg3 main_v13 ((fun l r => Host.dotGeneral dot_S4x128_S128x2048_S4x2048_1_0_0_1_n_n none l r) : (⟨S4x128, .f32⟩ : BufTy).Contents (Elt F) → (⟨S128x2048, .f32⟩ : BufTy).Contents (Elt F) → (⟨S4x2048, .f32⟩ : BufTy).Contents (Elt F)),
    unary main_v12 main_v14 (broadcastInDim S4x1x2048 ![0, 2] bcast_S4x2048_S4x1x2048_0_2 : (⟨S4x2048, .f32⟩ : BufTy).Contents (Elt F) → (⟨S4x1x2048, .f32⟩ : BufTy).Contents (Elt F)),
    nullary main_cst_2 (constant S_ .f32 0x3F800000#32),
    unary main_cst_2 main_v15 (broadcastInDim S4x1x2048 ![] bcast_S_S4x1x2048 : (⟨S_, .f32⟩ : BufTy).Contents (Elt F) → (⟨S4x1x2048, .f32⟩ : BufTy).Contents (Elt F)),
    binary main_v15 main_v14 main_v16 (addf : (⟨S4x1x2048, .f32⟩ : BufTy).Contents (Elt F) → (⟨S4x1x2048, .f32⟩ : BufTy).Contents (Elt F) → (⟨S4x1x2048, .f32⟩ : BufTy).Contents (Elt F)),
    unary main_v16 main_v17 (broadcastInDim S4x256x2048 ![0, 1, 2] bcast_S4x1x2048_S4x256x2048_0_1_2 : (⟨S4x1x2048, .f32⟩ : BufTy).Contents (Elt F) → (⟨S4x256x2048, .f32⟩ : BufTy).Contents (Elt F)),
    binary main_v11 main_v17 main_v18 (mulf : (⟨S4x256x2048, .f32⟩ : BufTy).Contents (Elt F) → (⟨S4x256x2048, .f32⟩ : BufTy).Contents (Elt F) → (⟨S4x256x2048, .f32⟩ : BufTy).Contents (Elt F)),
    unary main_v13 main_v19 (broadcastInDim S4x1x2048 ![0, 2] bcast_S4x2048_S4x1x2048_0_2 : (⟨S4x2048, .f32⟩ : BufTy).Contents (Elt F) → (⟨S4x1x2048, .f32⟩ : BufTy).Contents (Elt F)),
    unary main_v19 main_v20 (broadcastInDim S4x256x2048 ![0, 1, 2] bcast_S4x1x2048_S4x256x2048_0_1_2 : (⟨S4x1x2048, .f32⟩ : BufTy).Contents (Elt F) → (⟨S4x256x2048, .f32⟩ : BufTy).Contents (Elt F)),
    binary main_v18 main_v20 main_v21 (addf : (⟨S4x256x2048, .f32⟩ : BufTy).Contents (Elt F) → (⟨S4x256x2048, .f32⟩ : BufTy).Contents (Elt F) → (⟨S4x256x2048, .f32⟩ : BufTy).Contents (Elt F)) ]

-- forty-nine binds are re-associated: the rewriting recurses once per statement of the chain
set_option maxRecDepth 2048 in
/-- The program is that straight line: with the two helpers' bodies unfolded at their calls and sequencing
    re-associated, both sides are one chain of the same steps. -/
theorem main_eq (c : Dev nD) : main (F := F) c = seq ops := by
  simp only [main, fn_var.body, fn_where.body, seq, bind_assoc, pure_bind] <;> rfl

/-- No buffer and no semaphore of this program is scoped storage. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub .., unary_bufs_sub .., nullary_bufs_sub ..,
    unary_bufs_sub .., binary_bufs_sub .., unary_bufs_sub .., binary_bufs_sub .., unary_bufs_sub .., unary_bufs_sub ..,
    binary_bufs_sub ..⟩

/-! ## The fold read at the result and at the arguments -/

set_option maxRecDepth 8192 in
set_option maxHeartbeats 1000000 in
/-- At the result buffer the fold is `refTerm` of the launch contents of the four arguments: each operation's result
    is read at its own buffer and passed over at every other one, and what is left is `refTerm` spelt out (the
    helpers' typed buffers move a value along an equation of types that is the identity here). -/
theorem out_eq (V : Valuation τ sig (Elt F)) :
    after ops V (main_v21 : DevRef τ sig)
      = refTerm (V (main_arg0 : DevRef τ sig)) (V (main_arg1 : DevRef τ sig)) (V (main_arg2 : DevRef τ sig))
          (V (main_arg3 : DevRef τ sig)) := by
  after_results_simp <;> (try simp only [TRef.ofBuf, TRef.toBuf, cast_eq]) <;> rfl

/-- No operation writes an argument buffer. -/
theorem arg0_eq (V : Valuation τ sig (Elt F)) : after ops V (main_arg0 : DevRef τ sig) = V (main_arg0 : DevRef τ sig) := by
  after_results_simp <;> rfl
theorem arg1_eq (V : Valuation τ sig (Elt F)) : after ops V (main_arg1 : DevRef τ sig) = V (main_arg1 : DevRef τ sig) := by
  after_results_simp <;> rfl
theorem arg2_eq (V : Valuation τ sig (Elt F)) : after ops V (main_arg2 : DevRef τ sig) = V (main_arg2 : DevRef τ sig) := by
  after_results_simp <;> rfl
theorem arg3_eq (V : Valuation τ sig (Elt F)) : after ops V (main_arg3 : DevRef τ sig) = V (main_arg3 : DevRef τ sig) := by
  after_results_simp <;> rfl

/-! ## The run -/

/-- For any float values, from any memory with zero counters: every weakly fair execution of the reference
    terminates with the result buffer at `refTerm` of the four argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = refTerm (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v21).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

/-- info: 'Cert.ReferenceIdeal.RefRun.run' depends on axioms: [propext, Classical.choice, Quot.sound] -/
#guard_msgs in
#print axioms run

end Cert.ReferenceIdeal.RefRun

end
-- ==== Proof.RefValue.lean ====
/-
  The reference's result, index by index, is the layer of the specification.

  At the exact values every operation of `refTerm` reads at an index by a definitional equation or by one library
  lemma: a pointwise operation acts on the entries; a broadcast reads its operand at the coordinates it keeps (a
  scalar's at its one index); a sum over the channel axis from the initial value 0 is 0 + Σ_k, and the inserted
  index of (b, s) at k is (b, s, k); the product contracting one axis is Σ_k t[b,k]·w[k,j].  Two scalars are
  evaluated: the word 0x45000000 is the real 2048, and the integer 0 converts to the real 0, so the divisor
  2048 − 0 is 2048, it is greater than 0, and the select keeps the quotient at every entry (its other operand, the
  not-a-number constant, is never read).  What is left is, literally, the specification's `Gat` at (b, s, j).
-/
import proofs.«900516_g7700000000000517_dist_diff_adaln_cshard_i_b4_s256_c128_v7x_i16_bf16_1_alg».proof.Proof.RefRun
import proofs.«900516_g7700000000000517_dist_diff_adaln_cshard_i_b4_s256_c128_v7x_i16_bf16_1_alg».proof.Proof.Spec
import Idealize.ShloMosaic.Lib.IdealHost
import Idealize.ShloMosaic.Lib.Pipeline.Value
import Idealize.ShloMosaic.Lib.StackMember

noncomputable section

namespace Cert.ReferenceIdeal.RefRun

open Cert.ReferenceIdeal Cert.ReferenceIdeal.Gen Idealize.ShloMosaic Idealize.ShloMosaic.ValueIdx Idealize.SL.Sem

open scoped BigOperators

/-! ## The two scalars -/

/-- The word 0x45000000 (sign 0, exponent 138, fraction 0) is 2¹¹ = 2048. -/
theorem word2048 : Ideal.ofBits .f32 0x45000000#32 = ((2048 : ℝ) : EReal) := by
  simp [Ideal.ofBits, Ideal.ieee, -EReal.coe_mul]; norm_num

/-- The variance's divisor 2048 − 0 is the specification's constant 2048: the integer 0 converts to the real 0. -/
theorem varCount_ix0 : varCount (F := Ideal) ix0 = Cert.Spec.c2048 := by
  show Ideal.ofBits .f32 0x45000000#32 - (((0#32 : BitVec 32).toInt : ℝ) : EReal) = Ideal.ofBits .f32 0x45000000#32
  have h0 : (((0#32 : BitVec 32).toInt : ℝ) : EReal) = 0 := by
    rw [BitVec.toInt_zero, Int.cast_zero, EReal.coe_zero]
  rw [h0, sub_zero]

/-- The comparison "divisor > 0" holds: 0 < 2048. -/
theorem cmp_pos :
    cmpf (F := Ideal) .ogt (varCount (F := Ideal)) (constant (F := Ideal) S_ .f32 0x00000000#32) ix0 = 1#1 := by
  show FloatOps.cmpf (F := Ideal) (φ := .f32) .ogt (varCount (F := Ideal) ix0) (Ideal.ofBits .f32 0x00000000#32) = 1#1
  rw [varCount_ix0, Ideal.ofBits_zero_f32]
  show BitVec.ofBool (decide ((0 : EReal) < Ideal.ofBits .f32 0x45000000#32)) = 1#1
  rw [word2048, decide_eq_true (EReal.coe_pos.mpr (by norm_num))]
  rfl

/-! ## The layout operations and the two contractions at an index -/

/-- A column broadcast along the channel axis reads the column. -/
theorem bcastCol_apply (v : FVec Ideal S4x256x1 .f32) (b : Fin 4) (s : Fin 256) (j : Fin 2048) :
    broadcastInDim S4x256x2048 ![0, 1, 2] bcast_S4x256x1_S4x256x2048_0_1_2 v (ix3 b s j) = v (ix3 b s (0 : Fin 1)) := by
  refine broadcastInDim_apply _ _ _ (ix3 b s j) (ix3 b s (0 : Fin 1)) ?_
  intro a
  match a with
  | ⟨0, _⟩ => rfl
  | ⟨1, _⟩ => rfl
  | ⟨2, _⟩ => rfl

/-- A row with a unit middle axis broadcast along the sequence axis reads the row. -/
theorem bcastRow_apply (v : FVec Ideal S4x1x2048 .f32) (b : Fin 4) (s : Fin 256) (j : Fin 2048) :
    broadcastInDim S4x256x2048 ![0, 1, 2] bcast_S4x1x2048_S4x256x2048_0_1_2 v (ix3 b s j) = v (ix3 b (0 : Fin 1) j) := by
  refine broadcastInDim_apply _ _ _ (ix3 b s j) (ix3 b (0 : Fin 1) j) ?_
  intro a
  match a with
  | ⟨0, _⟩ => rfl
  | ⟨1, _⟩ => rfl
  | ⟨2, _⟩ => rfl

/-- A matrix given a unit middle axis reads the matrix. -/
theorem unitMid_apply (v : FVec Ideal S4x2048 .f32) (b : Fin 4) (z : Fin 1) (j : Fin 2048) :
    broadcastInDim S4x1x2048 ![0, 2] bcast_S4x2048_S4x1x2048_0_2 v (ix3 b z j) = v (ix2 b j) := by
  refine broadcastInDim_apply _ _ _ (ix3 b z j) (ix2 b j) ?_
  intro a
  match a with
  | ⟨0, _⟩ => rfl
  | ⟨1, _⟩ => rfl

/-- A select on a broadcast scalar bit that is 1 keeps its first operand at every entry. -/
theorem select_bcast_one {α : Type} (p : IVec S_ 1) (hp : p ix0 = 1#1) (u w : S4x256x1.Idx → α) (i : S4x256x1.Idx) :
    select (broadcastInDim S4x256x1 ![] bcast_S_S4x256x1 p) u w i = u i := by
  refine (select_apply _ _ _ _).trans ?_
  rw [broadcastInDim_scalar_apply, hp]
  exact select_one _ _

/-- The inserted index of (b, s) at channel k is (b, s, k). -/
theorem lift_ix (h : S4x256x2048.Reduces [2] S4x256) (b : Fin 4) (s : Fin 256) (k : Fin 2048) :
    h.lift (ix2 b s) k = ix3 b s k := by
  funext a
  apply Fin.ext
  match a with
  | ⟨0, _⟩ => rfl
  | ⟨1, _⟩ => rfl
  | ⟨2, _⟩ => rfl

/-- The channel sums from the initial value 0, kept as a column: at (b, s, ·) the sum over k of y[b, s, k]. -/
theorem rowSum_apply (y : FVec Ideal S4x256x2048 .f32) (b : Fin 4) (s : Fin 256) (z : Fin 1) :
    broadcastInDim S4x256x1 ![0, 1] bcast_S4x256_S4x256x1_0_1
        (Host.reduceAdd y (constant (F := Ideal) S_ .f32 0x00000000#32) reducesTo_S4x256x2048_S4x256_d2 h_S_) (ix3 b s z)
      = ∑ k : Fin 2048, y (ix3 b s k) := by
  have hR : S4x256x2048.Reduces [2] S4x256 := by decide
  refine (broadcastInDim_apply _ _ _ (ix3 b s z) (ix2 b s) ?_).trans ?_
  · intro a
    match a with
    | ⟨0, _⟩ => rfl
    | ⟨1, _⟩ => rfl
  refine (hostReduceAdd_apply y _ reducesTo_S4x256x2048_S4x256_d2 h_S_ (ix2 b s)).trans ?_
  refine (Ideal.hostReduceAdd_single reducesTo_S4x256x2048_S4x256_d2 hR y _ (ix2 b s)).trans ?_
  show Ideal.ofBits .f32 0x00000000#32 + ∑ k : Fin 2048, y (hR.lift (ix2 b s) k) = _
  rw [Ideal.ofBits_zero_f32, zero_add]
  exact Finset.sum_congr rfl fun k _ => congrArg y (lift_ix hR b s k)

/-- The product contracting the 128 axis: at (b, j) the sum over k of t[b, k] · w[k, j]. -/
theorem dot_apply (t : FVec Ideal S4x128 .f32) (w : FVec Ideal S128x2048 .f32) (b : Fin 4) (j : Fin 2048) :
    Host.dotGeneral dot_S4x128_S128x2048_S4x2048_1_0_0_1_n_n none t w (ix2 b j)
      = ∑ k : Fin 128, t (ix2 b k) * w (ix2 k j) :=
  StackMember.dotGeneral_plain_apply none t w b j

/-! ## The stages at an index -/

/-- The mean of row (b, s): the channel sum over the constant 2048. -/
def rowMean (x : FVec Ideal S4x256x2048 .f32) (b : Fin 4) (s : Fin 256) : EReal :=
  Ideal.div (∑ k : Fin 2048, x (ix3 b s k)) Cert.Spec.c2048

/-- The variance of row (b, s): the sum of the centered squares over the constant 2048. -/
def rowVar (x : FVec Ideal S4x256x2048 .f32) (b : Fin 4) (s : Fin 256) : EReal :=
  Ideal.div (∑ k : Fin 2048, (x (ix3 b s k) - rowMean x b s) * (x (ix3 b s k) - rowMean x b s)) Cert.Spec.c2048

theorem meanCol_apply (x : FVec Ideal S4x256x2048 .f32) (b : Fin 4) (s : Fin 256) (z : Fin 1) :
    meanCol (F := Ideal) x (ix3 b s z) = rowMean x b s := by
  unfold meanCol rowMean
  refine (hostDivf_apply _ _ _).trans ?_
  exact congrArg₂ Ideal.div (rowSum_apply x b s z) (broadcastInDim_scalar_apply _ _ _)

theorem centered_apply (x : FVec Ideal S4x256x2048 .f32) (b : Fin 4) (s : Fin 256) (j : Fin 2048) :
    centered (F := Ideal) x (ix3 b s j) = x (ix3 b s j) - rowMean x b s := by
  unfold centered
  refine (subf_apply _ _ _).trans ?_
  exact congrArg (x (ix3 b s j) - ·) ((bcastCol_apply _ b s j).trans (meanCol_apply x b s 0))

theorem varCol_apply (x : FVec Ideal S4x256x2048 .f32) (b : Fin 4) (s : Fin 256) (z : Fin 1) :
    varCol (F := Ideal) x (ix3 b s z) = rowVar x b s := by
  unfold varCol rowVar
  refine (select_bcast_one _ cmp_pos _ _ _).trans ?_
  refine (hostDivf_apply _ _ _).trans ?_
  refine congrArg₂ Ideal.div ?_ ((broadcastInDim_scalar_apply _ _ _).trans varCount_ix0)
  refine (rowSum_apply _ b s z).trans ?_
  refine Finset.sum_congr rfl fun k _ => ?_
  refine (mulf_apply _ _ _).trans ?_
  exact congrArg₂ (· * ·) (centered_apply x b s k) (centered_apply x b s k)

theorem normed_apply (x : FVec Ideal S4x256x2048 .f32) (b : Fin 4) (s : Fin 256) (j : Fin 2048) :
    normed (F := Ideal) x (ix3 b s j)
      = Ideal.div (x (ix3 b s j) - rowMean x b s) (Ideal.sqrt (rowVar x b s + Cert.Spec.cEps)) := by
  unfold normed
  refine (hostDivf_apply _ _ _).trans ?_
  refine congrArg₂ Ideal.div (centered_apply x b s j) ?_
  refine (bcastCol_apply _ b s j).trans ?_
  show Ideal.sqrt (varCol (F := Ideal) x (ix3 b s (0 : Fin 1))
      + broadcastInDim S4x256x1 ![] bcast_S_S4x256x1 (constant (F := Ideal) S_ .f32 0x3727C5AC#32) (ix3 b s (0 : Fin 1))) = _
  exact congrArg Ideal.sqrt (congrArg₂ (· + ·) (varCol_apply x b s 0) (broadcastInDim_scalar_apply _ _ _))

theorem projRow_apply (t : FVec Ideal S4x128 .f32) (w : FVec Ideal S128x2048 .f32) (b : Fin 4) (z : Fin 1) (j : Fin 2048) :
    projRow (F := Ideal) t w (ix3 b z j) = ∑ k : Fin 128, t (ix2 b k) * w (ix2 k j) := by
  unfold projRow
  exact (unitMid_apply _ b z j).trans (dot_apply t w b j)

/-- The reference's term at (b, s, j). -/
theorem refTerm_apply (x : FVec Ideal S4x256x2048 .f32) (t : FVec Ideal S4x128 .f32) (ws wh : FVec Ideal S128x2048 .f32)
    (b : Fin 4) (s : Fin 256) (j : Fin 2048) :
    refTerm (F := Ideal) x t ws wh (ix3 b s j)
      = Ideal.div (x (ix3 b s j) - rowMean x b s) (Ideal.sqrt (rowVar x b s + Cert.Spec.cEps))
            * (Cert.Spec.cOne + ∑ k : Fin 128, t (ix2 b k) * ws (ix2 k j))
          + ∑ k : Fin 128, t (ix2 b k) * wh (ix2 k j) := by
  unfold refTerm
  refine (addf_apply _ _ _).trans ?_
  refine congrArg₂ (· + ·) ?_ ((bcastRow_apply _ b s j).trans (projRow_apply t wh b 0 j))
  refine (mulf_apply _ _ _).trans ?_
  refine congrArg₂ (· * ·) (normed_apply x b s j) ?_
  refine (bcastRow_apply _ b s j).trans ?_
  refine (addf_apply _ _ _).trans ?_
  exact congrArg₂ (· + ·) (broadcastInDim_scalar_apply _ _ _) (projRow_apply t ws b 0 j)

/-! ## The reference's term is the specification -/

/-- The composed term of the reference is the layer `G` of the specification: at every index the two are the same
    expression of the entries (the specification's mean and variance are `rowMean` and `rowVar` spelt out). -/
theorem refTerm_eq_G (x : FVec Ideal S4x256x2048 .f32) (t : FVec Ideal S4x128 .f32) (ws wh : FVec Ideal S128x2048 .f32) :
    refTerm (F := Ideal) x t ws wh = Cert.Spec.G x t ws wh := by
  funext i
  obtain ⟨b, s, j, rfl⟩ : ∃ (b : Fin 4) (s : Fin 256) (j : Fin 2048), i = ix3 b s j := ⟨i 0, i 1, i 2, eq_ix3 i⟩
  exact (refTerm_apply x t ws wh b s j).trans rfl

/-! ## The run, with the specification as its result -/

/-- Every weakly fair execution of the reference terminates with the result buffer holding the layer `G` of the four
    argument arrays, and the arguments unchanged. -/
theorem ref_run (m' : (ℓ : Loc nD τ sig) → Buf (Elt Ideal) ℓ) (g' : Dev nD → PrngReg) :
    θ_run (defs (F := Ideal)) (onTc (τ := τ) (main (F := Ideal))) ⟨m', fun _ => 0, g'⟩ (fun r =>
      r.2.mem (((0 : Dev nD).tc : Thread nD τ).loc main_v21)
          = Cert.Spec.G (m' (((0 : Dev nD).tc : Thread nD τ).loc main_arg0)) (m' (((0 : Dev nD).tc : Thread nD τ).loc main_arg1))
                        (m' (((0 : Dev nD).tc : Thread nD τ).loc main_arg2)) (m' (((0 : Dev nD).tc : Thread nD τ).loc main_arg3))
      ∧ r.2.mem (((0 : Dev nD).tc : Thread nD τ).loc main_arg0) = m' (((0 : Dev nD).tc : Thread nD τ).loc main_arg0)
      ∧ r.2.mem (((0 : Dev nD).tc : Thread nD τ).loc main_arg1) = m' (((0 : Dev nD).tc : Thread nD τ).loc main_arg1)
      ∧ r.2.mem (((0 : Dev nD).tc : Thread nD τ).loc main_arg2) = m' (((0 : Dev nD).tc : Thread nD τ).loc main_arg2)
      ∧ r.2.mem (((0 : Dev nD).tc : Thread nD τ).loc main_arg3) = m' (((0 : Dev nD).tc : Thread nD τ).loc main_arg3)) :=
  (θ_run (defs (F := Ideal)) _ _).mono
    (fun _ h => ⟨(h 0).1.trans (refTerm_eq_G _ _ _ _), (h 0).2⟩)
    (run (F := Ideal) m' g')

/-- info: 'Cert.ReferenceIdeal.RefRun.ref_run' depends on axioms: [propext, Classical.choice, Quot.sound] -/
#guard_msgs in
#print axioms ref_run

end Cert.ReferenceIdeal.RefRun

end
-- ==== Proof.KTerms.lean ====
/-
  The kernel's result on one device as pure terms of what it loads, for any float instance: the running total of the
  sixteen moment blocks (its own and the fifteen received ones, in the order the body adds them), and the result block
  row by row, each row the body's own arithmetic of the loaded vectors.
-/
import proofs.«900516_g7700000000000517_dist_diff_adaln_cshard_i_b4_s256_c128_v7x_i16_bf16_1_alg».proof.Proof.Gen.KernelIdeal.Skeleton
import Idealize.ShloMosaic.Lib.ValueIdx

noncomputable section

namespace Cert.KernelIdeal.KTerms

open Cert.KernelIdeal Cert.KernelIdeal.Gen
open Idealize.ShloMosaic

variable {F : FTy → Type} [FloatOps F]

/-- A moment block as the 1 × 8 × 256 vector that a load of its slot of the receive buffer returns. -/
def slotV (a : FVec F S8x256 .f32) : Vec F S1x8x256 .f32 := fun i : S1x8x256.Idx => a (ValueIdx.ix2 (i 1) (i 2))

/-- The body's running total: the device's own moments `R 0`, then the slots 1 … 15 added one after the other. -/
def totFold (R : ℕ → FVec F S8x256 .f32) : FVec F S8x256 .f32 :=
  k0_pay7
    (k0_pay6 (k0_pay5 (R 0) (slotV (R 1))) (slotV (R 2)) (slotV (R 3)) (slotV (R 4)) (slotV (R 5)) (slotV (R 6))
      (slotV (R 7)) (slotV (R 8)) (slotV (R 9)) (slotV (R 10)) (slotV (R 11)))
    (slotV (R 12)) (slotV (R 13)) (slotV (R 14)) (slotV (R 15))

/-- Batch row b of the result block, as the body stores it: from the x block, the two products with t, and the total. -/
def outRow (b : Fin 4) (x : Vec F S4x256x128 .f32) (t : Vec F S4x128 .f32) (ws wh : Vec F S128x128 .f32)
    (tot : FVec F S8x256 .f32) : FVec F S1x256x128 .f32 :=
  match b with
  | 0 => k0_pay10 (k0_pay1 x) (k0_pay3 t ws) (k0_pay4 t wh) tot
  | 1 => k0_pay12 (k0_pay11 (k0_pay1 x) (k0_pay3 t ws) (k0_pay4 t wh) tot)
  | 2 => k0_pay13 (k0_pay1 x) (k0_pay4 t wh) (k0_pay8 tot) (k0_pay9 (k0_pay3 t ws))
  | 3 => k0_pay14 (k0_pay1 x) (k0_pay4 t wh) (k0_pay8 tot) (k0_pay9 (k0_pay3 t ws))

/-- The whole result block: row b at (s, j) is `outRow b` at (0, s, j). -/
def outOf (x : Vec F S4x256x128 .f32) (t : Vec F S4x128 .f32) (ws wh : Vec F S128x128 .f32)
    (tot : FVec F S8x256 .f32) : FVec F S4x256x128 .f32 :=
  fun i : S4x256x128.Idx => outRow (i 0) x t ws wh tot (ValueIdx.ix3 (0 : Fin 1) (i 1) (i 2))

end Cert.KernelIdeal.KTerms

end
-- ==== Proof.KDefs.lean ====
/-
  The cross-device protocol of the kernel, as definitions: who waits on which semaphore, who pays it, and what each
  payment hands over.

  Sixteen devices on a ring of offsets. Device c
   * signals the barrier semaphore of every other device once (its k-th signal goes to device c + k), writes the row
     moments of its own block of x (sums and sums of squares over its 128 channels) into `acc`, and waits for fifteen
     units on its own barrier semaphore: every other device has then entered the kernel;
   * copies `acc` into slot k of device (c + k)'s receive buffer, for k = 1 … 15, crediting send semaphore k here
     and receive semaphore k there;
   * waits on its fifteen receive semaphores (slot k then holds the moments of device c − k), reads `acc` and the
     fifteen slots, waits on its fifteen send semaphores, and writes its block of the result.
  Barrier cell of c: one round of fifteen unit duties; duty k is paid by device c − k and hands c that device's slot
  (16 − k) together with the fact that the slot's receive cell is open. Receive cell (c, k): one duty, paid by device
  c − k, handing back slot k filled. Send cell (c, k): one duty, paid by c's own copy, handing back its share of `acc`.
-/
import proofs.«900516_g7700000000000517_dist_diff_adaln_cshard_i_b4_s256_c128_v7x_i16_bf16_1_alg».proof.Proof.Gen.KernelIdeal
import proofs.«900516_g7700000000000517_dist_diff_adaln_cshard_i_b4_s256_c128_v7x_i16_bf16_1_alg».proof.Proof.Gen.KernelIdeal.Skeleton
import proofs.«900516_g7700000000000517_dist_diff_adaln_cshard_i_b4_s256_c128_v7x_i16_bf16_1_alg».proof.Proof.Gen.KernelIdeal.Launch
import proofs.«900516_g7700000000000517_dist_diff_adaln_cshard_i_b4_s256_c128_v7x_i16_bf16_1_alg».proof.Proof.KTerms
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.KP

open Cert.KernelIdeal Cert.KernelIdeal.Gen Cert.KernelIdeal.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of offsets -/

/-- The device k places after c. -/
def peer (c : Dev nD) (k : ℕ) : Dev nD := ⟨(c.val + k) % 16, Nat.mod_lt _ (by decide)⟩
/-- The device k places before c. -/
def back (c : Dev nD) (k : ℕ) : Dev nD := ⟨(c.val + (16 - k % 16)) % 16, Nat.mod_lt _ (by decide)⟩

theorem back_peer (c : Dev nD) (k : ℕ) : back (peer c k) k = c := by
  apply Fin.ext; show ((c.val + k) % 16 + (16 - k % 16)) % 16 = c.val; have h16 : c.val < 16 := c.isLt; omega
theorem peer_back (c : Dev nD) (k : ℕ) : peer (back c k) k = c := by
  apply Fin.ext; show ((c.val + (16 - k % 16)) % 16 + k) % 16 = c.val; have h16 : c.val < 16 := c.isLt; omega

/-- The kernel's device chains: signal k and copy k both name the device k places on. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 1 := Fin.ext (k0_dev16_eq c)
theorem dev17_eq (c : Dev nD) : (⟨k0_dev17 c, k0_dev17_lt c⟩ : Dev nD) = peer c 2 := Fin.ext (k0_dev17_eq c)
theorem dev18_eq (c : Dev nD) : (⟨k0_dev18 c, k0_dev18_lt c⟩ : Dev nD) = peer c 3 := Fin.ext (k0_dev18_eq c)
theorem dev19_eq (c : Dev nD) : (⟨k0_dev19 c, k0_dev19_lt c⟩ : Dev nD) = peer c 4 := Fin.ext (k0_dev19_eq c)
theorem dev20_eq (c : Dev nD) : (⟨k0_dev20 c, k0_dev20_lt c⟩ : Dev nD) = peer c 5 := Fin.ext (k0_dev20_eq c)
theorem dev21_eq (c : Dev nD) : (⟨k0_dev21 c, k0_dev21_lt c⟩ : Dev nD) = peer c 6 := Fin.ext (k0_dev21_eq c)
theorem dev22_eq (c : Dev nD) : (⟨k0_dev22 c, k0_dev22_lt c⟩ : Dev nD) = peer c 7 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 9 := Fin.ext (k0_dev24_eq c)
theorem dev25_eq (c : Dev nD) : (⟨k0_dev25 c, k0_dev25_lt c⟩ : Dev nD) = peer c 10 := Fin.ext (k0_dev25_eq c)
theorem dev26_eq (c : Dev nD) : (⟨k0_dev26 c, k0_dev26_lt c⟩ : Dev nD) = peer c 11 := Fin.ext (k0_dev26_eq c)
theorem dev27_eq (c : Dev nD) : (⟨k0_dev27 c, k0_dev27_lt c⟩ : Dev nD) = peer c 12 := Fin.ext (k0_dev27_eq c)
theorem dev28_eq (c : Dev nD) : (⟨k0_dev28 c, k0_dev28_lt c⟩ : Dev nD) = peer c 13 := Fin.ext (k0_dev28_eq c)
theorem dev29_eq (c : Dev nD) : (⟨k0_dev29 c, k0_dev29_lt c⟩ : Dev nD) = peer c 14 := Fin.ext (k0_dev29_eq c)
theorem dev30_eq (c : Dev nD) : (⟨k0_dev30 c, k0_dev30_lt c⟩ : Dev nD) = peer c 15 := Fin.ext (k0_dev30_eq c)

/-! ## The buffers, the slots and the semaphores -/

abbrev xM : Memref sig .tc .vmem S4x256x128 .f32 := Memref.whole cc0_stg0_0
abbrev tM : Memref sig .tc .vmem S4x128 .f32 := Memref.whole cc0_stg1_0
abbrev wsM : Memref sig .tc .vmem S128x128 .f32 := Memref.whole cc0_stg2_0
abbrev whM : Memref sig .tc .vmem S128x128 .f32 := Memref.whole cc0_stg3_0
abbrev oM : Memref sig .tc .vmem S4x256x128 .f32 := Memref.whole cc0_stg4_0
abbrev aM : Memref sig .tc .vmem S8x256 .f32 := Memref.whole cc0_scratch0
abbrev rM : Memref sig .tc .vmem S16x8x256 .f32 := Memref.whole cc0_scratch1

theorem inb_slot (k : ℕ) (hk : k < 16) : ∀ a, (![k, 0, 0] : Fin 3 → Nat) a + S1x8x256.size a ≤ S16x8x256.size a := by
  intro a; fin_cases a
  · show k + 1 ≤ 16; omega
  · show 0 + 8 ≤ 8; omega
  · show 0 + 256 ≤ 256; omega
theorem inb_sem (k : ℕ) (hk : k < 16) : ∀ a, (![k] : Fin 1 → Nat) a + S1.size a ≤ S16.size a := by
  intro a; fin_cases a; show k + 1 ≤ 16; omega

/-- Row k of the receive buffer as a rectangle, and as the 8 × 256 memref the copies and loads name. -/
abbrev slotR (k : ℕ) (hk : k < 16) : Rect S16x8x256 := Rect.unit (s := S16x8x256) ![k, 0, 0] S1x8x256.size (inb_slot k hk)
abbrev slotM (k : ℕ) (hk : k < 16) : Memref sig .tc .vmem S8x256 .f32 :=
  ((rM : Memref sig .tc .vmem S16x8x256 .f32).slice (slotR k hk) (fun _ => rfl)).squeeze S8x256 squeezes_S1x8x256_S8x256

/-- Send and receive semaphore k of the two scratch arrays of sixteen. -/
abbrev sendS (k : ℕ) (hk : k < 16) : DmaSem sig :=
  ((cc0_scratch2.slice (Rect.unit (s := S16) ![k] S1.size (inb_sem k hk))).squeeze S_ squeezes_S1_S_).sem
abbrev recvS (k : ℕ) (hk : k < 16) : DmaSem sig :=
  ((cc0_scratch3.slice (Rect.unit (s := S16) ![k] S1.size (inb_sem k hk))).squeeze S_ squeezes_S1_S_).sem
/-- The runtime's barrier semaphore of collective id 0 (unscoped). -/
abbrev barS : Sem sig := (SemArray.scalar (sig.barrier 0 rfl) : Sems sig S_).sem

abbrev barCell (c : Dev nD) : GSem nD τ sig := ((c : Thread nD τ), .reg barS)
abbrev sendCell (c : Dev nD) (k : ℕ) (hk : k < 16) : GSem nD τ sig := ((c : Thread nD τ), .dma (sendS k hk))
abbrev recvCell (c : Dev nD) (k : ℕ) (hk : k < 16) : GSem nD τ sig := ((c : Thread nD τ), .dma (recvS k hk))

/-- The credit of one copy of the 8 × 256 moments. -/
abbrev N : ℕ := (aM : Memref sig .tc .vmem S8x256 .f32).view.dmaCredit
theorem N_pos : 0 < N := View.dmaCredit_pos _ (by decide)

/-! ## Contents -/

/-- Device c's staged blocks of the four arguments, as launched. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))
def wsstg (c : Dev nD) : (cc0_stg2_0 : Ref sig .tc).ty.Contents (Elt F) :=
  (win0_2.blk (0 : Fin 1)).view.read (Elt F) ((s₀ m ρ).mem ((c : Thread nD τ).loc main_arg2))
def whstg (c : Dev nD) : (cc0_stg3_0 : Ref sig .tc).ty.Contents (Elt F) :=
  (win0_3.blk (0 : Fin 1)).view.read (Elt F) ((s₀ m ρ).mem ((c : Thread nD τ).loc main_arg3))

/-- The moments device c computes from its block of x: rows 0–3 the sums over its channels, rows 4–7 the sums of squares. -/
def accOf (c : Dev nD) : (cc0_scratch0 : Ref sig .tc).ty.Contents (Elt F) := k0_pay2 (xstg m ρ c)

/-- What slot k of device c's receive buffer holds once device (c − k)'s copy has landed: that device's moments on
    every row (only row k is ever held through this valuation). -/
def landed (c : Dev nD) (k : ℕ) : (cc0_scratch1 : Ref sig .tc).ty.Contents (Elt F) :=
  fun i : S16x8x256.Idx => accOf m ρ (back c k) (ValueIdx.ix2 (i 1) (i 2))

/-- The total device c computes: its own moments and the fifteen slots, in the body's order. -/
def totOf (c : Dev nD) : FVec F S8x256 .f32 := totFold fun k => accOf m ρ (back c k)

/-- Device c's result block. -/
def outAt (c : Dev nD) : (cc0_stg4_0 : Ref sig .tc).ty.Contents (Elt F) :=
  outOf (xstg m ρ c) (tstg m ρ c) (wsstg m ρ c) (whstg m ρ c) (totOf m ρ c)

/-! ## Points-to assertions -/

/-- The share of `acc` lent to copy k, and the share kept for the body's own read. -/
abbrev shr (k : ℕ) (hk : k < 16) : PosShare TreeShare := Transfers.shareTok fullShare 16 ⟨k, hk⟩
abbrev shrKeep : PosShare TreeShare := Transfers.shareDrop fullShare 16

def accPts (c : Dev nD) (q : PosShare TreeShare) (f : Buf (Elt F) ((aM : Memref sig .tc .vmem S8x256 .f32).view.loc (c : Thread nD τ))) : sProp 𝕄 :=
  (aM : Memref sig .tc .vmem S8x256 .f32).view.loc (c : Thread nD τ) ↦[(aM : Memref sig .tc .vmem S8x256 .f32).view.set]{q} f
def slotPts (c : Dev nD) (k : ℕ) (hk : k < 16) (f : Buf (Elt F) ((slotM k hk).view.loc (c : Thread nD τ))) : sProp 𝕄 :=
  (slotM k hk).view.loc (c : Thread nD τ) ↦[(slotM k hk).view.set]{fullShare} f

omit [FloatOps F] in
instance accPts_storable (c : Dev nD) (q) (f) : BI.Storable (upEmb : UEmb _ 𝕄) (accPts (F := F) c q f) := by unfold accPts; infer_instance
omit [FloatOps F] in
instance slotPts_storable (c : Dev nD) (k hk) (f) : BI.Storable (upEmb : UEmb _ 𝕄) (slotPts (F := F) c k hk f) := by unfold slotPts; infer_instance

/-! ## The schedule -/

/-- The offset a DMA semaphore of the two scratch arrays stands at (send k is DMA semaphore 5 + k, receive k is 21 + k). -/
def sendIx (q : DmaSem sig) : Option ℕ := if 6 ≤ q.val ∧ q.val ≤ 20 then some (q.val - 5) else none
def recvIx (q : DmaSem sig) : Option ℕ := if 22 ≤ q.val ∧ q.val ≤ 36 then some (q.val - 21) else none

/-- Duty d of device c's barrier cell, paid by device c − d: that device's slot (16 − d), over some contents, and that
    the slot's receive cell is at round 0. -/
def barPay (c : Dev nD) (d : Fin 16) : sProp 𝕄 :=
  if h : 16 - d.val < 16 then
    iprop((∃ f, slotPts (back c d.val) (16 - d.val) h f) ∗ reached ER (recvCell (back c d.val) (16 - d.val) h) 0)
  else iprop(emp)
/-- The one duty of receive cell (c, k): slot k filled with device (c − k)'s moments. -/
def recvPay (c : Dev nD) (k : ℕ) : sProp 𝕄 :=
  if hk : k < 16 then slotPts c k hk (landed m ρ c k) else iprop(emp)
/-- The one duty of send cell (c, k): the share of `acc` the copy was lent. -/
def sendPay (c : Dev nD) (k : ℕ) : sProp 𝕄 :=
  if hk : k < 16 then accPts c (shr k hk) (accOf m ρ c) else iprop(emp)

/-- One round, round 0: a barrier cell has the fifteen unit duties 1 … 15; a send or receive cell of offset 1 … 15 the
    duty 0 of the copy's credit. -/
def sched : Rounds.Schedule (GSem nD τ sig) (Fin 16) 𝕄 where
  duties g r :=
    if r = 0 ∧ g.1.2 = .tc then
      match g.2 with
      | .reg s => if s = barS then Finset.univ.erase 0 else ∅
      | .dma q => if (sendIx q).isSome ∨ (recvIx q).isSome then {0} else ∅
    else ∅
  unitless _ := False
  amount g _ _ := if g.2 = .reg barS then 1 else N
  payload g _ d :=
    match g.2 with
    | .reg s => if s = barS ∧ d ≠ 0 then barPay g.1.1 d else iprop(emp)
    | .dma q => match recvIx q with
      | some k => recvPay m ρ g.1.1 k
      | none => match sendIx q with
        | some k => sendPay m ρ g.1.1 k
        | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 16) :
    BI.Storable (upEmb : UEmb _ 𝕄) ((sched (F := F) m ρ).payload g r d) := by
  show BI.Storable upEmb (match g.2 with
    | .reg s => if s = barS ∧ d ≠ 0 then barPay g.1.1 d else iprop(emp)
    | .dma q => match recvIx q with
      | some k => recvPay m ρ g.1.1 k
      | none => match sendIx q with
        | some k => sendPay m ρ g.1.1 k
        | none => iprop(emp))
  unfold barPay recvPay sendPay
  (repeat' split) <;> infer_instance

/-! ## What each core owes at launch; the levels -/

/-- The credit of receive cell (c + k, k), and a unit to the barrier cell of c + k: what copy k and signal k pay. -/
def recvOwe (c : Dev nD) (k : ℕ) : CellTallies nD τ sig Unit := if hk : k < 16 then tallyAt (recvCell (peer c k) k hk) () N else 0
def barOwe (c : Dev nD) (k : ℕ) : CellTallies nD τ sig Unit := tallyAt (barCell (peer c k)) () 1
/-- i copies remain (offsets 16 − i … 15). -/
def OsendR (c : Dev nD) : ℕ → CellTallies nD τ sig Unit
  | 0 => 0
  | i + 1 => OsendR c i + recvOwe c (15 - i)
/-- What device c still owes once its first j copies are enqueued. -/
def Osend (c : Dev nD) (j : ℕ) : CellTallies nD τ sig Unit := OsendR c (15 - j)
def OsigR (c : Dev nD) : ℕ → CellTallies nD τ sig Unit
  | 0 => Osend c 0
  | i + 1 => OsigR c i + barOwe c (15 - i)
/-- What it owes once its first j signals are sent: all fifteen copies' credit and a unit to the barrier cell of c + k for k > j. -/
def Osig (c : Dev nD) (j : ℕ) : CellTallies nD τ sig Unit := OsigR c (15 - j)
/-- At launch. -/
def O₀ (c : Dev nD) : CellTallies nD τ sig Unit := Osig c 0

def L (g : GSem nD τ sig) : Finset Unit := if g.1.2 = .tc then {()} else ∅
/-- Barrier cells at 1, receive cells at 2, everything else (staging, send) at 0: a device waits on its barrier owing
    only receive credit, and on its receive and send cells owing nothing. -/
def lv (g : GSem nD τ sig) (_ : Unit) : ℕ :=
  match g.2 with
  | .reg s => if s = barS then 1 else 0
  | .dma q => if (recvIx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- The names the launch allocated the cells' invariants at: per device, the barrier cell (`none`) and DMA semaphore q. -/
abbrev Names : Type := Dev nD × Option (DmaSem sig) → ℕ
abbrev kB (K : Names) (c : Dev nD) : ℕ := K (c, none)
abbrev kS (K : Names) (c : Dev nD) (k : ℕ) (hk : k < 16) : ℕ := K (c, some (sendS k hk))
abbrev kR (K : Names) (c : Dev nD) (k : ℕ) (hk : k < 16) : ℕ := K (c, some (recvS k hk))

/-- For offset k: the invariants device c opens — its own send and receive cells, the barrier and receive cells of the
    device k places on —, its positions, the reached-marks, and the three duty tokens it pays with. -/
def ghostK (K : Names) (c : Dev nD) (k : ℕ) (hk : k < 16) : sProp 𝕄 :=
  iprop(cellInv ER (sched m ρ) (kS K c k hk) (sendCell c k hk) ∗ cellInv ER (sched m ρ) (kR K c k hk) (recvCell c k hk)
    ∗ cellInv ER (sched m ρ) (kB K (peer c k)) (barCell (peer c k)) ∗ cellInv ER (sched m ρ) (kR K (peer c k) k hk) (recvCell (peer c k) k hk)
    ∗ atPos ER (sendCell c k hk) 0 ∅ 0 ∗ atPos ER (recvCell c k hk) 0 ∅ 0
    ∗ reached ER (barCell (peer c k)) 0 ∗ reached ER (recvCell (peer c k) k hk) 0 ∗ reached ER (sendCell c k hk) 0 ∗ reached ER (recvCell c k hk) 0
    ∗ dutyTok ER (barCell (peer c k)) 0 ⟨k, hk⟩ ∗ dutyTok ER (recvCell (peer c k) k hk) 0 0 ∗ dutyTok ER (sendCell c k hk) 0 0)

def ghost (K : Names) (c : Dev nD) : sProp 𝕄 :=
  iprop(cellInv ER (sched m ρ) (kB K c) (barCell c) ∗ atPos ER (barCell c) 0 ∅ 0
    ∗ ghostK m ρ K c 1 (by decide)
    ∗ ghostK m ρ K c 2 (by decide)
    ∗ ghostK m ρ K c 3 (by decide)
    ∗ ghostK m ρ K c 4 (by decide)
    ∗ ghostK m ρ K c 5 (by decide)
    ∗ ghostK m ρ K c 6 (by decide)
    ∗ ghostK m ρ K c 7 (by decide)
    ∗ ghostK m ρ K c 8 (by decide)
    ∗ ghostK m ρ K c 9 (by decide)
    ∗ ghostK m ρ K c 10 (by decide)
    ∗ ghostK m ρ K c 11 (by decide)
    ∗ ghostK m ρ K c 12 (by decide)
    ∗ ghostK m ρ K c 13 (by decide)
    ∗ ghostK m ρ K c 14 (by decide)
    ∗ ghostK m ρ K c 15 (by decide))

/-- What device c's body starts from: the ghost state at some names, the credit of its barrier's fifteen units and of its
    fifteen receive cells, and the level facts. -/
def recvCreds (c : Dev nD) : sProp 𝕄 :=
  iprop(cred (tallyAt (recvCell c 1 (by decide)) () N)
    ∗ cred (tallyAt (recvCell c 2 (by decide)) () N)
    ∗ cred (tallyAt (recvCell c 3 (by decide)) () N)
    ∗ cred (tallyAt (recvCell c 4 (by decide)) () N)
    ∗ cred (tallyAt (recvCell c 5 (by decide)) () N)
    ∗ cred (tallyAt (recvCell c 6 (by decide)) () N)
    ∗ cred (tallyAt (recvCell c 7 (by decide)) () N)
    ∗ cred (tallyAt (recvCell c 8 (by decide)) () N)
    ∗ cred (tallyAt (recvCell c 9 (by decide)) () N)
    ∗ cred (tallyAt (recvCell c 10 (by decide)) () N)
    ∗ cred (tallyAt (recvCell c 11 (by decide)) () N)
    ∗ cred (tallyAt (recvCell c 12 (by decide)) () N)
    ∗ cred (tallyAt (recvCell c 13 (by decide)) () N)
    ∗ cred (tallyAt (recvCell c 14 (by decide)) () N)
    ∗ cred (tallyAt (recvCell c 15 (by decide)) () N))
def start (c : Dev nD) : sProp 𝕄 :=
  iprop((∃ K, ghost m ρ K c) ∗ cred (tallyAt (barCell c) () 15) ∗ recvCreds c ∗ levAts L lv)

/-- The two scratch buffers whole, over some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The own semaphores' counters, closed at zero: send and receive cells 1 … 15 (those of offset 0 never leave the launch's hand). -/
def closedSems (c : Dev nD) : sProp 𝕄 :=
  iprop(semVal (sendCell c 1 (by decide)) 0 ∗ semVal (recvCell c 1 (by decide)) 0
    ∗ semVal (sendCell c 2 (by decide)) 0 ∗ semVal (recvCell c 2 (by decide)) 0
    ∗ semVal (sendCell c 3 (by decide)) 0 ∗ semVal (recvCell c 3 (by decide)) 0
    ∗ semVal (sendCell c 4 (by decide)) 0 ∗ semVal (recvCell c 4 (by decide)) 0
    ∗ semVal (sendCell c 5 (by decide)) 0 ∗ semVal (recvCell c 5 (by decide)) 0
    ∗ semVal (sendCell c 6 (by decide)) 0 ∗ semVal (recvCell c 6 (by decide)) 0
    ∗ semVal (sendCell c 7 (by decide)) 0 ∗ semVal (recvCell c 7 (by decide)) 0
    ∗ semVal (sendCell c 8 (by decide)) 0 ∗ semVal (recvCell c 8 (by decide)) 0
    ∗ semVal (sendCell c 9 (by decide)) 0 ∗ semVal (recvCell c 9 (by decide)) 0
    ∗ semVal (sendCell c 10 (by decide)) 0 ∗ semVal (recvCell c 10 (by decide)) 0
    ∗ semVal (sendCell c 11 (by decide)) 0 ∗ semVal (recvCell c 11 (by decide)) 0
    ∗ semVal (sendCell c 12 (by decide)) 0 ∗ semVal (recvCell c 12 (by decide)) 0
    ∗ semVal (sendCell c 13 (by decide)) 0 ∗ semVal (recvCell c 13 (by decide)) 0
    ∗ semVal (sendCell c 14 (by decide)) 0 ∗ semVal (recvCell c 14 (by decide)) 0
    ∗ semVal (sendCell c 15 (by decide)) 0 ∗ semVal (recvCell c 15 (by decide)) 0)

def Φ₀ (c : Dev nD) : sProp 𝕄 := iprop(start m ρ c ∗ scr c ∗ semVal (sendCell c 0 (by decide)) 0 ∗ semVal (recvCell c 0 (by decide)) 0)
def Φ₁ (c : Dev nD) : sProp 𝕄 := iprop(scr c ∗ closedSems c ∗ semVal (sendCell c 0 (by decide)) 0 ∗ semVal (recvCell c 0 (by decide)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wsstg m ρ c
    | ⟨3, _⟩ => whstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.KP

end
-- ==== Proof.KSched.lean ====
/-
  The schedule's tables and the level facts, for a symbolic device c and a symbolic offset k < 16.

  * The send semaphore of offset k is DMA semaphore 5 + k, the receive semaphore 21 + k, so the schedule's two
    index readers return k on them (and nothing at offset 0 or on the five staging semaphores).
  * Round 0 of a barrier cell has the fifteen unit duties 1 … 15, of a send or receive cell of offset 1 … 15 the one
    duty 0 of a copy's credit; later rounds are empty.
  * What a device owes shrinks one summand per signal and per copy; whatever it still owes is owed to a barrier cell
    or to a receive cell of offset 1 … 15.
  * Levels: staging and send cells 0, barrier cells 1, receive cells 2. A device waits on a staging cell owing
    barrier units and receive credit (both above 0), and on its barrier cell owing only receive credit (2 above 1).
-/
import proofs.«900516_g7700000000000517_dist_diff_adaln_cshard_i_b4_s256_c128_v7x_i16_bf16_1_alg».proof.Proof.KDefs
import Mathlib.Tactic.FinCases

noncomputable section

namespace Cert.KernelIdeal.KP

open Cert.KernelIdeal Cert.KernelIdeal.Gen Cert.KernelIdeal.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores' indices -/

/-- Send semaphore k is DMA semaphore 5 + k of the pool. -/
theorem sendS_val (k : ℕ) (hk : k < 16) : (sendS k hk).val = 5 + k := by
  show 5 + (S16.rowMajor ((Rect.unit (s := S16) ![k] S1.size (inb_sem k hk)).emb _)).val = 5 + k
  rw [Shape.rowMajor_val_one, Rect.emb_apply]
  generalize (Shape.reshapeEquiv _) _ = j
  have h1 : (j 0).val < 1 := (j 0).isLt
  show 5 + (k + 1 * (j 0).val) = 5 + k
  omega
/-- Receive semaphore k is DMA semaphore 21 + k. -/
theorem recvS_val (k : ℕ) (hk : k < 16) : (recvS k hk).val = 21 + k := by
  show 21 + (S16.rowMajor ((Rect.unit (s := S16) ![k] S1.size (inb_sem k hk)).emb _)).val = 21 + k
  rw [Shape.rowMajor_val_one, Rect.emb_apply]
  generalize (Shape.reshapeEquiv _) _ = j
  have h1 : (j 0).val < 1 := (j 0).isLt
  show 21 + (k + 1 * (j 0).val) = 21 + k
  omega

theorem sendIx_send (k : ℕ) (hk : k < 16) (h0 : 0 < k) : sendIx (sendS k hk) = some k := by
  have h : 6 ≤ (sendS k hk).val ∧ (sendS k hk).val ≤ 20 := by rw [sendS_val]; omega
  have e : (sendS k hk).val - 5 = k := by rw [sendS_val]; omega
  unfold sendIx; rw [if_pos h, e]
theorem recvIx_send (k : ℕ) (hk : k < 16) : recvIx (sendS k hk) = none := by
  have h : ¬ (22 ≤ (sendS k hk).val ∧ (sendS k hk).val ≤ 36) := by rw [sendS_val]; omega
  unfold recvIx; rw [if_neg h]
theorem recvIx_recv (k : ℕ) (hk : k < 16) (h0 : 0 < k) : recvIx (recvS k hk) = some k := by
  have h : 22 ≤ (recvS k hk).val ∧ (recvS k hk).val ≤ 36 := by rw [recvS_val]; omega
  have e : (recvS k hk).val - 21 = k := by rw [recvS_val]; omega
  unfold recvIx; rw [if_pos h, e]
theorem sendIx_recv (k : ℕ) (hk : k < 16) : sendIx (recvS k hk) = none := by
  have h : ¬ (6 ≤ (recvS k hk).val ∧ (recvS k hk).val ≤ 20) := by rw [recvS_val]; omega
  unfold sendIx; rw [if_neg h]
/-- Offset 0 is no duty's: the two semaphores of offset 0 are read as nothing. -/
theorem sendIx_send_zero (h : 0 < 16) : sendIx (sendS 0 h) = none := by
  have h' : ¬ (6 ≤ (sendS 0 h).val ∧ (sendS 0 h).val ≤ 20) := by rw [sendS_val]; omega
  unfold sendIx; rw [if_neg h']
theorem recvIx_recv_zero (h : 0 < 16) : recvIx (recvS 0 h) = none := by
  have h' : ¬ (22 ≤ (recvS 0 h).val ∧ (recvS 0 h).val ≤ 36) := by rw [recvS_val]; omega
  unfold recvIx; rw [if_neg h']
/-- Below the two arrays (the staging semaphores 0 … 4 among them) both readers return nothing. -/
theorem sendIx_of_lt (q : DmaSem sig) (hq : q.val < 6) : sendIx q = none := by
  have h : ¬ (6 ≤ q.val ∧ q.val ≤ 20) := by omega
  unfold sendIx; rw [if_neg h]
theorem recvIx_of_lt (q : DmaSem sig) (hq : q.val < 22) : recvIx q = none := by
  have h : ¬ (22 ≤ q.val ∧ q.val ≤ 36) := by omega
  unfold recvIx; rw [if_neg h]

theorem send_ne_bar (k : ℕ) (hk : k < 16) : (SemLoc.dma (sendS k hk) : SemLoc sig) ≠ .reg barS := fun h => by cases h
theorem recv_ne_bar (k : ℕ) (hk : k < 16) : (SemLoc.dma (recvS k hk) : SemLoc sig) ≠ .reg barS := fun h => by cases h
theorem send_ne_recv (k k' : ℕ) (hk : k < 16) (hk' : k' < 16) : (SemLoc.dma (sendS k hk) : SemLoc sig) ≠ .dma (recvS k' hk') := fun h => by
  have e := congrArg Fin.val (SemLoc.dma.inj h)
  rw [sendS_val, recvS_val] at e; omega
theorem recv_ne_send (k k' : ℕ) (hk : k < 16) (hk' : k' < 16) : (SemLoc.dma (recvS k hk) : SemLoc sig) ≠ .dma (sendS k' hk') :=
  fun h => send_ne_recv k' k hk' hk h.symm

theorem sendS_inj {k k' : ℕ} {hk : k < 16} {hk' : k' < 16} (h : sendS k hk = sendS k' hk') : k = k' := by
  have e := congrArg Fin.val h
  rw [sendS_val, sendS_val] at e; omega
theorem recvS_inj {k k' : ℕ} {hk : k < 16} {hk' : k' < 16} (h : recvS k hk = recvS k' hk') : k = k' := by
  have e := congrArg Fin.val h
  rw [recvS_val, recvS_val] at e; omega

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k k' : ℕ} {hk : k < 16} {hk' : k' < 16} : Iff (recvCell a k hk = recvCell b k' hk') (a = b ∧ k = k') :=
  ⟨fun h => ⟨Fin.ext (congrArg (fun g : GSem nD τ sig => g.1.1.val) h), recvS_inj (SemLoc.dma.inj (congrArg Prod.snd h))⟩,
   fun h => by obtain ⟨rfl, rfl⟩ := h; rfl⟩
theorem send_eq_iff {a b : Dev nD} {k k' : ℕ} {hk : k < 16} {hk' : k' < 16} : Iff (sendCell a k hk = sendCell b k' hk') (a = b ∧ k = k') :=
  ⟨fun h => ⟨Fin.ext (congrArg (fun g : GSem nD τ sig => g.1.1.val) h), sendS_inj (SemLoc.dma.inj (congrArg Prod.snd h))⟩,
   fun h => by obtain ⟨rfl, rfl⟩ := h; rfl⟩

theorem sub_lt16 (k : ℕ) (h0 : 0 < k) : 16 - k < 16 := by omega

/-- The device (16 − k) places before c is the device k places after it. -/
theorem back_sub (c : Dev nD) (k : ℕ) (h0 : 0 < k) (hk : k < 16) : back c (16 - k) = peer c k := by
  apply Fin.ext; show (c.val + (16 - (16 - k) % 16)) % 16 = (c.val + k) % 16; have := c.isLt; omega

/-! ## The schedule's tables -/

section Sched
variable (c : Dev nD)

theorem duties_bar : (sched (F := F) m ρ).duties (barCell c) 0 = Finset.univ.erase 0 := by
  dsimp only [sched]; rw [if_pos ⟨rfl, rfl⟩]; exact if_pos rfl
theorem duties_send (k : ℕ) (hk : k < 16) (h0 : 0 < k) : (sched (F := F) m ρ).duties (sendCell c k hk) 0 = {0} := by
  have h : (sendIx (sendS k hk)).isSome = true ∨ (recvIx (sendS k hk)).isSome = true := Or.inl (by rw [sendIx_send k hk h0]; rfl)
  dsimp only [sched]; rw [if_pos ⟨rfl, rfl⟩]; exact if_pos h
theorem duties_recv (k : ℕ) (hk : k < 16) (h0 : 0 < k) : (sched (F := F) m ρ).duties (recvCell c k hk) 0 = {0} := by
  have h : (sendIx (recvS k hk)).isSome = true ∨ (recvIx (recvS k hk)).isSome = true := Or.inr (by rw [recvIx_recv k hk h0]; rfl)
  dsimp only [sched]; rw [if_pos ⟨rfl, rfl⟩]; exact if_pos h
theorem duties_later (g : GSem nD τ sig) : ∀ r, 1 ≤ r → (sched (F := F) m ρ).duties g r = ∅ :=
  fun r hr => by dsimp only [sched]; rw [if_neg fun h => by omega]
/-- The cells of offset 0 have no duty in any round. -/
theorem duties_send_zero (h : 0 < 16) (r : ℕ) : (sched (F := F) m ρ).duties (sendCell c 0 h) r = ∅ := by
  have hn : ¬ ((sendIx (sendS 0 h)).isSome = true ∨ (recvIx (sendS 0 h)).isSome = true) := by
    rw [sendIx_send_zero h, recvIx_send 0 h]; rintro (h' | h') <;> exact Bool.false_ne_true h'
  dsimp only [sched]
  by_cases hr : r = 0
  · rw [if_pos ⟨hr, rfl⟩]; exact if_neg hn
  · exact if_neg fun h' => hr h'.1
theorem duties_recv_zero (h : 0 < 16) (r : ℕ) : (sched (F := F) m ρ).duties (recvCell c 0 h) r = ∅ := by
  have hn : ¬ ((sendIx (recvS 0 h)).isSome = true ∨ (recvIx (recvS 0 h)).isSome = true) := by
    rw [sendIx_recv 0 h, recvIx_recv_zero h]; rintro (h' | h') <;> exact Bool.false_ne_true h'
  dsimp only [sched]
  by_cases hr : r = 0
  · rw [if_pos ⟨hr, rfl⟩]; exact if_neg hn
  · exact if_neg fun h' => hr h'.1

/-- Membership, as the rules for a signal and a copy ask for it. -/
theorem mem_duties_bar (d : Fin 16) (hd : d ≠ 0) : d ∈ (sched (F := F) m ρ).duties (barCell c) 0 := by
  rw [duties_bar]; exact Finset.mem_erase.mpr ⟨hd, Finset.mem_univ _⟩
theorem mem_duties_send (k : ℕ) (hk : k < 16) (h0 : 0 < k) : (0 : Fin 16) ∈ (sched (F := F) m ρ).duties (sendCell c k hk) 0 := by
  rw [duties_send m ρ c k hk h0]; exact Finset.mem_singleton_self _
theorem mem_duties_recv (k : ℕ) (hk : k < 16) (h0 : 0 < k) : (0 : Fin 16) ∈ (sched (F := F) m ρ).duties (recvCell c k hk) 0 := by
  rw [duties_recv m ρ c k hk h0]; exact Finset.mem_singleton_self _

theorem amount_bar (d : Fin 16) : (sched (F := F) m ρ).amount (barCell c) 0 d = 1 := by dsimp only [sched]; exact if_pos rfl
theorem amount_send (k : ℕ) (hk : k < 16) (d : Fin 16) : (sched (F := F) m ρ).amount (sendCell c k hk) 0 d = N := by
  dsimp only [sched]; exact if_neg (send_ne_bar k hk)
theorem amount_recv (k : ℕ) (hk : k < 16) (d : Fin 16) : (sched (F := F) m ρ).amount (recvCell c k hk) 0 d = N := by
  dsimp only [sched]; exact if_neg (recv_ne_bar k hk)

set_option maxRecDepth 8000 in
theorem expect_bar : (sched (F := F) m ρ).expect (barCell c) 0 = 15 := by
  have hc : (Finset.univ.erase (0 : Fin 16)).card = 15 := by decide
  unfold Schedule.expect Schedule.amountOf
  rw [duties_bar, Finset.sum_congr rfl fun d _ => amount_bar m ρ c d, Finset.sum_const, smul_eq_mul, mul_one, hc]
theorem expect_send (k : ℕ) (hk : k < 16) (h0 : 0 < k) : (sched (F := F) m ρ).expect (sendCell c k hk) 0 = N := by
  unfold Schedule.expect Schedule.amountOf; rw [duties_send m ρ c k hk h0, Finset.sum_singleton, amount_send]
theorem expect_recv (k : ℕ) (hk : k < 16) (h0 : 0 < k) : (sched (F := F) m ρ).expect (recvCell c k hk) 0 = N := by
  unfold Schedule.expect Schedule.amountOf; rw [duties_recv m ρ c k hk h0, Finset.sum_singleton, amount_recv]

theorem payload_bar (d : Fin 16) (hd : d ≠ 0) : (sched (F := F) m ρ).payload (barCell c) 0 d = barPay c d := by
  dsimp only [sched]; exact if_pos ⟨rfl, hd⟩
/-- The payload of a DMA cell, the outer case of the table taken. -/
theorem payload_dma (q : DmaSem sig) (r : ℕ) (d : Fin 16) :
    (sched (F := F) m ρ).payload ((c : Thread nD τ), .dma q) r d
      = (match recvIx q with
          | some k => recvPay m ρ c k
          | none => match sendIx q with
            | some k => sendPay m ρ c k
            | none => iprop(emp)) := rfl
theorem payload_send (k : ℕ) (hk : k < 16) (h0 : 0 < k) (d : Fin 16) : (sched (F := F) m ρ).payload (sendCell c k hk) 0 d = sendPay m ρ c k := by
  have e := payload_dma m ρ c (sendS k hk) 0 d
  rw [recvIx_send k hk, sendIx_send k hk h0] at e
  exact e
theorem payload_recv (k : ℕ) (hk : k < 16) (h0 : 0 < k) (d : Fin 16) : (sched (F := F) m ρ).payload (recvCell c k hk) 0 d = recvPay m ρ c k := by
  have e := payload_dma m ρ c (recvS k hk) 0 d
  rw [recvIx_recv k hk h0] at e
  exact e

theorem sendPay_eq (k : ℕ) (hk : k < 16) : sendPay m ρ c k = accPts c (shr k hk) (accOf m ρ c) := dif_pos hk
theorem recvPay_eq (k : ℕ) (hk : k < 16) : recvPay m ρ c k = slotPts c k hk (landed m ρ c k) := dif_pos hk

omit [FloatOps F] in
/-- A barrier duty's payload depends on the slot's device and offset only through their values. -/
theorem barPay_congr (a b : Dev nD) (i j : ℕ) (hi : i < 16) (hj : j < 16) (hab : a = b) (hij : i = j) :
    (iprop((∃ f, slotPts (F := F) a i hi f) ∗ reached ER (recvCell a i hi) 0) : sProp 𝕄)
      = iprop((∃ f, slotPts b j hj f) ∗ reached ER (recvCell b j hj) 0) := by
  subst hab; subst hij; rfl
omit [FloatOps F] in
/-- What device c's k-th signal hands the device k places on: c's own slot 16 − k, and that its receive cell is open. -/
theorem barPay_out (k : ℕ) (hk : k < 16) (h0 : 0 < k) :
    (barPay (F := F) (peer c k) ⟨k, hk⟩ : sProp 𝕄)
      = iprop((∃ f, slotPts c (16 - k) (sub_lt16 k h0) f) ∗ reached ER (recvCell c (16 - k) (sub_lt16 k h0)) 0) := by
  have h : 16 - (⟨k, hk⟩ : Fin 16).val < 16 := by show 16 - k < 16; omega
  unfold barPay; rw [dif_pos h]
  exact barPay_congr _ _ _ _ _ _ (back_peer c k) rfl
omit [FloatOps F] in
/-- What device c's k-th copy needs and duty 16 − k of its own barrier cell brings: slot k of the device k places on. -/
theorem barPay_in (k : ℕ) (hk : k < 16) (h0 : 0 < k) :
    (barPay (F := F) c ⟨16 - k, sub_lt16 k h0⟩ : sProp 𝕄)
      = iprop((∃ f, slotPts (peer c k) k hk f) ∗ reached ER (recvCell (peer c k) k hk) 0) := by
  have h : 16 - (⟨16 - k, sub_lt16 k h0⟩ : Fin 16).val < 16 := by show 16 - (16 - k) < 16; omega
  unfold barPay; rw [dif_pos h]
  exact barPay_congr _ _ _ _ _ _ (back_sub c k h0 hk) (by show 16 - (16 - k) = k; omega)

set_option maxRecDepth 8000 in
/-- The barrier cell's round, no duty taken: the fifteen payloads in the order of the offsets. -/
theorem rest_bar : bigSep ((sched (F := F) m ρ).duties (barCell c) 0 \ ∅) (fun d => (sched (F := F) m ρ).payload (barCell c) 0 d)
    = iprop(barPay c 1 ∗ barPay c 2 ∗ barPay c 3 ∗ barPay c 4 ∗ barPay c 5 ∗ barPay c 6 ∗ barPay c 7 ∗ barPay c 8 ∗ barPay c 9
        ∗ barPay c 10 ∗ barPay c 11 ∗ barPay c 12 ∗ barPay c 13 ∗ barPay c 14 ∗ barPay c 15) := by
  rw [Finset.sdiff_empty, duties_bar,
    bigSep_eq_bigSepL_of_eq (I := Fin 16) [1, 2, 3, 4, 5, 6, 7, 8, 9, 10, 11, 12, 13, 14, 15] (by decide) (by decide)]
  simp only [bigSepL_cons_cons, bigSepL_singleton]
  rw [payload_bar m ρ c 1 (by decide), payload_bar m ρ c 2 (by decide), payload_bar m ρ c 3 (by decide), payload_bar m ρ c 4 (by decide),
    payload_bar m ρ c 5 (by decide), payload_bar m ρ c 6 (by decide), payload_bar m ρ c 7 (by decide), payload_bar m ρ c 8 (by decide),
    payload_bar m ρ c 9 (by decide), payload_bar m ρ c 10 (by decide), payload_bar m ρ c 11 (by decide), payload_bar m ρ c 12 (by decide),
    payload_bar m ρ c 13 (by decide), payload_bar m ρ c 14 (by decide), payload_bar m ρ c 15 (by decide)]
  rfl
/-- The same with the round's duties already written out (the form a rewrite with `duties_bar` leaves). -/
theorem rest_bar_erase : bigSep (Finset.univ.erase (0 : Fin 16)) (fun d => (sched (F := F) m ρ).payload (barCell c) 0 d)
    = iprop(barPay c 1 ∗ barPay c 2 ∗ barPay c 3 ∗ barPay c 4 ∗ barPay c 5 ∗ barPay c 6 ∗ barPay c 7 ∗ barPay c 8 ∗ barPay c 9
        ∗ barPay c 10 ∗ barPay c 11 ∗ barPay c 12 ∗ barPay c 13 ∗ barPay c 14 ∗ barPay c 15) := by
  rw [← rest_bar m ρ c, Finset.sdiff_empty, duties_bar]
theorem rest_send (k : ℕ) (hk : k < 16) (h0 : 0 < k) :
    bigSep ((sched (F := F) m ρ).duties (sendCell c k hk) 0 \ ∅) (fun d => (sched (F := F) m ρ).payload (sendCell c k hk) 0 d) = sendPay m ρ c k := by
  rw [Finset.sdiff_empty, duties_send m ρ c k hk h0, bigSep_singleton, payload_send m ρ c k hk h0]
theorem rest_recv (k : ℕ) (hk : k < 16) (h0 : 0 < k) :
    bigSep ((sched (F := F) m ρ).duties (recvCell c k hk) 0 \ ∅) (fun d => (sched (F := F) m ρ).payload (recvCell c k hk) 0 d) = recvPay m ρ c k := by
  rw [Finset.sdiff_empty, duties_recv m ρ c k hk h0, bigSep_singleton, payload_recv m ρ c k hk h0]

end Sched

/-! ## What is owed, peeled a signal or a copy at a time -/

theorem recvOwe_eq (c : Dev nD) (k : ℕ) (hk : k < 16) : recvOwe c k = tallyAt (recvCell (peer c k) k hk) () N := dif_pos hk

/-- The (j+1)-th signal pays the unit owed to the barrier cell of the device j + 1 places on. -/
theorem Osig_succ (c : Dev nD) (j : ℕ) (hj : j < 15) : Osig c j = Osig c (j + 1) + tallyAt (barCell (peer c (j + 1))) () 1 := by
  obtain ⟨i, hi⟩ : ∃ i, 15 - j = i + 1 := ⟨14 - j, by omega⟩
  have h1 : 15 - (j + 1) = i := by omega
  have h2 : 15 - i = j + 1 := by omega
  unfold Osig; rw [hi, h1]
  show OsigR c i + barOwe c (15 - i) = OsigR c i + tallyAt (barCell (peer c (j + 1))) () 1
  rw [h2, barOwe]
theorem Osig_last (c : Dev nD) : Osig c 15 = Osend c 0 := rfl
/-- The (j+1)-th copy pays the credit owed to receive cell j + 1 of the device j + 1 places on. -/
theorem Osend_succ (c : Dev nD) (j : ℕ) (hj : j < 15) :
    Osend c j = Osend c (j + 1) + tallyAt (recvCell (peer c (j + 1)) (j + 1) (by omega)) () N := by
  obtain ⟨i, hi⟩ : ∃ i, 15 - j = i + 1 := ⟨14 - j, by omega⟩
  have h1 : 15 - (j + 1) = i := by omega
  have h2 : 15 - i = j + 1 := by omega
  unfold Osend; rw [hi, h1]
  show OsendR c i + recvOwe c (15 - i) = OsendR c i + tallyAt (recvCell (peer c (j + 1)) (j + 1) (by omega)) () N
  rw [h2, recvOwe_eq c (j + 1) (by omega)]
theorem Osend_last (c : Dev nD) : Osend c 15 = 0 := rfl

theorem recvOwe_pos {c : Dev nD} {k : ℕ} {g : GSem nD τ sig} {u : Unit} (h : 0 < recvOwe c k g u) :
    ∃ hk : k < 16, g = recvCell (peer c k) k hk := by
  unfold recvOwe at h
  by_cases hk : k < 16
  · rw [dif_pos hk, tallyAt_apply] at h
    by_cases hg : g = recvCell (peer c k) k hk ∧ u = ()
    · exact ⟨hk, hg.1⟩
    · rw [if_neg hg] at h; exact absurd h (Nat.lt_irrefl 0)
  · rw [dif_neg hk, Pi.zero_apply, Finsupp.zero_apply] at h; exact absurd h (Nat.lt_irrefl 0)

theorem barOwe_pos {c : Dev nD} {k : ℕ} {g : GSem nD τ sig} {u : Unit} (h : 0 < barOwe c k g u) : g = barCell (peer c k) := by
  unfold barOwe at h; rw [tallyAt_apply] at h
  by_cases hg : g = barCell (peer c k) ∧ u = ()
  · exact hg.1
  · rw [if_neg hg] at h; exact absurd h (Nat.lt_irrefl 0)

theorem OsendR_pos {c : Dev nD} {g : GSem nD τ sig} {u : Unit} :
    ∀ i, i ≤ 15 → 0 < OsendR c i g u → ∃ k, ∃ hk : k < 16, 0 < k ∧ g = recvCell (peer c k) k hk
  | 0, _, h => by
    have h' : 0 < (0 : CellTallies nD τ sig Unit) g u := h
    rw [Pi.zero_apply, Finsupp.zero_apply] at h'; exact absurd h' (Nat.lt_irrefl 0)
  | i + 1, hi, h => by
    have h' : 0 < (OsendR c i + recvOwe c (15 - i)) g u := h
    rw [Pi.add_apply, Finsupp.add_apply] at h'
    rcases Nat.add_pos_iff_pos_or_pos.mp h' with h1 | h1
    · exact OsendR_pos i (by omega) h1
    · obtain ⟨hk, hg⟩ := recvOwe_pos h1
      exact ⟨15 - i, hk, by omega, hg⟩

/-- Whatever a device still owes after its signals, it owes to a receive cell of an offset 1 … 15. -/
theorem Osend_pos {c : Dev nD} {g : GSem nD τ sig} {u : Unit} {j : ℕ} (h : 0 < Osend c j g u) :
    ∃ k, ∃ hk : k < 16, 0 < k ∧ g = recvCell (peer c k) k hk := OsendR_pos (15 - j) (by omega) h

theorem OsigR_pos {c : Dev nD} {g : GSem nD τ sig} {u : Unit} :
    ∀ i, 0 < OsigR c i g u → (∃ k, ∃ hk : k < 16, 0 < k ∧ g = recvCell (peer c k) k hk) ∨ (∃ k, g = barCell (peer c k))
  | 0, h => Or.inl (Osend_pos (j := 0) h)
  | i + 1, h => by
    have h' : 0 < (OsigR c i + barOwe c (15 - i)) g u := h
    rw [Pi.add_apply, Finsupp.add_apply] at h'
    rcases Nat.add_pos_iff_pos_or_pos.mp h' with h1 | h1
    · exact OsigR_pos i h1
    · exact Or.inr ⟨15 - i, barOwe_pos h1⟩

/-- Before and during its signals a device owes to receive cells of offsets 1 … 15 and to barrier cells. -/
theorem Osig_pos {c : Dev nD} {g : GSem nD τ sig} {u : Unit} {j : ℕ} (h : 0 < Osig c j g u) :
    (∃ k, ∃ hk : k < 16, 0 < k ∧ g = recvCell (peer c k) k hk) ∨ (∃ k, g = barCell (peer c k)) := OsigR_pos (15 - j) h
theorem O₀_pos {c : Dev nD} {g : GSem nD τ sig} {u : Unit} (h : 0 < O₀ c g u) :
    (∃ k, ∃ hk : k < 16, 0 < k ∧ g = recvCell (peer c k) k hk) ∨ (∃ k, g = barCell (peer c k)) := Osig_pos (j := 0) h

/-! ## The levels -/

theorem lv_bar (c : Dev nD) : lv (barCell c) () = 1 := by unfold lv; exact if_pos rfl
theorem lv_recv (c : Dev nD) (k : ℕ) (hk : k < 16) (h0 : 0 < k) : lv (recvCell c k hk) () = 2 := by
  have h : (recvIx (recvS k hk)).isSome = true := by rw [recvIx_recv k hk h0]; rfl
  exact if_pos h
theorem lv_send (c : Dev nD) (k : ℕ) (hk : k < 16) : lv (sendCell c k hk) () = 0 := by
  have h : ¬ (recvIx (sendS k hk)).isSome = true := by rw [recvIx_send k hk]; exact Bool.false_ne_true
  exact if_neg h
/-- A DMA semaphore below the receive array — a staging semaphore, a send semaphore — is at level 0. -/
theorem lv_stage (c : Dev nD) (q : DmaSem sig) (hq : q.val < 22) : lv ((c : Thread nD τ), .dma q) () = 0 := by
  have h : ¬ (recvIx q).isSome = true := by rw [recvIx_of_lt q hq]; exact Bool.false_ne_true
  exact if_neg h

omit [FloatOps F] in
/-- A wait on a staging semaphore, owing everything or nothing: all that is owed lies above level 0. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, hk, h0, rfl⟩ | ⟨k, rfl⟩
        · rw [L_tc]; exact Finset.mem_singleton_self _
        · rw [L_tc]; exact Finset.mem_singleton_self _)
      (fun p hp => by rw [Finset.mem_singleton.mp hp]; exact (lv_stage c q (by omega)).le)
      (fun g u hg => by
        cases u
        rcases O₀_pos hg with ⟨k, hk, h0, rfl⟩ | ⟨k, rfl⟩
        · rw [lv_recv _ k hk h0]; decide
        · rw [lv_bar]; decide)
  · rw [MayWait_zero]; iintro -; iempintro

omit [FloatOps F] in
/-- At its barrier wait a device owes receive credit only: receive cells, one level above its barrier cell. -/
theorem mayWait_bar (c : Dev nD) :
    (levAts L lv : sProp 𝕄) ⊢ MayWait (c : Thread nD τ) (.reg barS) () (Osend c 0) :=
  MayOwe.of_cut (L := L) (lev := lv) 1 (fun p hp => by rw [Finset.mem_singleton.mp hp, L_tc]; exact Finset.mem_singleton_self _)
    (fun g u hg => by
      obtain ⟨k, hk, h0, rfl⟩ := Osend_pos hg
      rw [L_tc]; exact Finset.mem_singleton_self _)
    (fun p hp => by rw [Finset.mem_singleton.mp hp]; exact (lv_bar c).le)
    (fun g u hg => by
      cases u
      obtain ⟨k, hk, h0, rfl⟩ := Osend_pos hg
      rw [lv_recv _ k hk h0]; decide)

/-! ## The tables as the symbolic executor rewrites with them: the table entry on the left -/

attribute [sl_rounds] duties_bar duties_send duties_recv duties_later duties_send_zero duties_recv_zero
  amount_bar amount_send amount_recv expect_bar expect_send expect_recv
  payload_bar payload_send payload_recv rest_bar rest_bar_erase rest_send rest_recv

/-- info: 'Cert.KernelIdeal.KP.rest_bar' depends on axioms: [propext, Classical.choice, Quot.sound] -/
#guard_msgs in #print axioms rest_bar
/-- info: 'Cert.KernelIdeal.KP.rest_send' depends on axioms: [propext, Classical.choice, Quot.sound] -/
#guard_msgs in #print axioms rest_send
/-- info: 'Cert.KernelIdeal.KP.rest_recv' depends on axioms: [propext, Classical.choice, Quot.sound] -/
#guard_msgs in #print axioms rest_recv
/-- info: 'Cert.KernelIdeal.KP.expect_bar' depends on axioms: [propext, Classical.choice, Quot.sound] -/
#guard_msgs in #print axioms expect_bar
/-- info: 'Cert.KernelIdeal.KP.mayWait_stage' depends on axioms: [propext, Classical.choice, Quot.sound] -/
#guard_msgs in #print axioms mayWait_stage
/-- info: 'Cert.KernelIdeal.KP.mayWait_bar' depends on axioms: [propext, Classical.choice, Quot.sound] -/
#guard_msgs in #print axioms mayWait_bar

end Cert.KernelIdeal.KP

end
-- ==== Proof.KSlots.lean ====
/-
  The receive buffer by slots and the moments buffer by shares: separation logic and view geometry only.

  Slot k of the 16 × 8 × 256 receive buffer is the set of its indices whose first coordinate is k. The sixteen slots are
  pairwise disjoint and cover the buffer, so the buffer held whole is the sixteen slots held one beside the other, at one
  valuation or, joined back, at sixteen. A copy of an 8 × 256 block b into slot k leaves b (r, l) at (k, r, l), and a load
  of row k through the whole buffer reads the block back as a 1 × 8 × 256 vector. The moments buffer held whole is a
  kept share and sixteen lent shares.
-/
import proofs.«900516_g7700000000000517_dist_diff_adaln_cshard_i_b4_s256_c128_v7x_i16_bf16_1_alg».proof.Proof.KDefs

noncomputable section

namespace Cert.KernelIdeal.KP

open Cert.KernelIdeal Cert.KernelIdeal.Gen Cert.KernelIdeal.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- `k < 16` for a literal `k`, as a closed term: a statement below mentions sixteen of them, and a valuation's type
    depends on each. -/
local macro "lt16" : term => `(of_decide_eq_true (Eq.refl true))

/-! ## A slot's geometry -/

/-- A slot's buffer is the receive buffer. -/
theorem slot_loc (c : Dev nD) (k : ℕ) (hk : k < 16) :
    (slotM k hk).view.loc (c : Thread nD τ) = (c : Thread nD τ).loc cc0_scratch1 := rfl

/-- The elements under slot k's memref are those of the rectangle of row k. -/
theorem slot_set (k : ℕ) (hk : k < 16) :
    ((slotM k hk).view.set : Finset S16x8x256.Idx) = (slotR k hk).set :=
  (View.set_reshape _ _).trans (View.set_slice_whole cc0_scratch1 (slotR k hk))

/-- An index of the receive buffer lies in slot k exactly when its first coordinate is k. -/
theorem mem_slot (k : ℕ) (hk : k < 16) (i : S16x8x256.Idx) :
    i ∈ ((slotM k hk).view.set : Finset S16x8x256.Idx) ↔ (i 0).val = k := by
  rw [slot_set, Rect.mem_set_unit]
  constructor
  · intro h
    have h0 : k ≤ (i 0).val ∧ (i 0).val < k + 1 := h 0
    omega
  · intro h a
    match a with
    | ⟨0, _⟩ =>
      show k ≤ (i 0).val ∧ (i 0).val < k + 1
      omega
    | ⟨1, _⟩ =>
      have h1 : (i 1).val < 8 := (i 1).isLt
      show 0 ≤ (i 1).val ∧ (i 1).val < 0 + 8
      omega
    | ⟨2, _⟩ =>
      have h2 : (i 2).val < 256 := (i 2).isLt
      show 0 ≤ (i 2).val ∧ (i 2).val < 0 + 256
      omega

/-- Different slots share no element. -/
theorem slot_disjoint (j k : ℕ) (hj : j < 16) (hk : k < 16) (h : j ≠ k) :
    Disjoint ((slotM j hj).view.set : Finset S16x8x256.Idx) ((slotM k hk).view.set : Finset S16x8x256.Idx) := by
  rw [Finset.disjoint_left]
  intro i hi hi'
  exact h (((mem_slot j hj i).mp hi).symm.trans ((mem_slot k hk i).mp hi'))

/-- The sixteen slots cover the receive buffer. -/
theorem slot_cover :
    Finset.biUnion (α := Fin 16) (β := S16x8x256.Idx) Finset.univ (fun t => (slotM t.val t.isLt).view.set) = Finset.univ := by
  ext i
  simp only [Finset.mem_biUnion, Finset.mem_univ, true_and, iff_true]
  exact ⟨⟨(i 0).val, (i 0).isLt⟩, (mem_slot _ _ i).mpr rfl⟩

/-- Where slot k's memref places the index y of an 8 × 256 block: at (k, y 0, y 1). -/
theorem slot_emb_val (k : ℕ) (hk : k < 16) (y : S8x256.Idx) (i : S16x8x256.Idx) (hi : (slotM k hk).view.emb y = i) :
    (i 0).val = k ∧ (i 1).val = (y 0).val ∧ (i 2).val = (y 1).val := by
  have hy := Shape.reshapeEquiv_cons_one (n := 2) (d := ![8, 256]) squeezes_S1x8x256_S8x256.numel_eq y
  have e : i = (slotR k hk).emb (Fin.cons ⟨0, Nat.one_pos⟩ y) := hi.symm.trans (congrArg (slotR k hk).emb hy)
  rw [e]
  refine ⟨?_, ?_, ?_⟩
  · show k + 1 * 0 = k
    omega
  · show 0 + 1 * (y 0).val = (y 0).val
    omega
  · show 0 + 1 * (y 1).val = (y 1).val
    omega

/-! ## The receive buffer held slot by slot -/

/-- Two valuations that agree on row k are the same assertion about slot k. -/
theorem slotPts_congr (c : Dev nD) (k : ℕ) (hk : k < 16)
    (f g : Buf (Elt F) ((c : Thread nD τ).loc cc0_scratch1))
    (h : ∀ i : S16x8x256.Idx, (i 0).val = k → f i = g i) :
    (slotPts c k hk f : sProp 𝕄) = slotPts c k hk g := by
  unfold slotPts
  exact pointsTo_congr fun i hi => h i ((mem_slot k hk i).mp hi)

/-- The receive buffer whole is the sixteen slots, as an indexed conjunction. -/
theorem recv_bigSep (c : Dev nD) (f : Buf (Elt F) ((c : Thread nD τ).loc cc0_scratch1)) :
    ((((c : Thread nD τ).loc cc0_scratch1) ↦{fullShare} f : sProp 𝕄))
      = bigSep Finset.univ fun t : Fin 16 => (slotPts c t.val t.isLt f : sProp 𝕄) := by
  have h := pointsTo_biUnion (nD := nD) (τ := τ) (sig := sig) (Ix := Unit) (Val := Elt F) (Name := ℕ) (U := UU) (Lvl := ℕ)
    (ℓ := (c : Thread nD τ).loc cc0_scratch1) (q := fullShare) (f := f) (T := Fin 16)
    Finset.univ (fun t => (slotM t.val t.isLt).view.set)
    (fun t _ t' _ hne => slot_disjoint t.val t'.val t.isLt t'.isLt (fun e => hne (Fin.ext e)))
  have hc : Finset.biUnion (α := Fin 16) (β := Idx ((c : Thread nD τ).loc cc0_scratch1)) Finset.univ
      (fun t => (slotM t.val t.isLt).view.set) = Finset.univ := slot_cover
  exact (congrArg (fun S => (((c : Thread nD τ).loc cc0_scratch1) ↦[S]{fullShare} f : sProp 𝕄)) hc.symm).trans h

/-- The receive buffer whole is the sixteen slots held one beside the other. -/
theorem recv_split (c : Dev nD) (f : Buf (Elt F) ((c : Thread nD τ).loc cc0_scratch1)) :
    ((((c : Thread nD τ).loc cc0_scratch1) ↦{fullShare} f : sProp 𝕄))
      ⊣⊢ iprop(slotPts c 0 lt16 f
      ∗ slotPts c 1 lt16 f
      ∗ slotPts c 2 lt16 f
      ∗ slotPts c 3 lt16 f
      ∗ slotPts c 4 lt16 f
      ∗ slotPts c 5 lt16 f
      ∗ slotPts c 6 lt16 f
      ∗ slotPts c 7 lt16 f
      ∗ slotPts c 8 lt16 f
      ∗ slotPts c 9 lt16 f
      ∗ slotPts c 10 lt16 f
      ∗ slotPts c 11 lt16 f
      ∗ slotPts c 12 lt16 f
      ∗ slotPts c 13 lt16 f
      ∗ slotPts c 14 lt16 f
      ∗ slotPts c 15 lt16 f) := by
  rw [recv_bigSep c f, bigSep_univ_eq_bigSepL [(⟨0, by decide⟩ : Fin 16), (⟨1, by decide⟩ : Fin 16), (⟨2, by decide⟩ : Fin 16), (⟨3, by decide⟩ : Fin 16), (⟨4, by decide⟩ : Fin 16), (⟨5, by decide⟩ : Fin 16), (⟨6, by decide⟩ : Fin 16), (⟨7, by decide⟩ : Fin 16), (⟨8, by decide⟩ : Fin 16), (⟨9, by decide⟩ : Fin 16), (⟨10, by decide⟩ : Fin 16), (⟨11, by decide⟩ : Fin 16), (⟨12, by decide⟩ : Fin 16), (⟨13, by decide⟩ : Fin 16), (⟨14, by decide⟩ : Fin 16), (⟨15, by decide⟩ : Fin 16)] (by decide) (by decide)]
  exact BiEntails.rfl

/-- Sixteen slots held at sixteen valuations are the buffer whole, at the valuation that reads row k off the k-th. -/
theorem recv_join_at (c : Dev nD) (g : ℕ → Buf (Elt F) ((c : Thread nD τ).loc cc0_scratch1)) :
    iprop(slotPts c 0 lt16 (g 0)
      ∗ slotPts c 1 lt16 (g 1)
      ∗ slotPts c 2 lt16 (g 2)
      ∗ slotPts c 3 lt16 (g 3)
      ∗ slotPts c 4 lt16 (g 4)
      ∗ slotPts c 5 lt16 (g 5)
      ∗ slotPts c 6 lt16 (g 6)
      ∗ slotPts c 7 lt16 (g 7)
      ∗ slotPts c 8 lt16 (g 8)
      ∗ slotPts c 9 lt16 (g 9)
      ∗ slotPts c 10 lt16 (g 10)
      ∗ slotPts c 11 lt16 (g 11)
      ∗ slotPts c 12 lt16 (g 12)
      ∗ slotPts c 13 lt16 (g 13)
      ∗ slotPts c 14 lt16 (g 14)
      ∗ slotPts c 15 lt16 (g 15))
      ⊢ ((((c : Thread nD τ).loc cc0_scratch1) ↦{fullShare} (fun i : S16x8x256.Idx => g (i 0).val i) : sProp 𝕄)) := by
  have e : ∀ (k : ℕ) (hk : k < 16), (slotPts c k hk (g k) : sProp 𝕄)
      = slotPts c k hk (fun i : S16x8x256.Idx => g (i 0).val i) :=
    fun k hk => slotPts_congr c k hk _ _ fun i hi => by
      show g k i = g (i 0).val i
      rw [hi]
  rw [e 0, e 1, e 2, e 3, e 4, e 5, e 6, e 7, e 8, e 9, e 10, e 11, e 12, e 13, e 14, e 15]
  exact (recv_split c _).2

/-- … so at some valuation. -/
theorem recv_join (c : Dev nD) (g : ℕ → Buf (Elt F) ((c : Thread nD τ).loc cc0_scratch1)) :
    iprop(slotPts c 0 lt16 (g 0)
      ∗ slotPts c 1 lt16 (g 1)
      ∗ slotPts c 2 lt16 (g 2)
      ∗ slotPts c 3 lt16 (g 3)
      ∗ slotPts c 4 lt16 (g 4)
      ∗ slotPts c 5 lt16 (g 5)
      ∗ slotPts c 6 lt16 (g 6)
      ∗ slotPts c 7 lt16 (g 7)
      ∗ slotPts c 8 lt16 (g 8)
      ∗ slotPts c 9 lt16 (g 9)
      ∗ slotPts c 10 lt16 (g 10)
      ∗ slotPts c 11 lt16 (g 11)
      ∗ slotPts c 12 lt16 (g 12)
      ∗ slotPts c 13 lt16 (g 13)
      ∗ slotPts c 14 lt16 (g 14)
      ∗ slotPts c 15 lt16 (g 15))
      ⊢ (iprop(∃ f : Buf (Elt F) ((c : Thread nD τ).loc cc0_scratch1), ((c : Thread nD τ).loc cc0_scratch1) ↦{fullShare} f) : sProp 𝕄) := by
  iintro H
  iexists (fun i : S16x8x256.Idx => g (i 0).val i)
  iapply (recv_join_at c g)
  iexact H

/-! ## What a landed copy leaves in its slot -/

/-- An 8 × 256 block written whole through slot k's memref stands, on row k, at (k, r, l) ↦ block (r, l). -/
theorem slot_write_apply (k : ℕ) (hk : k < 16) (fd : S16x8x256.Idx → Elt F .f32) (b : S8x256.Idx → Elt F .f32)
    (i : S16x8x256.Idx) (hi : i ∈ ((slotM k hk).view.set : Finset S16x8x256.Idx)) :
    (slotM k hk).view.write (Elt F) fd b Finset.univ i = b (ValueIdx.ix2 (i 1) (i 2)) := by
  obtain ⟨y, -, hyi⟩ := Finset.mem_map.mp hi
  have hv := slot_emb_val k hk y i hyi
  have hy : (ValueIdx.ix2 (i 1) (i 2) : S8x256.Idx) = y := by
    funext a
    match a with
    | ⟨0, _⟩ => exact Fin.ext hv.2.1
    | ⟨1, _⟩ => exact Fin.ext hv.2.2
  have hw : (slotM k hk).view.write (Elt F) fd b Finset.univ i = b y := by
    rw [← hyi, View.write_emb_of_mem _ _ (Finset.mem_univ y)]
    rfl
  exact hw.trans (congrArg b hy.symm)

/-- The landing of device d's moments in slot k of device c, as the send rule writes it, is the slot at d's moments. -/
theorem landed_eq (m : (ℓ : Loc nD τ sig) → Buf (Elt F) ℓ) (ρ : Dev nD → PrngReg) (c : Dev nD) (k : ℕ) (hk : k < 16)
    (fd : Buf (Elt F) ((slotM k hk).view.loc (c : Thread nD τ))) (d : Dev nD) :
    (slotPts c k hk ((slotM k hk).view.write (Elt F) fd
        ((aM : Memref sig .tc .vmem S8x256 .f32).view.read (Elt F) (accOf m ρ d)) Finset.univ) : sProp 𝕄)
      = slotPts c k hk (fun i : S16x8x256.Idx => accOf m ρ d (ValueIdx.ix2 (i 1) (i 2))) := by
  unfold slotPts
  exact pointsTo_congr fun i hi => slot_write_apply k hk fd (accOf m ρ d) i hi

theorem landed_congr (m : (ℓ : Loc nD τ sig) → Buf (Elt F) ℓ) (ρ : Dev nD → PrngReg) (c : Dev nD) (k : ℕ) (hk : k < 16)
    (fd : Buf (Elt F) ((slotM k hk).view.loc (c : Thread nD τ))) (d : Dev nD) :
    (slotPts c k hk ((slotM k hk).view.write (Elt F) fd
        ((aM : Memref sig .tc .vmem S8x256 .f32).view.read (Elt F) (accOf m ρ d)) Finset.univ) : sProp 𝕄)
      ⊣⊢ slotPts c k hk (fun i : S16x8x256.Idx => accOf m ρ d (ValueIdx.ix2 (i 1) (i 2))) :=
  BiEntails.of_eq (landed_eq m ρ c k hk fd d)

/-- With d the device k places before c: the slot at the schedule's own valuation. -/
theorem landed_slot (m : (ℓ : Loc nD τ sig) → Buf (Elt F) ℓ) (ρ : Dev nD → PrngReg) (c : Dev nD) (k : ℕ) (hk : k < 16)
    (fd : Buf (Elt F) ((slotM k hk).view.loc (c : Thread nD τ))) :
    (slotPts c k hk ((slotM k hk).view.write (Elt F) fd
        ((aM : Memref sig .tc .vmem S8x256 .f32).view.read (Elt F) (accOf m ρ (back c k))) Finset.univ) : sProp 𝕄)
      = slotPts c k hk (landed m ρ c k) :=
  landed_eq m ρ c k hk fd (back c k)

/-! ## Reading a slot back through the receive buffer -/

/-- A load of row k through the whole receive buffer, over a valuation that spreads the block b on every row, reads b. -/
theorem read_slot_block (k : ℕ) (hk : k < 16) (b : FVec F S8x256 .f32) :
    (rM : Memref sig .tc .vmem S16x8x256 .f32).view.readAt (Elt F) (slotR k hk).toLoadRect
        (fun i : S16x8x256.Idx => b (ValueIdx.ix2 (i 1) (i 2))) = KTerms.slotV b := by
  refine funext fun (x : S1x8x256.Idx) => ?_
  have hx : (ValueIdx.ix2 (((slotR k hk).toLoadRect.idx x) 1) (((slotR k hk).toLoadRect.idx x) 2) : S8x256.Idx)
      = ValueIdx.ix2 (x 1) (x 2) := by
    funext a
    match a with
    | ⟨0, _⟩ =>
      apply Fin.ext
      show 0 + 1 * (x 1).val = (x 1).val
      omega
    | ⟨1, _⟩ =>
      apply Fin.ext
      show 0 + 1 * (x 2).val = (x 2).val
      omega
  exact congrArg b hx

theorem read_slot (m : (ℓ : Loc nD τ sig) → Buf (Elt F) ℓ) (ρ : Dev nD → PrngReg) (k : ℕ) (hk : k < 16) (d : Dev nD) :
    (rM : Memref sig .tc .vmem S16x8x256 .f32).view.readAt (Elt F) (slotR k hk).toLoadRect
        (fun i : S16x8x256.Idx => accOf m ρ d (ValueIdx.ix2 (i 1) (i 2))) = KTerms.slotV (accOf m ρ d) :=
  read_slot_block k hk (accOf m ρ d)

/-- The same over the schedule's valuation of slot k. -/
theorem read_landed (m : (ℓ : Loc nD τ sig) → Buf (Elt F) ℓ) (ρ : Dev nD → PrngReg) (c : Dev nD) (k : ℕ) (hk : k < 16) :
    (rM : Memref sig .tc .vmem S16x8x256 .f32).view.readAt (Elt F) (slotR k hk).toLoadRect (landed m ρ c k)
      = KTerms.slotV (accOf m ρ (back c k)) :=
  read_slot_block k hk (accOf m ρ (back c k))

/-- The elements a load of row k through the whole receive buffer reads are exactly slot k's. -/
theorem slot_setOn (k : ℕ) (hk : k < 16) :
    ((rM : Memref sig .tc .vmem S16x8x256 .f32).view.setOn (slotR k hk).toLoadRect.set : Finset S16x8x256.Idx)
      = (slotM k hk).view.set := by
  rw [slot_set]
  show Finset.map (Function.Embedding.refl _) (slotR k hk).set = (slotR k hk).set
  exact Finset.map_refl

theorem slot_setOn_subset (k : ℕ) (hk : k < 16) :
    ((rM : Memref sig .tc .vmem S16x8x256 .f32).view.setOn (slotR k hk).toLoadRect.set : Finset S16x8x256.Idx)
      ⊆ (slotM k hk).view.set := Finset.subset_of_eq (slot_setOn k hk)

/-- The same for the view an access at the rectangle of row k goes through. -/
theorem slot_access_set (k : ℕ) (hk : k < 16) :
    (((rM : Memref sig .tc .vmem S16x8x256 .f32).access (slotR k hk)).set : Finset S16x8x256.Idx)
      = (slotM k hk).view.set :=
  (View.set_slice_whole cc0_scratch1 (slotR k hk)).trans (slot_set k hk).symm

theorem slot_access_subset (k : ℕ) (hk : k < 16) :
    (((rM : Memref sig .tc .vmem S16x8x256 .f32).access (slotR k hk)).set : Finset S16x8x256.Idx)
      ⊆ (slotM k hk).view.set := Finset.subset_of_eq (slot_access_set k hk)

/-! ## The moments buffer by shares -/

theorem acc_set : ((aM : Memref sig .tc .vmem S8x256 .f32).view.set : Finset S8x256.Idx) = Finset.univ := View.set_whole _

/-- A share of the moments buffer through its memref is that share of the whole buffer. -/
theorem acc_whole_eq (c : Dev nD) (q : PosShare TreeShare) (f : Buf (Elt F) ((c : Thread nD τ).loc cc0_scratch0)) :
    (accPts c q f : sProp 𝕄) = (((c : Thread nD τ).loc cc0_scratch0) ↦[Finset.univ]{q} f : sProp 𝕄) := by
  unfold accPts; rw [acc_set]

/-- The moments buffer whole is the kept share and the sixteen lent shares. -/
theorem acc_toks (c : Dev nD) (f : Buf (Elt F) ((c : Thread nD τ).loc cc0_scratch0)) :
    (accPts c fullShare f : sProp 𝕄)
      ⊣⊢ iprop(accPts c shrKeep f
      ∗ accPts c (shr 0 lt16) f
      ∗ accPts c (shr 1 lt16) f
      ∗ accPts c (shr 2 lt16) f
      ∗ accPts c (shr 3 lt16) f
      ∗ accPts c (shr 4 lt16) f
      ∗ accPts c (shr 5 lt16) f
      ∗ accPts c (shr 6 lt16) f
      ∗ accPts c (shr 7 lt16) f
      ∗ accPts c (shr 8 lt16) f
      ∗ accPts c (shr 9 lt16) f
      ∗ accPts c (shr 10 lt16) f
      ∗ accPts c (shr 11 lt16) f
      ∗ accPts c (shr 12 lt16) f
      ∗ accPts c (shr 13 lt16) f
      ∗ accPts c (shr 14 lt16) f
      ∗ accPts c (shr 15 lt16) f) := by
  unfold accPts
  have h := Transfers.pointsTo_toks (nD := nD) (τ := τ) (sig := sig) (Ix := Unit) (Val := Elt F) (Name := ℕ) (U := UU) (Lvl := ℕ)
    (ℓ := (aM : Memref sig .tc .vmem S8x256 .f32).view.loc (c : Thread nD τ))
    (S := (aM : Memref sig .tc .vmem S8x256 .f32).view.set) (f := f) fullShare 16
  rw [bigSep_univ_eq_bigSepL [(⟨0, by decide⟩ : Fin 16), (⟨1, by decide⟩ : Fin 16), (⟨2, by decide⟩ : Fin 16), (⟨3, by decide⟩ : Fin 16), (⟨4, by decide⟩ : Fin 16), (⟨5, by decide⟩ : Fin 16), (⟨6, by decide⟩ : Fin 16), (⟨7, by decide⟩ : Fin 16), (⟨8, by decide⟩ : Fin 16), (⟨9, by decide⟩ : Fin 16), (⟨10, by decide⟩ : Fin 16), (⟨11, by decide⟩ : Fin 16), (⟨12, by decide⟩ : Fin 16), (⟨13, by decide⟩ : Fin 16), (⟨14, by decide⟩ : Fin 16), (⟨15, by decide⟩ : Fin 16)] (by decide) (by decide)] at h
  exact h

theorem acc_split (c : Dev nD) (f : Buf (Elt F) ((c : Thread nD τ).loc cc0_scratch0)) :
    (accPts c fullShare f : sProp 𝕄)
      ⊢ iprop(accPts c shrKeep f
      ∗ accPts c (shr 0 lt16) f
      ∗ accPts c (shr 1 lt16) f
      ∗ accPts c (shr 2 lt16) f
      ∗ accPts c (shr 3 lt16) f
      ∗ accPts c (shr 4 lt16) f
      ∗ accPts c (shr 5 lt16) f
      ∗ accPts c (shr 6 lt16) f
      ∗ accPts c (shr 7 lt16) f
      ∗ accPts c (shr 8 lt16) f
      ∗ accPts c (shr 9 lt16) f
      ∗ accPts c (shr 10 lt16) f
      ∗ accPts c (shr 11 lt16) f
      ∗ accPts c (shr 12 lt16) f
      ∗ accPts c (shr 13 lt16) f
      ∗ accPts c (shr 14 lt16) f
      ∗ accPts c (shr 15 lt16) f) := (acc_toks c f).1

theorem acc_join (c : Dev nD) (f : Buf (Elt F) ((c : Thread nD τ).loc cc0_scratch0)) :
    iprop(accPts c shrKeep f
      ∗ accPts c (shr 0 lt16) f
      ∗ accPts c (shr 1 lt16) f
      ∗ accPts c (shr 2 lt16) f
      ∗ accPts c (shr 3 lt16) f
      ∗ accPts c (shr 4 lt16) f
      ∗ accPts c (shr 5 lt16) f
      ∗ accPts c (shr 6 lt16) f
      ∗ accPts c (shr 7 lt16) f
      ∗ accPts c (shr 8 lt16) f
      ∗ accPts c (shr 9 lt16) f
      ∗ accPts c (shr 10 lt16) f
      ∗ accPts c (shr 11 lt16) f
      ∗ accPts c (shr 12 lt16) f
      ∗ accPts c (shr 13 lt16) f
      ∗ accPts c (shr 14 lt16) f
      ∗ accPts c (shr 15 lt16) f)
      ⊢ (accPts c fullShare f : sProp 𝕄) := (acc_toks c f).2

/-- info: 'Cert.KernelIdeal.KP.recv_split' depends on axioms: [propext, Classical.choice, Quot.sound] -/
#guard_msgs in #print axioms recv_split

/-- info: 'Cert.KernelIdeal.KP.recv_join' depends on axioms: [propext, Classical.choice, Quot.sound] -/
#guard_msgs in #print axioms recv_join

/-- info: 'Cert.KernelIdeal.KP.landed_eq' depends on axioms: [propext, Classical.choice, Quot.sound] -/
#guard_msgs in #print axioms landed_eq

/-- info: 'Cert.KernelIdeal.KP.read_slot' depends on axioms: [propext, Classical.choice, Quot.sound] -/
#guard_msgs in #print axioms read_slot

/-- info: 'Cert.KernelIdeal.KP.acc_toks' depends on axioms: [propext, Classical.choice, Quot.sound] -/
#guard_msgs in #print axioms acc_toks

end Cert.KernelIdeal.KP

end
-- ==== Proof.KRows.lean ====
/-
  The result buffer by batch rows: view geometry only.

  Batch row b of the 4 × 256 × 128 result buffer is the set of its indices whose first coordinate is b. A store of a
  1 × 256 × 128 vector w through the rectangle of row b leaves w (0, s, j) at (b, s, j) and every other row as it was.
  The four rows cover the buffer, so the four stores of the rows 0, 1, 2, 3, one after the other, leave a buffer that
  no longer depends on what it held before: at (b, s, j) it holds the b-th stored vector at (0, s, j).
-/
import proofs.«900516_g7700000000000517_dist_diff_adaln_cshard_i_b4_s256_c128_v7x_i16_bf16_1_alg».proof.Proof.KDefs

noncomputable section

namespace Cert.KernelIdeal.KP

open Cert.KernelIdeal Cert.KernelIdeal.Gen Cert.KernelIdeal.KTerms

open Idealize.ShloMosaic
open Idealize.ShloMosaic.TcCoe

variable {F : FTy → Type} [FloatOps F]

/-- `b < 4` for a literal `b`, as a closed term. -/
local macro "lt4" : term => `(of_decide_eq_true (Eq.refl true))

/-! ## A row's rectangle -/

theorem inb_row (b : ℕ) (hb : b < 4) : ∀ a, (![b, 0, 0] : Fin 3 → Nat) a + S1x256x128.size a ≤ S4x256x128.size a := by
  intro a; fin_cases a
  · show b + 1 ≤ 4; omega
  · show 0 + 256 ≤ 256; omega
  · show 0 + 128 ≤ 128; omega

/-- Batch row b of the result buffer as a rectangle: one row from b, all 256 positions, all 128 channels. -/
abbrev rowR (b : ℕ) (hb : b < 4) : Rect S4x256x128 := Rect.unit (s := S4x256x128) ![b, 0, 0] S1x256x128.size (inb_row b hb)

/-- An index of the result buffer lies in the rectangle of row b exactly when its first coordinate is b. -/
theorem mem_row (b : ℕ) (hb : b < 4) (i : S4x256x128.Idx) : i ∈ (rowR b hb).set ↔ (i 0).val = b := by
  rw [Rect.mem_set_unit]
  constructor
  · intro h
    have h0 : b ≤ (i 0).val ∧ (i 0).val < b + 1 := h 0
    omega
  · intro h a
    match a with
    | ⟨0, _⟩ =>
      show b ≤ (i 0).val ∧ (i 0).val < b + 1
      omega
    | ⟨1, _⟩ =>
      have h1 : (i 1).val < 256 := (i 1).isLt
      show 0 ≤ (i 1).val ∧ (i 1).val < 0 + 256
      omega
    | ⟨2, _⟩ =>
      have h2 : (i 2).val < 128 := (i 2).isLt
      show 0 ≤ (i 2).val ∧ (i 2).val < 0 + 128
      omega

/-- Where the rectangle of row b places the index (0, s, j) of a 1 × 256 × 128 vector: at (b, s, j). -/
theorem row_emb (b : ℕ) (hb : b < 4) (i : S4x256x128.Idx) (h : (i 0).val = b) :
    ((oM : Memref sig .tc .vmem S4x256x128 .f32).access (rowR b hb)).emb (ValueIdx.ix3 (0 : Fin 1) (i 1) (i 2)) = i := by
  funext a
  apply Fin.ext
  match a with
  | ⟨0, _⟩ =>
    show b + 1 * 0 = (i 0).val
    omega
  | ⟨1, _⟩ =>
    show 0 + 1 * (i 1).val = (i 1).val
    omega
  | ⟨2, _⟩ =>
    show 0 + 1 * (i 2).val = (i 2).val
    omega

/-! ## A store of one row -/

/-- A 1 × 256 × 128 vector stored whole through the rectangle of row b stands at (b, s, j) ↦ w (0, s, j); the other
    rows keep what they held. -/
theorem row_write_apply (b : ℕ) (hb : b < 4) (f : S4x256x128.Idx → Elt F .f32) (w : S1x256x128.Idx → Elt F .f32)
    (i : S4x256x128.Idx) :
    ((oM : Memref sig .tc .vmem S4x256x128 .f32).access (rowR b hb)).write (Elt F) f w Finset.univ i
      = if (i 0).val = b then w (ValueIdx.ix3 (0 : Fin 1) (i 1) (i 2)) else f i := by
  by_cases h : (i 0).val = b
  · rw [if_pos h]
    have hw := View.write_emb_of_mem (v := ((oM : Memref sig .tc .vmem S4x256x128 .f32).access (rowR b hb)))
      (Val := Elt F) f w (M := Finset.univ) (x := ValueIdx.ix3 (0 : Fin 1) (i 1) (i 2)) (Finset.mem_univ _)
    rw [row_emb b hb i h] at hw
    exact hw
  · rw [if_neg h]
    refine View.write_of_not_mem (v := ((oM : Memref sig .tc .vmem S4x256x128 .f32).access (rowR b hb)))
      (Val := Elt F) f w Finset.univ ?_
    rw [View.setOn_univ]
    intro hi
    have hi' : i ∈ (rowR b hb).set := (View.set_slice_whole cc0_stg4_0 (rowR b hb)) ▸ hi
    exact h ((mem_row b hb i).mp hi')

/-! ## The four stores -/

/-- The stored row depends on the row's number only through its value. -/
theorem outRow_congr (p q : Fin 4) (h : p.val = q.val) (x : Vec F S4x256x128 .f32) (t : Vec F S4x128 .f32)
    (ws wh : Vec F S128x128 .f32) (tot : FVec F S8x256 .f32) :
    outRow p x t ws wh tot = outRow q x t ws wh tot := by
  rw [Fin.ext h]

/-- The body's four stores, of the rows 0, 1, 2, 3 in this order over any contents, leave the result block. -/
theorem rows_write (c : Dev nD)
    (f : Buf (Elt F) (((oM : Memref sig .tc .vmem S4x256x128 .f32).access (rowR 0 lt4)).loc (c : Thread nD τ)))
    (x : Vec F S4x256x128 .f32) (t : Vec F S4x128 .f32) (ws wh : Vec F S128x128 .f32) (tot : FVec F S8x256 .f32) :
    ((oM : Memref sig .tc .vmem S4x256x128 .f32).access (rowR 3 lt4)).write (Elt F)
        (((oM : Memref sig .tc .vmem S4x256x128 .f32).access (rowR 2 lt4)).write (Elt F)
          (((oM : Memref sig .tc .vmem S4x256x128 .f32).access (rowR 1 lt4)).write (Elt F)
            (((oM : Memref sig .tc .vmem S4x256x128 .f32).access (rowR 0 lt4)).write (Elt F) f
              (outRow 0 x t ws wh tot) Finset.univ)
            (outRow 1 x t ws wh tot) Finset.univ)
          (outRow 2 x t ws wh tot) Finset.univ)
        (outRow 3 x t ws wh tot) Finset.univ
      = outOf x t ws wh tot := by
  funext i
  rw [row_write_apply, row_write_apply, row_write_apply, row_write_apply]
  have h4 : (i 0).val < 4 := (i 0).isLt
  show _ = outRow (i 0) x t ws wh tot (ValueIdx.ix3 (0 : Fin 1) (i 1) (i 2))
  rcases (by omega : (i 0).val = 0 ∨ (i 0).val = 1 ∨ (i 0).val = 2 ∨ (i 0).val = 3) with h | h | h | h
  · rw [if_neg (by omega), if_neg (by omega), if_neg (by omega), if_pos h]
    exact congrFun (outRow_congr 0 (i 0) h.symm x t ws wh tot) _
  · rw [if_neg (by omega), if_neg (by omega), if_pos h]
    exact congrFun (outRow_congr 1 (i 0) h.symm x t ws wh tot) _
  · rw [if_neg (by omega), if_pos h]
    exact congrFun (outRow_congr 2 (i 0) h.symm x t ws wh tot) _
  · rw [if_pos h]
    exact congrFun (outRow_congr 3 (i 0) h.symm x t ws wh tot) _

/-- info: 'Cert.KernelIdeal.KP.row_write_apply' depends on axioms: [propext, Classical.choice, Quot.sound] -/
#guard_msgs in #print axioms row_write_apply

/-- info: 'Cert.KernelIdeal.KP.rows_write' depends on axioms: [propext, Classical.choice, Quot.sound] -/
#guard_msgs in #print axioms rows_write

end Cert.KernelIdeal.KP

end
-- ==== Proof.KFinish.lean ====
/-
  The end of a device's body: the thirty cells whose rounds are all consumed are closed (their counters, at zero, go back to
  the core), the sixteen shares of the moments buffer and the sixteen slots of the receive buffer are joined whole again,
  and what is held is regrouped as the pipeline's post.
-/
import proofs.«900516_g7700000000000517_dist_diff_adaln_cshard_i_b4_s256_c128_v7x_i16_bf16_1_alg».proof.Proof.KDefs
import proofs.«900516_g7700000000000517_dist_diff_adaln_cshard_i_b4_s256_c128_v7x_i16_bf16_1_alg».proof.Proof.KSched
import proofs.«900516_g7700000000000517_dist_diff_adaln_cshard_i_b4_s256_c128_v7x_i16_bf16_1_alg».proof.Proof.KSlots

noncomputable section

namespace Cert.KernelIdeal.KP

open Cert.KernelIdeal Cert.KernelIdeal.Gen Cert.KernelIdeal.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is held when the body's last store is done, offset by offset, then the rest. -/
def finalHeld (K : Names) (c : Dev nD) (W : Waits sig Unit) (fr : Buf (Elt F) ((c : Thread nD τ).loc cc0_scratch1))
    (fo : Buf (Elt F) ((c : Thread nD τ).loc cc0_stg4_0)) : sProp 𝕄 :=
  iprop(cellInv ER (sched m ρ) (kS K c 1 (of_decide_eq_true (Eq.refl true))) (sendCell c 1 (of_decide_eq_true (Eq.refl true))) ∗ cellInv ER (sched m ρ) (kR K c 1 (of_decide_eq_true (Eq.refl true))) (recvCell c 1 (of_decide_eq_true (Eq.refl true)))
        ∗ atPos ER (sendCell c 1 (of_decide_eq_true (Eq.refl true))) 1 ∅ 0 ∗ atPos ER (recvCell c 1 (of_decide_eq_true (Eq.refl true))) 1 ∅ 0
        ∗ accPts c (shr 1 (of_decide_eq_true (Eq.refl true))) (accOf m ρ c) ∗ slotPts c 1 (of_decide_eq_true (Eq.refl true)) (landed m ρ c 1)
      ∗ cellInv ER (sched m ρ) (kS K c 2 (of_decide_eq_true (Eq.refl true))) (sendCell c 2 (of_decide_eq_true (Eq.refl true))) ∗ cellInv ER (sched m ρ) (kR K c 2 (of_decide_eq_true (Eq.refl true))) (recvCell c 2 (of_decide_eq_true (Eq.refl true)))
        ∗ atPos ER (sendCell c 2 (of_decide_eq_true (Eq.refl true))) 1 ∅ 0 ∗ atPos ER (recvCell c 2 (of_decide_eq_true (Eq.refl true))) 1 ∅ 0
        ∗ accPts c (shr 2 (of_decide_eq_true (Eq.refl true))) (accOf m ρ c) ∗ slotPts c 2 (of_decide_eq_true (Eq.refl true)) (landed m ρ c 2)
      ∗ cellInv ER (sched m ρ) (kS K c 3 (of_decide_eq_true (Eq.refl true))) (sendCell c 3 (of_decide_eq_true (Eq.refl true))) ∗ cellInv ER (sched m ρ) (kR K c 3 (of_decide_eq_true (Eq.refl true))) (recvCell c 3 (of_decide_eq_true (Eq.refl true)))
        ∗ atPos ER (sendCell c 3 (of_decide_eq_true (Eq.refl true))) 1 ∅ 0 ∗ atPos ER (recvCell c 3 (of_decide_eq_true (Eq.refl true))) 1 ∅ 0
        ∗ accPts c (shr 3 (of_decide_eq_true (Eq.refl true))) (accOf m ρ c) ∗ slotPts c 3 (of_decide_eq_true (Eq.refl true)) (landed m ρ c 3)
      ∗ cellInv ER (sched m ρ) (kS K c 4 (of_decide_eq_true (Eq.refl true))) (sendCell c 4 (of_decide_eq_true (Eq.refl true))) ∗ cellInv ER (sched m ρ) (kR K c 4 (of_decide_eq_true (Eq.refl true))) (recvCell c 4 (of_decide_eq_true (Eq.refl true)))
        ∗ atPos ER (sendCell c 4 (of_decide_eq_true (Eq.refl true))) 1 ∅ 0 ∗ atPos ER (recvCell c 4 (of_decide_eq_true (Eq.refl true))) 1 ∅ 0
        ∗ accPts c (shr 4 (of_decide_eq_true (Eq.refl true))) (accOf m ρ c) ∗ slotPts c 4 (of_decide_eq_true (Eq.refl true)) (landed m ρ c 4)
      ∗ cellInv ER (sched m ρ) (kS K c 5 (of_decide_eq_true (Eq.refl true))) (sendCell c 5 (of_decide_eq_true (Eq.refl true))) ∗ cellInv ER (sched m ρ) (kR K c 5 (of_decide_eq_true (Eq.refl true))) (recvCell c 5 (of_decide_eq_true (Eq.refl true)))
        ∗ atPos ER (sendCell c 5 (of_decide_eq_true (Eq.refl true))) 1 ∅ 0 ∗ atPos ER (recvCell c 5 (of_decide_eq_true (Eq.refl true))) 1 ∅ 0
        ∗ accPts c (shr 5 (of_decide_eq_true (Eq.refl true))) (accOf m ρ c) ∗ slotPts c 5 (of_decide_eq_true (Eq.refl true)) (landed m ρ c 5)
      ∗ cellInv ER (sched m ρ) (kS K c 6 (of_decide_eq_true (Eq.refl true))) (sendCell c 6 (of_decide_eq_true (Eq.refl true))) ∗ cellInv ER (sched m ρ) (kR K c 6 (of_decide_eq_true (Eq.refl true))) (recvCell c 6 (of_decide_eq_true (Eq.refl true)))
        ∗ atPos ER (sendCell c 6 (of_decide_eq_true (Eq.refl true))) 1 ∅ 0 ∗ atPos ER (recvCell c 6 (of_decide_eq_true (Eq.refl true))) 1 ∅ 0
        ∗ accPts c (shr 6 (of_decide_eq_true (Eq.refl true))) (accOf m ρ c) ∗ slotPts c 6 (of_decide_eq_true (Eq.refl true)) (landed m ρ c 6)
      ∗ cellInv ER (sched m ρ) (kS K c 7 (of_decide_eq_true (Eq.refl true))) (sendCell c 7 (of_decide_eq_true (Eq.refl true))) ∗ cellInv ER (sched m ρ) (kR K c 7 (of_decide_eq_true (Eq.refl true))) (recvCell c 7 (of_decide_eq_true (Eq.refl true)))
        ∗ atPos ER (sendCell c 7 (of_decide_eq_true (Eq.refl true))) 1 ∅ 0 ∗ atPos ER (recvCell c 7 (of_decide_eq_true (Eq.refl true))) 1 ∅ 0
        ∗ accPts c (shr 7 (of_decide_eq_true (Eq.refl true))) (accOf m ρ c) ∗ slotPts c 7 (of_decide_eq_true (Eq.refl true)) (landed m ρ c 7)
      ∗ cellInv ER (sched m ρ) (kS K c 8 (of_decide_eq_true (Eq.refl true))) (sendCell c 8 (of_decide_eq_true (Eq.refl true))) ∗ cellInv ER (sched m ρ) (kR K c 8 (of_decide_eq_true (Eq.refl true))) (recvCell c 8 (of_decide_eq_true (Eq.refl true)))
        ∗ atPos ER (sendCell c 8 (of_decide_eq_true (Eq.refl true))) 1 ∅ 0 ∗ atPos ER (recvCell c 8 (of_decide_eq_true (Eq.refl true))) 1 ∅ 0
        ∗ accPts c (shr 8 (of_decide_eq_true (Eq.refl true))) (accOf m ρ c) ∗ slotPts c 8 (of_decide_eq_true (Eq.refl true)) (landed m ρ c 8)
      ∗ cellInv ER (sched m ρ) (kS K c 9 (of_decide_eq_true (Eq.refl true))) (sendCell c 9 (of_decide_eq_true (Eq.refl true))) ∗ cellInv ER (sched m ρ) (kR K c 9 (of_decide_eq_true (Eq.refl true))) (recvCell c 9 (of_decide_eq_true (Eq.refl true)))
        ∗ atPos ER (sendCell c 9 (of_decide_eq_true (Eq.refl true))) 1 ∅ 0 ∗ atPos ER (recvCell c 9 (of_decide_eq_true (Eq.refl true))) 1 ∅ 0
        ∗ accPts c (shr 9 (of_decide_eq_true (Eq.refl true))) (accOf m ρ c) ∗ slotPts c 9 (of_decide_eq_true (Eq.refl true)) (landed m ρ c 9)
      ∗ cellInv ER (sched m ρ) (kS K c 10 (of_decide_eq_true (Eq.refl true))) (sendCell c 10 (of_decide_eq_true (Eq.refl true))) ∗ cellInv ER (sched m ρ) (kR K c 10 (of_decide_eq_true (Eq.refl true))) (recvCell c 10 (of_decide_eq_true (Eq.refl true)))
        ∗ atPos ER (sendCell c 10 (of_decide_eq_true (Eq.refl true))) 1 ∅ 0 ∗ atPos ER (recvCell c 10 (of_decide_eq_true (Eq.refl true))) 1 ∅ 0
        ∗ accPts c (shr 10 (of_decide_eq_true (Eq.refl true))) (accOf m ρ c) ∗ slotPts c 10 (of_decide_eq_true (Eq.refl true)) (landed m ρ c 10)
      ∗ cellInv ER (sched m ρ) (kS K c 11 (of_decide_eq_true (Eq.refl true))) (sendCell c 11 (of_decide_eq_true (Eq.refl true))) ∗ cellInv ER (sched m ρ) (kR K c 11 (of_decide_eq_true (Eq.refl true))) (recvCell c 11 (of_decide_eq_true (Eq.refl true)))
        ∗ atPos ER (sendCell c 11 (of_decide_eq_true (Eq.refl true))) 1 ∅ 0 ∗ atPos ER (recvCell c 11 (of_decide_eq_true (Eq.refl true))) 1 ∅ 0
        ∗ accPts c (shr 11 (of_decide_eq_true (Eq.refl true))) (accOf m ρ c) ∗ slotPts c 11 (of_decide_eq_true (Eq.refl true)) (landed m ρ c 11)
      ∗ cellInv ER (sched m ρ) (kS K c 12 (of_decide_eq_true (Eq.refl true))) (sendCell c 12 (of_decide_eq_true (Eq.refl true))) ∗ cellInv ER (sched m ρ) (kR K c 12 (of_decide_eq_true (Eq.refl true))) (recvCell c 12 (of_decide_eq_true (Eq.refl true)))
        ∗ atPos ER (sendCell c 12 (of_decide_eq_true (Eq.refl true))) 1 ∅ 0 ∗ atPos ER (recvCell c 12 (of_decide_eq_true (Eq.refl true))) 1 ∅ 0
        ∗ accPts c (shr 12 (of_decide_eq_true (Eq.refl true))) (accOf m ρ c) ∗ slotPts c 12 (of_decide_eq_true (Eq.refl true)) (landed m ρ c 12)
      ∗ cellInv ER (sched m ρ) (kS K c 13 (of_decide_eq_true (Eq.refl true))) (sendCell c 13 (of_decide_eq_true (Eq.refl true))) ∗ cellInv ER (sched m ρ) (kR K c 13 (of_decide_eq_true (Eq.refl true))) (recvCell c 13 (of_decide_eq_true (Eq.refl true)))
        ∗ atPos ER (sendCell c 13 (of_decide_eq_true (Eq.refl true))) 1 ∅ 0 ∗ atPos ER (recvCell c 13 (of_decide_eq_true (Eq.refl true))) 1 ∅ 0
        ∗ accPts c (shr 13 (of_decide_eq_true (Eq.refl true))) (accOf m ρ c) ∗ slotPts c 13 (of_decide_eq_true (Eq.refl true)) (landed m ρ c 13)
      ∗ cellInv ER (sched m ρ) (kS K c 14 (of_decide_eq_true (Eq.refl true))) (sendCell c 14 (of_decide_eq_true (Eq.refl true))) ∗ cellInv ER (sched m ρ) (kR K c 14 (of_decide_eq_true (Eq.refl true))) (recvCell c 14 (of_decide_eq_true (Eq.refl true)))
        ∗ atPos ER (sendCell c 14 (of_decide_eq_true (Eq.refl true))) 1 ∅ 0 ∗ atPos ER (recvCell c 14 (of_decide_eq_true (Eq.refl true))) 1 ∅ 0
        ∗ accPts c (shr 14 (of_decide_eq_true (Eq.refl true))) (accOf m ρ c) ∗ slotPts c 14 (of_decide_eq_true (Eq.refl true)) (landed m ρ c 14)
      ∗ cellInv ER (sched m ρ) (kS K c 15 (of_decide_eq_true (Eq.refl true))) (sendCell c 15 (of_decide_eq_true (Eq.refl true))) ∗ cellInv ER (sched m ρ) (kR K c 15 (of_decide_eq_true (Eq.refl true))) (recvCell c 15 (of_decide_eq_true (Eq.refl true)))
        ∗ atPos ER (sendCell c 15 (of_decide_eq_true (Eq.refl true))) 1 ∅ 0 ∗ atPos ER (recvCell c 15 (of_decide_eq_true (Eq.refl true))) 1 ∅ 0
        ∗ accPts c (shr 15 (of_decide_eq_true (Eq.refl true))) (accOf m ρ c) ∗ slotPts c 15 (of_decide_eq_true (Eq.refl true)) (landed m ρ c 15)
      ∗ accPts c shrKeep (accOf m ρ c) ∗ accPts c (shr 0 (of_decide_eq_true (Eq.refl true))) (accOf m ρ c) ∗ slotPts c 0 (of_decide_eq_true (Eq.refl true)) fr
      ∗ semVal (sendCell c 0 (of_decide_eq_true (Eq.refl true))) 0 ∗ semVal (recvCell c 0 (of_decide_eq_true (Eq.refl true))) 0
      ∗ owes (c : Thread nD τ) 0 W
      ∗ (((c : Thread nD τ).loc cc0_stg0_0) ↦{fullShare} xstg m ρ c) ∗ (((c : Thread nD τ).loc cc0_stg1_0) ↦{fullShare} tstg m ρ c)
      ∗ (((c : Thread nD τ).loc cc0_stg2_0) ↦{fullShare} wsstg m ρ c) ∗ (((c : Thread nD τ).loc cc0_stg3_0) ↦{fullShare} whstg m ρ c)
      ∗ (((c : Thread nD τ).loc cc0_stg4_0) ↦{fullShare} fo))

/-- `k < 16` for a literal `k`, as a closed term. -/
local macro "lt16" : term => `(of_decide_eq_true (Eq.refl true))

/-! ## Closing one offset's two cells -/

/-- The send and the receive cell of one offset, past their one round with nothing taken of the next: both close, and
    their counters, at zero, are the core's again. -/
theorem close_pair (K : Names) (c : Dev nD) (k : ℕ) (hk : k < 16) :
    iprop(cellInv ER (sched m ρ) (kS K c k hk) (sendCell c k hk) ∗ cellInv ER (sched m ρ) (kR K c k hk) (recvCell c k hk)
        ∗ atPos ER (sendCell c k hk) 1 ∅ 0 ∗ atPos ER (recvCell c k hk) 1 ∅ 0)
      ⊢ (iprop(|={Set.univ}[frame]=> (semVal (sendCell c k hk) 0 ∗ semVal (recvCell c k hk) 0)) : sProp 𝕄) := by
  iintro ⟨HIS, HIR, HaS, HaR⟩
  imod (Rounds.cell_close ER (sched m ρ) (Set.mem_univ (kS K c k hk)) (fun h => h) (R := 1)
    (duties_later m ρ (sendCell c k hk))) $$ [HIS HaS] with HzS
  · isplitl [HIS]
    · iexact HIS
    iexact HaS
  imod (Rounds.cell_close ER (sched m ρ) (Set.mem_univ (kR K c k hk)) (fun h => h) (R := 1)
    (duties_later m ρ (recvCell c k hk))) $$ [HIR HaR] with HzR
  · isplitl [HIR]
    · iexact HIR
    iexact HaR
  imodintro
  isplitl [HzS]
  · iexact HzS
  iexact HzR

/-! ## The two scratch buffers whole again -/

/-- The kept share and the sixteen lent shares of the moments buffer, all at the device's moments, are the buffer whole. -/
theorem acc_whole (c : Dev nD) :
    iprop(accPts c shrKeep (accOf m ρ c)
      ∗ accPts c (shr 0 lt16) (accOf m ρ c)
      ∗ accPts c (shr 1 lt16) (accOf m ρ c)
      ∗ accPts c (shr 2 lt16) (accOf m ρ c)
      ∗ accPts c (shr 3 lt16) (accOf m ρ c)
      ∗ accPts c (shr 4 lt16) (accOf m ρ c)
      ∗ accPts c (shr 5 lt16) (accOf m ρ c)
      ∗ accPts c (shr 6 lt16) (accOf m ρ c)
      ∗ accPts c (shr 7 lt16) (accOf m ρ c)
      ∗ accPts c (shr 8 lt16) (accOf m ρ c)
      ∗ accPts c (shr 9 lt16) (accOf m ρ c)
      ∗ accPts c (shr 10 lt16) (accOf m ρ c)
      ∗ accPts c (shr 11 lt16) (accOf m ρ c)
      ∗ accPts c (shr 12 lt16) (accOf m ρ c)
      ∗ accPts c (shr 13 lt16) (accOf m ρ c)
      ∗ accPts c (shr 14 lt16) (accOf m ρ c)
      ∗ accPts c (shr 15 lt16) (accOf m ρ c))
      ⊢ (iprop(∃ f : Buf (Elt F) ((c : Thread nD τ).loc cc0_scratch0), ((c : Thread nD τ).loc cc0_scratch0) ↦{fullShare} f) : sProp 𝕄) := by
  iintro H
  iexists (accOf m ρ c)
  iapply (BiEntails.of_eq (acc_whole_eq c fullShare (accOf m ρ c))).1
  iapply (acc_join c (accOf m ρ c))
  iexact H

/-- Slot 0 at any contents and the slots 1 … 15 at what landed in them are the receive buffer whole. -/
theorem recv_whole (c : Dev nD) (fr : Buf (Elt F) ((c : Thread nD τ).loc cc0_scratch1)) :
    iprop(slotPts c 0 lt16 fr
      ∗ slotPts c 1 lt16 (landed m ρ c 1)
      ∗ slotPts c 2 lt16 (landed m ρ c 2)
      ∗ slotPts c 3 lt16 (landed m ρ c 3)
      ∗ slotPts c 4 lt16 (landed m ρ c 4)
      ∗ slotPts c 5 lt16 (landed m ρ c 5)
      ∗ slotPts c 6 lt16 (landed m ρ c 6)
      ∗ slotPts c 7 lt16 (landed m ρ c 7)
      ∗ slotPts c 8 lt16 (landed m ρ c 8)
      ∗ slotPts c 9 lt16 (landed m ρ c 9)
      ∗ slotPts c 10 lt16 (landed m ρ c 10)
      ∗ slotPts c 11 lt16 (landed m ρ c 11)
      ∗ slotPts c 12 lt16 (landed m ρ c 12)
      ∗ slotPts c 13 lt16 (landed m ρ c 13)
      ∗ slotPts c 14 lt16 (landed m ρ c 14)
      ∗ slotPts c 15 lt16 (landed m ρ c 15))
      ⊢ (iprop(∃ f : Buf (Elt F) ((c : Thread nD τ).loc cc0_scratch1), ((c : Thread nD τ).loc cc0_scratch1) ↦{fullShare} f) : sProp 𝕄) :=
  recv_join c (fun k => match k with
    | 0 => fr
    | k + 1 => (landed m ρ c (k + 1) : Buf (Elt F) ((c : Thread nD τ).loc cc0_scratch1)))

/-! ## The pipeline's post -/

abbrev stgF (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The pipeline's one step. -/
def t₀F : Fin cfg0.N := ⟨0, by decide⟩

/-- What the launch takes back after the body: the scratch buffers whole, the own counters closed at zero, nothing owed,
    the four argument stages as loaded and the result stage at the device's result block. -/
def postF (c : Dev nD) : sProp 𝕄 :=
  iprop(Φ₁ c ∗ (dats m ρ 0 c).owesAt () t₀F.succ
    ∗ stgF c cc0_stg0_0 (xstg m ρ c) ∗ stgF c cc0_stg1_0 (tstg m ρ c) ∗ stgF c cc0_stg2_0 (wsstg m ρ c) ∗ stgF c cc0_stg3_0 (whstg m ρ c)
    ∗ stgF c cc0_stg4_0 (outAt m ρ c))

/-- From what is held after the last store to the pipeline's post: close the thirty cells, join the two scratch buffers,
    regroup. -/
theorem finish (K : Names) (c : Dev nD) (W : Waits sig Unit) (fr : Buf (Elt F) ((c : Thread nD τ).loc cc0_scratch1))
    (fo : Buf (Elt F) ((c : Thread nD τ).loc cc0_stg4_0)) (hfo : fo = outAt m ρ c) :
    finalHeld m ρ K c W fr fo ⊢ (iprop(|={Set.univ}[frame]=> postF m ρ c) : sProp 𝕄) := by
  unfold finalHeld
  iintro ⟨HIS1, HIR1, HaS1, HaR1, Hac1, Hsl1,
    HIS2, HIR2, HaS2, HaR2, Hac2, Hsl2,
    HIS3, HIR3, HaS3, HaR3, Hac3, Hsl3,
    HIS4, HIR4, HaS4, HaR4, Hac4, Hsl4,
    HIS5, HIR5, HaS5, HaR5, Hac5, Hsl5,
    HIS6, HIR6, HaS6, HaR6, Hac6, Hsl6,
    HIS7, HIR7, HaS7, HaR7, Hac7, Hsl7,
    HIS8, HIR8, HaS8, HaR8, Hac8, Hsl8,
    HIS9, HIR9, HaS9, HaR9, Hac9, Hsl9,
    HIS10, HIR10, HaS10, HaR10, Hac10, Hsl10,
    HIS11, HIR11, HaS11, HaR11, Hac11, Hsl11,
    HIS12, HIR12, HaS12, HaR12, Hac12, Hsl12,
    HIS13, HIR13, HaS13, HaR13, Hac13, Hsl13,
    HIS14, HIR14, HaS14, HaR14, Hac14, Hsl14,
    HIS15, HIR15, HaS15, HaR15, Hac15, Hsl15,
    Hkeep, Hac0, Hsl0, Hs0, Hr0, HO, Hx, Ht, Hws, Hwh, Hout⟩
  imod (close_pair m ρ K c 1 lt16) $$ [HIS1 HIR1 HaS1 HaR1] with ⟨HzS1, HzR1⟩
  · isplitl [HIS1]
    · iexact HIS1
    isplitl [HIR1]
    · iexact HIR1
    isplitl [HaS1]
    · iexact HaS1
    iexact HaR1
  imod (close_pair m ρ K c 2 lt16) $$ [HIS2 HIR2 HaS2 HaR2] with ⟨HzS2, HzR2⟩
  · isplitl [HIS2]
    · iexact HIS2
    isplitl [HIR2]
    · iexact HIR2
    isplitl [HaS2]
    · iexact HaS2
    iexact HaR2
  imod (close_pair m ρ K c 3 lt16) $$ [HIS3 HIR3 HaS3 HaR3] with ⟨HzS3, HzR3⟩
  · isplitl [HIS3]
    · iexact HIS3
    isplitl [HIR3]
    · iexact HIR3
    isplitl [HaS3]
    · iexact HaS3
    iexact HaR3
  imod (close_pair m ρ K c 4 lt16) $$ [HIS4 HIR4 HaS4 HaR4] with ⟨HzS4, HzR4⟩
  · isplitl [HIS4]
    · iexact HIS4
    isplitl [HIR4]
    · iexact HIR4
    isplitl [HaS4]
    · iexact HaS4
    iexact HaR4
  imod (close_pair m ρ K c 5 lt16) $$ [HIS5 HIR5 HaS5 HaR5] with ⟨HzS5, HzR5⟩
  · isplitl [HIS5]
    · iexact HIS5
    isplitl [HIR5]
    · iexact HIR5
    isplitl [HaS5]
    · iexact HaS5
    iexact HaR5
  imod (close_pair m ρ K c 6 lt16) $$ [HIS6 HIR6 HaS6 HaR6] with ⟨HzS6, HzR6⟩
  · isplitl [HIS6]
    · iexact HIS6
    isplitl [HIR6]
    · iexact HIR6
    isplitl [HaS6]
    · iexact HaS6
    iexact HaR6
  imod (close_pair m ρ K c 7 lt16) $$ [HIS7 HIR7 HaS7 HaR7] with ⟨HzS7, HzR7⟩
  · isplitl [HIS7]
    · iexact HIS7
    isplitl [HIR7]
    · iexact HIR7
    isplitl [HaS7]
    · iexact HaS7
    iexact HaR7
  imod (close_pair m ρ K c 8 lt16) $$ [HIS8 HIR8 HaS8 HaR8] with ⟨HzS8, HzR8⟩
  · isplitl [HIS8]
    · iexact HIS8
    isplitl [HIR8]
    · iexact HIR8
    isplitl [HaS8]
    · iexact HaS8
    iexact HaR8
  imod (close_pair m ρ K c 9 lt16) $$ [HIS9 HIR9 HaS9 HaR9] with ⟨HzS9, HzR9⟩
  · isplitl [HIS9]
    · iexact HIS9
    isplitl [HIR9]
    · iexact HIR9
    isplitl [HaS9]
    · iexact HaS9
    iexact HaR9
  imod (close_pair m ρ K c 10 lt16) $$ [HIS10 HIR10 HaS10 HaR10] with ⟨HzS10, HzR10⟩
  · isplitl [HIS10]
    · iexact HIS10
    isplitl [HIR10]
    · iexact HIR10
    isplitl [HaS10]
    · iexact HaS10
    iexact HaR10
  imod (close_pair m ρ K c 11 lt16) $$ [HIS11 HIR11 HaS11 HaR11] with ⟨HzS11, HzR11⟩
  · isplitl [HIS11]
    · iexact HIS11
    isplitl [HIR11]
    · iexact HIR11
    isplitl [HaS11]
    · iexact HaS11
    iexact HaR11
  imod (close_pair m ρ K c 12 lt16) $$ [HIS12 HIR12 HaS12 HaR12] with ⟨HzS12, HzR12⟩
  · isplitl [HIS12]
    · iexact HIS12
    isplitl [HIR12]
    · iexact HIR12
    isplitl [HaS12]
    · iexact HaS12
    iexact HaR12
  imod (close_pair m ρ K c 13 lt16) $$ [HIS13 HIR13 HaS13 HaR13] with ⟨HzS13, HzR13⟩
  · isplitl [HIS13]
    · iexact HIS13
    isplitl [HIR13]
    · iexact HIR13
    isplitl [HaS13]
    · iexact HaS13
    iexact HaR13
  imod (close_pair m ρ K c 14 lt16) $$ [HIS14 HIR14 HaS14 HaR14] with ⟨HzS14, HzR14⟩
  · isplitl [HIS14]
    · iexact HIS14
    isplitl [HIR14]
    · iexact HIR14
    isplitl [HaS14]
    · iexact HaS14
    iexact HaR14
  imod (close_pair m ρ K c 15 lt16) $$ [HIS15 HIR15 HaS15 HaR15] with ⟨HzS15, HzR15⟩
  · isplitl [HIS15]
    · iexact HIS15
    isplitl [HIR15]
    · iexact HIR15
    isplitl [HaS15]
    · iexact HaS15
    iexact HaR15
  imodintro
  unfold postF Φ₁ Dat.owesAt Pipeline.owesWithin
  rw [show (dats m ρ 0 c).owed t₀F.succ = 0 from rfl]
  isplitl [Hkeep Hac0 Hac1 Hac2 Hac3 Hac4 Hac5 Hac6 Hac7 Hac8 Hac9 Hac10 Hac11 Hac12 Hac13 Hac14 Hac15 Hsl0 Hsl1 Hsl2 Hsl3 Hsl4 Hsl5 Hsl6 Hsl7 Hsl8 Hsl9 Hsl10 Hsl11 Hsl12 Hsl13 Hsl14 Hsl15 HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15 Hs0 Hr0]
  · isplitl [Hkeep Hac0 Hac1 Hac2 Hac3 Hac4 Hac5 Hac6 Hac7 Hac8 Hac9 Hac10 Hac11 Hac12 Hac13 Hac14 Hac15 Hsl0 Hsl1 Hsl2 Hsl3 Hsl4 Hsl5 Hsl6 Hsl7 Hsl8 Hsl9 Hsl10 Hsl11 Hsl12 Hsl13 Hsl14 Hsl15]
    · unfold scr
      isplitl [Hkeep Hac0 Hac1 Hac2 Hac3 Hac4 Hac5 Hac6 Hac7 Hac8 Hac9 Hac10 Hac11 Hac12 Hac13 Hac14 Hac15]
      · iapply (acc_whole m ρ c)
        isplitl [Hkeep]
        · iexact Hkeep
        isplitl [Hac0]
        · iexact Hac0
        isplitl [Hac1]
        · iexact Hac1
        isplitl [Hac2]
        · iexact Hac2
        isplitl [Hac3]
        · iexact Hac3
        isplitl [Hac4]
        · iexact Hac4
        isplitl [Hac5]
        · iexact Hac5
        isplitl [Hac6]
        · iexact Hac6
        isplitl [Hac7]
        · iexact Hac7
        isplitl [Hac8]
        · iexact Hac8
        isplitl [Hac9]
        · iexact Hac9
        isplitl [Hac10]
        · iexact Hac10
        isplitl [Hac11]
        · iexact Hac11
        isplitl [Hac12]
        · iexact Hac12
        isplitl [Hac13]
        · iexact Hac13
        isplitl [Hac14]
        · iexact Hac14
        iexact Hac15
      · iapply (recv_whole m ρ c fr)
        isplitl [Hsl0]
        · iexact Hsl0
        isplitl [Hsl1]
        · iexact Hsl1
        isplitl [Hsl2]
        · iexact Hsl2
        isplitl [Hsl3]
        · iexact Hsl3
        isplitl [Hsl4]
        · iexact Hsl4
        isplitl [Hsl5]
        · iexact Hsl5
        isplitl [Hsl6]
        · iexact Hsl6
        isplitl [Hsl7]
        · iexact Hsl7
        isplitl [Hsl8]
        · iexact Hsl8
        isplitl [Hsl9]
        · iexact Hsl9
        isplitl [Hsl10]
        · iexact Hsl10
        isplitl [Hsl11]
        · iexact Hsl11
        isplitl [Hsl12]
        · iexact Hsl12
        isplitl [Hsl13]
        · iexact Hsl13
        isplitl [Hsl14]
        · iexact Hsl14
        iexact Hsl15
    isplitl [HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15]
    · unfold closedSems
      isplitl [HzS1]
      · iexact HzS1
      isplitl [HzR1]
      · iexact HzR1
      isplitl [HzS2]
      · iexact HzS2
      isplitl [HzR2]
      · iexact HzR2
      isplitl [HzS3]
      · iexact HzS3
      isplitl [HzR3]
      · iexact HzR3
      isplitl [HzS4]
      · iexact HzS4
      isplitl [HzR4]
      · iexact HzR4
      isplitl [HzS5]
      · iexact HzS5
      isplitl [HzR5]
      · iexact HzR5
      isplitl [HzS6]
      · iexact HzS6
      isplitl [HzR6]
      · iexact HzR6
      isplitl [HzS7]
      · iexact HzS7
      isplitl [HzR7]
      · iexact HzR7
      isplitl [HzS8]
      · iexact HzS8
      isplitl [HzR8]
      · iexact HzR8
      isplitl [HzS9]
      · iexact HzS9
      isplitl [HzR9]
      · iexact HzR9
      isplitl [HzS10]
      · iexact HzS10
      isplitl [HzR10]
      · iexact HzR10
      isplitl [HzS11]
      · iexact HzS11
      isplitl [HzR11]
      · iexact HzR11
      isplitl [HzS12]
      · iexact HzS12
      isplitl [HzR12]
      · iexact HzR12
      isplitl [HzS13]
      · iexact HzS13
      isplitl [HzR13]
      · iexact HzR13
      isplitl [HzS14]
      · iexact HzS14
      isplitl [HzR14]
      · iexact HzR14
      isplitl [HzS15]
      · iexact HzS15
      iexact HzR15
    isplitl [Hs0]
    · iexact Hs0
    iexact Hr0
  isplitl [HO]
  · iexists W
    isplitr
    · ipureintro
      exact fun _ _ => Or.inl trivial
    iexact HO
  isplitl [Hx]
  · iexists _
    isplitr
    · ipureintro
      rfl
    iexact Hx
  isplitl [Ht]
  · iexists _
    isplitr
    · ipureintro
      rfl
    iexact Ht
  isplitl [Hws]
  · iexists _
    isplitr
    · ipureintro
      rfl
    iexact Hws
  isplitl [Hwh]
  · iexists _
    isplitr
    · ipureintro
      rfl
    iexact Hwh
  iexists _
  isplitr
  · ipureintro
    exact hfo
  iexact Hout

/-- info: 'Cert.KernelIdeal.KP.finish' depends on axioms: [propext, Classical.choice, Quot.sound] -/
#guard_msgs in #print axioms finish

end Cert.KernelIdeal.KP

end
-- ==== Proof.KBody.lean ====
/-
  One device's body, stepped from the protocol's ghost state to what the launch takes back.
-/
import proofs.«900516_g7700000000000517_dist_diff_adaln_cshard_i_b4_s256_c128_v7x_i16_bf16_1_alg».proof.Proof.KDefs
import proofs.«900516_g7700000000000517_dist_diff_adaln_cshard_i_b4_s256_c128_v7x_i16_bf16_1_alg».proof.Proof.KSched
import proofs.«900516_g7700000000000517_dist_diff_adaln_cshard_i_b4_s256_c128_v7x_i16_bf16_1_alg».proof.Proof.KSlots
import proofs.«900516_g7700000000000517_dist_diff_adaln_cshard_i_b4_s256_c128_v7x_i16_bf16_1_alg».proof.Proof.KRows
import proofs.«900516_g7700000000000517_dist_diff_adaln_cshard_i_b4_s256_c128_v7x_i16_bf16_1_alg».proof.Proof.KFinish

noncomputable section

namespace Cert.KernelIdeal.KP

open Cert.KernelIdeal Cert.KernelIdeal.Gen Cert.KernelIdeal.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ### The buffers, held through their memrefs' views -/

def xPts (c : Dev nD) (f : Buf (Elt F) ((xM : Memref sig .tc .vmem S4x256x128 .f32).view.loc (c : Thread nD τ))) : sProp 𝕄 :=
  (xM : Memref sig .tc .vmem S4x256x128 .f32).view.loc (c : Thread nD τ) ↦[(xM : Memref sig .tc .vmem S4x256x128 .f32).view.set]{fullShare} f
omit [FloatOps F] in
theorem xPts_eq (c : Dev nD) (f : Buf (Elt F) ((c : Thread nD τ).loc cc0_stg0_0)) :
    xPts c f = (((c : Thread nD τ).loc cc0_stg0_0) ↦{fullShare} f : sProp 𝕄) := by unfold xPts; rw [View.set_whole]
def tPts (c : Dev nD) (f : Buf (Elt F) ((tM : Memref sig .tc .vmem S4x128 .f32).view.loc (c : Thread nD τ))) : sProp 𝕄 :=
  (tM : Memref sig .tc .vmem S4x128 .f32).view.loc (c : Thread nD τ) ↦[(tM : Memref sig .tc .vmem S4x128 .f32).view.set]{fullShare} f
omit [FloatOps F] in
theorem tPts_eq (c : Dev nD) (f : Buf (Elt F) ((c : Thread nD τ).loc cc0_stg1_0)) :
    tPts c f = (((c : Thread nD τ).loc cc0_stg1_0) ↦{fullShare} f : sProp 𝕄) := by unfold tPts; rw [View.set_whole]
def wsPts (c : Dev nD) (f : Buf (Elt F) ((wsM : Memref sig .tc .vmem S128x128 .f32).view.loc (c : Thread nD τ))) : sProp 𝕄 :=
  (wsM : Memref sig .tc .vmem S128x128 .f32).view.loc (c : Thread nD τ) ↦[(wsM : Memref sig .tc .vmem S128x128 .f32).view.set]{fullShare} f
omit [FloatOps F] in
theorem wsPts_eq (c : Dev nD) (f : Buf (Elt F) ((c : Thread nD τ).loc cc0_stg2_0)) :
    wsPts c f = (((c : Thread nD τ).loc cc0_stg2_0) ↦{fullShare} f : sProp 𝕄) := by unfold wsPts; rw [View.set_whole]
def whPts (c : Dev nD) (f : Buf (Elt F) ((whM : Memref sig .tc .vmem S128x128 .f32).view.loc (c : Thread nD τ))) : sProp 𝕄 :=
  (whM : Memref sig .tc .vmem S128x128 .f32).view.loc (c : Thread nD τ) ↦[(whM : Memref sig .tc .vmem S128x128 .f32).view.set]{fullShare} f
omit [FloatOps F] in
theorem whPts_eq (c : Dev nD) (f : Buf (Elt F) ((c : Thread nD τ).loc cc0_stg3_0)) :
    whPts c f = (((c : Thread nD τ).loc cc0_stg3_0) ↦{fullShare} f : sProp 𝕄) := by unfold whPts; rw [View.set_whole]
def oPts (c : Dev nD) (f : Buf (Elt F) ((oM : Memref sig .tc .vmem S4x256x128 .f32).view.loc (c : Thread nD τ))) : sProp 𝕄 :=
  (oM : Memref sig .tc .vmem S4x256x128 .f32).view.loc (c : Thread nD τ) ↦[(oM : Memref sig .tc .vmem S4x256x128 .f32).view.set]{fullShare} f
omit [FloatOps F] in
theorem oPts_eq (c : Dev nD) (f : Buf (Elt F) ((c : Thread nD τ).loc cc0_stg4_0)) :
    oPts c f = (((c : Thread nD τ).loc cc0_stg4_0) ↦{fullShare} f : sProp 𝕄) := by unfold oPts; rw [View.set_whole]
def rPts (c : Dev nD) (f : Buf (Elt F) ((rM : Memref sig .tc .vmem S16x8x256 .f32).view.loc (c : Thread nD τ))) : sProp 𝕄 :=
  (rM : Memref sig .tc .vmem S16x8x256 .f32).view.loc (c : Thread nD τ) ↦[(rM : Memref sig .tc .vmem S16x8x256 .f32).view.set]{fullShare} f
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq

/-- Binding a returned value is applying the continuation. -/
theorem prog_ret_bind {E : Type → Type} {α β : Type} (a : α) (k : α → Prog E β) : (Prog.ret a).bind k = k a := rfl

/-! ### What the body's whole-buffer loads read -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) :
    (xM : Memref sig .tc .vmem S4x256x128 .f32).view.readAt (Elt F) (Rect.unit (s := S4x256x128) ![0, 0, 0] S4x256x128.size inb_S4x256x128_S4x256x128_0_0_0).toLoadRect f = f :=
  Memref.readAt_unit_zero (Elt F) cc0_stg0_0 hz3 _ f
omit [FloatOps F] in
theorem read_t (f : (cc0_stg1_0 : Ref sig .tc).ty.Contents (Elt F)) :
    (tM : Memref sig .tc .vmem S4x128 .f32).view.readAt (Elt F) (Rect.unit (s := S4x128) ![0, 0] S4x128.size inb_S4x128_S4x128_0_0).toLoadRect f = f :=
  Memref.readAt_unit_zero (Elt F) cc0_stg1_0 hz2 _ f
omit [FloatOps F] in
theorem read_ws (f : (cc0_stg2_0 : Ref sig .tc).ty.Contents (Elt F)) :
    (wsM : Memref sig .tc .vmem S128x128 .f32).view.readAt (Elt F) (Rect.unit (s := S128x128) ![0, 0] S128x128.size inb_S128x128_S128x128_0_0).toLoadRect f = f :=
  Memref.readAt_unit_zero (Elt F) cc0_stg2_0 hz2 _ f
omit [FloatOps F] in
theorem read_wh (f : (cc0_stg3_0 : Ref sig .tc).ty.Contents (Elt F)) :
    (whM : Memref sig .tc .vmem S128x128 .f32).view.readAt (Elt F) (Rect.unit (s := S128x128) ![0, 0] S128x128.size inb_S128x128_S128x128_0_0).toLoadRect f = f :=
  Memref.readAt_unit_zero (Elt F) cc0_stg3_0 hz2 _ f
omit [FloatOps F] in
theorem read_a (f : (cc0_scratch0 : Ref sig .tc).ty.Contents (Elt F)) :
    (aM : Memref sig .tc .vmem S8x256 .f32).view.readAt (Elt F) (Rect.unit (s := S8x256) ![0, 0] S8x256.size inb_S8x256_S8x256_0_0).toLoadRect f = f :=
  Memref.readAt_unit_zero (Elt F) cc0_scratch0 hz2 _ f
omit [FloatOps F] in
theorem back_zero (c : Dev nD) : back c 0 = c := by
  apply Fin.ext; show (c.val + (16 - 0 % 16)) % 16 = c.val; have h16 : c.val < 16 := c.isLt; omega

/-- A slot held through the receive buffer's own memref under the slot's rectangle is the slot. -/
theorem slot_fold (c : Dev nD) (k : ℕ) (hk : k < 16) (f : Buf (Elt F) ((c : Thread nD τ).loc cc0_scratch1)) :
    ((rM : Memref sig .tc .vmem S16x8x256 .f32).view.loc (c : Thread nD τ) ↦[(rM : Memref sig .tc .vmem S16x8x256 .f32).view.setOn (slotR k hk).toLoadRect.set]{fullShare} f : sProp 𝕄)
      ⊢ slotPts c k hk f := by
  unfold slotPts; rw [slot_setOn k hk]

/-! ### The four stores of the result's rows, as one list of writes -/

theorem out_writes (c : Dev nD) (g : Buf (Elt F) ((c : Thread nD τ).loc cc0_stg4_0)) (x : Vec F S4x256x128 .f32) (t : Vec F S4x128 .f32)
    (ws wh : Vec F S128x128 .f32) (tot : FVec F S8x256 .f32) :
    (oM : Memref sig .tc .vmem S4x256x128 .f32).view.writes (Elt F) g
        [⟨Rect.unit (s := S4x256x128) ![3, 0, 0] S1x256x128.size inb_S4x256x128_S1x256x128_3_0_0, outRow 3 x t ws wh tot⟩,
         ⟨Rect.unit (s := S4x256x128) ![2, 0, 0] S1x256x128.size inb_S4x256x128_S1x256x128_2_0_0, outRow 2 x t ws wh tot⟩,
         ⟨Rect.unit (s := S4x256x128) ![1, 0, 0] S1x256x128.size inb_S4x256x128_S1x256x128_1_0_0, outRow 1 x t ws wh tot⟩,
         ⟨Rect.unit (s := S4x256x128) ![0, 0, 0] S1x256x128.size inb_S4x256x128_S1x256x128_0_0_0, outRow 0 x t ws wh tot⟩]
      = outOf x t ws wh tot := by
  simp only [View.writes_cons, View.writes_nil]
  exact rows_write c g x t ws wh tot

/-- The total as the body's own fold: its own moments first. -/
theorem totOf_unfold (c : Dev nD) :
    totOf m ρ c
      = k0_pay7
          (k0_pay6 (k0_pay5 (accOf m ρ c) (slotV (accOf m ρ (back c 1)))) (slotV (accOf m ρ (back c 2))) (slotV (accOf m ρ (back c 3)))
            (slotV (accOf m ρ (back c 4))) (slotV (accOf m ρ (back c 5))) (slotV (accOf m ρ (back c 6))) (slotV (accOf m ρ (back c 7)))
            (slotV (accOf m ρ (back c 8))) (slotV (accOf m ρ (back c 9))) (slotV (accOf m ρ (back c 10))) (slotV (accOf m ρ (back c 11))))
          (slotV (accOf m ρ (back c 12))) (slotV (accOf m ρ (back c 13))) (slotV (accOf m ρ (back c 14))) (slotV (accOf m ρ (back c 15))) := by
  unfold totOf totFold
  simp only [back_zero]

section Body

variable (K : Names)

def bodyPre (c : Dev nD) : sProp 𝕄 :=
  iprop((ghost m ρ K c ∗ cred (tallyAt (barCell c) () 15) ∗ recvCreds c ∗ levAts L lv ∗ scr c
      ∗ semVal (sendCell c 0 (by decide)) 0 ∗ semVal (recvCell c 0 (by decide)) 0)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 := postF m ρ c

/-! ### What each signal hands over and what the barrier wait hands back, offset by offset, the points-to spelt out -/

theorem barPay_out_1 (c : Dev nD) :
    (barPay (peer c 1) (1 : Fin 16) : sProp 𝕄)
      = iprop((∃ f, ((slotM 15 (of_decide_eq_true (Eq.refl true))).view.loc (c : Thread nD τ) ↦[(slotM 15 (of_decide_eq_true (Eq.refl true))).view.set]{fullShare} f))
          ∗ reached ER (recvCell c 15 (of_decide_eq_true (Eq.refl true))) 0) := barPay_out c 1 (of_decide_eq_true (Eq.refl true)) (by decide)
theorem barPay_in_1 (c : Dev nD) :
    (barPay c (15 : Fin 16) : sProp 𝕄)
      = iprop((∃ f, ((slotM 1 (of_decide_eq_true (Eq.refl true))).view.loc (peer c 1 : Thread nD τ) ↦[(slotM 1 (of_decide_eq_true (Eq.refl true))).view.set]{fullShare} f))
          ∗ reached ER (recvCell (peer c 1) 1 (of_decide_eq_true (Eq.refl true))) 0) := barPay_in c 1 (of_decide_eq_true (Eq.refl true)) (by decide)
theorem barPay_out_2 (c : Dev nD) :
    (barPay (peer c 2) (2 : Fin 16) : sProp 𝕄)
      = iprop((∃ f, ((slotM 14 (of_decide_eq_true (Eq.refl true))).view.loc (c : Thread nD τ) ↦[(slotM 14 (of_decide_eq_true (Eq.refl true))).view.set]{fullShare} f))
          ∗ reached ER (recvCell c 14 (of_decide_eq_true (Eq.refl true))) 0) := barPay_out c 2 (of_decide_eq_true (Eq.refl true)) (by decide)
theorem barPay_in_2 (c : Dev nD) :
    (barPay c (14 : Fin 16) : sProp 𝕄)
      = iprop((∃ f, ((slotM 2 (of_decide_eq_true (Eq.refl true))).view.loc (peer c 2 : Thread nD τ) ↦[(slotM 2 (of_decide_eq_true (Eq.refl true))).view.set]{fullShare} f))
          ∗ reached ER (recvCell (peer c 2) 2 (of_decide_eq_true (Eq.refl true))) 0) := barPay_in c 2 (of_decide_eq_true (Eq.refl true)) (by decide)
theorem barPay_out_3 (c : Dev nD) :
    (barPay (peer c 3) (3 : Fin 16) : sProp 𝕄)
      = iprop((∃ f, ((slotM 13 (of_decide_eq_true (Eq.refl true))).view.loc (c : Thread nD τ) ↦[(slotM 13 (of_decide_eq_true (Eq.refl true))).view.set]{fullShare} f))
          ∗ reached ER (recvCell c 13 (of_decide_eq_true (Eq.refl true))) 0) := barPay_out c 3 (of_decide_eq_true (Eq.refl true)) (by decide)
theorem barPay_in_3 (c : Dev nD) :
    (barPay c (13 : Fin 16) : sProp 𝕄)
      = iprop((∃ f, ((slotM 3 (of_decide_eq_true (Eq.refl true))).view.loc (peer c 3 : Thread nD τ) ↦[(slotM 3 (of_decide_eq_true (Eq.refl true))).view.set]{fullShare} f))
          ∗ reached ER (recvCell (peer c 3) 3 (of_decide_eq_true (Eq.refl true))) 0) := barPay_in c 3 (of_decide_eq_true (Eq.refl true)) (by decide)
theorem barPay_out_4 (c : Dev nD) :
    (barPay (peer c 4) (4 : Fin 16) : sProp 𝕄)
      = iprop((∃ f, ((slotM 12 (of_decide_eq_true (Eq.refl true))).view.loc (c : Thread nD τ) ↦[(slotM 12 (of_decide_eq_true (Eq.refl true))).view.set]{fullShare} f))
          ∗ reached ER (recvCell c 12 (of_decide_eq_true (Eq.refl true))) 0) := barPay_out c 4 (of_decide_eq_true (Eq.refl true)) (by decide)
theorem barPay_in_4 (c : Dev nD) :
    (barPay c (12 : Fin 16) : sProp 𝕄)
      = iprop((∃ f, ((slotM 4 (of_decide_eq_true (Eq.refl true))).view.loc (peer c 4 : Thread nD τ) ↦[(slotM 4 (of_decide_eq_true (Eq.refl true))).view.set]{fullShare} f))
          ∗ reached ER (recvCell (peer c 4) 4 (of_decide_eq_true (Eq.refl true))) 0) := barPay_in c 4 (of_decide_eq_true (Eq.refl true)) (by decide)
theorem barPay_out_5 (c : Dev nD) :
    (barPay (peer c 5) (5 : Fin 16) : sProp 𝕄)
      = iprop((∃ f, ((slotM 11 (of_decide_eq_true (Eq.refl true))).view.loc (c : Thread nD τ) ↦[(slotM 11 (of_decide_eq_true (Eq.refl true))).view.set]{fullShare} f))
          ∗ reached ER (recvCell c 11 (of_decide_eq_true (Eq.refl true))) 0) := barPay_out c 5 (of_decide_eq_true (Eq.refl true)) (by decide)
theorem barPay_in_5 (c : Dev nD) :
    (barPay c (11 : Fin 16) : sProp 𝕄)
      = iprop((∃ f, ((slotM 5 (of_decide_eq_true (Eq.refl true))).view.loc (peer c 5 : Thread nD τ) ↦[(slotM 5 (of_decide_eq_true (Eq.refl true))).view.set]{fullShare} f))
          ∗ reached ER (recvCell (peer c 5) 5 (of_decide_eq_true (Eq.refl true))) 0) := barPay_in c 5 (of_decide_eq_true (Eq.refl true)) (by decide)
theorem barPay_out_6 (c : Dev nD) :
    (barPay (peer c 6) (6 : Fin 16) : sProp 𝕄)
      = iprop((∃ f, ((slotM 10 (of_decide_eq_true (Eq.refl true))).view.loc (c : Thread nD τ) ↦[(slotM 10 (of_decide_eq_true (Eq.refl true))).view.set]{fullShare} f))
          ∗ reached ER (recvCell c 10 (of_decide_eq_true (Eq.refl true))) 0) := barPay_out c 6 (of_decide_eq_true (Eq.refl true)) (by decide)
theorem barPay_in_6 (c : Dev nD) :
    (barPay c (10 : Fin 16) : sProp 𝕄)
      = iprop((∃ f, ((slotM 6 (of_decide_eq_true (Eq.refl true))).view.loc (peer c 6 : Thread nD τ) ↦[(slotM 6 (of_decide_eq_true (Eq.refl true))).view.set]{fullShare} f))
          ∗ reached ER (recvCell (peer c 6) 6 (of_decide_eq_true (Eq.refl true))) 0) := barPay_in c 6 (of_decide_eq_true (Eq.refl true)) (by decide)
theorem barPay_out_7 (c : Dev nD) :
    (barPay (peer c 7) (7 : Fin 16) : sProp 𝕄)
      = iprop((∃ f, ((slotM 9 (of_decide_eq_true (Eq.refl true))).view.loc (c : Thread nD τ) ↦[(slotM 9 (of_decide_eq_true (Eq.refl true))).view.set]{fullShare} f))
          ∗ reached ER (recvCell c 9 (of_decide_eq_true (Eq.refl true))) 0) := barPay_out c 7 (of_decide_eq_true (Eq.refl true)) (by decide)
theorem barPay_in_7 (c : Dev nD) :
    (barPay c (9 : Fin 16) : sProp 𝕄)
      = iprop((∃ f, ((slotM 7 (of_decide_eq_true (Eq.refl true))).view.loc (peer c 7 : Thread nD τ) ↦[(slotM 7 (of_decide_eq_true (Eq.refl true))).view.set]{fullShare} f))
          ∗ reached ER (recvCell (peer c 7) 7 (of_decide_eq_true (Eq.refl true))) 0) := barPay_in c 7 (of_decide_eq_true (Eq.refl true)) (by decide)
theorem barPay_out_8 (c : Dev nD) :
    (barPay (peer c 8) (8 : Fin 16) : sProp 𝕄)
      = iprop((∃ f, ((slotM 8 (of_decide_eq_true (Eq.refl true))).view.loc (c : Thread nD τ) ↦[(slotM 8 (of_decide_eq_true (Eq.refl true))).view.set]{fullShare} f))
          ∗ reached ER (recvCell c 8 (of_decide_eq_true (Eq.refl true))) 0) := barPay_out c 8 (of_decide_eq_true (Eq.refl true)) (by decide)
theorem barPay_in_8 (c : Dev nD) :
    (barPay c (8 : Fin 16) : sProp 𝕄)
      = iprop((∃ f, ((slotM 8 (of_decide_eq_true (Eq.refl true))).view.loc (peer c 8 : Thread nD τ) ↦[(slotM 8 (of_decide_eq_true (Eq.refl true))).view.set]{fullShare} f))
          ∗ reached ER (recvCell (peer c 8) 8 (of_decide_eq_true (Eq.refl true))) 0) := barPay_in c 8 (of_decide_eq_true (Eq.refl true)) (by decide)
theorem barPay_out_9 (c : Dev nD) :
    (barPay (peer c 9) (9 : Fin 16) : sProp 𝕄)
      = iprop((∃ f, ((slotM 7 (of_decide_eq_true (Eq.refl true))).view.loc (c : Thread nD τ) ↦[(slotM 7 (of_decide_eq_true (Eq.refl true))).view.set]{fullShare} f))
          ∗ reached ER (recvCell c 7 (of_decide_eq_true (Eq.refl true))) 0) := barPay_out c 9 (of_decide_eq_true (Eq.refl true)) (by decide)
theorem barPay_in_9 (c : Dev nD) :
    (barPay c (7 : Fin 16) : sProp 𝕄)
      = iprop((∃ f, ((slotM 9 (of_decide_eq_true (Eq.refl true))).view.loc (peer c 9 : Thread nD τ) ↦[(slotM 9 (of_decide_eq_true (Eq.refl true))).view.set]{fullShare} f))
          ∗ reached ER (recvCell (peer c 9) 9 (of_decide_eq_true (Eq.refl true))) 0) := barPay_in c 9 (of_decide_eq_true (Eq.refl true)) (by decide)
theorem barPay_out_10 (c : Dev nD) :
    (barPay (peer c 10) (10 : Fin 16) : sProp 𝕄)
      = iprop((∃ f, ((slotM 6 (of_decide_eq_true (Eq.refl true))).view.loc (c : Thread nD τ) ↦[(slotM 6 (of_decide_eq_true (Eq.refl true))).view.set]{fullShare} f))
          ∗ reached ER (recvCell c 6 (of_decide_eq_true (Eq.refl true))) 0) := barPay_out c 10 (of_decide_eq_true (Eq.refl true)) (by decide)
theorem barPay_in_10 (c : Dev nD) :
    (barPay c (6 : Fin 16) : sProp 𝕄)
      = iprop((∃ f, ((slotM 10 (of_decide_eq_true (Eq.refl true))).view.loc (peer c 10 : Thread nD τ) ↦[(slotM 10 (of_decide_eq_true (Eq.refl true))).view.set]{fullShare} f))
          ∗ reached ER (recvCell (peer c 10) 10 (of_decide_eq_true (Eq.refl true))) 0) := barPay_in c 10 (of_decide_eq_true (Eq.refl true)) (by decide)
theorem barPay_out_11 (c : Dev nD) :
    (barPay (peer c 11) (11 : Fin 16) : sProp 𝕄)
      = iprop((∃ f, ((slotM 5 (of_decide_eq_true (Eq.refl true))).view.loc (c : Thread nD τ) ↦[(slotM 5 (of_decide_eq_true (Eq.refl true))).view.set]{fullShare} f))
          ∗ reached ER (recvCell c 5 (of_decide_eq_true (Eq.refl true))) 0) := barPay_out c 11 (of_decide_eq_true (Eq.refl true)) (by decide)
theorem barPay_in_11 (c : Dev nD) :
    (barPay c (5 : Fin 16) : sProp 𝕄)
      = iprop((∃ f, ((slotM 11 (of_decide_eq_true (Eq.refl true))).view.loc (peer c 11 : Thread nD τ) ↦[(slotM 11 (of_decide_eq_true (Eq.refl true))).view.set]{fullShare} f))
          ∗ reached ER (recvCell (peer c 11) 11 (of_decide_eq_true (Eq.refl true))) 0) := barPay_in c 11 (of_decide_eq_true (Eq.refl true)) (by decide)
theorem barPay_out_12 (c : Dev nD) :
    (barPay (peer c 12) (12 : Fin 16) : sProp 𝕄)
      = iprop((∃ f, ((slotM 4 (of_decide_eq_true (Eq.refl true))).view.loc (c : Thread nD τ) ↦[(slotM 4 (of_decide_eq_true (Eq.refl true))).view.set]{fullShare} f))
          ∗ reached ER (recvCell c 4 (of_decide_eq_true (Eq.refl true))) 0) := barPay_out c 12 (of_decide_eq_true (Eq.refl true)) (by decide)
theorem barPay_in_12 (c : Dev nD) :
    (barPay c (4 : Fin 16) : sProp 𝕄)
      = iprop((∃ f, ((slotM 12 (of_decide_eq_true (Eq.refl true))).view.loc (peer c 12 : Thread nD τ) ↦[(slotM 12 (of_decide_eq_true (Eq.refl true))).view.set]{fullShare} f))
          ∗ reached ER (recvCell (peer c 12) 12 (of_decide_eq_true (Eq.refl true))) 0) := barPay_in c 12 (of_decide_eq_true (Eq.refl true)) (by decide)
theorem barPay_out_13 (c : Dev nD) :
    (barPay (peer c 13) (13 : Fin 16) : sProp 𝕄)
      = iprop((∃ f, ((slotM 3 (of_decide_eq_true (Eq.refl true))).view.loc (c : Thread nD τ) ↦[(slotM 3 (of_decide_eq_true (Eq.refl true))).view.set]{fullShare} f))
          ∗ reached ER (recvCell c 3 (of_decide_eq_true (Eq.refl true))) 0) := barPay_out c 13 (of_decide_eq_true (Eq.refl true)) (by decide)
theorem barPay_in_13 (c : Dev nD) :
    (barPay c (3 : Fin 16) : sProp 𝕄)
      = iprop((∃ f, ((slotM 13 (of_decide_eq_true (Eq.refl true))).view.loc (peer c 13 : Thread nD τ) ↦[(slotM 13 (of_decide_eq_true (Eq.refl true))).view.set]{fullShare} f))
          ∗ reached ER (recvCell (peer c 13) 13 (of_decide_eq_true (Eq.refl true))) 0) := barPay_in c 13 (of_decide_eq_true (Eq.refl true)) (by decide)
theorem barPay_out_14 (c : Dev nD) :
    (barPay (peer c 14) (14 : Fin 16) : sProp 𝕄)
      = iprop((∃ f, ((slotM 2 (of_decide_eq_true (Eq.refl true))).view.loc (c : Thread nD τ) ↦[(slotM 2 (of_decide_eq_true (Eq.refl true))).view.set]{fullShare} f))
          ∗ reached ER (recvCell c 2 (of_decide_eq_true (Eq.refl true))) 0) := barPay_out c 14 (of_decide_eq_true (Eq.refl true)) (by decide)
theorem barPay_in_14 (c : Dev nD) :
    (barPay c (2 : Fin 16) : sProp 𝕄)
      = iprop((∃ f, ((slotM 14 (of_decide_eq_true (Eq.refl true))).view.loc (peer c 14 : Thread nD τ) ↦[(slotM 14 (of_decide_eq_true (Eq.refl true))).view.set]{fullShare} f))
          ∗ reached ER (recvCell (peer c 14) 14 (of_decide_eq_true (Eq.refl true))) 0) := barPay_in c 14 (of_decide_eq_true (Eq.refl true)) (by decide)
theorem barPay_out_15 (c : Dev nD) :
    (barPay (peer c 15) (15 : Fin 16) : sProp 𝕄)
      = iprop((∃ f, ((slotM 1 (of_decide_eq_true (Eq.refl true))).view.loc (c : Thread nD τ) ↦[(slotM 1 (of_decide_eq_true (Eq.refl true))).view.set]{fullShare} f))
          ∗ reached ER (recvCell c 1 (of_decide_eq_true (Eq.refl true))) 0) := barPay_out c 15 (of_decide_eq_true (Eq.refl true)) (by decide)
theorem barPay_in_15 (c : Dev nD) :
    (barPay c (1 : Fin 16) : sProp 𝕄)
      = iprop((∃ f, ((slotM 15 (of_decide_eq_true (Eq.refl true))).view.loc (peer c 15 : Thread nD τ) ↦[(slotM 15 (of_decide_eq_true (Eq.refl true))).view.set]{fullShare} f))
          ∗ reached ER (recvCell (peer c 15) 15 (of_decide_eq_true (Eq.refl true))) 0) := barPay_in c 15 (of_decide_eq_true (Eq.refl true)) (by decide)

attribute [local sl_rounds] barPay_out_1 barPay_out_2 barPay_out_3 barPay_out_4 barPay_out_5 barPay_out_6 barPay_out_7 barPay_out_8 barPay_out_9 barPay_out_10 barPay_out_11 barPay_out_12 barPay_out_13 barPay_out_14 barPay_out_15

/-- Slot 0 of the receive buffer, which no copy ever touches, kept apart. -/
def hold0 (c : Dev nD) (f : Buf (Elt F) ((c : Thread nD τ).loc cc0_scratch1)) : sProp 𝕄 := slotPts c 0 (of_decide_eq_true (Eq.refl true)) f

/-- The receive buffer whole is the sixteen slots, the last first. -/
theorem recv_split_rev (c : Dev nD) (f : Buf (Elt F) ((c : Thread nD τ).loc cc0_scratch1)) :
    ((((c : Thread nD τ).loc cc0_scratch1) ↦{fullShare} f : sProp 𝕄))
      ⊣⊢ iprop(slotPts c 15 (of_decide_eq_true (Eq.refl true)) f
      ∗ slotPts c 14 (of_decide_eq_true (Eq.refl true)) f
      ∗ slotPts c 13 (of_decide_eq_true (Eq.refl true)) f
      ∗ slotPts c 12 (of_decide_eq_true (Eq.refl true)) f
      ∗ slotPts c 11 (of_decide_eq_true (Eq.refl true)) f
      ∗ slotPts c 10 (of_decide_eq_true (Eq.refl true)) f
      ∗ slotPts c 9 (of_decide_eq_true (Eq.refl true)) f
      ∗ slotPts c 8 (of_decide_eq_true (Eq.refl true)) f
      ∗ slotPts c 7 (of_decide_eq_true (Eq.refl true)) f
      ∗ slotPts c 6 (of_decide_eq_true (Eq.refl true)) f
      ∗ slotPts c 5 (of_decide_eq_true (Eq.refl true)) f
      ∗ slotPts c 4 (of_decide_eq_true (Eq.refl true)) f
      ∗ slotPts c 3 (of_decide_eq_true (Eq.refl true)) f
      ∗ slotPts c 2 (of_decide_eq_true (Eq.refl true)) f
      ∗ slotPts c 1 (of_decide_eq_true (Eq.refl true)) f
      ∗ hold0 c f) := by
  unfold hold0
  rw [recv_bigSep c f, bigSep_univ_eq_bigSepL [(⟨15, by decide⟩ : Fin 16), (⟨14, by decide⟩ : Fin 16), (⟨13, by decide⟩ : Fin 16), (⟨12, by decide⟩ : Fin 16), (⟨11, by decide⟩ : Fin 16), (⟨10, by decide⟩ : Fin 16), (⟨9, by decide⟩ : Fin 16), (⟨8, by decide⟩ : Fin 16), (⟨7, by decide⟩ : Fin 16), (⟨6, by decide⟩ : Fin 16), (⟨5, by decide⟩ : Fin 16), (⟨4, by decide⟩ : Fin 16), (⟨3, by decide⟩ : Fin 16), (⟨2, by decide⟩ : Fin 16), (⟨1, by decide⟩ : Fin 16), (⟨0, by decide⟩ : Fin 16)] (by decide) (by decide)]
  exact BiEntails.rfl

/-! ### The copies' payloads, the points-to spelt out -/

theorem recvPay_lit (c : Dev nD) (k : ℕ) (hk : k < 16) :
    (recvPay m ρ c k : sProp 𝕄) = ((slotM k hk).view.loc (c : Thread nD τ) ↦[(slotM k hk).view.set]{fullShare} landed m ρ c k) :=
  recvPay_eq m ρ c k hk
theorem sendPay_lit (c : Dev nD) (k : ℕ) (hk : k < 16) :
    (sendPay m ρ c k : sProp 𝕄)
      = ((aM : Memref sig .tc .vmem S8x256 .f32).view.loc (c : Thread nD τ) ↦[(aM : Memref sig .tc .vmem S8x256 .f32).view.set]{shr k hk} accOf m ρ c) :=
  sendPay_eq m ρ c k hk
theorem recvPay_lit_1 (c : Dev nD) : (recvPay m ρ c 1 : sProp 𝕄) = ((rM : Memref sig .tc .vmem S16x8x256 .f32).view.loc (c : Thread nD τ) ↦[(rM : Memref sig .tc .vmem S16x8x256 .f32).view.setOn (slotR 1 (of_decide_eq_true (Eq.refl true))).toLoadRect.set]{fullShare} landed m ρ c 1) :=
  (recvPay_lit m ρ c 1 (of_decide_eq_true (Eq.refl true))).trans (by rw [slot_setOn 1 (of_decide_eq_true (Eq.refl true))])
theorem sendPay_lit_1 (c : Dev nD) : (sendPay m ρ c 1 : sProp 𝕄) = ((aM : Memref sig .tc .vmem S8x256 .f32).view.loc (c : Thread nD τ) ↦[(aM : Memref sig .tc .vmem S8x256 .f32).view.set]{shr 1 (of_decide_eq_true (Eq.refl true))} accOf m ρ c) := sendPay_lit m ρ c 1 (of_decide_eq_true (Eq.refl true))
theorem recvPay_lit_2 (c : Dev nD) : (recvPay m ρ c 2 : sProp 𝕄) = ((rM : Memref sig .tc .vmem S16x8x256 .f32).view.loc (c : Thread nD τ) ↦[(rM : Memref sig .tc .vmem S16x8x256 .f32).view.setOn (slotR 2 (of_decide_eq_true (Eq.refl true))).toLoadRect.set]{fullShare} landed m ρ c 2) :=
  (recvPay_lit m ρ c 2 (of_decide_eq_true (Eq.refl true))).trans (by rw [slot_setOn 2 (of_decide_eq_true (Eq.refl true))])
theorem sendPay_lit_2 (c : Dev nD) : (sendPay m ρ c 2 : sProp 𝕄) = ((aM : Memref sig .tc .vmem S8x256 .f32).view.loc (c : Thread nD τ) ↦[(aM : Memref sig .tc .vmem S8x256 .f32).view.set]{shr 2 (of_decide_eq_true (Eq.refl true))} accOf m ρ c) := sendPay_lit m ρ c 2 (of_decide_eq_true (Eq.refl true))
theorem recvPay_lit_3 (c : Dev nD) : (recvPay m ρ c 3 : sProp 𝕄) = ((rM : Memref sig .tc .vmem S16x8x256 .f32).view.loc (c : Thread nD τ) ↦[(rM : Memref sig .tc .vmem S16x8x256 .f32).view.setOn (slotR 3 (of_decide_eq_true (Eq.refl true))).toLoadRect.set]{fullShare} landed m ρ c 3) :=
  (recvPay_lit m ρ c 3 (of_decide_eq_true (Eq.refl true))).trans (by rw [slot_setOn 3 (of_decide_eq_true (Eq.refl true))])
theorem sendPay_lit_3 (c : Dev nD) : (sendPay m ρ c 3 : sProp 𝕄) = ((aM : Memref sig .tc .vmem S8x256 .f32).view.loc (c : Thread nD τ) ↦[(aM : Memref sig .tc .vmem S8x256 .f32).view.set]{shr 3 (of_decide_eq_true (Eq.refl true))} accOf m ρ c) := sendPay_lit m ρ c 3 (of_decide_eq_true (Eq.refl true))
theorem recvPay_lit_4 (c : Dev nD) : (recvPay m ρ c 4 : sProp 𝕄) = ((rM : Memref sig .tc .vmem S16x8x256 .f32).view.loc (c : Thread nD τ) ↦[(rM : Memref sig .tc .vmem S16x8x256 .f32).view.setOn (slotR 4 (of_decide_eq_true (Eq.refl true))).toLoadRect.set]{fullShare} landed m ρ c 4) :=
  (recvPay_lit m ρ c 4 (of_decide_eq_true (Eq.refl true))).trans (by rw [slot_setOn 4 (of_decide_eq_true (Eq.refl true))])
theorem sendPay_lit_4 (c : Dev nD) : (sendPay m ρ c 4 : sProp 𝕄) = ((aM : Memref sig .tc .vmem S8x256 .f32).view.loc (c : Thread nD τ) ↦[(aM : Memref sig .tc .vmem S8x256 .f32).view.set]{shr 4 (of_decide_eq_true (Eq.refl true))} accOf m ρ c) := sendPay_lit m ρ c 4 (of_decide_eq_true (Eq.refl true))
theorem recvPay_lit_5 (c : Dev nD) : (recvPay m ρ c 5 : sProp 𝕄) = ((rM : Memref sig .tc .vmem S16x8x256 .f32).view.loc (c : Thread nD τ) ↦[(rM : Memref sig .tc .vmem S16x8x256 .f32).view.setOn (slotR 5 (of_decide_eq_true (Eq.refl true))).toLoadRect.set]{fullShare} landed m ρ c 5) :=
  (recvPay_lit m ρ c 5 (of_decide_eq_true (Eq.refl true))).trans (by rw [slot_setOn 5 (of_decide_eq_true (Eq.refl true))])
theorem sendPay_lit_5 (c : Dev nD) : (sendPay m ρ c 5 : sProp 𝕄) = ((aM : Memref sig .tc .vmem S8x256 .f32).view.loc (c : Thread nD τ) ↦[(aM : Memref sig .tc .vmem S8x256 .f32).view.set]{shr 5 (of_decide_eq_true (Eq.refl true))} accOf m ρ c) := sendPay_lit m ρ c 5 (of_decide_eq_true (Eq.refl true))
theorem recvPay_lit_6 (c : Dev nD) : (recvPay m ρ c 6 : sProp 𝕄) = ((rM : Memref sig .tc .vmem S16x8x256 .f32).view.loc (c : Thread nD τ) ↦[(rM : Memref sig .tc .vmem S16x8x256 .f32).view.setOn (slotR 6 (of_decide_eq_true (Eq.refl true))).toLoadRect.set]{fullShare} landed m ρ c 6) :=
  (recvPay_lit m ρ c 6 (of_decide_eq_true (Eq.refl true))).trans (by rw [slot_setOn 6 (of_decide_eq_true (Eq.refl true))])
theorem sendPay_lit_6 (c : Dev nD) : (sendPay m ρ c 6 : sProp 𝕄) = ((aM : Memref sig .tc .vmem S8x256 .f32).view.loc (c : Thread nD τ) ↦[(aM : Memref sig .tc .vmem S8x256 .f32).view.set]{shr 6 (of_decide_eq_true (Eq.refl true))} accOf m ρ c) := sendPay_lit m ρ c 6 (of_decide_eq_true (Eq.refl true))
theorem recvPay_lit_7 (c : Dev nD) : (recvPay m ρ c 7 : sProp 𝕄) = ((rM : Memref sig .tc .vmem S16x8x256 .f32).view.loc (c : Thread nD τ) ↦[(rM : Memref sig .tc .vmem S16x8x256 .f32).view.setOn (slotR 7 (of_decide_eq_true (Eq.refl true))).toLoadRect.set]{fullShare} landed m ρ c 7) :=
  (recvPay_lit m ρ c 7 (of_decide_eq_true (Eq.refl true))).trans (by rw [slot_setOn 7 (of_decide_eq_true (Eq.refl true))])
theorem sendPay_lit_7 (c : Dev nD) : (sendPay m ρ c 7 : sProp 𝕄) = ((aM : Memref sig .tc .vmem S8x256 .f32).view.loc (c : Thread nD τ) ↦[(aM : Memref sig .tc .vmem S8x256 .f32).view.set]{shr 7 (of_decide_eq_true (Eq.refl true))} accOf m ρ c) := sendPay_lit m ρ c 7 (of_decide_eq_true (Eq.refl true))
theorem recvPay_lit_8 (c : Dev nD) : (recvPay m ρ c 8 : sProp 𝕄) = ((rM : Memref sig .tc .vmem S16x8x256 .f32).view.loc (c : Thread nD τ) ↦[(rM : Memref sig .tc .vmem S16x8x256 .f32).view.setOn (slotR 8 (of_decide_eq_true (Eq.refl true))).toLoadRect.set]{fullShare} landed m ρ c 8) :=
  (recvPay_lit m ρ c 8 (of_decide_eq_true (Eq.refl true))).trans (by rw [slot_setOn 8 (of_decide_eq_true (Eq.refl true))])
theorem sendPay_lit_8 (c : Dev nD) : (sendPay m ρ c 8 : sProp 𝕄) = ((aM : Memref sig .tc .vmem S8x256 .f32).view.loc (c : Thread nD τ) ↦[(aM : Memref sig .tc .vmem S8x256 .f32).view.set]{shr 8 (of_decide_eq_true (Eq.refl true))} accOf m ρ c) := sendPay_lit m ρ c 8 (of_decide_eq_true (Eq.refl true))
theorem recvPay_lit_9 (c : Dev nD) : (recvPay m ρ c 9 : sProp 𝕄) = ((rM : Memref sig .tc .vmem S16x8x256 .f32).view.loc (c : Thread nD τ) ↦[(rM : Memref sig .tc .vmem S16x8x256 .f32).view.setOn (slotR 9 (of_decide_eq_true (Eq.refl true))).toLoadRect.set]{fullShare} landed m ρ c 9) :=
  (recvPay_lit m ρ c 9 (of_decide_eq_true (Eq.refl true))).trans (by rw [slot_setOn 9 (of_decide_eq_true (Eq.refl true))])
theorem sendPay_lit_9 (c : Dev nD) : (sendPay m ρ c 9 : sProp 𝕄) = ((aM : Memref sig .tc .vmem S8x256 .f32).view.loc (c : Thread nD τ) ↦[(aM : Memref sig .tc .vmem S8x256 .f32).view.set]{shr 9 (of_decide_eq_true (Eq.refl true))} accOf m ρ c) := sendPay_lit m ρ c 9 (of_decide_eq_true (Eq.refl true))
theorem recvPay_lit_10 (c : Dev nD) : (recvPay m ρ c 10 : sProp 𝕄) = ((rM : Memref sig .tc .vmem S16x8x256 .f32).view.loc (c : Thread nD τ) ↦[(rM : Memref sig .tc .vmem S16x8x256 .f32).view.setOn (slotR 10 (of_decide_eq_true (Eq.refl true))).toLoadRect.set]{fullShare} landed m ρ c 10) :=
  (recvPay_lit m ρ c 10 (of_decide_eq_true (Eq.refl true))).trans (by rw [slot_setOn 10 (of_decide_eq_true (Eq.refl true))])
theorem sendPay_lit_10 (c : Dev nD) : (sendPay m ρ c 10 : sProp 𝕄) = ((aM : Memref sig .tc .vmem S8x256 .f32).view.loc (c : Thread nD τ) ↦[(aM : Memref sig .tc .vmem S8x256 .f32).view.set]{shr 10 (of_decide_eq_true (Eq.refl true))} accOf m ρ c) := sendPay_lit m ρ c 10 (of_decide_eq_true (Eq.refl true))
theorem recvPay_lit_11 (c : Dev nD) : (recvPay m ρ c 11 : sProp 𝕄) = ((rM : Memref sig .tc .vmem S16x8x256 .f32).view.loc (c : Thread nD τ) ↦[(rM : Memref sig .tc .vmem S16x8x256 .f32).view.setOn (slotR 11 (of_decide_eq_true (Eq.refl true))).toLoadRect.set]{fullShare} landed m ρ c 11) :=
  (recvPay_lit m ρ c 11 (of_decide_eq_true (Eq.refl true))).trans (by rw [slot_setOn 11 (of_decide_eq_true (Eq.refl true))])
theorem sendPay_lit_11 (c : Dev nD) : (sendPay m ρ c 11 : sProp 𝕄) = ((aM : Memref sig .tc .vmem S8x256 .f32).view.loc (c : Thread nD τ) ↦[(aM : Memref sig .tc .vmem S8x256 .f32).view.set]{shr 11 (of_decide_eq_true (Eq.refl true))} accOf m ρ c) := sendPay_lit m ρ c 11 (of_decide_eq_true (Eq.refl true))
theorem recvPay_lit_12 (c : Dev nD) : (recvPay m ρ c 12 : sProp 𝕄) = ((rM : Memref sig .tc .vmem S16x8x256 .f32).view.loc (c : Thread nD τ) ↦[(rM : Memref sig .tc .vmem S16x8x256 .f32).view.setOn (slotR 12 (of_decide_eq_true (Eq.refl true))).toLoadRect.set]{fullShare} landed m ρ c 12) :=
  (recvPay_lit m ρ c 12 (of_decide_eq_true (Eq.refl true))).trans (by rw [slot_setOn 12 (of_decide_eq_true (Eq.refl true))])
theorem sendPay_lit_12 (c : Dev nD) : (sendPay m ρ c 12 : sProp 𝕄) = ((aM : Memref sig .tc .vmem S8x256 .f32).view.loc (c : Thread nD τ) ↦[(aM : Memref sig .tc .vmem S8x256 .f32).view.set]{shr 12 (of_decide_eq_true (Eq.refl true))} accOf m ρ c) := sendPay_lit m ρ c 12 (of_decide_eq_true (Eq.refl true))
theorem recvPay_lit_13 (c : Dev nD) : (recvPay m ρ c 13 : sProp 𝕄) = ((rM : Memref sig .tc .vmem S16x8x256 .f32).view.loc (c : Thread nD τ) ↦[(rM : Memref sig .tc .vmem S16x8x256 .f32).view.setOn (slotR 13 (of_decide_eq_true (Eq.refl true))).toLoadRect.set]{fullShare} landed m ρ c 13) :=
  (recvPay_lit m ρ c 13 (of_decide_eq_true (Eq.refl true))).trans (by rw [slot_setOn 13 (of_decide_eq_true (Eq.refl true))])
theorem sendPay_lit_13 (c : Dev nD) : (sendPay m ρ c 13 : sProp 𝕄) = ((aM : Memref sig .tc .vmem S8x256 .f32).view.loc (c : Thread nD τ) ↦[(aM : Memref sig .tc .vmem S8x256 .f32).view.set]{shr 13 (of_decide_eq_true (Eq.refl true))} accOf m ρ c) := sendPay_lit m ρ c 13 (of_decide_eq_true (Eq.refl true))
theorem recvPay_lit_14 (c : Dev nD) : (recvPay m ρ c 14 : sProp 𝕄) = ((rM : Memref sig .tc .vmem S16x8x256 .f32).view.loc (c : Thread nD τ) ↦[(rM : Memref sig .tc .vmem S16x8x256 .f32).view.setOn (slotR 14 (of_decide_eq_true (Eq.refl true))).toLoadRect.set]{fullShare} landed m ρ c 14) :=
  (recvPay_lit m ρ c 14 (of_decide_eq_true (Eq.refl true))).trans (by rw [slot_setOn 14 (of_decide_eq_true (Eq.refl true))])
theorem sendPay_lit_14 (c : Dev nD) : (sendPay m ρ c 14 : sProp 𝕄) = ((aM : Memref sig .tc .vmem S8x256 .f32).view.loc (c : Thread nD τ) ↦[(aM : Memref sig .tc .vmem S8x256 .f32).view.set]{shr 14 (of_decide_eq_true (Eq.refl true))} accOf m ρ c) := sendPay_lit m ρ c 14 (of_decide_eq_true (Eq.refl true))
theorem recvPay_lit_15 (c : Dev nD) : (recvPay m ρ c 15 : sProp 𝕄) = ((rM : Memref sig .tc .vmem S16x8x256 .f32).view.loc (c : Thread nD τ) ↦[(rM : Memref sig .tc .vmem S16x8x256 .f32).view.setOn (slotR 15 (of_decide_eq_true (Eq.refl true))).toLoadRect.set]{fullShare} landed m ρ c 15) :=
  (recvPay_lit m ρ c 15 (of_decide_eq_true (Eq.refl true))).trans (by rw [slot_setOn 15 (of_decide_eq_true (Eq.refl true))])
theorem sendPay_lit_15 (c : Dev nD) : (sendPay m ρ c 15 : sProp 𝕄) = ((aM : Memref sig .tc .vmem S8x256 .f32).view.loc (c : Thread nD τ) ↦[(aM : Memref sig .tc .vmem S8x256 .f32).view.set]{shr 15 (of_decide_eq_true (Eq.refl true))} accOf m ρ c) := sendPay_lit m ρ c 15 (of_decide_eq_true (Eq.refl true))

attribute [local sl_rounds] recvPay_lit_1 sendPay_lit_1 recvPay_lit_2 sendPay_lit_2 recvPay_lit_3 sendPay_lit_3 recvPay_lit_4 sendPay_lit_4 recvPay_lit_5 sendPay_lit_5 recvPay_lit_6 sendPay_lit_6 recvPay_lit_7 sendPay_lit_7 recvPay_lit_8 sendPay_lit_8 recvPay_lit_9 sendPay_lit_9 recvPay_lit_10 sendPay_lit_10 recvPay_lit_11 sendPay_lit_11 recvPay_lit_12 sendPay_lit_12 recvPay_lit_13 sendPay_lit_13 recvPay_lit_14 sendPay_lit_14 recvPay_lit_15 sendPay_lit_15

/-! ### The protocol's four kinds of step, at offset k -/

/-- Copy k: `acc`, held at the share lent to this copy, into slot k of the device k places on, paying the one duty of
    this device's send cell k (its payload: that share) and the one duty of the target's receive cell k (its payload:
    the slot filled with this device's moments). -/
theorem wp_send_k (c n : Dev nD) (k : ℕ) (hk : k < 16) (h0 : 0 < k) (hn : n = peer c k)
    {hsc : (slotM k hk : Memref sig (Dev.tc n : Thread nD τ).2.kind .vmem S8x256 .f32).view.ref.isScScratch = false}
    {hsrc : (aM : Memref sig .tc .vmem S8x256 .f32).view.WordExact} {hdst : (slotM k hk).view.WordExact}
    {hsem : DmaTarget.Typed .vmem (.dma (recvS k hk)) (.remote (Dev.tc n : Thread nD τ) (slotM k hk) (.dma (sendS k hk)) hsc)}
    {α : Type} {Q : α → sProp 𝕄} {kont : PUnit → Prog (TpuEff nD τ sig (Elt F) Λ₀ .tc) α}
    (fn : Buf (Elt F) ((slotM k hk).view.loc (peer c k : Thread nD τ))) (W : Waits sig Unit) (O : CellTallies nD τ sig Unit) :
    iprop(cellInv ER (sched m ρ) (kS K c k hk) (sendCell c k hk) ∗ cellInv ER (sched m ρ) (kR K (peer c k) k hk) (recvCell (peer c k) k hk)
        ∗ accPts c (shr k hk) (accOf m ρ c) ∗ slotPts (peer c k) k hk fn
        ∗ owes (c : Thread nD τ) (O + tallyAt (recvCell (peer c k) k hk) () N) W
        ∗ dutyTok ER (sendCell c k hk) 0 0 ∗ reached ER (sendCell c k hk) 0
        ∗ dutyTok ER (recvCell (peer c k) k hk) 0 0 ∗ reached ER (recvCell (peer c k) k hk) 0)
      ⊢ iprop(((cred (tallyAt (sendCell c k hk) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma aM (.remote (Dev.tc n : Thread nD τ) (slotM k hk) (.dma (sendS k hk)) hsc) (.dma (recvS k hk)) hsrc hdst hsem) kont) Q) := by
  subst hn
  unfold accPts slotPts
  exact Rounds.wp_send_pointsTo 𝒱₀ ER (sched m ρ) (c : Thread nD τ) none (κ₁ := kS K c k hk) (κ₂ := kR K (peer c k) k hk)
    (r₁ := 0) (r₂ := 0) (d₁ := 0) (d₂ := 0) (fd := fn) (q := shr k hk) (fs := accOf m ρ c)
    (src := aM) (dst := slotM k hk) (c' := (peer c k : Thread nD τ))
    (by rw [duties_send m ρ c k hk h0]; exact Finset.mem_singleton_self _)
    (by rw [duties_recv m ρ (peer c k) k hk h0]; exact Finset.mem_singleton_self _)
    () () N rfl (amount_send m ρ c k hk 0) (amount_recv m ρ (peer c k) k hk 0) O rfl (W := W)
    (by rw [payload_send m ρ c k hk h0, sendPay_eq m ρ c k hk]; exact BI.Entails.refl _)
    (by
      rw [payload_recv m ρ (peer c k) k hk h0, recvPay_eq m ρ (peer c k) k hk]
      have h := landed_slot m ρ (peer c k) k hk fn
      rw [back_peer c k] at h
      exact Entails.of_eq h)

/-- The hypotheses the four staged inputs arrive with: each buffer holds its block as launched. -/
theorem before_in (c : Dev nD) (w : Fin 5) (hw : (cfg0.win w).fetch t₀ = true) (d) :
    (dats m ρ 0 c).before w t₀ d = (dats m ρ 0 c).fetched w t₀ d := by
  unfold Dat.before; rw [if_pos hw]

/-- Signal k: one unit to the barrier cell of the device k places on, paying its duty k; handed over: this device's
    slot (16 − k), over whatever it holds, and that the slot's receive cell is open. -/
theorem wp_sig_k (c n : Dev nD) (k : ℕ) (hk : k < 16) (h0 : 0 < k) (hn : n = peer c k)
    {α : Type} {Q : α → sProp 𝕄} {kont : PUnit → Prog (TpuEff nD τ sig (Elt F) Λ₀ .tc) α}
    (f : Buf (Elt F) ((slotM (16 - k) (sub_lt16 k h0)).view.loc (c : Thread nD τ))) (W : Waits sig Unit) (O : CellTallies nD τ sig Unit) :
    iprop(cellInv ER (sched m ρ) (kB K (peer c k)) (barCell (peer c k))
        ∗ owes (c : Thread nD τ) (O + tallyAt (barCell (peer c k)) () 1) W
        ∗ dutyTok ER (barCell (peer c k)) 0 ⟨k, hk⟩
        ∗ slotPts c (16 - k) (sub_lt16 k h0) f ∗ reached ER (recvCell c (16 - k) (sub_lt16 k h0)) 0
        ∗ reached ER (barCell (peer c k)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  iintro ⟨#HI, HO, Ht, Hs, #Hr, #Hrb⟩
  iapply (Rounds.wp_signal 𝒱₀ ER (sched m ρ) (c : Thread nD τ) none (dst := (peer c k : Thread nD τ)) (κ := kB K (peer c k))
      (d := (⟨k, hk⟩ : Fin 16)) (by rw [duties_bar]; exact Finset.mem_erase.mpr ⟨fun h => by have := congrArg Fin.val h; simp at this; omega, Finset.mem_univ _⟩)
      (amount_bar m ρ (peer c k) ⟨k, hk⟩) () O rfl)
  isplitr; · iexact HI
  isplitl [HO]; · iexact HO
  isplitl [Ht]; · iexact Ht
  isplitl [Hs]
  · rw [payload_bar m ρ (peer c k) ⟨k, hk⟩ (fun h => by have := congrArg Fin.val h; simp at this; omega), barPay_out c k hk h0]
    isplitl [Hs]; · iexists f; iexact Hs
    iexact Hr
  · iexact Hrb

/-- The wait on receive cell k, owing nothing: slot k comes back holding the moments of the device k places back. -/
theorem wp_recvwait_k (c : Dev nD) (k : ℕ) (hk : k < 16) (h0 : 0 < k)
    {hsrc : (aM : Memref sig .tc .vmem S8x256 .f32).view.WordExact} {hdst : (slotM k hk).view.WordExact}
    {α : Type} {Q : α → sProp 𝕄} {kont : PUnit → Prog (TpuEff nD τ sig (Elt F) Λ₀ .tc) α} (W : Waits sig Unit) :
    iprop(cellInv ER (sched m ρ) (kR K c k hk) (recvCell c k hk) ∗ cred (tallyAt (recvCell c k hk) () N)
        ∗ owes (c : Thread nD τ) 0 W ∗ atPos ER (recvCell c k hk) 0 ∅ 0)
      ⊢ iprop(((owes (c : Thread nD τ) 0 (insert (SemLoc.dma (recvS k hk), ()) W) ∗ atPos ER (recvCell c k hk) 1 ∅ 0 ∗ slotPts c k hk (landed m ρ c k))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k hk) aM (slotM k hk) hsrc hdst) kont) Q) := by
  iintro ⟨#HI, Hc, HO, Hat⟩ Hk
  iapply (Rounds.wp_wait_rest_token 𝒱₀ ER (sched m ρ) (c : Thread nD τ) none (κ := kR K c k hk)
      (wpE_waitDma2_eq 𝒱₀ (c : Thread nD τ) none Set.univ) (Set.mem_univ _) () (O := 0) (W := W) (R := 0) (m := 0) (T := ∅)
      (by rw [Nat.zero_add, expect_recv m ρ c k hk h0])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_recv m ρ c k hk h0).trans (recvPay_eq m ρ c k hk))) $$ Hpay
  iapply Hk
  isplitl [HO]; · iexact HO
  isplitl [Hat]; · iexact Hat
  iexact Hp

/-- The wait on send cell k, owing nothing: the share of `acc` lent to copy k comes back. -/
theorem wp_sendwait_k (c : Dev nD) (k : ℕ) (hk : k < 16) (h0 : 0 < k)
    {hsrc : (slotM k hk).view.WordExact} {hdst : (aM : Memref sig .tc .vmem S8x256 .f32).view.WordExact}
    {α : Type} {Q : α → sProp 𝕄} {kont : PUnit → Prog (TpuEff nD τ sig (Elt F) Λ₀ .tc) α} (W : Waits sig Unit) :
    iprop(cellInv ER (sched m ρ) (kS K c k hk) (sendCell c k hk) ∗ cred (tallyAt (sendCell c k hk) () N)
        ∗ owes (c : Thread nD τ) 0 W ∗ atPos ER (sendCell c k hk) 0 ∅ 0)
      ⊢ iprop(((owes (c : Thread nD τ) 0 (insert (SemLoc.dma (sendS k hk), ()) W) ∗ atPos ER (sendCell c k hk) 1 ∅ 0 ∗ accPts c (shr k hk) (accOf m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k hk) (slotM k hk) aM hsrc hdst) kont) Q) := by
  iintro ⟨#HI, Hc, HO, Hat⟩ Hk
  iapply (Rounds.wp_wait_rest_token 𝒱₀ ER (sched m ρ) (c : Thread nD τ) none (κ := kS K c k hk)
      (wpE_waitDma2_eq 𝒱₀ (c : Thread nD τ) none Set.univ) (Set.mem_univ _) () (O := 0) (W := W) (R := 0) (m := 0) (T := ∅)
      (by rw [Nat.zero_add, expect_send m ρ c k hk h0])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_send m ρ c k hk h0).trans (sendPay_eq m ρ c k hk))) $$ Hpay
  iapply Hk
  isplitl [HO]; · iexact HO
  isplitl [Hat]; · iexact Hat
  iexact Hp

set_option maxHeartbeats 16000000 in
set_option maxRecDepth 65536 in
/-- The body, from `bodyPre` to `bodyPost` (under an update: the thirty cells are closed at the end). -/
theorem sound_body (c : Dev nD) :
    bodyPre m ρ K c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3)
          (fun _ => iprop(|={Set.univ}[frame]=> bodyPost m ρ c)) := by
  unfold bodyPre ghost ghostK scr recvCreds
  iintro ⟨⟨⟨#HIbar, HatB, ⟨#HIs1, #HIr1, #HIbp1, #HIrp1, HatS1, HatR1, #HrBp1, #HrRp1, #HrS1, #HrR1, HtB1, HtRp1, HtS1⟩, ⟨#HIs2, #HIr2, #HIbp2, #HIrp2, HatS2, HatR2, #HrBp2, #HrRp2, #HrS2, #HrR2, HtB2, HtRp2, HtS2⟩, ⟨#HIs3, #HIr3, #HIbp3, #HIrp3, HatS3, HatR3, #HrBp3, #HrRp3, #HrS3, #HrR3, HtB3, HtRp3, HtS3⟩, ⟨#HIs4, #HIr4, #HIbp4, #HIrp4, HatS4, HatR4, #HrBp4, #HrRp4, #HrS4, #HrR4, HtB4, HtRp4, HtS4⟩, ⟨#HIs5, #HIr5, #HIbp5, #HIrp5, HatS5, HatR5, #HrBp5, #HrRp5, #HrS5, #HrR5, HtB5, HtRp5, HtS5⟩, ⟨#HIs6, #HIr6, #HIbp6, #HIrp6, HatS6, HatR6, #HrBp6, #HrRp6, #HrS6, #HrR6, HtB6, HtRp6, HtS6⟩, ⟨#HIs7, #HIr7, #HIbp7, #HIrp7, HatS7, HatR7, #HrBp7, #HrRp7, #HrS7, #HrR7, HtB7, HtRp7, HtS7⟩, ⟨#HIs8, #HIr8, #HIbp8, #HIrp8, HatS8, HatR8, #HrBp8, #HrRp8, #HrS8, #HrR8, HtB8, HtRp8, HtS8⟩, ⟨#HIs9, #HIr9, #HIbp9, #HIrp9, HatS9, HatR9, #HrBp9, #HrRp9, #HrS9, #HrR9, HtB9, HtRp9, HtS9⟩, ⟨#HIs10, #HIr10, #HIbp10, #HIrp10, HatS10, HatR10, #HrBp10, #HrRp10, #HrS10, #HrR10, HtB10, HtRp10, HtS10⟩, ⟨#HIs11, #HIr11, #HIbp11, #HIrp11, HatS11, HatR11, #HrBp11, #HrRp11, #HrS11, #HrR11, HtB11, HtRp11, HtS11⟩, ⟨#HIs12, #HIr12, #HIbp12, #HIrp12, HatS12, HatR12, #HrBp12, #HrRp12, #HrS12, #HrR12, HtB12, HtRp12, HtS12⟩, ⟨#HIs13, #HIr13, #HIbp13, #HIrp13, HatS13, HatR13, #HrBp13, #HrRp13, #HrS13, #HrR13, HtB13, HtRp13, HtS13⟩, ⟨#HIs14, #HIr14, #HIbp14, #HIrp14, HatS14, HatR14, #HrBp14, #HrRp14, #HrS14, #HrR14, HtB14, HtRp14, HtS14⟩, ⟨#HIs15, #HIr15, #HIbp15, #HIrp15, HatS15, HatR15, #HrBp15, #HrRp15, #HrS15, #HrR15, HtB15, HtRp15, HtS15⟩⟩, HcB, ⟨Hcr1, Hcr2, Hcr3, Hcr4, Hcr5, Hcr6, Hcr7, Hcr8, Hcr9, Hcr10, Hcr11, Hcr12, Hcr13, Hcr14, Hcr15⟩, #Hlev, ⟨⟨%fa, Hacc⟩, ⟨%fr, Hrecv⟩⟩, Hs0, Hr0⟩, Ho, ⟨%d0, %g0, %hg0, Hx⟩, ⟨%d1, %g1, %hg1, Ht⟩, ⟨%d2, %g2, %hg2, Hws⟩, ⟨%d3, %g3, %hg3, Hwh⟩, ⟨%d4, %g4, %hg4, Hout⟩⟩
  have hx : g0 = xstg m ρ c := by rw [hg0]; unfold Dat.before; rw [if_pos (by rfl)]; rfl
  have ht : g1 = tstg m ρ c := by rw [hg1]; unfold Dat.before; rw [if_pos (by rfl)]; rfl
  have hws : g2 = wsstg m ρ c := by rw [hg2]; unfold Dat.before; rw [if_pos (by rfl)]; rfl
  have hwh : g3 = whstg m ρ c := by rw [hg3]; unfold Dat.before; rw [if_pos (by rfl)]; rfl
  subst hx ht hws hwh
  ihave Hxv := (Entails.of_eq (xPts_eq c _).symm) $$ Hx
  ihave Htv := (Entails.of_eq (tPts_eq c _).symm) $$ Ht
  ihave Hwsv := (Entails.of_eq (wsPts_eq c _).symm) $$ Hws
  ihave Hwhv := (Entails.of_eq (whPts_eq c _).symm) $$ Hwh
  ihave Houtv := (Entails.of_eq (oPts_eq c g4).symm) $$ Hout
  ihave Haccv := (Entails.of_eq (acc_whole_eq c fullShare fa).symm) $$ Hacc
  ihave Hsl := (recv_split_rev c fr).1 $$ Hrecv
  icases Hsl with ⟨Hsl15, Hsl14, Hsl13, Hsl12, Hsl11, Hsl10, Hsl9, Hsl8, Hsl7, Hsl6, Hsl5, Hsl4, Hsl3, Hsl2, Hsl1, Hsl0⟩
  unfold xPts tPts wsPts whPts oPts accPts slotPts
  unfold Dat.owesAt Pipeline.owesWithin
  icases Ho with ⟨%W, %hW, HO⟩
  rw [show (dats m ρ 0 c).owed t₀.castSucc = O₀ c from rfl]
  have hOexp : O₀ c = (0 : CellTallies nD τ sig Unit) + tallyAt (recvCell (peer c 15) 15 (of_decide_eq_true (Eq.refl true))) () N + tallyAt (recvCell (peer c 14) 14 (of_decide_eq_true (Eq.refl true))) () N + tallyAt (recvCell (peer c 13) 13 (of_decide_eq_true (Eq.refl true))) () N + tallyAt (recvCell (peer c 12) 12 (of_decide_eq_true (Eq.refl true))) () N + tallyAt (recvCell (peer c 11) 11 (of_decide_eq_true (Eq.refl true))) () N + tallyAt (recvCell (peer c 10) 10 (of_decide_eq_true (Eq.refl true))) () N + tallyAt (recvCell (peer c 9) 9 (of_decide_eq_true (Eq.refl true))) () N + tallyAt (recvCell (peer c 8) 8 (of_decide_eq_true (Eq.refl true))) () N + tallyAt (recvCell (peer c 7) 7 (of_decide_eq_true (Eq.refl true))) () N + tallyAt (recvCell (peer c 6) 6 (of_decide_eq_true (Eq.refl true))) () N + tallyAt (recvCell (peer c 5) 5 (of_decide_eq_true (Eq.refl true))) () N + tallyAt (recvCell (peer c 4) 4 (of_decide_eq_true (Eq.refl true))) () N + tallyAt (recvCell (peer c 3) 3 (of_decide_eq_true (Eq.refl true))) () N + tallyAt (recvCell (peer c 2) 2 (of_decide_eq_true (Eq.refl true))) () N + tallyAt (recvCell (peer c 1) 1 (of_decide_eq_true (Eq.refl true))) () N + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 := rfl
  rw [hOexp]
  have hmwBar : (levAts L lv : sProp 𝕄) ⊢ MayWait (c : Thread nD τ) (.reg barS) () ((0 : CellTallies nD τ sig Unit) + tallyAt (recvCell (peer c 15) 15 (of_decide_eq_true (Eq.refl true))) () N + tallyAt (recvCell (peer c 14) 14 (of_decide_eq_true (Eq.refl true))) () N + tallyAt (recvCell (peer c 13) 13 (of_decide_eq_true (Eq.refl true))) () N + tallyAt (recvCell (peer c 12) 12 (of_decide_eq_true (Eq.refl true))) () N + tallyAt (recvCell (peer c 11) 11 (of_decide_eq_true (Eq.refl true))) () N + tallyAt (recvCell (peer c 10) 10 (of_decide_eq_true (Eq.refl true))) () N + tallyAt (recvCell (peer c 9) 9 (of_decide_eq_true (Eq.refl true))) () N + tallyAt (recvCell (peer c 8) 8 (of_decide_eq_true (Eq.refl true))) () N + tallyAt (recvCell (peer c 7) 7 (of_decide_eq_true (Eq.refl true))) () N + tallyAt (recvCell (peer c 6) 6 (of_decide_eq_true (Eq.refl true))) () N + tallyAt (recvCell (peer c 5) 5 (of_decide_eq_true (Eq.refl true))) () N + tallyAt (recvCell (peer c 4) 4 (of_decide_eq_true (Eq.refl true))) () N + tallyAt (recvCell (peer c 3) 3 (of_decide_eq_true (Eq.refl true))) () N + tallyAt (recvCell (peer c 2) 2 (of_decide_eq_true (Eq.refl true))) () N + tallyAt (recvCell (peer c 1) 1 (of_decide_eq_true (Eq.refl true))) () N) := mayWait_bar c
  have hsubC1 : (rM : Memref sig .tc .vmem S16x8x256 .f32).view.setOn (slotR 1 (of_decide_eq_true (Eq.refl true))).toLoadRect.set ⊆ (rM : Memref sig .tc .vmem S16x8x256 .f32).view.setOn (slotR 1 (of_decide_eq_true (Eq.refl true))).toLoadRect.set := Finset.Subset.refl _
  have hsubC2 : (rM : Memref sig .tc .vmem S16x8x256 .f32).view.setOn (slotR 2 (of_decide_eq_true (Eq.refl true))).toLoadRect.set ⊆ (rM : Memref sig .tc .vmem S16x8x256 .f32).view.setOn (slotR 2 (of_decide_eq_true (Eq.refl true))).toLoadRect.set := Finset.Subset.refl _
  have hsubC3 : (rM : Memref sig .tc .vmem S16x8x256 .f32).view.setOn (slotR 3 (of_decide_eq_true (Eq.refl true))).toLoadRect.set ⊆ (rM : Memref sig .tc .vmem S16x8x256 .f32).view.setOn (slotR 3 (of_decide_eq_true (Eq.refl true))).toLoadRect.set := Finset.Subset.refl _
  have hsubC4 : (rM : Memref sig .tc .vmem S16x8x256 .f32).view.setOn (slotR 4 (of_decide_eq_true (Eq.refl true))).toLoadRect.set ⊆ (rM : Memref sig .tc .vmem S16x8x256 .f32).view.setOn (slotR 4 (of_decide_eq_true (Eq.refl true))).toLoadRect.set := Finset.Subset.refl _
  have hsubC5 : (rM : Memref sig .tc .vmem S16x8x256 .f32).view.setOn (slotR 5 (of_decide_eq_true (Eq.refl true))).toLoadRect.set ⊆ (rM : Memref sig .tc .vmem S16x8x256 .f32).view.setOn (slotR 5 (of_decide_eq_true (Eq.refl true))).toLoadRect.set := Finset.Subset.refl _
  have hsubC6 : (rM : Memref sig .tc .vmem S16x8x256 .f32).view.setOn (slotR 6 (of_decide_eq_true (Eq.refl true))).toLoadRect.set ⊆ (rM : Memref sig .tc .vmem S16x8x256 .f32).view.setOn (slotR 6 (of_decide_eq_true (Eq.refl true))).toLoadRect.set := Finset.Subset.refl _
  have hsubC7 : (rM : Memref sig .tc .vmem S16x8x256 .f32).view.setOn (slotR 7 (of_decide_eq_true (Eq.refl true))).toLoadRect.set ⊆ (rM : Memref sig .tc .vmem S16x8x256 .f32).view.setOn (slotR 7 (of_decide_eq_true (Eq.refl true))).toLoadRect.set := Finset.Subset.refl _
  have hsubC8 : (rM : Memref sig .tc .vmem S16x8x256 .f32).view.setOn (slotR 8 (of_decide_eq_true (Eq.refl true))).toLoadRect.set ⊆ (rM : Memref sig .tc .vmem S16x8x256 .f32).view.setOn (slotR 8 (of_decide_eq_true (Eq.refl true))).toLoadRect.set := Finset.Subset.refl _
  have hsubC9 : (rM : Memref sig .tc .vmem S16x8x256 .f32).view.setOn (slotR 9 (of_decide_eq_true (Eq.refl true))).toLoadRect.set ⊆ (rM : Memref sig .tc .vmem S16x8x256 .f32).view.setOn (slotR 9 (of_decide_eq_true (Eq.refl true))).toLoadRect.set := Finset.Subset.refl _
  have hsubC10 : (rM : Memref sig .tc .vmem S16x8x256 .f32).view.setOn (slotR 10 (of_decide_eq_true (Eq.refl true))).toLoadRect.set ⊆ (rM : Memref sig .tc .vmem S16x8x256 .f32).view.setOn (slotR 10 (of_decide_eq_true (Eq.refl true))).toLoadRect.set := Finset.Subset.refl _
  have hsubC11 : (rM : Memref sig .tc .vmem S16x8x256 .f32).view.setOn (slotR 11 (of_decide_eq_true (Eq.refl true))).toLoadRect.set ⊆ (rM : Memref sig .tc .vmem S16x8x256 .f32).view.setOn (slotR 11 (of_decide_eq_true (Eq.refl true))).toLoadRect.set := Finset.Subset.refl _
  have hsubC12 : (rM : Memref sig .tc .vmem S16x8x256 .f32).view.setOn (slotR 12 (of_decide_eq_true (Eq.refl true))).toLoadRect.set ⊆ (rM : Memref sig .tc .vmem S16x8x256 .f32).view.setOn (slotR 12 (of_decide_eq_true (Eq.refl true))).toLoadRect.set := Finset.Subset.refl _
  have hsubC13 : (rM : Memref sig .tc .vmem S16x8x256 .f32).view.setOn (slotR 13 (of_decide_eq_true (Eq.refl true))).toLoadRect.set ⊆ (rM : Memref sig .tc .vmem S16x8x256 .f32).view.setOn (slotR 13 (of_decide_eq_true (Eq.refl true))).toLoadRect.set := Finset.Subset.refl _
  have hsubC14 : (rM : Memref sig .tc .vmem S16x8x256 .f32).view.setOn (slotR 14 (of_decide_eq_true (Eq.refl true))).toLoadRect.set ⊆ (rM : Memref sig .tc .vmem S16x8x256 .f32).view.setOn (slotR 14 (of_decide_eq_true (Eq.refl true))).toLoadRect.set := Finset.Subset.refl _
  have hsubC15 : (rM : Memref sig .tc .vmem S16x8x256 .f32).view.setOn (slotR 15 (of_decide_eq_true (Eq.refl true))).toLoadRect.set ⊆ (rM : Memref sig .tc .vmem S16x8x256 .f32).view.setOn (slotR 15 (of_decide_eq_true (Eq.refl true))).toLoadRect.set := Finset.Subset.refl _
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  -- the moments just stored are this device's
  have hacc : (aM : Memref sig .tc .vmem S8x256 .f32).view.writes (Elt F) fa (sound_body.sl.Haccv_1 m ρ c) = accOf m ρ c := by
    unfold sound_body.sl.Haccv_1
    rw [View.writes_singleton]
    refine (Memref.write_access_unit_zero_univ (Elt F) cc0_scratch0 hz2 _ _ _).trans ?_
    unfold accOf
    exact congrArg k0_pay2 (Memref.readAt_unit_zero (Elt F) cc0_stg0_0 hz3 _ _)
  rw [hacc]
  ihave Hsh := (show ((aM : Memref sig .tc .vmem S8x256 .f32).view.loc (c : Thread nD τ) ↦[(aM : Memref sig .tc .vmem S8x256 .f32).view.set]{fullShare} accOf m ρ c : sProp 𝕄) ⊢ _ from acc_split c (accOf m ρ c)) $$ Haccv
  icases Hsh with ⟨Hkeep, Hq0, Hq1, Hq2, Hq3, Hq4, Hq5, Hq6, Hq7, Hq8, Hq9, Hq10, Hq11, Hq12, Hq13, Hq14, Hq15⟩
  ihave Hbi1 := (Entails.of_eq (barPay_in_1 c)) $$ HatB_pay15
  icases Hbi1 with ⟨⟨%fp1, Hps1⟩, -⟩
  ihave Hbi2 := (Entails.of_eq (barPay_in_2 c)) $$ HatB_pay14
  icases Hbi2 with ⟨⟨%fp2, Hps2⟩, -⟩
  ihave Hbi3 := (Entails.of_eq (barPay_in_3 c)) $$ HatB_pay13
  icases Hbi3 with ⟨⟨%fp3, Hps3⟩, -⟩
  ihave Hbi4 := (Entails.of_eq (barPay_in_4 c)) $$ HatB_pay12
  icases Hbi4 with ⟨⟨%fp4, Hps4⟩, -⟩
  ihave Hbi5 := (Entails.of_eq (barPay_in_5 c)) $$ HatB_pay11
  icases Hbi5 with ⟨⟨%fp5, Hps5⟩, -⟩
  ihave Hbi6 := (Entails.of_eq (barPay_in_6 c)) $$ HatB_pay10
  icases Hbi6 with ⟨⟨%fp6, Hps6⟩, -⟩
  ihave Hbi7 := (Entails.of_eq (barPay_in_7 c)) $$ HatB_pay9
  icases Hbi7 with ⟨⟨%fp7, Hps7⟩, -⟩
  ihave Hbi8 := (Entails.of_eq (barPay_in_8 c)) $$ HatB_pay8
  icases Hbi8 with ⟨⟨%fp8, Hps8⟩, -⟩
  ihave Hbi9 := (Entails.of_eq (barPay_in_9 c)) $$ HatB_pay7
  icases Hbi9 with ⟨⟨%fp9, Hps9⟩, -⟩
  ihave Hbi10 := (Entails.of_eq (barPay_in_10 c)) $$ HatB_pay6
  icases Hbi10 with ⟨⟨%fp10, Hps10⟩, -⟩
  ihave Hbi11 := (Entails.of_eq (barPay_in_11 c)) $$ HatB_pay5
  icases Hbi11 with ⟨⟨%fp11, Hps11⟩, -⟩
  ihave Hbi12 := (Entails.of_eq (barPay_in_12 c)) $$ HatB_pay4
  icases Hbi12 with ⟨⟨%fp12, Hps12⟩, -⟩
  ihave Hbi13 := (Entails.of_eq (barPay_in_13 c)) $$ HatB_pay3
  icases Hbi13 with ⟨⟨%fp13, Hps13⟩, -⟩
  ihave Hbi14 := (Entails.of_eq (barPay_in_14 c)) $$ HatB_pay2
  icases Hbi14 with ⟨⟨%fp14, Hps14⟩, -⟩
  ihave Hbi15 := (Entails.of_eq (barPay_in_15 c)) $$ HatB_pay1
  icases Hbi15 with ⟨⟨%fp15, Hps15⟩, -⟩
  iapply (wp_send_k m ρ K c _ 1 (of_decide_eq_true (Eq.refl true)) (by decide) rfl fp1 _ _) $$ [Hq1 Hps1 HO HtS1 HtRp1]
  · isplitr; · iexact HIs1
    isplitr; · iexact HIrp1
    isplitl [Hq1]; · iexact Hq1
    isplitl [Hps1]; · unfold slotPts; iexact Hps1
    isplitl [HO]; · iexact HO
    isplitl [HtS1]; · iexact HtS1
    isplitr; · iexact HrS1
    isplitl [HtRp1]; · iexact HtRp1
    iexact HrRp1
  iintro ⟨HcS1, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 2 (of_decide_eq_true (Eq.refl true)) (by decide) rfl fp2 _ _) $$ [Hq2 Hps2 HO HtS2 HtRp2]
  · isplitr; · iexact HIs2
    isplitr; · iexact HIrp2
    isplitl [Hq2]; · iexact Hq2
    isplitl [Hps2]; · unfold slotPts; iexact Hps2
    isplitl [HO]; · iexact HO
    isplitl [HtS2]; · iexact HtS2
    isplitr; · iexact HrS2
    isplitl [HtRp2]; · iexact HtRp2
    iexact HrRp2
  iintro ⟨HcS2, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 3 (of_decide_eq_true (Eq.refl true)) (by decide) rfl fp3 _ _) $$ [Hq3 Hps3 HO HtS3 HtRp3]
  · isplitr; · iexact HIs3
    isplitr; · iexact HIrp3
    isplitl [Hq3]; · iexact Hq3
    isplitl [Hps3]; · unfold slotPts; iexact Hps3
    isplitl [HO]; · iexact HO
    isplitl [HtS3]; · iexact HtS3
    isplitr; · iexact HrS3
    isplitl [HtRp3]; · iexact HtRp3
    iexact HrRp3
  iintro ⟨HcS3, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 4 (of_decide_eq_true (Eq.refl true)) (by decide) rfl fp4 _ _) $$ [Hq4 Hps4 HO HtS4 HtRp4]
  · isplitr; · iexact HIs4
    isplitr; · iexact HIrp4
    isplitl [Hq4]; · iexact Hq4
    isplitl [Hps4]; · unfold slotPts; iexact Hps4
    isplitl [HO]; · iexact HO
    isplitl [HtS4]; · iexact HtS4
    isplitr; · iexact HrS4
    isplitl [HtRp4]; · iexact HtRp4
    iexact HrRp4
  iintro ⟨HcS4, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 5 (of_decide_eq_true (Eq.refl true)) (by decide) rfl fp5 _ _) $$ [Hq5 Hps5 HO HtS5 HtRp5]
  · isplitr; · iexact HIs5
    isplitr; · iexact HIrp5
    isplitl [Hq5]; · iexact Hq5
    isplitl [Hps5]; · unfold slotPts; iexact Hps5
    isplitl [HO]; · iexact HO
    isplitl [HtS5]; · iexact HtS5
    isplitr; · iexact HrS5
    isplitl [HtRp5]; · iexact HtRp5
    iexact HrRp5
  iintro ⟨HcS5, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 6 (of_decide_eq_true (Eq.refl true)) (by decide) rfl fp6 _ _) $$ [Hq6 Hps6 HO HtS6 HtRp6]
  · isplitr; · iexact HIs6
    isplitr; · iexact HIrp6
    isplitl [Hq6]; · iexact Hq6
    isplitl [Hps6]; · unfold slotPts; iexact Hps6
    isplitl [HO]; · iexact HO
    isplitl [HtS6]; · iexact HtS6
    isplitr; · iexact HrS6
    isplitl [HtRp6]; · iexact HtRp6
    iexact HrRp6
  iintro ⟨HcS6, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 7 (of_decide_eq_true (Eq.refl true)) (by decide) rfl fp7 _ _) $$ [Hq7 Hps7 HO HtS7 HtRp7]
  · isplitr; · iexact HIs7
    isplitr; · iexact HIrp7
    isplitl [Hq7]; · iexact Hq7
    isplitl [Hps7]; · unfold slotPts; iexact Hps7
    isplitl [HO]; · iexact HO
    isplitl [HtS7]; · iexact HtS7
    isplitr; · iexact HrS7
    isplitl [HtRp7]; · iexact HtRp7
    iexact HrRp7
  iintro ⟨HcS7, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 8 (of_decide_eq_true (Eq.refl true)) (by decide) rfl fp8 _ _) $$ [Hq8 Hps8 HO HtS8 HtRp8]
  · isplitr; · iexact HIs8
    isplitr; · iexact HIrp8
    isplitl [Hq8]; · iexact Hq8
    isplitl [Hps8]; · unfold slotPts; iexact Hps8
    isplitl [HO]; · iexact HO
    isplitl [HtS8]; · iexact HtS8
    isplitr; · iexact HrS8
    isplitl [HtRp8]; · iexact HtRp8
    iexact HrRp8
  iintro ⟨HcS8, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 9 (of_decide_eq_true (Eq.refl true)) (by decide) rfl fp9 _ _) $$ [Hq9 Hps9 HO HtS9 HtRp9]
  · isplitr; · iexact HIs9
    isplitr; · iexact HIrp9
    isplitl [Hq9]; · iexact Hq9
    isplitl [Hps9]; · unfold slotPts; iexact Hps9
    isplitl [HO]; · iexact HO
    isplitl [HtS9]; · iexact HtS9
    isplitr; · iexact HrS9
    isplitl [HtRp9]; · iexact HtRp9
    iexact HrRp9
  iintro ⟨HcS9, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 10 (of_decide_eq_true (Eq.refl true)) (by decide) rfl fp10 _ _) $$ [Hq10 Hps10 HO HtS10 HtRp10]
  · isplitr; · iexact HIs10
    isplitr; · iexact HIrp10
    isplitl [Hq10]; · iexact Hq10
    isplitl [Hps10]; · unfold slotPts; iexact Hps10
    isplitl [HO]; · iexact HO
    isplitl [HtS10]; · iexact HtS10
    isplitr; · iexact HrS10
    isplitl [HtRp10]; · iexact HtRp10
    iexact HrRp10
  iintro ⟨HcS10, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 11 (of_decide_eq_true (Eq.refl true)) (by decide) rfl fp11 _ _) $$ [Hq11 Hps11 HO HtS11 HtRp11]
  · isplitr; · iexact HIs11
    isplitr; · iexact HIrp11
    isplitl [Hq11]; · iexact Hq11
    isplitl [Hps11]; · unfold slotPts; iexact Hps11
    isplitl [HO]; · iexact HO
    isplitl [HtS11]; · iexact HtS11
    isplitr; · iexact HrS11
    isplitl [HtRp11]; · iexact HtRp11
    iexact HrRp11
  iintro ⟨HcS11, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 12 (of_decide_eq_true (Eq.refl true)) (by decide) rfl fp12 _ _) $$ [Hq12 Hps12 HO HtS12 HtRp12]
  · isplitr; · iexact HIs12
    isplitr; · iexact HIrp12
    isplitl [Hq12]; · iexact Hq12
    isplitl [Hps12]; · unfold slotPts; iexact Hps12
    isplitl [HO]; · iexact HO
    isplitl [HtS12]; · iexact HtS12
    isplitr; · iexact HrS12
    isplitl [HtRp12]; · iexact HtRp12
    iexact HrRp12
  iintro ⟨HcS12, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 13 (of_decide_eq_true (Eq.refl true)) (by decide) rfl fp13 _ _) $$ [Hq13 Hps13 HO HtS13 HtRp13]
  · isplitr; · iexact HIs13
    isplitr; · iexact HIrp13
    isplitl [Hq13]; · iexact Hq13
    isplitl [Hps13]; · unfold slotPts; iexact Hps13
    isplitl [HO]; · iexact HO
    isplitl [HtS13]; · iexact HtS13
    isplitr; · iexact HrS13
    isplitl [HtRp13]; · iexact HtRp13
    iexact HrRp13
  iintro ⟨HcS13, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 14 (of_decide_eq_true (Eq.refl true)) (by decide) rfl fp14 _ _) $$ [Hq14 Hps14 HO HtS14 HtRp14]
  · isplitr; · iexact HIs14
    isplitr; · iexact HIrp14
    isplitl [Hq14]; · iexact Hq14
    isplitl [Hps14]; · unfold slotPts; iexact Hps14
    isplitl [HO]; · iexact HO
    isplitl [HtS14]; · iexact HtS14
    isplitr; · iexact HrS14
    isplitl [HtRp14]; · iexact HtRp14
    iexact HrRp14
  iintro ⟨HcS14, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 15 (of_decide_eq_true (Eq.refl true)) (by decide) rfl fp15 _ _) $$ [Hq15 Hps15 HO HtS15 HtRp15]
  · isplitr; · iexact HIs15
    isplitr; · iexact HIrp15
    isplitl [Hq15]; · iexact Hq15
    isplitl [Hps15]; · unfold slotPts; iexact Hps15
    isplitl [HO]; · iexact HO
    isplitl [HtS15]; · iexact HtS15
    isplitr; · iexact HrS15
    isplitl [HtRp15]; · iexact HtRp15
    iexact HrRp15
  iintro ⟨HcS15, HO⟩
  unfold accPts
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  -- the fifteen slots are read through the receive buffer's own memref, each under its rectangle
  iapply (wp_load 𝒱₀ (c : Thread nD τ) none Set.univ (m := rM) hsubC1) $$ HatR1_pay1; iintro HatR1_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC2) $$ HatR2_pay1; iintro HatR2_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC3) $$ HatR3_pay1; iintro HatR3_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC4) $$ HatR4_pay1; iintro HatR4_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC5) $$ HatR5_pay1; iintro HatR5_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC6) $$ HatR6_pay1; iintro HatR6_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC7) $$ HatR7_pay1; iintro HatR7_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC8) $$ HatR8_pay1; iintro HatR8_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC9) $$ HatR9_pay1; iintro HatR9_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC10) $$ HatR10_pay1; iintro HatR10_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC11) $$ HatR11_pay1; iintro HatR11_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC12) $$ HatR12_pay1; iintro HatR12_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC13) $$ HatR13_pay1; iintro HatR13_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC14) $$ HatR14_pay1; iintro HatR14_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC15) $$ HatR15_pay1; iintro HatR15_pay1
  first | rw [prog_ret_bind] | skip
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  sl_unfold_words
  have htot : (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15))) = totOf m ρ c := by
    rw [read_a, read_landed m ρ c 1 (of_decide_eq_true (Eq.refl true)), read_landed m ρ c 2 (of_decide_eq_true (Eq.refl true)), read_landed m ρ c 3 (of_decide_eq_true (Eq.refl true)), read_landed m ρ c 4 (of_decide_eq_true (Eq.refl true)), read_landed m ρ c 5 (of_decide_eq_true (Eq.refl true)), read_landed m ρ c 6 (of_decide_eq_true (Eq.refl true)), read_landed m ρ c 7 (of_decide_eq_true (Eq.refl true)), read_landed m ρ c 8 (of_decide_eq_true (Eq.refl true)), read_landed m ρ c 9 (of_decide_eq_true (Eq.refl true)), read_landed m ρ c 10 (of_decide_eq_true (Eq.refl true)), read_landed m ρ c 11 (of_decide_eq_true (Eq.refl true)), read_landed m ρ c 12 (of_decide_eq_true (Eq.refl true)), read_landed m ρ c 13 (of_decide_eq_true (Eq.refl true)), read_landed m ρ c 14 (of_decide_eq_true (Eq.refl true)), read_landed m ρ c 15 (of_decide_eq_true (Eq.refl true))]
    exact (totOf_unfold m ρ c).symm
  have hfo : (oM : Memref sig .tc .vmem S4x256x128 .f32).view.writes (Elt F) g4
      [⟨Rect.unit (s := S4x256x128) ![3, 0, 0] S1x256x128.size inb_S4x256x128_S1x256x128_3_0_0, k0_pay14 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay8 (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15)))) (k0_pay9 (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))))⟩,
       ⟨Rect.unit (s := S4x256x128) ![2, 0, 0] S1x256x128.size inb_S4x256x128_S1x256x128_2_0_0, k0_pay13 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay8 (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15)))) (k0_pay9 (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))))⟩,
       ⟨Rect.unit (s := S4x256x128) ![1, 0, 0] S1x256x128.size inb_S4x256x128_S1x256x128_1_0_0, k0_pay12 (k0_pay11 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15))))⟩,
       ⟨Rect.unit (s := S4x256x128) ![0, 0, 0] S1x256x128.size inb_S4x256x128_S1x256x128_0_0_0, k0_pay10 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15)))⟩] = outAt m ρ c := by
    rw [htot, read_x, read_t, read_ws, read_wh]
    exact out_writes c g4 (xstg m ρ c) (tstg m ρ c) (wsstg m ρ c) (whstg m ρ c) (totOf m ρ c)
  ihave Hx := (show ((xM : Memref sig .tc .vmem S4x256x128 .f32).view.loc (c : Thread nD τ) ↦[(xM : Memref sig .tc .vmem S4x256x128 .f32).view.set]{fullShare} xstg m ρ c : sProp 𝕄) ⊢ _ from Entails.of_eq (xPts_eq c (xstg m ρ c))) $$ Hxv
  ihave Ht := (show ((tM : Memref sig .tc .vmem S4x128 .f32).view.loc (c : Thread nD τ) ↦[(tM : Memref sig .tc .vmem S4x128 .f32).view.set]{fullShare} tstg m ρ c : sProp 𝕄) ⊢ _ from Entails.of_eq (tPts_eq c (tstg m ρ c))) $$ Htv
  ihave Hws := (show ((wsM : Memref sig .tc .vmem S128x128 .f32).view.loc (c : Thread nD τ) ↦[(wsM : Memref sig .tc .vmem S128x128 .f32).view.set]{fullShare} wsstg m ρ c : sProp 𝕄) ⊢ _ from Entails.of_eq (wsPts_eq c (wsstg m ρ c))) $$ Hwsv
  ihave Hwh := (show ((whM : Memref sig .tc .vmem S128x128 .f32).view.loc (c : Thread nD τ) ↦[(whM : Memref sig .tc .vmem S128x128 .f32).view.set]{fullShare} whstg m ρ c : sProp 𝕄) ⊢ _ from Entails.of_eq (whPts_eq c (whstg m ρ c))) $$ Hwhv
  ihave Hout := (show ((oM : Memref sig .tc .vmem S4x256x128 .f32).view.loc (c : Thread nD τ) ↦[(oM : Memref sig .tc .vmem S4x256x128 .f32).view.set]{fullShare} _ : sProp 𝕄) ⊢ _ from Entails.of_eq (oPts_eq c _)) $$ Houtv
  first | iapply (le_wp_ret _ _ _ _ _) | (rw [wp_ret]; imodintro)
  unfold bodyPost
  iapply (finish m ρ K c _ fr _ hfo)
  unfold finalHeld
  isplitr; · iexact HIs1
  isplitr; · iexact HIr1
  isplitl [HatS1]; · iexact HatS1
  isplitl [HatR1]; · iexact HatR1
  isplitl [HatS1_pay1]; · unfold accPts; iexact HatS1_pay1
  isplitl [HatR1_pay1]; · iapply (slot_fold c 1 (of_decide_eq_true (Eq.refl true)) _); iexact HatR1_pay1
  isplitr; · iexact HIs2
  isplitr; · iexact HIr2
  isplitl [HatS2]; · iexact HatS2
  isplitl [HatR2]; · iexact HatR2
  isplitl [HatS2_pay1]; · unfold accPts; iexact HatS2_pay1
  isplitl [HatR2_pay1]; · iapply (slot_fold c 2 (of_decide_eq_true (Eq.refl true)) _); iexact HatR2_pay1
  isplitr; · iexact HIs3
  isplitr; · iexact HIr3
  isplitl [HatS3]; · iexact HatS3
  isplitl [HatR3]; · iexact HatR3
  isplitl [HatS3_pay1]; · unfold accPts; iexact HatS3_pay1
  isplitl [HatR3_pay1]; · iapply (slot_fold c 3 (of_decide_eq_true (Eq.refl true)) _); iexact HatR3_pay1
  isplitr; · iexact HIs4
  isplitr; · iexact HIr4
  isplitl [HatS4]; · iexact HatS4
  isplitl [HatR4]; · iexact HatR4
  isplitl [HatS4_pay1]; · unfold accPts; iexact HatS4_pay1
  isplitl [HatR4_pay1]; · iapply (slot_fold c 4 (of_decide_eq_true (Eq.refl true)) _); iexact HatR4_pay1
  isplitr; · iexact HIs5
  isplitr; · iexact HIr5
  isplitl [HatS5]; · iexact HatS5
  isplitl [HatR5]; · iexact HatR5
  isplitl [HatS5_pay1]; · unfold accPts; iexact HatS5_pay1
  isplitl [HatR5_pay1]; · iapply (slot_fold c 5 (of_decide_eq_true (Eq.refl true)) _); iexact HatR5_pay1
  isplitr; · iexact HIs6
  isplitr; · iexact HIr6
  isplitl [HatS6]; · iexact HatS6
  isplitl [HatR6]; · iexact HatR6
  isplitl [HatS6_pay1]; · unfold accPts; iexact HatS6_pay1
  isplitl [HatR6_pay1]; · iapply (slot_fold c 6 (of_decide_eq_true (Eq.refl true)) _); iexact HatR6_pay1
  isplitr; · iexact HIs7
  isplitr; · iexact HIr7
  isplitl [HatS7]; · iexact HatS7
  isplitl [HatR7]; · iexact HatR7
  isplitl [HatS7_pay1]; · unfold accPts; iexact HatS7_pay1
  isplitl [HatR7_pay1]; · iapply (slot_fold c 7 (of_decide_eq_true (Eq.refl true)) _); iexact HatR7_pay1
  isplitr; · iexact HIs8
  isplitr; · iexact HIr8
  isplitl [HatS8]; · iexact HatS8
  isplitl [HatR8]; · iexact HatR8
  isplitl [HatS8_pay1]; · unfold accPts; iexact HatS8_pay1
  isplitl [HatR8_pay1]; · iapply (slot_fold c 8 (of_decide_eq_true (Eq.refl true)) _); iexact HatR8_pay1
  isplitr; · iexact HIs9
  isplitr; · iexact HIr9
  isplitl [HatS9]; · iexact HatS9
  isplitl [HatR9]; · iexact HatR9
  isplitl [HatS9_pay1]; · unfold accPts; iexact HatS9_pay1
  isplitl [HatR9_pay1]; · iapply (slot_fold c 9 (of_decide_eq_true (Eq.refl true)) _); iexact HatR9_pay1
  isplitr; · iexact HIs10
  isplitr; · iexact HIr10
  isplitl [HatS10]; · iexact HatS10
  isplitl [HatR10]; · iexact HatR10
  isplitl [HatS10_pay1]; · unfold accPts; iexact HatS10_pay1
  isplitl [HatR10_pay1]; · iapply (slot_fold c 10 (of_decide_eq_true (Eq.refl true)) _); iexact HatR10_pay1
  isplitr; · iexact HIs11
  isplitr; · iexact HIr11
  isplitl [HatS11]; · iexact HatS11
  isplitl [HatR11]; · iexact HatR11
  isplitl [HatS11_pay1]; · unfold accPts; iexact HatS11_pay1
  isplitl [HatR11_pay1]; · iapply (slot_fold c 11 (of_decide_eq_true (Eq.refl true)) _); iexact HatR11_pay1
  isplitr; · iexact HIs12
  isplitr; · iexact HIr12
  isplitl [HatS12]; · iexact HatS12
  isplitl [HatR12]; · iexact HatR12
  isplitl [HatS12_pay1]; · unfold accPts; iexact HatS12_pay1
  isplitl [HatR12_pay1]; · iapply (slot_fold c 12 (of_decide_eq_true (Eq.refl true)) _); iexact HatR12_pay1
  isplitr; · iexact HIs13
  isplitr; · iexact HIr13
  isplitl [HatS13]; · iexact HatS13
  isplitl [HatR13]; · iexact HatR13
  isplitl [HatS13_pay1]; · unfold accPts; iexact HatS13_pay1
  isplitl [HatR13_pay1]; · iapply (slot_fold c 13 (of_decide_eq_true (Eq.refl true)) _); iexact HatR13_pay1
  isplitr; · iexact HIs14
  isplitr; · iexact HIr14
  isplitl [HatS14]; · iexact HatS14
  isplitl [HatR14]; · iexact HatR14
  isplitl [HatS14_pay1]; · unfold accPts; iexact HatS14_pay1
  isplitl [HatR14_pay1]; · iapply (slot_fold c 14 (of_decide_eq_true (Eq.refl true)) _); iexact HatR14_pay1
  isplitr; · iexact HIs15
  isplitr; · iexact HIr15
  isplitl [HatS15]; · iexact HatS15
  isplitl [HatR15]; · iexact HatR15
  isplitl [HatS15_pay1]; · unfold accPts; iexact HatS15_pay1
  isplitl [HatR15_pay1]; · iapply (slot_fold c 15 (of_decide_eq_true (Eq.refl true)) _); iexact HatR15_pay1
  isplitl [Hkeep]; · unfold accPts; iexact Hkeep
  isplitl [Hq0]; · unfold accPts; iexact Hq0
  isplitl [Hsl0]; · unfold hold0; iexact Hsl0
  isplitl [Hs0]; · iexact Hs0
  isplitl [Hr0]; · iexact Hr0
  isplitl [HO]; · iexact HO
  isplitl [Hx]; · iexact Hx
  isplitl [Ht]; · iexact Ht
  isplitl [Hws]; · iexact Hws
  isplitl [Hwh]; · iexact Hwh
  iexact Hout

end Body

/-! ### The library's body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 16000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3) (fun _ => bodyPost m ρ c)
  refine BIBase.Entails.trans ?_ (wp_fupd _ _ _ _ _)
  unfold bodyPre' Φ₀ start
  iintro ⟨⟨⟨⟨%K, Hg⟩, Hrest⟩, Hscr, Hs0, Hr0⟩, Ho, Hx, Ht, Hws, Hwh, Hout⟩
  iapply (sound_body m ρ K c)
  unfold bodyPre
  isplitl [Hg Hrest Hscr Hs0 Hr0]
  · isplitl [Hg]; · iexact Hg
    icases Hrest with ⟨H1, H2, H3⟩
    isplitl [H1]; · iexact H1
    isplitl [H2]; · iexact H2
    isplitl [H3]; · iexact H3
    isplitl [Hscr]; · iexact Hscr
    isplitl [Hs0] <;> iassumption
  isplitl [Ho]; · iexact Ho
  isplitl [Hx]; · iexact Hx
  isplitl [Ht]; · iexact Ht
  isplitl [Hws]; · iexact Hws
  isplitl [Hwh] <;> iassumption

end Cert.KernelIdeal.KP

end
-- ==== Proof.KLaunch.lean ====
/-
  The launch of the sixteen-device kernel: the protocol's cells and duty tokens funded in the second copy of the
  rounds algebra, the cells' invariants allocated for all devices at once, the duty tokens dealt to the devices that
  pay them, the launch credit of each device's barrier and receive cells, and the run of @main with every device's
  result named.
-/
import proofs.«900516_g7700000000000517_dist_diff_adaln_cshard_i_b4_s256_c128_v7x_i16_bf16_1_alg».proof.Proof.KDefs
import proofs.«900516_g7700000000000517_dist_diff_adaln_cshard_i_b4_s256_c128_v7x_i16_bf16_1_alg».proof.Proof.KSched
import Idealize.ShloMosaic.Lib.Pipeline.Launch
import Idealize.ShloMosaic.Lib.Pipeline.Kit
import Idealize.ShloMosaic.Lib.Tactic

noncomputable section

namespace Cert.KernelIdeal.KP

open Cert.KernelIdeal Cert.KernelIdeal.Gen Cert.KernelIdeal.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own scoped semaphores: DMA semaphores 5 … 36 -/

/-- Own semaphore i is DMA semaphore 5 + i: send semaphore i for i < 16, receive semaphore i − 16 from 16 on. -/
abbrev osem : Fin 32 → SemLoc sig := fun i => .dma ⟨5 + i.val, by have := i.isLt; show 5 + i.val < 37; omega⟩

theorem ownSemFacts : Pipeline.OwnSemFacts cfg0.spec osem := by decide

theorem osem_send (k : ℕ) (hk : k < 16) : osem ⟨k, by omega⟩ = .dma (sendS k hk) :=
  congrArg SemLoc.dma (Fin.ext (sendS_val k hk).symm)
theorem osem_recv (k : ℕ) (hk : k < 16) : osem ⟨16 + k, by omega⟩ = .dma (recvS k hk) :=
  congrArg SemLoc.dma (Fin.ext (by rw [recvS_val]; show 5 + (16 + k) = 21 + k; omega))

/-! ## The protocol's cells: per device the barrier cell and the send and receive cells of offsets 1 … 15 -/

theorem off_lt (j : Fin 15) : j.val + 1 < 16 := by have := j.isLt; omega
theorem off_pos (j : Fin 15) : 0 < j.val + 1 := Nat.succ_pos _

abbrev J : Type := Unit ⊕ Fin 15 ⊕ Fin 15

abbrev csem : J → SemLoc sig
  | .inl _ => .reg barS
  | .inr (.inl j) => .dma (sendS (j.val + 1) (off_lt j))
  | .inr (.inr j) => .dma (recvS (j.val + 1) (off_lt j))
abbrev kcell (cj : Dev nD × J) : GSem nD τ sig := ((cj.1 : Thread nD τ), csem cj.2)

theorem csem_injective : Function.Injective csem := by
  rintro (_ | j | j) (_ | j' | j') h
  · rfl
  · exact absurd h.symm (send_ne_bar _ _)
  · exact absurd h.symm (recv_ne_bar _ _)
  · exact absurd h (send_ne_bar _ _)
  · have := sendS_inj (SemLoc.dma.inj h); exact congrArg (fun x : Fin 15 => (Sum.inr (Sum.inl x) : J)) (Fin.ext (by omega))
  · exact absurd h (send_ne_recv _ _ _ _)
  · exact absurd h (recv_ne_bar _ _)
  · exact absurd h (recv_ne_send _ _ _ _)
  · have := recvS_inj (SemLoc.dma.inj h); exact congrArg (fun x : Fin 15 => (Sum.inr (Sum.inr x) : J)) (Fin.ext (by omega))

theorem kcell_injective : Function.Injective (kcell : Dev nD × J → GSem nD τ sig) := by
  rintro ⟨c, j⟩ ⟨c', j'⟩ h
  have h1 : c = c' := congrArg (fun g : GSem nD τ sig => g.1.1) h
  subst h1
  have h2 : csem j = csem j' := congrArg Prod.snd h
  rw [csem_injective h2]
def ringCells : Finset (GSem nD τ sig) := Finset.univ.map ⟨kcell, kcell_injective⟩

/-! ## The duty tokens of a device's own cells: barrier duties 1 … 15, duty 0 of each send and receive cell -/

abbrev T : Type := Fin 15 ⊕ Fin 15 ⊕ Fin 15
abbrev dty (j : Fin 15) : Fin 16 := ⟨j.val + 1, off_lt j⟩

abbrev tokOf (ct : Dev nD × T) : GSem nD τ sig × ℕ × Fin 16 := match ct.2 with
  | .inl j => (barCell ct.1, 0, dty j)
  | .inr (.inl j) => (sendCell ct.1 (j.val + 1) (off_lt j), 0, 0)
  | .inr (.inr j) => (recvCell ct.1 (j.val + 1) (off_lt j), 0, 0)

theorem tokOf_injective : Function.Injective (tokOf : Dev nD × T → GSem nD τ sig × ℕ × Fin 16) := by
  rintro ⟨c, t⟩ ⟨c', t'⟩ h
  have h1 : c = c' := by
    have := congrArg (fun x : GSem nD τ sig × ℕ × Fin 16 => x.1.1.1) h
    rcases t with j | j | j <;> rcases t' with j' | j' | j' <;> exact this
  subst h1
  have hs := congrArg (fun x : GSem nD τ sig × ℕ × Fin 16 => x.1.2) h
  have hd := congrArg (fun x : GSem nD τ sig × ℕ × Fin 16 => x.2.2.val) h
  rcases t with j | j | j <;> rcases t' with j' | j' | j'
  · have : j = j' := Fin.ext (by have : j.val + 1 = j'.val + 1 := hd; omega)
    rw [this]
  · exact absurd hs.symm (send_ne_bar _ _)
  · exact absurd hs.symm (recv_ne_bar _ _)
  · exact absurd hs (send_ne_bar _ _)
  · have := sendS_inj (SemLoc.dma.inj hs); have : j = j' := Fin.ext (by omega)
    rw [this]
  · exact absurd hs (send_ne_recv _ _ _ _)
  · exact absurd hs (recv_ne_bar _ _)
  · exact absurd hs (recv_ne_send _ _ _ _)
  · have := recvS_inj (SemLoc.dma.inj hs); have : j = j' := Fin.ext (by omega)
    rw [this]
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-! ## What the launch deals each device, and what the global step makes of it -/

/-- The duty tokens of device c's own cells. -/
def toks (c : Dev nD) : sProp 𝕄 :=
  iprop((bigSep Finset.univ fun j : Fin 15 => dutyTok ER (barCell c) 0 (dty j))
    ∗ (bigSep Finset.univ fun j : Fin 15 => dutyTok ER (sendCell c (j.val + 1) (off_lt j)) 0 0)
    ∗ (bigSep Finset.univ fun j : Fin 15 => dutyTok ER (recvCell c (j.val + 1) (off_lt j)) 0 0))

/-- What the launch element deals device c. -/
def G (c : Dev nD) : sProp 𝕄 :=
  iprop((bigSep Finset.univ fun j : J => roundState ER (sched m ρ) (kcell (c, j)) 0)
    ∗ (bigSep Finset.univ fun j : J => iprop(atPos ER (kcell (c, j)) 0 ∅ 0 ∗ reached ER (kcell (c, j)) 0)) ∗ toks c)

/-- The two semaphores of offset 0, which no copy uses: their counters at zero stay with the device. -/
def idle0 (c : Dev nD) : sProp 𝕄 := iprop(semVal (sendCell c 0 (by decide)) 0 ∗ semVal (recvCell c 0 (by decide)) 0)

/-- What the global step makes of it: the ghost state at some names, and the two idle counters. -/
def G' (c : Dev nD) : sProp 𝕄 := iprop((∃ K, ghost m ρ K c) ∗ idle0 c)

theorem bigSep_J (Φ : J → sProp 𝕄) : bigSep Finset.univ Φ
    = iprop(Φ (.inl ()) ∗ (bigSep Finset.univ fun j : Fin 15 => Φ (.inr (.inl j))) ∗ (bigSep Finset.univ fun j : Fin 15 => Φ (.inr (.inr j)))) := by
  rw [bigSep_univ_sum, bigSep_univ_sum, bigSep_univ_of_subsingleton ()]
  rfl
theorem bigSep_T (Φ : T → sProp 𝕄) : bigSep Finset.univ Φ
    = iprop((bigSep Finset.univ fun j : Fin 15 => Φ (.inl j)) ∗ (bigSep Finset.univ fun j : Fin 15 => Φ (.inr (.inl j))) ∗ (bigSep Finset.univ fun j : Fin 15 => Φ (.inr (.inr j)))) := by
  rw [bigSep_univ_sum, bigSep_univ_sum]
  rfl

theorem fund : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : J => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_T]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores the global step takes: the own ones and the runtime's barrier semaphore -/

theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

/-- The kernel's own thirty-two counters, offset by offset, those of offset 0 last. -/
theorem ownSems0_chain (c : Dev nD) : (Pipeline.ownSems0 (Ix := Unit) (Name := ℕ) (U := UU) (Lvl := ℕ) (Val := Elt F) (τ := τ) osem c : sProp 𝕄)
    = iprop(semVal (sendCell c 1 (by decide)) 0 ∗ semVal (recvCell c 1 (by decide)) 0
      ∗ semVal (sendCell c 2 (by decide)) 0 ∗ semVal (recvCell c 2 (by decide)) 0
      ∗ semVal (sendCell c 3 (by decide)) 0 ∗ semVal (recvCell c 3 (by decide)) 0
      ∗ semVal (sendCell c 4 (by decide)) 0 ∗ semVal (recvCell c 4 (by decide)) 0
      ∗ semVal (sendCell c 5 (by decide)) 0 ∗ semVal (recvCell c 5 (by decide)) 0
      ∗ semVal (sendCell c 6 (by decide)) 0 ∗ semVal (recvCell c 6 (by decide)) 0
      ∗ semVal (sendCell c 7 (by decide)) 0 ∗ semVal (recvCell c 7 (by decide)) 0
      ∗ semVal (sendCell c 8 (by decide)) 0 ∗ semVal (recvCell c 8 (by decide)) 0
      ∗ semVal (sendCell c 9 (by decide)) 0 ∗ semVal (recvCell c 9 (by decide)) 0
      ∗ semVal (sendCell c 10 (by decide)) 0 ∗ semVal (recvCell c 10 (by decide)) 0
      ∗ semVal (sendCell c 11 (by decide)) 0 ∗ semVal (recvCell c 11 (by decide)) 0
      ∗ semVal (sendCell c 12 (by decide)) 0 ∗ semVal (recvCell c 12 (by decide)) 0
      ∗ semVal (sendCell c 13 (by decide)) 0 ∗ semVal (recvCell c 13 (by decide)) 0
      ∗ semVal (sendCell c 14 (by decide)) 0 ∗ semVal (recvCell c 14 (by decide)) 0
      ∗ semVal (sendCell c 15 (by decide)) 0 ∗ semVal (recvCell c 15 (by decide)) 0
      ∗ semVal (sendCell c 0 (by decide)) 0 ∗ semVal (recvCell c 0 (by decide)) 0) := by
  rw [Pipeline.ownSems0_eq_of_list c osem [⟨1, by decide⟩, ⟨16 + 1, by decide⟩, ⟨2, by decide⟩, ⟨16 + 2, by decide⟩, ⟨3, by decide⟩, ⟨16 + 3, by decide⟩, ⟨4, by decide⟩, ⟨16 + 4, by decide⟩, ⟨5, by decide⟩, ⟨16 + 5, by decide⟩, ⟨6, by decide⟩, ⟨16 + 6, by decide⟩, ⟨7, by decide⟩, ⟨16 + 7, by decide⟩, ⟨8, by decide⟩, ⟨16 + 8, by decide⟩, ⟨9, by decide⟩, ⟨16 + 9, by decide⟩, ⟨10, by decide⟩, ⟨16 + 10, by decide⟩, ⟨11, by decide⟩, ⟨16 + 11, by decide⟩, ⟨12, by decide⟩, ⟨16 + 12, by decide⟩, ⟨13, by decide⟩, ⟨16 + 13, by decide⟩, ⟨14, by decide⟩, ⟨16 + 14, by decide⟩, ⟨15, by decide⟩, ⟨16 + 15, by decide⟩, ⟨0, by decide⟩, ⟨16 + 0, by decide⟩] (by decide) (by decide)]
  rfl

theorem ownSems0_split (c : Dev nD) : (Pipeline.ownSems0 (Ix := Unit) (Name := ℕ) (U := UU) (Lvl := ℕ) (Val := Elt F) (τ := τ) osem c : sProp 𝕄)
    ⊢ iprop(closedSems c ∗ idle0 c) := by
  rw [ownSems0_chain]; unfold closedSems idle0
  iintro ⟨HS1, HR1, HS2, HR2, HS3, HR3, HS4, HR4, HS5, HR5, HS6, HR6, HS7, HR7, HS8, HR8, HS9, HR9, HS10, HR10, HS11, HR11, HS12, HR12, HS13, HR13, HS14, HR14, HS15, HR15, HS0, HR0⟩
  iframe

theorem ownSems0_join (c : Dev nD) : iprop(closedSems c ∗ idle0 c)
    ⊢ (Pipeline.ownSems0 (Ix := Unit) (Name := ℕ) (U := UU) (Lvl := ℕ) (Val := Elt F) (τ := τ) osem c : sProp 𝕄) := by
  rw [ownSems0_chain]; unfold closedSems idle0
  iintro ⟨⟨HS1, HR1, HS2, HR2, HS3, HR3, HS4, HR4, HS5, HR5, HS6, HR6, HS7, HR7, HS8, HR8, HS9, HR9, HS10, HR10, HS11, HR11, HS12, HR12, HS13, HR13, HS14, HR14, HS15, HR15⟩, HS0, HR0⟩
  iframe

/-- The kernel's own semaphores at zero are the thirty closed ones and the two idle ones. -/
theorem ownSems0_eq (c : Dev nD) : (Pipeline.ownSems0 (Ix := Unit) (Name := ℕ) (U := UU) (Lvl := ℕ) (Val := Elt F) (τ := τ) osem c : sProp 𝕄)
    ⊣⊢ iprop(closedSems c ∗ idle0 c) := ⟨ownSems0_split c, ownSems0_join c⟩

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of the thirty-one protocol cells of a device, and the two idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : J => semVal (kcell (c, j)) 0) ∗ idle0 c : sProp 𝕄) := by
  rw [ownSems0_chain, unscopedSems0_eq, bigSep_J, bigSep_fin15, bigSep_fin15]; unfold idle0
  show _ ⊢ iprop((semVal (barCell c) 0 ∗ (semVal (sendCell c 1 (by decide)) 0 ∗ semVal (sendCell c 2 (by decide)) 0 ∗ semVal (sendCell c 3 (by decide)) 0 ∗ semVal (sendCell c 4 (by decide)) 0 ∗ semVal (sendCell c 5 (by decide)) 0 ∗ semVal (sendCell c 6 (by decide)) 0 ∗ semVal (sendCell c 7 (by decide)) 0 ∗ semVal (sendCell c 8 (by decide)) 0 ∗ semVal (sendCell c 9 (by decide)) 0 ∗ semVal (sendCell c 10 (by decide)) 0 ∗ semVal (sendCell c 11 (by decide)) 0 ∗ semVal (sendCell c 12 (by decide)) 0 ∗ semVal (sendCell c 13 (by decide)) 0 ∗ semVal (sendCell c 14 (by decide)) 0 ∗ semVal (sendCell c 15 (by decide)) 0)
      ∗ (semVal (recvCell c 1 (by decide)) 0 ∗ semVal (recvCell c 2 (by decide)) 0 ∗ semVal (recvCell c 3 (by decide)) 0 ∗ semVal (recvCell c 4 (by decide)) 0 ∗ semVal (recvCell c 5 (by decide)) 0 ∗ semVal (recvCell c 6 (by decide)) 0 ∗ semVal (recvCell c 7 (by decide)) 0 ∗ semVal (recvCell c 8 (by decide)) 0 ∗ semVal (recvCell c 9 (by decide)) 0 ∗ semVal (recvCell c 10 (by decide)) 0 ∗ semVal (recvCell c 11 (by decide)) 0 ∗ semVal (recvCell c 12 (by decide)) 0 ∗ semVal (recvCell c 13 (by decide)) 0 ∗ semVal (recvCell c 14 (by decide)) 0 ∗ semVal (recvCell c 15 (by decide)) 0))
    ∗ semVal (sendCell c 0 (by decide)) 0 ∗ semVal (recvCell c 0 (by decide)) 0 : sProp 𝕄)
  iintro ⟨⟨HS1, HR1, HS2, HR2, HS3, HR3, HS4, HR4, HS5, HR5, HS6, HR6, HS7, HR7, HS8, HR8, HS9, HR9, HS10, HR10, HS11, HR11, HS12, HR12, HS13, HR13, HS14, HR14, HS15, HR15, HS0, HR0⟩, HB⟩
  iframe

/-- What one device holds once its thirty-one cells' invariants are allocated. -/
def alloc (c : Dev nD) : sProp 𝕄 :=
  iprop((bigSep Finset.univ fun j : J => iprop(∃ κ : ℕ, cellInv ER (sched m ρ) κ (kcell (c, j))))
    ∗ (bigSep Finset.univ fun j : J => iprop(atPos ER (kcell (c, j)) 0 ∅ 0 ∗ reached ER (kcell (c, j)) 0)) ∗ toks c ∗ idle0 c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> alloc m ρ c := by
  unfold G alloc
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun j : J => semVal (kcell (c, j)) 0) ∗ bigSep Finset.univ fun j : J => roundState ER (sched m ρ) (kcell (c, j)) 0)
      ⊢ (|={Set.univ}=> bigSep Finset.univ fun j : J => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ### The names, the records every device reads, and the tokens dealt to their payers -/

/-- The names as the body reads them (per device: the barrier cell, and each DMA semaphore), from the names the
    allocation chose per protocol cell. -/
def namesOf (K' : Dev nD × J → ℕ) : Names := fun x => match x.2 with
  | none => K' (x.1, .inl ())
  | some q =>
    if h : 6 ≤ q.val ∧ q.val ≤ 20 then K' (x.1, .inr (.inl ⟨q.val - 6, by omega⟩))
    else if h' : 22 ≤ q.val ∧ q.val ≤ 36 then K' (x.1, .inr (.inr ⟨q.val - 22, by omega⟩))
    else 0

theorem namesOf_bar (K' : Dev nD × J → ℕ) (c : Dev nD) : namesOf K' (c, none) = K' (c, .inl ()) := rfl
theorem namesOf_send (K' : Dev nD × J → ℕ) (c : Dev nD) (j : Fin 15) :
    namesOf K' (c, some (sendS (j.val + 1) (off_lt j))) = K' (c, .inr (.inl j)) := by
  have hv := sendS_val (j.val + 1) (off_lt j)
  have hj := j.isLt
  show (if h : 6 ≤ (sendS (j.val + 1) (off_lt j)).val ∧ (sendS (j.val + 1) (off_lt j)).val ≤ 20 then _ else _) = _
  rw [dif_pos ⟨by omega, by omega⟩]
  exact congrArg (fun x : Fin 15 => K' (c, .inr (.inl x))) (Fin.ext (by show (sendS (j.val + 1) (off_lt j)).val - 6 = j.val; omega))
theorem namesOf_recv (K' : Dev nD × J → ℕ) (c : Dev nD) (j : Fin 15) :
    namesOf K' (c, some (recvS (j.val + 1) (off_lt j))) = K' (c, .inr (.inr j)) := by
  have hv := recvS_val (j.val + 1) (off_lt j)
  have hj := j.isLt
  show (if h : 6 ≤ (recvS (j.val + 1) (off_lt j)).val ∧ (recvS (j.val + 1) (off_lt j)).val ≤ 20 then _ else _) = _
  rw [dif_neg (fun h => by omega), dif_pos ⟨by omega, by omega⟩]
  exact congrArg (fun x : Fin 15 => K' (c, .inr (.inr x))) (Fin.ext (by show (recvS (j.val + 1) (off_lt j)).val - 22 = j.val; omega))

/-- Every cell's invariant at its name, and that every cell is at round 0: persistent, read by every device. -/
def records (K' : Dev nD × J → ℕ) : sProp 𝕄 :=
  iprop((bigSep Finset.univ fun cj : Dev nD × J => cellInv ER (sched m ρ) (K' cj) (kcell cj))
    ∗ bigSep Finset.univ fun cj : Dev nD × J => reached ER (kcell cj) 0)

instance records_persistent (K' : Dev nD × J → ℕ) : BI.Persistent (records m ρ K') := by unfold records; infer_instance

theorem inv_at (K' : Dev nD × J → ℕ) (cj : Dev nD × J) :
    (bigSep Finset.univ fun cj : Dev nD × J => (cellInv ER (sched m ρ) (K' cj) (kcell cj) : sProp 𝕄)) ⊢ cellInv ER (sched m ρ) (K' cj) (kcell cj) :=
  bigSep_elim (Finset.mem_univ cj)
theorem reached_at (cj : Dev nD × J) :
    (bigSep Finset.univ fun cj : Dev nD × J => (reached ER (kcell cj) 0 : sProp 𝕄)) ⊢ reached ER (kcell cj) 0 :=
  bigSep_elim (Finset.mem_univ cj)

/-- The ring at offset k: the device k places on, and back. -/
def ringEquiv (k : ℕ) : Dev nD ≃ Dev nD := ⟨fun c => peer c k, fun c => back c k, fun c => back_peer c k, fun c => peer_back c k⟩

/-- A family over (device, offset) dealt around the ring: device c gets, at offset j + 1, the member of the device j + 1 places on. -/
theorem around (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (peer c (j.val + 1)) j := by
  rw [bigSep_univ_comm Φ, bigSep_univ_comm (fun (c : Dev nD) (j : Fin 15) => Φ (peer c (j.val + 1)) j)]
  exact bigSep_congr fun j _ => bigSep_univ_equiv (ringEquiv (j.val + 1)) (fun c => Φ c j)

/-- The tokens of the duties device c pays: per offset, the barrier duty and the receive duty of the device that
    many places on, and its own send duty. -/
def payToks (c : Dev nD) : sProp 𝕄 :=
  iprop((bigSep Finset.univ fun j : Fin 15 => dutyTok ER (barCell (peer c (j.val + 1))) 0 (dty j))
    ∗ (bigSep Finset.univ fun j : Fin 15 => dutyTok ER (sendCell c (j.val + 1) (off_lt j)) 0 0)
    ∗ (bigSep Finset.univ fun j : Fin 15 => dutyTok ER (recvCell (peer c (j.val + 1)) (j.val + 1) (off_lt j)) 0 0))

theorem toks_around : (bigSep Finset.univ fun c : Dev nD => (toks c : sProp 𝕄)) ⊢ bigSep Finset.univ fun c : Dev nD => payToks c := by
  refine Entails.of_eq ?_
  unfold toks payToks
  rw [bigSep_sep', bigSep_sep', bigSep_sep', bigSep_sep',
    around (fun (c : Dev nD) (j : Fin 15) => (dutyTok ER (barCell c) 0 (dty j) : sProp 𝕄)),
    around (fun (c : Dev nD) (j : Fin 15) => (dutyTok ER (recvCell c (j.val + 1) (off_lt j)) 0 0 : sProp 𝕄))]

/-- The ghost state, its fifteen offsets as one family. -/
theorem ghost_eq (K : Names) (c : Dev nD) : ghost m ρ K c
    = iprop(cellInv ER (sched m ρ) (kB K c) (barCell c) ∗ atPos ER (barCell c) 0 ∅ 0
        ∗ bigSep Finset.univ fun j : Fin 15 => ghostK m ρ K c (j.val + 1) (off_lt j)) := by
  unfold ghost; rw [bigSep_fin15]; rfl

/-- What device c holds linearly for offset j + 1: its positions at its send and receive cells and the three tokens it pays with. -/
def linK (c : Dev nD) (j : Fin 15) : sProp 𝕄 :=
  iprop(atPos ER (sendCell c (j.val + 1) (off_lt j)) 0 ∅ 0 ∗ atPos ER (recvCell c (j.val + 1) (off_lt j)) 0 ∅ 0
    ∗ dutyTok ER (barCell (peer c (j.val + 1))) 0 (dty j)
    ∗ dutyTok ER (recvCell (peer c (j.val + 1)) (j.val + 1) (off_lt j)) 0 0
    ∗ dutyTok ER (sendCell c (j.val + 1) (off_lt j)) 0 0)

theorem ghostK_intro (K' : Dev nD × J → ℕ) (c : Dev nD) (j : Fin 15) :
    iprop(records m ρ K' ∗ linK c j) ⊢ ghostK m ρ (namesOf K') c (j.val + 1) (off_lt j) := by
  unfold records linK ghostK
  dsimp only [kS, kR, kB]
  rw [namesOf_send K' c j, namesOf_recv K' c j, namesOf_recv K' (peer c (j.val + 1)) j, namesOf_bar K' (peer c (j.val + 1))]
  iintro ⟨⟨#HI, #HR⟩, HaS, HaR, HtB, HtR, HtS⟩
  isplitr; · iapply (inv_at m ρ K' (c, .inr (.inl j))); iexact HI
  isplitr; · iapply (inv_at m ρ K' (c, .inr (.inr j))); iexact HI
  isplitr; · iapply (inv_at m ρ K' (peer c (j.val + 1), .inl ())); iexact HI
  isplitr; · iapply (inv_at m ρ K' (peer c (j.val + 1), .inr (.inr j))); iexact HI
  isplitl [HaS]; · iexact HaS
  isplitl [HaR]; · iexact HaR
  isplitr; · iapply (reached_at (F := F) (peer c (j.val + 1), .inl ())); iexact HR
  isplitr; · iapply (reached_at (F := F) (peer c (j.val + 1), .inr (.inr j))); iexact HR
  isplitr; · iapply (reached_at (F := F) (c, .inr (.inl j))); iexact HR
  isplitr; · iapply (reached_at (F := F) (c, .inr (.inr j))); iexact HR
  isplitl [HtB]; · iexact HtB
  isplitl [HtR]; · iexact HtR
  iexact HtS

/-- What stays with device c: its position at its barrier cell, and per offset the above. -/
def lin (c : Dev nD) : sProp 𝕄 := iprop(atPos ER (barCell c) 0 ∅ 0 ∗ bigSep Finset.univ fun j : Fin 15 => linK c j)

theorem lin_intro (c : Dev nD) :
    iprop((bigSep Finset.univ fun j : J => (atPos ER (kcell (c, j)) 0 ∅ 0 : sProp 𝕄)) ∗ payToks c) ⊢ lin c := by
  rw [bigSep_J]; unfold payToks lin linK
  simp only [bigSep_sep']
  iintro ⟨⟨HaB, HaS, HaR⟩, HtB, HtS, HtR⟩
  isplitl [HaB]; · iexact HaB
  isplitl [HaS]; · iexact HaS
  isplitl [HaR]; · iexact HaR
  isplitl [HtB]; · iexact HtB
  isplitl [HtR]; · iexact HtR
  iexact HtS

theorem ghost_intro (K' : Dev nD × J → ℕ) (c : Dev nD) : iprop(records m ρ K' ∗ lin c ∗ idle0 c) ⊢ G' m ρ c := by
  unfold G'
  iintro ⟨#HR, HL, Hi⟩
  isplitl [HL]
  · iexists namesOf K'
    rw [ghost_eq]; unfold lin
    icases HL with ⟨HaB, HL⟩
    isplitr
    · dsimp only [kB]; rw [namesOf_bar]
      unfold records; icases HR with ⟨#HI, -⟩
      iapply (inv_at m ρ K' (c, .inl ())); iexact HI
    isplitl [HaB]; · iexact HaB
    iapply (bigSep_with_persistent (R := records m ρ K') fun j _ => ghostK_intro m ρ K' c j)
    isplitr; · iexact HR
    iexact HL
  · iexact Hi

/-- The allocated cells of all devices regrouped: one choice of names, the records shared, the tokens dealt to their payers. -/
theorem regroup : (bigSep Finset.univ fun c : Dev nD => alloc m ρ c : sProp 𝕄) ⊢ bigSep Finset.univ (G' m ρ) := by
  unfold alloc
  rw [bigSep_sep', bigSep_sep', bigSep_sep', ← bigSep_univ_prod (fun cj : Dev nD × J => iprop(∃ κ : ℕ, cellInv ER (sched m ρ) κ (kcell cj))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun cj : Dev nD × J => (reached ER (kcell cj) 0 : sProp 𝕄))]
  iintro ⟨HI, ⟨Hat, #HR⟩, Htok, Hidle⟩
  ihave HK := (BI.bigSep_exists_pi Finset.univ (fun (cj : Dev nD × J) (κ : ℕ) => (cellInv ER (sched m ρ) κ (kcell cj) : sProp 𝕄))) $$ HI
  icases HK with ⟨%K', #HI⟩
  ihave Htk := (toks_around (F := F)) $$ Htok
  iapply (bigSep_with_persistent (R := records m ρ K') fun c _ => ghost_intro m ρ K' c)
  isplitr
  · unfold records; isplitl; · iexact HI
    iexact HR
  · iapply (show iprop((bigSep Finset.univ fun c : Dev nD => bigSep Finset.univ fun j : J => (atPos ER (kcell (c, j)) 0 ∅ 0 : sProp 𝕄))
          ∗ (bigSep Finset.univ fun c : Dev nD => payToks c) ∗ bigSep Finset.univ fun c : Dev nD => idle0 c)
        ⊢ (bigSep Finset.univ fun c : Dev nD => iprop(lin c ∗ idle0 c) : sProp 𝕄) from by
      rw [← bigSep_sep', ← bigSep_sep']
      exact bigSep_mono fun c _ => show iprop((bigSep Finset.univ fun j : J => (atPos ER (kcell (c, j)) 0 ∅ 0 : sProp 𝕄)) ∗ payToks c ∗ idle0 c) ⊢ iprop(lin c ∗ idle0 c) from by
        iintro ⟨Ha, Ht, Hi⟩
        isplitl [Ha Ht]
        · iapply (lin_intro (F := F) c); isplitl [Ha] <;> iassumption
        · iexact Hi)
    isplitl [Hat]; · iexact Hat
    isplitl [Htk]; · iexact Htk
    iexact Hidle

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem OsendR_eq (c : Dev nD) : ∀ i, OsendR c i = ∑ x ∈ Finset.range i, recvOwe c (15 - x)
  | 0 => (show OsendR c 0 = 0 from rfl).trans (Finset.sum_range_zero _).symm
  | i + 1 => (show OsendR c (i + 1) = OsendR c i + recvOwe c (15 - i) from rfl).trans (by rw [Finset.sum_range_succ, ← OsendR_eq c i])
theorem OsigR_eq (c : Dev nD) : ∀ i, OsigR c i = Osend c 0 + ∑ x ∈ Finset.range i, barOwe c (15 - x)
  | 0 => (show OsigR c 0 = Osend c 0 from rfl).trans (by rw [Finset.sum_range_zero, add_zero])
  | i + 1 => (show OsigR c (i + 1) = OsigR c i + barOwe c (15 - i) from rfl).trans (by rw [Finset.sum_range_succ, ← add_assoc, ← OsigR_eq c i])
/-- What a device owes at launch: the credit of the fifteen receive cells it copies into, and a unit to the fifteen
    barrier cells it signals. -/
theorem O₀_eq_sum (c : Dev nD) :
    O₀ c = (∑ x ∈ Finset.range 15, recvOwe c (15 - x)) + ∑ x ∈ Finset.range 15, barOwe c (15 - x) := by
  show OsigR c 15 = _
  rw [OsigR_eq, show Osend c 0 = OsendR c 15 from rfl, OsendR_eq]

theorem sum_tallyAt_one (g : GSem nD τ sig) (n : ℕ) :
    ∑ _x ∈ Finset.range n, (tallyAt g () 1 : CellTallies nD τ sig Unit) = tallyAt g () n := by
  induction n with
  | zero => rw [Finset.sum_range_zero, tallyAt_zero]
  | succ n ih => rw [Finset.sum_range_succ, ih, tallyAt_add]

/-- The unit every device owes the barrier cell k places on: device c's cell gets it from the device k places back. -/
theorem cred_bar (c : Dev nD) (k : ℕ) :
    (Pipeline.launchCred (fun d : Dev nD => barOwe d k) c : sProp 𝕄) ⊢ cred (tallyAt (barCell c) () 1) :=
  Pipeline.launchCred_tallyAt (.reg barS) (fun d => peer d k) (fun d => back d k) (fun d => peer_back d k) (fun d => back_peer d k) () 1 c

theorem cred_recv (c : Dev nD) (k : ℕ) (hk : k < 16) :
    (Pipeline.launchCred (fun d : Dev nD => recvOwe d k) c : sProp 𝕄) ⊢ cred (tallyAt (recvCell c k hk) () N) := by
  rw [show (fun d : Dev nD => recvOwe d k) = fun d : Dev nD => tallyAt (((peer d k).tc : Thread nD τ), SemLoc.dma (recvS k hk)) () N from
    funext fun d => recvOwe_eq d k hk]
  exact Pipeline.launchCred_tallyAt (.dma (recvS k hk)) (fun d => peer d k) (fun d => back d k) (fun d => peer_back d k) (fun d => back_peer d k) () N c

theorem bar_credit (c : Dev nD) :
    (bigSep (Finset.range 15) fun x => (Pipeline.launchCred (fun d : Dev nD => barOwe d (15 - x)) c : sProp 𝕄)) ⊢ cred (tallyAt (barCell c) () 15) := by
  refine (bigSep_mono fun x _ => cred_bar c (15 - x)).trans ?_
  exact (Entails.of_eq (Pipeline.cred_finsetSum (Finset.range 15) (fun _ => (tallyAt (barCell c) () 1 : CellTallies nD τ sig Unit))).symm).trans
    (Entails.of_eq (congrArg cred (sum_tallyAt_one (barCell c) 15)))

theorem recv_credit (c : Dev nD) :
    (bigSep (Finset.range 15) fun x => (Pipeline.launchCred (fun d : Dev nD => recvOwe d (15 - x)) c : sProp 𝕄)) ⊢ recvCreds c := by
  rw [bigSep_eq_bigSepL_of_eq [14, 13, 12, 11, 10, 9, 8, 7, 6, 5, 4, 3, 2, 1, 0] (by decide) (by decide)]
  show iprop((Pipeline.launchCred (fun d : Dev nD => recvOwe d 1) c : sProp 𝕄)
      ∗ (Pipeline.launchCred (fun d : Dev nD => recvOwe d 2) c : sProp 𝕄)
      ∗ (Pipeline.launchCred (fun d : Dev nD => recvOwe d 3) c : sProp 𝕄)
      ∗ (Pipeline.launchCred (fun d : Dev nD => recvOwe d 4) c : sProp 𝕄)
      ∗ (Pipeline.launchCred (fun d : Dev nD => recvOwe d 5) c : sProp 𝕄)
      ∗ (Pipeline.launchCred (fun d : Dev nD => recvOwe d 6) c : sProp 𝕄)
      ∗ (Pipeline.launchCred (fun d : Dev nD => recvOwe d 7) c : sProp 𝕄)
      ∗ (Pipeline.launchCred (fun d : Dev nD => recvOwe d 8) c : sProp 𝕄)
      ∗ (Pipeline.launchCred (fun d : Dev nD => recvOwe d 9) c : sProp 𝕄)
      ∗ (Pipeline.launchCred (fun d : Dev nD => recvOwe d 10) c : sProp 𝕄)
      ∗ (Pipeline.launchCred (fun d : Dev nD => recvOwe d 11) c : sProp 𝕄)
      ∗ (Pipeline.launchCred (fun d : Dev nD => recvOwe d 12) c : sProp 𝕄)
      ∗ (Pipeline.launchCred (fun d : Dev nD => recvOwe d 13) c : sProp 𝕄)
      ∗ (Pipeline.launchCred (fun d : Dev nD => recvOwe d 14) c : sProp 𝕄)
      ∗ (Pipeline.launchCred (fun d : Dev nD => recvOwe d 15) c : sProp 𝕄)) ⊢ recvCreds c
  unfold recvCreds
  iintro ⟨H1, H2, H3, H4, H5, H6, H7, H8, H9, H10, H11, H12, H13, H14, H15⟩
  isplitl [H1]; · iapply (cred_recv (F := F) c 1 _); iexact H1
  isplitl [H2]; · iapply (cred_recv (F := F) c 2 _); iexact H2
  isplitl [H3]; · iapply (cred_recv (F := F) c 3 _); iexact H3
  isplitl [H4]; · iapply (cred_recv (F := F) c 4 _); iexact H4
  isplitl [H5]; · iapply (cred_recv (F := F) c 5 _); iexact H5
  isplitl [H6]; · iapply (cred_recv (F := F) c 6 _); iexact H6
  isplitl [H7]; · iapply (cred_recv (F := F) c 7 _); iexact H7
  isplitl [H8]; · iapply (cred_recv (F := F) c 8 _); iexact H8
  isplitl [H9]; · iapply (cred_recv (F := F) c 9 _); iexact H9
  isplitl [H10]; · iapply (cred_recv (F := F) c 10 _); iexact H10
  isplitl [H11]; · iapply (cred_recv (F := F) c 11 _); iexact H11
  isplitl [H12]; · iapply (cred_recv (F := F) c 12 _); iexact H12
  isplitl [H13]; · iapply (cred_recv (F := F) c 13 _); iexact H13
  isplitl [H14]; · iapply (cred_recv (F := F) c 14 _); iexact H14
  iapply (cred_recv (F := F) c 15 _); iexact H15

/-- The launch credit of device c: the fifteen units of its barrier cell and the credit of its fifteen receive cells. -/
theorem creds (c : Dev nD) :
    (Pipeline.launchCred O₀ c : sProp 𝕄) ⊢ iprop(cred (tallyAt (barCell c) () 15) ∗ recvCreds c) := by
  rw [show (O₀ : Dev nD → CellTallies nD τ sig Unit)
        = fun d => (∑ x ∈ Finset.range 15, recvOwe d (15 - x)) + ∑ x ∈ Finset.range 15, barOwe d (15 - x) from funext O₀_eq_sum,
    Pipeline.launchCred_add, Pipeline.launchCred_sum (Finset.range 15) (fun x (d : Dev nD) => recvOwe d (15 - x)),
    Pipeline.launchCred_sum (Finset.range 15) (fun x (d : Dev nD) => barOwe d (15 - x))]
  iintro ⟨HR, HB⟩
  isplitl [HB]
  · iapply (bar_credit (F := F) c); iexact HB
  · iapply (recv_credit (F := F) c); iexact HR

/-! ### The launch theorem's side conditions -/

/-- What a device routes into the pipeline's invariant: what its body starts from, and the two idle counters. -/
def X (c : Dev nD) : sProp 𝕄 := iprop(start m ρ c ∗ idle0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(X m ρ c ∗ emp) := by
  iintro ⟨-, Hlev, Hcr, -, HG⟩
  ihave Hc := (creds (F := F) c) $$ Hcr
  icases Hc with ⟨H1, HN⟩
  unfold G'
  icases HG with ⟨HG, Hi⟩
  imodintro
  unfold X start
  isplitl
  · isplitl [HG H1 HN Hlev]
    · isplitl [HG]; · iexact HG
      isplitl [H1]; · iexact H1
      isplitl [HN]; · iexact HN
      iexact Hlev
    · iexact Hi
  · iempintro

theorem phi0_intro (c : Dev nD) :
    iprop(X m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ X scr idle0
  iintro ⟨⟨Hs, Hi0, Hi1⟩, -, Hr⟩
  isplitl [Hs]; · iexact Hs
  isplitl [Hr]; · iexact Hr
  isplitl [Hi0]; · iexact Hi0
  iexact Hi1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hr, Hcl, Hi⟩
  isplitr; · iempintro
  isplitl [Hcl Hi]
  · iapply (ownSems0_join (F := F) c)
    isplitl [Hcl]; · iexact Hcl
    unfold idle0; iexact Hi
  · iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ### The run -/

/-- The input arrays after the run hold what they held. -/
theorem finalA_in (c : Dev nD) (w : Fin cfg0.W) (hin : (cfg0.win w).isOut = false) :
    (dats m ρ 0 c).arrAt w cfg0.N = m ((cfg0.win w).arr.view.loc (c : Thread nD τ)) :=
  (dats (F := F) m ρ 0 c).arrAt_in w hin _

/-- The result array after the run: its one block is the whole array, written back once, with what the body left in the
    staging buffer. -/
theorem finalA_out (c : Dev nD) : (dats m ρ 0 c).arrAt (4 : Fin 5) cfg0.N = outAt m ρ c := by
  show (dats m ρ 0 c).arrAt (4 : Fin 5) ((t0_0 : Fin cfg0.N).val + 1) = outAt m ρ c
  rw [(dats m ρ 0 c).arrAt_succ (4 : Fin 5) t0_0, if_pos (by decide)]
  exact Memref.write_access_unit_zero_univ (Elt F) main_v1 (funext fun a => Nat.zero_mul _) _ _ _

set_option maxRecDepth 8000 in
/-- At the compiled mesh of sixteen devices, for any float values, from any memory with zero counters: every weakly
    fair execution of @main — the sixteen kernels meeting on the runtime's barrier semaphore, each copying its row moments
    to the fifteen others and summing what it receives — terminates, and every final state has each device's result array
    at the contents the pipeline's proof data name and its four arguments unchanged. -/
theorem run_main (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = (dats m ρ 0 c).arrAt (4 : Fin 5) cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (KP.fund m ρ) $$ HX with HG
      imodintro
      isplitl [HP] <;> iassumption)
    (hglob := glob m ρ)
    (hA := fun _ _ => rfl) (hpf := fun _ k => k.elim0)
    (X := X m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c =>
      ⟨(h c).1 (4 : Fin 5),
       ((h c).1 (0 : Fin 5)).trans (finalA_in m ρ c (0 : Fin 5) rfl),
       ((h c).1 (1 : Fin 5)).trans (finalA_in m ρ c (1 : Fin 5) rfl),
       ((h c).1 (2 : Fin 5)).trans (finalA_in m ρ c (2 : Fin 5) rfl),
       ((h c).1 (3 : Fin 5)).trans (finalA_in m ρ c (3 : Fin 5) rfl)⟩)

/-- The run with every device's result named: its block of the output as `outAt` computes it from the launch memory. -/
theorem run_main_val (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c).1.trans (finalA_out m ρ c), (h c).2⟩) (run_main m ρ hbody)

/-- info: 'Cert.KernelIdeal.KP.run_main' depends on axioms: [propext, Classical.choice, Quot.sound] -/
#guard_msgs in #print axioms run_main

end Cert.KernelIdeal.KP

end
-- ==== Proof.WTerms.lean ====
/-
  The kernel's result on one device as pure terms of what it loads, for any float instance: the running total of the
  sixteen moment blocks (its own and the fifteen received ones, in the order the body adds them), and the result block
  row by row, each row the body's own arithmetic of the loaded vectors.
-/
import proofs.«900516_g7700000000000517_dist_diff_adaln_cshard_i_b4_s256_c128_v7x_i16_bf16_1_alg».proof.Proof.Gen.Kernel.Skeleton
import Idealize.ShloMosaic.Lib.ValueIdx

noncomputable section

namespace Cert.Kernel.KTerms

open Cert.Kernel Cert.Kernel.Gen
open Idealize.ShloMosaic

variable {F : FTy → Type} [FloatOps F]

/-- A moment block as the 1 × 8 × 256 vector that a load of its slot of the receive buffer returns. -/
def slotV (a : FVec F S8x256 .f32) : Vec F S1x8x256 .f32 := fun i : S1x8x256.Idx => a (ValueIdx.ix2 (i 1) (i 2))

/-- The body's running total: the device's own moments `R 0`, then the slots 1 … 15 added one after the other. -/
def totFold (R : ℕ → FVec F S8x256 .f32) : FVec F S8x256 .f32 :=
  k0_pay7
    (k0_pay6 (k0_pay5 (R 0) (slotV (R 1))) (slotV (R 2)) (slotV (R 3)) (slotV (R 4)) (slotV (R 5)) (slotV (R 6))
      (slotV (R 7)) (slotV (R 8)) (slotV (R 9)) (slotV (R 10)) (slotV (R 11)))
    (slotV (R 12)) (slotV (R 13)) (slotV (R 14)) (slotV (R 15))

/-- Batch row b of the result block, as the body stores it: from the x block, the two products with t, and the total. -/
def outRow (b : Fin 4) (x : Vec F S4x256x128 .f32) (t : Vec F S4x128 .f32) (ws wh : Vec F S128x128 .f32)
    (tot : FVec F S8x256 .f32) : FVec F S1x256x128 .f32 :=
  match b with
  | 0 => k0_pay10 (k0_pay1 x) (k0_pay3 t ws) (k0_pay4 t wh) tot
  | 1 => k0_pay12 (k0_pay11 (k0_pay1 x) (k0_pay3 t ws) (k0_pay4 t wh) tot)
  | 2 => k0_pay13 (k0_pay1 x) (k0_pay4 t wh) (k0_pay8 tot) (k0_pay9 (k0_pay3 t ws))
  | 3 => k0_pay14 (k0_pay1 x) (k0_pay4 t wh) (k0_pay8 tot) (k0_pay9 (k0_pay3 t ws))

/-- The whole result block: row b at (s, j) is `outRow b` at (0, s, j). -/
def outOf (x : Vec F S4x256x128 .f32) (t : Vec F S4x128 .f32) (ws wh : Vec F S128x128 .f32)
    (tot : FVec F S8x256 .f32) : FVec F S4x256x128 .f32 :=
  fun i : S4x256x128.Idx => outRow (i 0) x t ws wh tot (ValueIdx.ix3 (0 : Fin 1) (i 1) (i 2))

end Cert.Kernel.KTerms

end
-- ==== Proof.WDefs.lean ====
/-
  The cross-device protocol of the kernel, as definitions: who waits on which semaphore, who pays it, and what each
  payment hands over.

  Sixteen devices on a ring of offsets. Device c
   * signals the barrier semaphore of every other device once (its k-th signal goes to device c + k), writes the row
     moments of its own block of x (sums and sums of squares over its 128 channels) into `acc`, and waits for fifteen
     units on its own barrier semaphore: every other device has then entered the kernel;
   * copies `acc` into slot k of device (c + k)'s receive buffer, for k = 1 … 15, crediting send semaphore k here
     and receive semaphore k there;
   * waits on its fifteen receive semaphores (slot k then holds the moments of device c − k), reads `acc` and the
     fifteen slots, waits on its fifteen send semaphores, and writes its block of the result.
  Barrier cell of c: one round of fifteen unit duties; duty k is paid by device c − k and hands c that device's slot
  (16 − k) together with the fact that the slot's receive cell is open. Receive cell (c, k): one duty, paid by device
  c − k, handing back slot k filled. Send cell (c, k): one duty, paid by c's own copy, handing back its share of `acc`.
-/
import proofs.«900516_g7700000000000517_dist_diff_adaln_cshard_i_b4_s256_c128_v7x_i16_bf16_1_alg».proof.Proof.Gen.Kernel
import proofs.«900516_g7700000000000517_dist_diff_adaln_cshard_i_b4_s256_c128_v7x_i16_bf16_1_alg».proof.Proof.Gen.Kernel.Skeleton
import proofs.«900516_g7700000000000517_dist_diff_adaln_cshard_i_b4_s256_c128_v7x_i16_bf16_1_alg».proof.Proof.Gen.Kernel.Launch
import proofs.«900516_g7700000000000517_dist_diff_adaln_cshard_i_b4_s256_c128_v7x_i16_bf16_1_alg».proof.Proof.WTerms
import Idealize.ShloMosaic.Lib.Pipeline.Launch
import Idealize.ShloMosaic.Lib.Pipeline.Kit
import Idealize.ShloMosaic.Lib.Transfers
import Idealize.ShloMosaic.Lib.Tactic

noncomputable section

namespace Cert.Kernel.KP

open Cert.Kernel Cert.Kernel.Gen Cert.Kernel.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by the offset) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of offsets -/

/-- The device k places after c. -/
def peer (c : Dev nD) (k : ℕ) : Dev nD := ⟨(c.val + k) % 16, Nat.mod_lt _ (by decide)⟩
/-- The device k places before c. -/
def back (c : Dev nD) (k : ℕ) : Dev nD := ⟨(c.val + (16 - k % 16)) % 16, Nat.mod_lt _ (by decide)⟩

theorem back_peer (c : Dev nD) (k : ℕ) : back (peer c k) k = c := by
  apply Fin.ext; show ((c.val + k) % 16 + (16 - k % 16)) % 16 = c.val; have h16 : c.val < 16 := c.isLt; omega
theorem peer_back (c : Dev nD) (k : ℕ) : peer (back c k) k = c := by
  apply Fin.ext; show ((c.val + (16 - k % 16)) % 16 + k) % 16 = c.val; have h16 : c.val < 16 := c.isLt; omega

/-- The kernel's device chains: signal k and copy k both name the device k places on. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 1 := Fin.ext (k0_dev16_eq c)
theorem dev17_eq (c : Dev nD) : (⟨k0_dev17 c, k0_dev17_lt c⟩ : Dev nD) = peer c 2 := Fin.ext (k0_dev17_eq c)
theorem dev18_eq (c : Dev nD) : (⟨k0_dev18 c, k0_dev18_lt c⟩ : Dev nD) = peer c 3 := Fin.ext (k0_dev18_eq c)
theorem dev19_eq (c : Dev nD) : (⟨k0_dev19 c, k0_dev19_lt c⟩ : Dev nD) = peer c 4 := Fin.ext (k0_dev19_eq c)
theorem dev20_eq (c : Dev nD) : (⟨k0_dev20 c, k0_dev20_lt c⟩ : Dev nD) = peer c 5 := Fin.ext (k0_dev20_eq c)
theorem dev21_eq (c : Dev nD) : (⟨k0_dev21 c, k0_dev21_lt c⟩ : Dev nD) = peer c 6 := Fin.ext (k0_dev21_eq c)
theorem dev22_eq (c : Dev nD) : (⟨k0_dev22 c, k0_dev22_lt c⟩ : Dev nD) = peer c 7 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 9 := Fin.ext (k0_dev24_eq c)
theorem dev25_eq (c : Dev nD) : (⟨k0_dev25 c, k0_dev25_lt c⟩ : Dev nD) = peer c 10 := Fin.ext (k0_dev25_eq c)
theorem dev26_eq (c : Dev nD) : (⟨k0_dev26 c, k0_dev26_lt c⟩ : Dev nD) = peer c 11 := Fin.ext (k0_dev26_eq c)
theorem dev27_eq (c : Dev nD) : (⟨k0_dev27 c, k0_dev27_lt c⟩ : Dev nD) = peer c 12 := Fin.ext (k0_dev27_eq c)
theorem dev28_eq (c : Dev nD) : (⟨k0_dev28 c, k0_dev28_lt c⟩ : Dev nD) = peer c 13 := Fin.ext (k0_dev28_eq c)
theorem dev29_eq (c : Dev nD) : (⟨k0_dev29 c, k0_dev29_lt c⟩ : Dev nD) = peer c 14 := Fin.ext (k0_dev29_eq c)
theorem dev30_eq (c : Dev nD) : (⟨k0_dev30 c, k0_dev30_lt c⟩ : Dev nD) = peer c 15 := Fin.ext (k0_dev30_eq c)

/-! ## The buffers, the slots and the semaphores -/

abbrev xM : Memref sig .tc .vmem S4x256x128 .f32 := Memref.whole cc0_stg0_0
abbrev tM : Memref sig .tc .vmem S4x128 .f32 := Memref.whole cc0_stg1_0
abbrev wsM : Memref sig .tc .vmem S128x128 .f32 := Memref.whole cc0_stg2_0
abbrev whM : Memref sig .tc .vmem S128x128 .f32 := Memref.whole cc0_stg3_0
abbrev oM : Memref sig .tc .vmem S4x256x128 .f32 := Memref.whole cc0_stg4_0
abbrev aM : Memref sig .tc .vmem S8x256 .f32 := Memref.whole cc0_scratch0
abbrev rM : Memref sig .tc .vmem S16x8x256 .f32 := Memref.whole cc0_scratch1

theorem inb_slot (k : ℕ) (hk : k < 16) : ∀ a, (![k, 0, 0] : Fin 3 → Nat) a + S1x8x256.size a ≤ S16x8x256.size a := by
  intro a; fin_cases a
  · show k + 1 ≤ 16; omega
  · show 0 + 8 ≤ 8; omega
  · show 0 + 256 ≤ 256; omega
theorem inb_sem (k : ℕ) (hk : k < 16) : ∀ a, (![k] : Fin 1 → Nat) a + S1.size a ≤ S16.size a := by
  intro a; fin_cases a; show k + 1 ≤ 16; omega

/-- Row k of the receive buffer as a rectangle, and as the 8 × 256 memref the copies and loads name. -/
abbrev slotR (k : ℕ) (hk : k < 16) : Rect S16x8x256 := Rect.unit (s := S16x8x256) ![k, 0, 0] S1x8x256.size (inb_slot k hk)
abbrev slotM (k : ℕ) (hk : k < 16) : Memref sig .tc .vmem S8x256 .f32 :=
  ((rM : Memref sig .tc .vmem S16x8x256 .f32).slice (slotR k hk) (fun _ => rfl)).squeeze S8x256 squeezes_S1x8x256_S8x256

/-- Send and receive semaphore k of the two scratch arrays of sixteen. -/
abbrev sendS (k : ℕ) (hk : k < 16) : DmaSem sig :=
  ((cc0_scratch2.slice (Rect.unit (s := S16) ![k] S1.size (inb_sem k hk))).squeeze S_ squeezes_S1_S_).sem
abbrev recvS (k : ℕ) (hk : k < 16) : DmaSem sig :=
  ((cc0_scratch3.slice (Rect.unit (s := S16) ![k] S1.size (inb_sem k hk))).squeeze S_ squeezes_S1_S_).sem
/-- The runtime's barrier semaphore of collective id 0 (unscoped). -/
abbrev barS : Sem sig := (SemArray.scalar (sig.barrier 0 rfl) : Sems sig S_).sem

abbrev barCell (c : Dev nD) : GSem nD τ sig := ((c : Thread nD τ), .reg barS)
abbrev sendCell (c : Dev nD) (k : ℕ) (hk : k < 16) : GSem nD τ sig := ((c : Thread nD τ), .dma (sendS k hk))
abbrev recvCell (c : Dev nD) (k : ℕ) (hk : k < 16) : GSem nD τ sig := ((c : Thread nD τ), .dma (recvS k hk))

/-- The credit of one copy of the 8 × 256 moments. -/
abbrev N : ℕ := (aM : Memref sig .tc .vmem S8x256 .f32).view.dmaCredit
theorem N_pos : 0 < N := View.dmaCredit_pos _ (by decide)

/-! ## Contents -/

/-- Device c's staged blocks of the four arguments, as launched. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))
def wsstg (c : Dev nD) : (cc0_stg2_0 : Ref sig .tc).ty.Contents (Elt F) :=
  (win0_2.blk (0 : Fin 1)).view.read (Elt F) ((s₀ m ρ).mem ((c : Thread nD τ).loc main_arg2))
def whstg (c : Dev nD) : (cc0_stg3_0 : Ref sig .tc).ty.Contents (Elt F) :=
  (win0_3.blk (0 : Fin 1)).view.read (Elt F) ((s₀ m ρ).mem ((c : Thread nD τ).loc main_arg3))

/-- The moments device c computes from its block of x: rows 0–3 the sums over its channels, rows 4–7 the sums of squares. -/
def accOf (c : Dev nD) : (cc0_scratch0 : Ref sig .tc).ty.Contents (Elt F) := k0_pay2 (xstg m ρ c)

/-- What slot k of device c's receive buffer holds once device (c − k)'s copy has landed: that device's moments on
    every row (only row k is ever held through this valuation). -/
def landed (c : Dev nD) (k : ℕ) : (cc0_scratch1 : Ref sig .tc).ty.Contents (Elt F) :=
  fun i : S16x8x256.Idx => accOf m ρ (back c k) (ValueIdx.ix2 (i 1) (i 2))

/-- The total device c computes: its own moments and the fifteen slots, in the body's order. -/
def totOf (c : Dev nD) : FVec F S8x256 .f32 := totFold fun k => accOf m ρ (back c k)

/-- Device c's result block. -/
def outAt (c : Dev nD) : (cc0_stg4_0 : Ref sig .tc).ty.Contents (Elt F) :=
  outOf (xstg m ρ c) (tstg m ρ c) (wsstg m ρ c) (whstg m ρ c) (totOf m ρ c)

/-! ## Points-to assertions -/

/-- The share of `acc` lent to copy k, and the share kept for the body's own read. -/
abbrev shr (k : ℕ) (hk : k < 16) : PosShare TreeShare := Transfers.shareTok fullShare 16 ⟨k, hk⟩
abbrev shrKeep : PosShare TreeShare := Transfers.shareDrop fullShare 16

def accPts (c : Dev nD) (q : PosShare TreeShare) (f : Buf (Elt F) ((aM : Memref sig .tc .vmem S8x256 .f32).view.loc (c : Thread nD τ))) : sProp 𝕄 :=
  (aM : Memref sig .tc .vmem S8x256 .f32).view.loc (c : Thread nD τ) ↦[(aM : Memref sig .tc .vmem S8x256 .f32).view.set]{q} f
def slotPts (c : Dev nD) (k : ℕ) (hk : k < 16) (f : Buf (Elt F) ((slotM k hk).view.loc (c : Thread nD τ))) : sProp 𝕄 :=
  (slotM k hk).view.loc (c : Thread nD τ) ↦[(slotM k hk).view.set]{fullShare} f

omit [FloatOps F] in
instance accPts_storable (c : Dev nD) (q) (f) : BI.Storable (upEmb : UEmb _ 𝕄) (accPts (F := F) c q f) := by unfold accPts; infer_instance
omit [FloatOps F] in
instance slotPts_storable (c : Dev nD) (k hk) (f) : BI.Storable (upEmb : UEmb _ 𝕄) (slotPts (F := F) c k hk f) := by unfold slotPts; infer_instance

/-! ## The schedule -/

/-- The offset a DMA semaphore of the two scratch arrays stands at (send k is DMA semaphore 5 + k, receive k is 21 + k). -/
def sendIx (q : DmaSem sig) : Option ℕ := if 6 ≤ q.val ∧ q.val ≤ 20 then some (q.val - 5) else none
def recvIx (q : DmaSem sig) : Option ℕ := if 22 ≤ q.val ∧ q.val ≤ 36 then some (q.val - 21) else none

/-- Duty d of device c's barrier cell, paid by device c − d: that device's slot (16 − d), over some contents, and that
    the slot's receive cell is at round 0. -/
def barPay (c : Dev nD) (d : Fin 16) : sProp 𝕄 :=
  if h : 16 - d.val < 16 then
    iprop((∃ f, slotPts (back c d.val) (16 - d.val) h f) ∗ reached ER (recvCell (back c d.val) (16 - d.val) h) 0)
  else iprop(emp)
/-- The one duty of receive cell (c, k): slot k filled with device (c − k)'s moments. -/
def recvPay (c : Dev nD) (k : ℕ) : sProp 𝕄 :=
  if hk : k < 16 then slotPts c k hk (landed m ρ c k) else iprop(emp)
/-- The one duty of send cell (c, k): the share of `acc` the copy was lent. -/
def sendPay (c : Dev nD) (k : ℕ) : sProp 𝕄 :=
  if hk : k < 16 then accPts c (shr k hk) (accOf m ρ c) else iprop(emp)

/-- One round, round 0: a barrier cell has the fifteen unit duties 1 … 15; a send or receive cell of offset 1 … 15 the
    duty 0 of the copy's credit. -/
def sched : Rounds.Schedule (GSem nD τ sig) (Fin 16) 𝕄 where
  duties g r :=
    if r = 0 ∧ g.1.2 = .tc then
      match g.2 with
      | .reg s => if s = barS then Finset.univ.erase 0 else ∅
      | .dma q => if (sendIx q).isSome ∨ (recvIx q).isSome then {0} else ∅
    else ∅
  unitless _ := False
  amount g _ _ := if g.2 = .reg barS then 1 else N
  payload g _ d :=
    match g.2 with
    | .reg s => if s = barS ∧ d ≠ 0 then barPay g.1.1 d else iprop(emp)
    | .dma q => match recvIx q with
      | some k => recvPay m ρ g.1.1 k
      | none => match sendIx q with
        | some k => sendPay m ρ g.1.1 k
        | none => iprop(emp)
  amount_pos g _ _ _ := by
    by_cases h : g.2 = .reg barS
    · rw [if_pos h]; exact Nat.one_pos
    · rw [if_neg h]; exact N_pos

instance sched_payload_storable (g : GSem nD τ sig) (r : ℕ) (d : Fin 16) :
    BI.Storable (upEmb : UEmb _ 𝕄) ((sched (F := F) m ρ).payload g r d) := by
  show BI.Storable upEmb (match g.2 with
    | .reg s => if s = barS ∧ d ≠ 0 then barPay g.1.1 d else iprop(emp)
    | .dma q => match recvIx q with
      | some k => recvPay m ρ g.1.1 k
      | none => match sendIx q with
        | some k => sendPay m ρ g.1.1 k
        | none => iprop(emp))
  unfold barPay recvPay sendPay
  (repeat' split) <;> infer_instance

/-! ## What each core owes at launch; the levels -/

/-- The credit of receive cell (c + k, k), and a unit to the barrier cell of c + k: what copy k and signal k pay. -/
def recvOwe (c : Dev nD) (k : ℕ) : CellTallies nD τ sig Unit := if hk : k < 16 then tallyAt (recvCell (peer c k) k hk) () N else 0
def barOwe (c : Dev nD) (k : ℕ) : CellTallies nD τ sig Unit := tallyAt (barCell (peer c k)) () 1
/-- i copies remain (offsets 16 − i … 15). -/
def OsendR (c : Dev nD) : ℕ → CellTallies nD τ sig Unit
  | 0 => 0
  | i + 1 => OsendR c i + recvOwe c (15 - i)
/-- What device c still owes once its first j copies are enqueued. -/
def Osend (c : Dev nD) (j : ℕ) : CellTallies nD τ sig Unit := OsendR c (15 - j)
def OsigR (c : Dev nD) : ℕ → CellTallies nD τ sig Unit
  | 0 => Osend c 0
  | i + 1 => OsigR c i + barOwe c (15 - i)
/-- What it owes once its first j signals are sent: all fifteen copies' credit and a unit to the barrier cell of c + k for k > j. -/
def Osig (c : Dev nD) (j : ℕ) : CellTallies nD τ sig Unit := OsigR c (15 - j)
/-- At launch. -/
def O₀ (c : Dev nD) : CellTallies nD τ sig Unit := Osig c 0

def L (g : GSem nD τ sig) : Finset Unit := if g.1.2 = .tc then {()} else ∅
/-- Barrier cells at 1, receive cells at 2, everything else (staging, send) at 0: a device waits on its barrier owing
    only receive credit, and on its receive and send cells owing nothing. -/
def lv (g : GSem nD τ sig) (_ : Unit) : ℕ :=
  match g.2 with
  | .reg s => if s = barS then 1 else 0
  | .dma q => if (recvIx q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device's body starts from -/

/-- The names the launch allocated the cells' invariants at: per device, the barrier cell (`none`) and DMA semaphore q. -/
abbrev Names : Type := Dev nD × Option (DmaSem sig) → ℕ
abbrev kB (K : Names) (c : Dev nD) : ℕ := K (c, none)
abbrev kS (K : Names) (c : Dev nD) (k : ℕ) (hk : k < 16) : ℕ := K (c, some (sendS k hk))
abbrev kR (K : Names) (c : Dev nD) (k : ℕ) (hk : k < 16) : ℕ := K (c, some (recvS k hk))

/-- For offset k: the invariants device c opens — its own send and receive cells, the barrier and receive cells of the
    device k places on —, its positions, the reached-marks, and the three duty tokens it pays with. -/
def ghostK (K : Names) (c : Dev nD) (k : ℕ) (hk : k < 16) : sProp 𝕄 :=
  iprop(cellInv ER (sched m ρ) (kS K c k hk) (sendCell c k hk) ∗ cellInv ER (sched m ρ) (kR K c k hk) (recvCell c k hk)
    ∗ cellInv ER (sched m ρ) (kB K (peer c k)) (barCell (peer c k)) ∗ cellInv ER (sched m ρ) (kR K (peer c k) k hk) (recvCell (peer c k) k hk)
    ∗ atPos ER (sendCell c k hk) 0 ∅ 0 ∗ atPos ER (recvCell c k hk) 0 ∅ 0
    ∗ reached ER (barCell (peer c k)) 0 ∗ reached ER (recvCell (peer c k) k hk) 0 ∗ reached ER (sendCell c k hk) 0 ∗ reached ER (recvCell c k hk) 0
    ∗ dutyTok ER (barCell (peer c k)) 0 ⟨k, hk⟩ ∗ dutyTok ER (recvCell (peer c k) k hk) 0 0 ∗ dutyTok ER (sendCell c k hk) 0 0)

def ghost (K : Names) (c : Dev nD) : sProp 𝕄 :=
  iprop(cellInv ER (sched m ρ) (kB K c) (barCell c) ∗ atPos ER (barCell c) 0 ∅ 0
    ∗ ghostK m ρ K c 1 (by decide)
    ∗ ghostK m ρ K c 2 (by decide)
    ∗ ghostK m ρ K c 3 (by decide)
    ∗ ghostK m ρ K c 4 (by decide)
    ∗ ghostK m ρ K c 5 (by decide)
    ∗ ghostK m ρ K c 6 (by decide)
    ∗ ghostK m ρ K c 7 (by decide)
    ∗ ghostK m ρ K c 8 (by decide)
    ∗ ghostK m ρ K c 9 (by decide)
    ∗ ghostK m ρ K c 10 (by decide)
    ∗ ghostK m ρ K c 11 (by decide)
    ∗ ghostK m ρ K c 12 (by decide)
    ∗ ghostK m ρ K c 13 (by decide)
    ∗ ghostK m ρ K c 14 (by decide)
    ∗ ghostK m ρ K c 15 (by decide))

/-- What device c's body starts from: the ghost state at some names, the credit of its barrier's fifteen units and of its
    fifteen receive cells, and the level facts. -/
def recvCreds (c : Dev nD) : sProp 𝕄 :=
  iprop(cred (tallyAt (recvCell c 1 (by decide)) () N)
    ∗ cred (tallyAt (recvCell c 2 (by decide)) () N)
    ∗ cred (tallyAt (recvCell c 3 (by decide)) () N)
    ∗ cred (tallyAt (recvCell c 4 (by decide)) () N)
    ∗ cred (tallyAt (recvCell c 5 (by decide)) () N)
    ∗ cred (tallyAt (recvCell c 6 (by decide)) () N)
    ∗ cred (tallyAt (recvCell c 7 (by decide)) () N)
    ∗ cred (tallyAt (recvCell c 8 (by decide)) () N)
    ∗ cred (tallyAt (recvCell c 9 (by decide)) () N)
    ∗ cred (tallyAt (recvCell c 10 (by decide)) () N)
    ∗ cred (tallyAt (recvCell c 11 (by decide)) () N)
    ∗ cred (tallyAt (recvCell c 12 (by decide)) () N)
    ∗ cred (tallyAt (recvCell c 13 (by decide)) () N)
    ∗ cred (tallyAt (recvCell c 14 (by decide)) () N)
    ∗ cred (tallyAt (recvCell c 15 (by decide)) () N))
def start (c : Dev nD) : sProp 𝕄 :=
  iprop((∃ K, ghost m ρ K c) ∗ cred (tallyAt (barCell c) () 15) ∗ recvCreds c ∗ levAts L lv)

/-- The two scratch buffers whole, over some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The own semaphores' counters, closed at zero: send and receive cells 1 … 15 (those of offset 0 never leave the launch's hand). -/
def closedSems (c : Dev nD) : sProp 𝕄 :=
  iprop(semVal (sendCell c 1 (by decide)) 0 ∗ semVal (recvCell c 1 (by decide)) 0
    ∗ semVal (sendCell c 2 (by decide)) 0 ∗ semVal (recvCell c 2 (by decide)) 0
    ∗ semVal (sendCell c 3 (by decide)) 0 ∗ semVal (recvCell c 3 (by decide)) 0
    ∗ semVal (sendCell c 4 (by decide)) 0 ∗ semVal (recvCell c 4 (by decide)) 0
    ∗ semVal (sendCell c 5 (by decide)) 0 ∗ semVal (recvCell c 5 (by decide)) 0
    ∗ semVal (sendCell c 6 (by decide)) 0 ∗ semVal (recvCell c 6 (by decide)) 0
    ∗ semVal (sendCell c 7 (by decide)) 0 ∗ semVal (recvCell c 7 (by decide)) 0
    ∗ semVal (sendCell c 8 (by decide)) 0 ∗ semVal (recvCell c 8 (by decide)) 0
    ∗ semVal (sendCell c 9 (by decide)) 0 ∗ semVal (recvCell c 9 (by decide)) 0
    ∗ semVal (sendCell c 10 (by decide)) 0 ∗ semVal (recvCell c 10 (by decide)) 0
    ∗ semVal (sendCell c 11 (by decide)) 0 ∗ semVal (recvCell c 11 (by decide)) 0
    ∗ semVal (sendCell c 12 (by decide)) 0 ∗ semVal (recvCell c 12 (by decide)) 0
    ∗ semVal (sendCell c 13 (by decide)) 0 ∗ semVal (recvCell c 13 (by decide)) 0
    ∗ semVal (sendCell c 14 (by decide)) 0 ∗ semVal (recvCell c 14 (by decide)) 0
    ∗ semVal (sendCell c 15 (by decide)) 0 ∗ semVal (recvCell c 15 (by decide)) 0)

def Φ₀ (c : Dev nD) : sProp 𝕄 := iprop(start m ρ c ∗ scr c ∗ semVal (sendCell c 0 (by decide)) 0 ∗ semVal (recvCell c 0 (by decide)) 0)
def Φ₁ (c : Dev nD) : sProp 𝕄 := iprop(scr c ∗ closedSems c ∗ semVal (sendCell c 0 (by decide)) 0 ∗ semVal (recvCell c 0 (by decide)) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wsstg m ρ c
    | ⟨3, _⟩ => whstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Kernel.KP

end
-- ==== Proof.WSched.lean ====
/-
  The schedule's tables and the level facts, for a symbolic device c and a symbolic offset k < 16.

  * The send semaphore of offset k is DMA semaphore 5 + k, the receive semaphore 21 + k, so the schedule's two
    index readers return k on them (and nothing at offset 0 or on the five staging semaphores).
  * Round 0 of a barrier cell has the fifteen unit duties 1 … 15, of a send or receive cell of offset 1 … 15 the one
    duty 0 of a copy's credit; later rounds are empty.
  * What a device owes shrinks one summand per signal and per copy; whatever it still owes is owed to a barrier cell
    or to a receive cell of offset 1 … 15.
  * Levels: staging and send cells 0, barrier cells 1, receive cells 2. A device waits on a staging cell owing
    barrier units and receive credit (both above 0), and on its barrier cell owing only receive credit (2 above 1).
-/
import proofs.«900516_g7700000000000517_dist_diff_adaln_cshard_i_b4_s256_c128_v7x_i16_bf16_1_alg».proof.Proof.WDefs
import Mathlib.Tactic.FinCases

noncomputable section

namespace Cert.Kernel.KP

open Cert.Kernel Cert.Kernel.Gen Cert.Kernel.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores' indices -/

/-- Send semaphore k is DMA semaphore 5 + k of the pool. -/
theorem sendS_val (k : ℕ) (hk : k < 16) : (sendS k hk).val = 5 + k := by
  show 5 + (S16.rowMajor ((Rect.unit (s := S16) ![k] S1.size (inb_sem k hk)).emb _)).val = 5 + k
  rw [Shape.rowMajor_val_one, Rect.emb_apply]
  generalize (Shape.reshapeEquiv _) _ = j
  have h1 : (j 0).val < 1 := (j 0).isLt
  show 5 + (k + 1 * (j 0).val) = 5 + k
  omega
/-- Receive semaphore k is DMA semaphore 21 + k. -/
theorem recvS_val (k : ℕ) (hk : k < 16) : (recvS k hk).val = 21 + k := by
  show 21 + (S16.rowMajor ((Rect.unit (s := S16) ![k] S1.size (inb_sem k hk)).emb _)).val = 21 + k
  rw [Shape.rowMajor_val_one, Rect.emb_apply]
  generalize (Shape.reshapeEquiv _) _ = j
  have h1 : (j 0).val < 1 := (j 0).isLt
  show 21 + (k + 1 * (j 0).val) = 21 + k
  omega

theorem sendIx_send (k : ℕ) (hk : k < 16) (h0 : 0 < k) : sendIx (sendS k hk) = some k := by
  have h : 6 ≤ (sendS k hk).val ∧ (sendS k hk).val ≤ 20 := by rw [sendS_val]; omega
  have e : (sendS k hk).val - 5 = k := by rw [sendS_val]; omega
  unfold sendIx; rw [if_pos h, e]
theorem recvIx_send (k : ℕ) (hk : k < 16) : recvIx (sendS k hk) = none := by
  have h : ¬ (22 ≤ (sendS k hk).val ∧ (sendS k hk).val ≤ 36) := by rw [sendS_val]; omega
  unfold recvIx; rw [if_neg h]
theorem recvIx_recv (k : ℕ) (hk : k < 16) (h0 : 0 < k) : recvIx (recvS k hk) = some k := by
  have h : 22 ≤ (recvS k hk).val ∧ (recvS k hk).val ≤ 36 := by rw [recvS_val]; omega
  have e : (recvS k hk).val - 21 = k := by rw [recvS_val]; omega
  unfold recvIx; rw [if_pos h, e]
theorem sendIx_recv (k : ℕ) (hk : k < 16) : sendIx (recvS k hk) = none := by
  have h : ¬ (6 ≤ (recvS k hk).val ∧ (recvS k hk).val ≤ 20) := by rw [recvS_val]; omega
  unfold sendIx; rw [if_neg h]
/-- Offset 0 is no duty's: the two semaphores of offset 0 are read as nothing. -/
theorem sendIx_send_zero (h : 0 < 16) : sendIx (sendS 0 h) = none := by
  have h' : ¬ (6 ≤ (sendS 0 h).val ∧ (sendS 0 h).val ≤ 20) := by rw [sendS_val]; omega
  unfold sendIx; rw [if_neg h']
theorem recvIx_recv_zero (h : 0 < 16) : recvIx (recvS 0 h) = none := by
  have h' : ¬ (22 ≤ (recvS 0 h).val ∧ (recvS 0 h).val ≤ 36) := by rw [recvS_val]; omega
  unfold recvIx; rw [if_neg h']
/-- Below the two arrays (the staging semaphores 0 … 4 among them) both readers return nothing. -/
theorem sendIx_of_lt (q : DmaSem sig) (hq : q.val < 6) : sendIx q = none := by
  have h : ¬ (6 ≤ q.val ∧ q.val ≤ 20) := by omega
  unfold sendIx; rw [if_neg h]
theorem recvIx_of_lt (q : DmaSem sig) (hq : q.val < 22) : recvIx q = none := by
  have h : ¬ (22 ≤ q.val ∧ q.val ≤ 36) := by omega
  unfold recvIx; rw [if_neg h]

theorem send_ne_bar (k : ℕ) (hk : k < 16) : (SemLoc.dma (sendS k hk) : SemLoc sig) ≠ .reg barS := fun h => by cases h
theorem recv_ne_bar (k : ℕ) (hk : k < 16) : (SemLoc.dma (recvS k hk) : SemLoc sig) ≠ .reg barS := fun h => by cases h
theorem send_ne_recv (k k' : ℕ) (hk : k < 16) (hk' : k' < 16) : (SemLoc.dma (sendS k hk) : SemLoc sig) ≠ .dma (recvS k' hk') := fun h => by
  have e := congrArg Fin.val (SemLoc.dma.inj h)
  rw [sendS_val, recvS_val] at e; omega
theorem recv_ne_send (k k' : ℕ) (hk : k < 16) (hk' : k' < 16) : (SemLoc.dma (recvS k hk) : SemLoc sig) ≠ .dma (sendS k' hk') :=
  fun h => send_ne_recv k' k hk' hk h.symm

theorem sendS_inj {k k' : ℕ} {hk : k < 16} {hk' : k' < 16} (h : sendS k hk = sendS k' hk') : k = k' := by
  have e := congrArg Fin.val h
  rw [sendS_val, sendS_val] at e; omega
theorem recvS_inj {k k' : ℕ} {hk : k < 16} {hk' : k' < 16} (h : recvS k hk = recvS k' hk') : k = k' := by
  have e := congrArg Fin.val h
  rw [recvS_val, recvS_val] at e; omega

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k k' : ℕ} {hk : k < 16} {hk' : k' < 16} : Iff (recvCell a k hk = recvCell b k' hk') (a = b ∧ k = k') :=
  ⟨fun h => ⟨Fin.ext (congrArg (fun g : GSem nD τ sig => g.1.1.val) h), recvS_inj (SemLoc.dma.inj (congrArg Prod.snd h))⟩,
   fun h => by obtain ⟨rfl, rfl⟩ := h; rfl⟩
theorem send_eq_iff {a b : Dev nD} {k k' : ℕ} {hk : k < 16} {hk' : k' < 16} : Iff (sendCell a k hk = sendCell b k' hk') (a = b ∧ k = k') :=
  ⟨fun h => ⟨Fin.ext (congrArg (fun g : GSem nD τ sig => g.1.1.val) h), sendS_inj (SemLoc.dma.inj (congrArg Prod.snd h))⟩,
   fun h => by obtain ⟨rfl, rfl⟩ := h; rfl⟩

theorem sub_lt16 (k : ℕ) (h0 : 0 < k) : 16 - k < 16 := by omega

/-- The device (16 − k) places before c is the device k places after it. -/
theorem back_sub (c : Dev nD) (k : ℕ) (h0 : 0 < k) (hk : k < 16) : back c (16 - k) = peer c k := by
  apply Fin.ext; show (c.val + (16 - (16 - k) % 16)) % 16 = (c.val + k) % 16; have := c.isLt; omega

/-! ## The schedule's tables -/

section Sched
variable (c : Dev nD)

theorem duties_bar : (sched (F := F) m ρ).duties (barCell c) 0 = Finset.univ.erase 0 := by
  dsimp only [sched]; rw [if_pos ⟨rfl, rfl⟩]; exact if_pos rfl
theorem duties_send (k : ℕ) (hk : k < 16) (h0 : 0 < k) : (sched (F := F) m ρ).duties (sendCell c k hk) 0 = {0} := by
  have h : (sendIx (sendS k hk)).isSome = true ∨ (recvIx (sendS k hk)).isSome = true := Or.inl (by rw [sendIx_send k hk h0]; rfl)
  dsimp only [sched]; rw [if_pos ⟨rfl, rfl⟩]; exact if_pos h
theorem duties_recv (k : ℕ) (hk : k < 16) (h0 : 0 < k) : (sched (F := F) m ρ).duties (recvCell c k hk) 0 = {0} := by
  have h : (sendIx (recvS k hk)).isSome = true ∨ (recvIx (recvS k hk)).isSome = true := Or.inr (by rw [recvIx_recv k hk h0]; rfl)
  dsimp only [sched]; rw [if_pos ⟨rfl, rfl⟩]; exact if_pos h
theorem duties_later (g : GSem nD τ sig) : ∀ r, 1 ≤ r → (sched (F := F) m ρ).duties g r = ∅ :=
  fun r hr => by dsimp only [sched]; rw [if_neg fun h => by omega]
/-- The cells of offset 0 have no duty in any round. -/
theorem duties_send_zero (h : 0 < 16) (r : ℕ) : (sched (F := F) m ρ).duties (sendCell c 0 h) r = ∅ := by
  have hn : ¬ ((sendIx (sendS 0 h)).isSome = true ∨ (recvIx (sendS 0 h)).isSome = true) := by
    rw [sendIx_send_zero h, recvIx_send 0 h]; rintro (h' | h') <;> exact Bool.false_ne_true h'
  dsimp only [sched]
  by_cases hr : r = 0
  · rw [if_pos ⟨hr, rfl⟩]; exact if_neg hn
  · exact if_neg fun h' => hr h'.1
theorem duties_recv_zero (h : 0 < 16) (r : ℕ) : (sched (F := F) m ρ).duties (recvCell c 0 h) r = ∅ := by
  have hn : ¬ ((sendIx (recvS 0 h)).isSome = true ∨ (recvIx (recvS 0 h)).isSome = true) := by
    rw [sendIx_recv 0 h, recvIx_recv_zero h]; rintro (h' | h') <;> exact Bool.false_ne_true h'
  dsimp only [sched]
  by_cases hr : r = 0
  · rw [if_pos ⟨hr, rfl⟩]; exact if_neg hn
  · exact if_neg fun h' => hr h'.1

/-- Membership, as the rules for a signal and a copy ask for it. -/
theorem mem_duties_bar (d : Fin 16) (hd : d ≠ 0) : d ∈ (sched (F := F) m ρ).duties (barCell c) 0 := by
  rw [duties_bar]; exact Finset.mem_erase.mpr ⟨hd, Finset.mem_univ _⟩
theorem mem_duties_send (k : ℕ) (hk : k < 16) (h0 : 0 < k) : (0 : Fin 16) ∈ (sched (F := F) m ρ).duties (sendCell c k hk) 0 := by
  rw [duties_send m ρ c k hk h0]; exact Finset.mem_singleton_self _
theorem mem_duties_recv (k : ℕ) (hk : k < 16) (h0 : 0 < k) : (0 : Fin 16) ∈ (sched (F := F) m ρ).duties (recvCell c k hk) 0 := by
  rw [duties_recv m ρ c k hk h0]; exact Finset.mem_singleton_self _

theorem amount_bar (d : Fin 16) : (sched (F := F) m ρ).amount (barCell c) 0 d = 1 := by dsimp only [sched]; exact if_pos rfl
theorem amount_send (k : ℕ) (hk : k < 16) (d : Fin 16) : (sched (F := F) m ρ).amount (sendCell c k hk) 0 d = N := by
  dsimp only [sched]; exact if_neg (send_ne_bar k hk)
theorem amount_recv (k : ℕ) (hk : k < 16) (d : Fin 16) : (sched (F := F) m ρ).amount (recvCell c k hk) 0 d = N := by
  dsimp only [sched]; exact if_neg (recv_ne_bar k hk)

set_option maxRecDepth 8000 in
theorem expect_bar : (sched (F := F) m ρ).expect (barCell c) 0 = 15 := by
  have hc : (Finset.univ.erase (0 : Fin 16)).card = 15 := by decide
  unfold Schedule.expect Schedule.amountOf
  rw [duties_bar, Finset.sum_congr rfl fun d _ => amount_bar m ρ c d, Finset.sum_const, smul_eq_mul, mul_one, hc]
theorem expect_send (k : ℕ) (hk : k < 16) (h0 : 0 < k) : (sched (F := F) m ρ).expect (sendCell c k hk) 0 = N := by
  unfold Schedule.expect Schedule.amountOf; rw [duties_send m ρ c k hk h0, Finset.sum_singleton, amount_send]
theorem expect_recv (k : ℕ) (hk : k < 16) (h0 : 0 < k) : (sched (F := F) m ρ).expect (recvCell c k hk) 0 = N := by
  unfold Schedule.expect Schedule.amountOf; rw [duties_recv m ρ c k hk h0, Finset.sum_singleton, amount_recv]

theorem payload_bar (d : Fin 16) (hd : d ≠ 0) : (sched (F := F) m ρ).payload (barCell c) 0 d = barPay c d := by
  dsimp only [sched]; exact if_pos ⟨rfl, hd⟩
/-- The payload of a DMA cell, the outer case of the table taken. -/
theorem payload_dma (q : DmaSem sig) (r : ℕ) (d : Fin 16) :
    (sched (F := F) m ρ).payload ((c : Thread nD τ), .dma q) r d
      = (match recvIx q with
          | some k => recvPay m ρ c k
          | none => match sendIx q with
            | some k => sendPay m ρ c k
            | none => iprop(emp)) := rfl
theorem payload_send (k : ℕ) (hk : k < 16) (h0 : 0 < k) (d : Fin 16) : (sched (F := F) m ρ).payload (sendCell c k hk) 0 d = sendPay m ρ c k := by
  have e := payload_dma m ρ c (sendS k hk) 0 d
  rw [recvIx_send k hk, sendIx_send k hk h0] at e
  exact e
theorem payload_recv (k : ℕ) (hk : k < 16) (h0 : 0 < k) (d : Fin 16) : (sched (F := F) m ρ).payload (recvCell c k hk) 0 d = recvPay m ρ c k := by
  have e := payload_dma m ρ c (recvS k hk) 0 d
  rw [recvIx_recv k hk h0] at e
  exact e

theorem sendPay_eq (k : ℕ) (hk : k < 16) : sendPay m ρ c k = accPts c (shr k hk) (accOf m ρ c) := dif_pos hk
theorem recvPay_eq (k : ℕ) (hk : k < 16) : recvPay m ρ c k = slotPts c k hk (landed m ρ c k) := dif_pos hk

omit [FloatOps F] in
/-- A barrier duty's payload depends on the slot's device and offset only through their values. -/
theorem barPay_congr (a b : Dev nD) (i j : ℕ) (hi : i < 16) (hj : j < 16) (hab : a = b) (hij : i = j) :
    (iprop((∃ f, slotPts (F := F) a i hi f) ∗ reached ER (recvCell a i hi) 0) : sProp 𝕄)
      = iprop((∃ f, slotPts b j hj f) ∗ reached ER (recvCell b j hj) 0) := by
  subst hab; subst hij; rfl
omit [FloatOps F] in
/-- What device c's k-th signal hands the device k places on: c's own slot 16 − k, and that its receive cell is open. -/
theorem barPay_out (k : ℕ) (hk : k < 16) (h0 : 0 < k) :
    (barPay (F := F) (peer c k) ⟨k, hk⟩ : sProp 𝕄)
      = iprop((∃ f, slotPts c (16 - k) (sub_lt16 k h0) f) ∗ reached ER (recvCell c (16 - k) (sub_lt16 k h0)) 0) := by
  have h : 16 - (⟨k, hk⟩ : Fin 16).val < 16 := by show 16 - k < 16; omega
  unfold barPay; rw [dif_pos h]
  exact barPay_congr _ _ _ _ _ _ (back_peer c k) rfl
omit [FloatOps F] in
/-- What device c's k-th copy needs and duty 16 − k of its own barrier cell brings: slot k of the device k places on. -/
theorem barPay_in (k : ℕ) (hk : k < 16) (h0 : 0 < k) :
    (barPay (F := F) c ⟨16 - k, sub_lt16 k h0⟩ : sProp 𝕄)
      = iprop((∃ f, slotPts (peer c k) k hk f) ∗ reached ER (recvCell (peer c k) k hk) 0) := by
  have h : 16 - (⟨16 - k, sub_lt16 k h0⟩ : Fin 16).val < 16 := by show 16 - (16 - k) < 16; omega
  unfold barPay; rw [dif_pos h]
  exact barPay_congr _ _ _ _ _ _ (back_sub c k h0 hk) (by show 16 - (16 - k) = k; omega)

set_option maxRecDepth 8000 in
/-- The barrier cell's round, no duty taken: the fifteen payloads in the order of the offsets. -/
theorem rest_bar : bigSep ((sched (F := F) m ρ).duties (barCell c) 0 \ ∅) (fun d => (sched (F := F) m ρ).payload (barCell c) 0 d)
    = iprop(barPay c 1 ∗ barPay c 2 ∗ barPay c 3 ∗ barPay c 4 ∗ barPay c 5 ∗ barPay c 6 ∗ barPay c 7 ∗ barPay c 8 ∗ barPay c 9
        ∗ barPay c 10 ∗ barPay c 11 ∗ barPay c 12 ∗ barPay c 13 ∗ barPay c 14 ∗ barPay c 15) := by
  rw [Finset.sdiff_empty, duties_bar,
    bigSep_eq_bigSepL_of_eq (I := Fin 16) [1, 2, 3, 4, 5, 6, 7, 8, 9, 10, 11, 12, 13, 14, 15] (by decide) (by decide)]
  simp only [bigSepL_cons_cons, bigSepL_singleton]
  rw [payload_bar m ρ c 1 (by decide), payload_bar m ρ c 2 (by decide), payload_bar m ρ c 3 (by decide), payload_bar m ρ c 4 (by decide),
    payload_bar m ρ c 5 (by decide), payload_bar m ρ c 6 (by decide), payload_bar m ρ c 7 (by decide), payload_bar m ρ c 8 (by decide),
    payload_bar m ρ c 9 (by decide), payload_bar m ρ c 10 (by decide), payload_bar m ρ c 11 (by decide), payload_bar m ρ c 12 (by decide),
    payload_bar m ρ c 13 (by decide), payload_bar m ρ c 14 (by decide), payload_bar m ρ c 15 (by decide)]
  rfl
/-- The same with the round's duties already written out (the form a rewrite with `duties_bar` leaves). -/
theorem rest_bar_erase : bigSep (Finset.univ.erase (0 : Fin 16)) (fun d => (sched (F := F) m ρ).payload (barCell c) 0 d)
    = iprop(barPay c 1 ∗ barPay c 2 ∗ barPay c 3 ∗ barPay c 4 ∗ barPay c 5 ∗ barPay c 6 ∗ barPay c 7 ∗ barPay c 8 ∗ barPay c 9
        ∗ barPay c 10 ∗ barPay c 11 ∗ barPay c 12 ∗ barPay c 13 ∗ barPay c 14 ∗ barPay c 15) := by
  rw [← rest_bar m ρ c, Finset.sdiff_empty, duties_bar]
theorem rest_send (k : ℕ) (hk : k < 16) (h0 : 0 < k) :
    bigSep ((sched (F := F) m ρ).duties (sendCell c k hk) 0 \ ∅) (fun d => (sched (F := F) m ρ).payload (sendCell c k hk) 0 d) = sendPay m ρ c k := by
  rw [Finset.sdiff_empty, duties_send m ρ c k hk h0, bigSep_singleton, payload_send m ρ c k hk h0]
theorem rest_recv (k : ℕ) (hk : k < 16) (h0 : 0 < k) :
    bigSep ((sched (F := F) m ρ).duties (recvCell c k hk) 0 \ ∅) (fun d => (sched (F := F) m ρ).payload (recvCell c k hk) 0 d) = recvPay m ρ c k := by
  rw [Finset.sdiff_empty, duties_recv m ρ c k hk h0, bigSep_singleton, payload_recv m ρ c k hk h0]

end Sched

/-! ## What is owed, peeled a signal or a copy at a time -/

theorem recvOwe_eq (c : Dev nD) (k : ℕ) (hk : k < 16) : recvOwe c k = tallyAt (recvCell (peer c k) k hk) () N := dif_pos hk

/-- The (j+1)-th signal pays the unit owed to the barrier cell of the device j + 1 places on. -/
theorem Osig_succ (c : Dev nD) (j : ℕ) (hj : j < 15) : Osig c j = Osig c (j + 1) + tallyAt (barCell (peer c (j + 1))) () 1 := by
  obtain ⟨i, hi⟩ : ∃ i, 15 - j = i + 1 := ⟨14 - j, by omega⟩
  have h1 : 15 - (j + 1) = i := by omega
  have h2 : 15 - i = j + 1 := by omega
  unfold Osig; rw [hi, h1]
  show OsigR c i + barOwe c (15 - i) = OsigR c i + tallyAt (barCell (peer c (j + 1))) () 1
  rw [h2, barOwe]
theorem Osig_last (c : Dev nD) : Osig c 15 = Osend c 0 := rfl
/-- The (j+1)-th copy pays the credit owed to receive cell j + 1 of the device j + 1 places on. -/
theorem Osend_succ (c : Dev nD) (j : ℕ) (hj : j < 15) :
    Osend c j = Osend c (j + 1) + tallyAt (recvCell (peer c (j + 1)) (j + 1) (by omega)) () N := by
  obtain ⟨i, hi⟩ : ∃ i, 15 - j = i + 1 := ⟨14 - j, by omega⟩
  have h1 : 15 - (j + 1) = i := by omega
  have h2 : 15 - i = j + 1 := by omega
  unfold Osend; rw [hi, h1]
  show OsendR c i + recvOwe c (15 - i) = OsendR c i + tallyAt (recvCell (peer c (j + 1)) (j + 1) (by omega)) () N
  rw [h2, recvOwe_eq c (j + 1) (by omega)]
theorem Osend_last (c : Dev nD) : Osend c 15 = 0 := rfl

theorem recvOwe_pos {c : Dev nD} {k : ℕ} {g : GSem nD τ sig} {u : Unit} (h : 0 < recvOwe c k g u) :
    ∃ hk : k < 16, g = recvCell (peer c k) k hk := by
  unfold recvOwe at h
  by_cases hk : k < 16
  · rw [dif_pos hk, tallyAt_apply] at h
    by_cases hg : g = recvCell (peer c k) k hk ∧ u = ()
    · exact ⟨hk, hg.1⟩
    · rw [if_neg hg] at h; exact absurd h (Nat.lt_irrefl 0)
  · rw [dif_neg hk, Pi.zero_apply, Finsupp.zero_apply] at h; exact absurd h (Nat.lt_irrefl 0)

theorem barOwe_pos {c : Dev nD} {k : ℕ} {g : GSem nD τ sig} {u : Unit} (h : 0 < barOwe c k g u) : g = barCell (peer c k) := by
  unfold barOwe at h; rw [tallyAt_apply] at h
  by_cases hg : g = barCell (peer c k) ∧ u = ()
  · exact hg.1
  · rw [if_neg hg] at h; exact absurd h (Nat.lt_irrefl 0)

theorem OsendR_pos {c : Dev nD} {g : GSem nD τ sig} {u : Unit} :
    ∀ i, i ≤ 15 → 0 < OsendR c i g u → ∃ k, ∃ hk : k < 16, 0 < k ∧ g = recvCell (peer c k) k hk
  | 0, _, h => by
    have h' : 0 < (0 : CellTallies nD τ sig Unit) g u := h
    rw [Pi.zero_apply, Finsupp.zero_apply] at h'; exact absurd h' (Nat.lt_irrefl 0)
  | i + 1, hi, h => by
    have h' : 0 < (OsendR c i + recvOwe c (15 - i)) g u := h
    rw [Pi.add_apply, Finsupp.add_apply] at h'
    rcases Nat.add_pos_iff_pos_or_pos.mp h' with h1 | h1
    · exact OsendR_pos i (by omega) h1
    · obtain ⟨hk, hg⟩ := recvOwe_pos h1
      exact ⟨15 - i, hk, by omega, hg⟩

/-- Whatever a device still owes after its signals, it owes to a receive cell of an offset 1 … 15. -/
theorem Osend_pos {c : Dev nD} {g : GSem nD τ sig} {u : Unit} {j : ℕ} (h : 0 < Osend c j g u) :
    ∃ k, ∃ hk : k < 16, 0 < k ∧ g = recvCell (peer c k) k hk := OsendR_pos (15 - j) (by omega) h

theorem OsigR_pos {c : Dev nD} {g : GSem nD τ sig} {u : Unit} :
    ∀ i, 0 < OsigR c i g u → (∃ k, ∃ hk : k < 16, 0 < k ∧ g = recvCell (peer c k) k hk) ∨ (∃ k, g = barCell (peer c k))
  | 0, h => Or.inl (Osend_pos (j := 0) h)
  | i + 1, h => by
    have h' : 0 < (OsigR c i + barOwe c (15 - i)) g u := h
    rw [Pi.add_apply, Finsupp.add_apply] at h'
    rcases Nat.add_pos_iff_pos_or_pos.mp h' with h1 | h1
    · exact OsigR_pos i h1
    · exact Or.inr ⟨15 - i, barOwe_pos h1⟩

/-- Before and during its signals a device owes to receive cells of offsets 1 … 15 and to barrier cells. -/
theorem Osig_pos {c : Dev nD} {g : GSem nD τ sig} {u : Unit} {j : ℕ} (h : 0 < Osig c j g u) :
    (∃ k, ∃ hk : k < 16, 0 < k ∧ g = recvCell (peer c k) k hk) ∨ (∃ k, g = barCell (peer c k)) := OsigR_pos (15 - j) h
theorem O₀_pos {c : Dev nD} {g : GSem nD τ sig} {u : Unit} (h : 0 < O₀ c g u) :
    (∃ k, ∃ hk : k < 16, 0 < k ∧ g = recvCell (peer c k) k hk) ∨ (∃ k, g = barCell (peer c k)) := Osig_pos (j := 0) h

/-! ## The levels -/

theorem lv_bar (c : Dev nD) : lv (barCell c) () = 1 := by unfold lv; exact if_pos rfl
theorem lv_recv (c : Dev nD) (k : ℕ) (hk : k < 16) (h0 : 0 < k) : lv (recvCell c k hk) () = 2 := by
  have h : (recvIx (recvS k hk)).isSome = true := by rw [recvIx_recv k hk h0]; rfl
  exact if_pos h
theorem lv_send (c : Dev nD) (k : ℕ) (hk : k < 16) : lv (sendCell c k hk) () = 0 := by
  have h : ¬ (recvIx (sendS k hk)).isSome = true := by rw [recvIx_send k hk]; exact Bool.false_ne_true
  exact if_neg h
/-- A DMA semaphore below the receive array — a staging semaphore, a send semaphore — is at level 0. -/
theorem lv_stage (c : Dev nD) (q : DmaSem sig) (hq : q.val < 22) : lv ((c : Thread nD τ), .dma q) () = 0 := by
  have h : ¬ (recvIx q).isSome = true := by rw [recvIx_of_lt q hq]; exact Bool.false_ne_true
  exact if_neg h

omit [FloatOps F] in
/-- A wait on a staging semaphore, owing everything or nothing: all that is owed lies above level 0. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, hk, h0, rfl⟩ | ⟨k, rfl⟩
        · rw [L_tc]; exact Finset.mem_singleton_self _
        · rw [L_tc]; exact Finset.mem_singleton_self _)
      (fun p hp => by rw [Finset.mem_singleton.mp hp]; exact (lv_stage c q (by omega)).le)
      (fun g u hg => by
        cases u
        rcases O₀_pos hg with ⟨k, hk, h0, rfl⟩ | ⟨k, rfl⟩
        · rw [lv_recv _ k hk h0]; decide
        · rw [lv_bar]; decide)
  · rw [MayWait_zero]; iintro -; iempintro

omit [FloatOps F] in
/-- At its barrier wait a device owes receive credit only: receive cells, one level above its barrier cell. -/
theorem mayWait_bar (c : Dev nD) :
    (levAts L lv : sProp 𝕄) ⊢ MayWait (c : Thread nD τ) (.reg barS) () (Osend c 0) :=
  MayOwe.of_cut (L := L) (lev := lv) 1 (fun p hp => by rw [Finset.mem_singleton.mp hp, L_tc]; exact Finset.mem_singleton_self _)
    (fun g u hg => by
      obtain ⟨k, hk, h0, rfl⟩ := Osend_pos hg
      rw [L_tc]; exact Finset.mem_singleton_self _)
    (fun p hp => by rw [Finset.mem_singleton.mp hp]; exact (lv_bar c).le)
    (fun g u hg => by
      cases u
      obtain ⟨k, hk, h0, rfl⟩ := Osend_pos hg
      rw [lv_recv _ k hk h0]; decide)

/-! ## The tables as the symbolic executor rewrites with them: the table entry on the left -/

attribute [sl_rounds] duties_bar duties_send duties_recv duties_later duties_send_zero duties_recv_zero
  amount_bar amount_send amount_recv expect_bar expect_send expect_recv
  payload_bar payload_send payload_recv rest_bar rest_bar_erase rest_send rest_recv

/-- info: 'Cert.Kernel.KP.rest_bar' depends on axioms: [propext, Classical.choice, Quot.sound] -/
#guard_msgs in #print axioms rest_bar
/-- info: 'Cert.Kernel.KP.rest_send' depends on axioms: [propext, Classical.choice, Quot.sound] -/
#guard_msgs in #print axioms rest_send
/-- info: 'Cert.Kernel.KP.rest_recv' depends on axioms: [propext, Classical.choice, Quot.sound] -/
#guard_msgs in #print axioms rest_recv
/-- info: 'Cert.Kernel.KP.expect_bar' depends on axioms: [propext, Classical.choice, Quot.sound] -/
#guard_msgs in #print axioms expect_bar
/-- info: 'Cert.Kernel.KP.mayWait_stage' depends on axioms: [propext, Classical.choice, Quot.sound] -/
#guard_msgs in #print axioms mayWait_stage
/-- info: 'Cert.Kernel.KP.mayWait_bar' depends on axioms: [propext, Classical.choice, Quot.sound] -/
#guard_msgs in #print axioms mayWait_bar

end Cert.Kernel.KP

end
-- ==== Proof.WSlots.lean ====
/-
  The receive buffer by slots and the moments buffer by shares: separation logic and view geometry only.

  Slot k of the 16 × 8 × 256 receive buffer is the set of its indices whose first coordinate is k. The sixteen slots are
  pairwise disjoint and cover the buffer, so the buffer held whole is the sixteen slots held one beside the other, at one
  valuation or, joined back, at sixteen. A copy of an 8 × 256 block b into slot k leaves b (r, l) at (k, r, l), and a load
  of row k through the whole buffer reads the block back as a 1 × 8 × 256 vector. The moments buffer held whole is a
  kept share and sixteen lent shares.
-/
import proofs.«900516_g7700000000000517_dist_diff_adaln_cshard_i_b4_s256_c128_v7x_i16_bf16_1_alg».proof.Proof.WDefs

noncomputable section

namespace Cert.Kernel.KP

open Cert.Kernel Cert.Kernel.Gen Cert.Kernel.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- `k < 16` for a literal `k`, as a closed term: a statement below mentions sixteen of them, and a valuation's type
    depends on each. -/
local macro "lt16" : term => `(of_decide_eq_true (Eq.refl true))

/-! ## A slot's geometry -/

/-- A slot's buffer is the receive buffer. -/
theorem slot_loc (c : Dev nD) (k : ℕ) (hk : k < 16) :
    (slotM k hk).view.loc (c : Thread nD τ) = (c : Thread nD τ).loc cc0_scratch1 := rfl

/-- The elements under slot k's memref are those of the rectangle of row k. -/
theorem slot_set (k : ℕ) (hk : k < 16) :
    ((slotM k hk).view.set : Finset S16x8x256.Idx) = (slotR k hk).set :=
  (View.set_reshape _ _).trans (View.set_slice_whole cc0_scratch1 (slotR k hk))

/-- An index of the receive buffer lies in slot k exactly when its first coordinate is k. -/
theorem mem_slot (k : ℕ) (hk : k < 16) (i : S16x8x256.Idx) :
    i ∈ ((slotM k hk).view.set : Finset S16x8x256.Idx) ↔ (i 0).val = k := by
  rw [slot_set, Rect.mem_set_unit]
  constructor
  · intro h
    have h0 : k ≤ (i 0).val ∧ (i 0).val < k + 1 := h 0
    omega
  · intro h a
    match a with
    | ⟨0, _⟩ =>
      show k ≤ (i 0).val ∧ (i 0).val < k + 1
      omega
    | ⟨1, _⟩ =>
      have h1 : (i 1).val < 8 := (i 1).isLt
      show 0 ≤ (i 1).val ∧ (i 1).val < 0 + 8
      omega
    | ⟨2, _⟩ =>
      have h2 : (i 2).val < 256 := (i 2).isLt
      show 0 ≤ (i 2).val ∧ (i 2).val < 0 + 256
      omega

/-- Different slots share no element. -/
theorem slot_disjoint (j k : ℕ) (hj : j < 16) (hk : k < 16) (h : j ≠ k) :
    Disjoint ((slotM j hj).view.set : Finset S16x8x256.Idx) ((slotM k hk).view.set : Finset S16x8x256.Idx) := by
  rw [Finset.disjoint_left]
  intro i hi hi'
  exact h (((mem_slot j hj i).mp hi).symm.trans ((mem_slot k hk i).mp hi'))

/-- The sixteen slots cover the receive buffer. -/
theorem slot_cover :
    Finset.biUnion (α := Fin 16) (β := S16x8x256.Idx) Finset.univ (fun t => (slotM t.val t.isLt).view.set) = Finset.univ := by
  ext i
  simp only [Finset.mem_biUnion, Finset.mem_univ, true_and, iff_true]
  exact ⟨⟨(i 0).val, (i 0).isLt⟩, (mem_slot _ _ i).mpr rfl⟩

/-- Where slot k's memref places the index y of an 8 × 256 block: at (k, y 0, y 1). -/
theorem slot_emb_val (k : ℕ) (hk : k < 16) (y : S8x256.Idx) (i : S16x8x256.Idx) (hi : (slotM k hk).view.emb y = i) :
    (i 0).val = k ∧ (i 1).val = (y 0).val ∧ (i 2).val = (y 1).val := by
  have hy := Shape.reshapeEquiv_cons_one (n := 2) (d := ![8, 256]) squeezes_S1x8x256_S8x256.numel_eq y
  have e : i = (slotR k hk).emb (Fin.cons ⟨0, Nat.one_pos⟩ y) := hi.symm.trans (congrArg (slotR k hk).emb hy)
  rw [e]
  refine ⟨?_, ?_, ?_⟩
  · show k + 1 * 0 = k
    omega
  · show 0 + 1 * (y 0).val = (y 0).val
    omega
  · show 0 + 1 * (y 1).val = (y 1).val
    omega

/-! ## The receive buffer held slot by slot -/

/-- Two valuations that agree on row k are the same assertion about slot k. -/
theorem slotPts_congr (c : Dev nD) (k : ℕ) (hk : k < 16)
    (f g : Buf (Elt F) ((c : Thread nD τ).loc cc0_scratch1))
    (h : ∀ i : S16x8x256.Idx, (i 0).val = k → f i = g i) :
    (slotPts c k hk f : sProp 𝕄) = slotPts c k hk g := by
  unfold slotPts
  exact pointsTo_congr fun i hi => h i ((mem_slot k hk i).mp hi)

/-- The receive buffer whole is the sixteen slots, as an indexed conjunction. -/
theorem recv_bigSep (c : Dev nD) (f : Buf (Elt F) ((c : Thread nD τ).loc cc0_scratch1)) :
    ((((c : Thread nD τ).loc cc0_scratch1) ↦{fullShare} f : sProp 𝕄))
      = bigSep Finset.univ fun t : Fin 16 => (slotPts c t.val t.isLt f : sProp 𝕄) := by
  have h := pointsTo_biUnion (nD := nD) (τ := τ) (sig := sig) (Ix := Unit) (Val := Elt F) (Name := ℕ) (U := UU) (Lvl := ℕ)
    (ℓ := (c : Thread nD τ).loc cc0_scratch1) (q := fullShare) (f := f) (T := Fin 16)
    Finset.univ (fun t => (slotM t.val t.isLt).view.set)
    (fun t _ t' _ hne => slot_disjoint t.val t'.val t.isLt t'.isLt (fun e => hne (Fin.ext e)))
  have hc : Finset.biUnion (α := Fin 16) (β := Idx ((c : Thread nD τ).loc cc0_scratch1)) Finset.univ
      (fun t => (slotM t.val t.isLt).view.set) = Finset.univ := slot_cover
  exact (congrArg (fun S => (((c : Thread nD τ).loc cc0_scratch1) ↦[S]{fullShare} f : sProp 𝕄)) hc.symm).trans h

/-- The receive buffer whole is the sixteen slots held one beside the other. -/
theorem recv_split (c : Dev nD) (f : Buf (Elt F) ((c : Thread nD τ).loc cc0_scratch1)) :
    ((((c : Thread nD τ).loc cc0_scratch1) ↦{fullShare} f : sProp 𝕄))
      ⊣⊢ iprop(slotPts c 0 lt16 f
      ∗ slotPts c 1 lt16 f
      ∗ slotPts c 2 lt16 f
      ∗ slotPts c 3 lt16 f
      ∗ slotPts c 4 lt16 f
      ∗ slotPts c 5 lt16 f
      ∗ slotPts c 6 lt16 f
      ∗ slotPts c 7 lt16 f
      ∗ slotPts c 8 lt16 f
      ∗ slotPts c 9 lt16 f
      ∗ slotPts c 10 lt16 f
      ∗ slotPts c 11 lt16 f
      ∗ slotPts c 12 lt16 f
      ∗ slotPts c 13 lt16 f
      ∗ slotPts c 14 lt16 f
      ∗ slotPts c 15 lt16 f) := by
  rw [recv_bigSep c f, bigSep_univ_eq_bigSepL [(⟨0, by decide⟩ : Fin 16), (⟨1, by decide⟩ : Fin 16), (⟨2, by decide⟩ : Fin 16), (⟨3, by decide⟩ : Fin 16), (⟨4, by decide⟩ : Fin 16), (⟨5, by decide⟩ : Fin 16), (⟨6, by decide⟩ : Fin 16), (⟨7, by decide⟩ : Fin 16), (⟨8, by decide⟩ : Fin 16), (⟨9, by decide⟩ : Fin 16), (⟨10, by decide⟩ : Fin 16), (⟨11, by decide⟩ : Fin 16), (⟨12, by decide⟩ : Fin 16), (⟨13, by decide⟩ : Fin 16), (⟨14, by decide⟩ : Fin 16), (⟨15, by decide⟩ : Fin 16)] (by decide) (by decide)]
  exact BiEntails.rfl

/-- Sixteen slots held at sixteen valuations are the buffer whole, at the valuation that reads row k off the k-th. -/
theorem recv_join_at (c : Dev nD) (g : ℕ → Buf (Elt F) ((c : Thread nD τ).loc cc0_scratch1)) :
    iprop(slotPts c 0 lt16 (g 0)
      ∗ slotPts c 1 lt16 (g 1)
      ∗ slotPts c 2 lt16 (g 2)
      ∗ slotPts c 3 lt16 (g 3)
      ∗ slotPts c 4 lt16 (g 4)
      ∗ slotPts c 5 lt16 (g 5)
      ∗ slotPts c 6 lt16 (g 6)
      ∗ slotPts c 7 lt16 (g 7)
      ∗ slotPts c 8 lt16 (g 8)
      ∗ slotPts c 9 lt16 (g 9)
      ∗ slotPts c 10 lt16 (g 10)
      ∗ slotPts c 11 lt16 (g 11)
      ∗ slotPts c 12 lt16 (g 12)
      ∗ slotPts c 13 lt16 (g 13)
      ∗ slotPts c 14 lt16 (g 14)
      ∗ slotPts c 15 lt16 (g 15))
      ⊢ ((((c : Thread nD τ).loc cc0_scratch1) ↦{fullShare} (fun i : S16x8x256.Idx => g (i 0).val i) : sProp 𝕄)) := by
  have e : ∀ (k : ℕ) (hk : k < 16), (slotPts c k hk (g k) : sProp 𝕄)
      = slotPts c k hk (fun i : S16x8x256.Idx => g (i 0).val i) :=
    fun k hk => slotPts_congr c k hk _ _ fun i hi => by
      show g k i = g (i 0).val i
      rw [hi]
  rw [e 0, e 1, e 2, e 3, e 4, e 5, e 6, e 7, e 8, e 9, e 10, e 11, e 12, e 13, e 14, e 15]
  exact (recv_split c _).2

/-- … so at some valuation. -/
theorem recv_join (c : Dev nD) (g : ℕ → Buf (Elt F) ((c : Thread nD τ).loc cc0_scratch1)) :
    iprop(slotPts c 0 lt16 (g 0)
      ∗ slotPts c 1 lt16 (g 1)
      ∗ slotPts c 2 lt16 (g 2)
      ∗ slotPts c 3 lt16 (g 3)
      ∗ slotPts c 4 lt16 (g 4)
      ∗ slotPts c 5 lt16 (g 5)
      ∗ slotPts c 6 lt16 (g 6)
      ∗ slotPts c 7 lt16 (g 7)
      ∗ slotPts c 8 lt16 (g 8)
      ∗ slotPts c 9 lt16 (g 9)
      ∗ slotPts c 10 lt16 (g 10)
      ∗ slotPts c 11 lt16 (g 11)
      ∗ slotPts c 12 lt16 (g 12)
      ∗ slotPts c 13 lt16 (g 13)
      ∗ slotPts c 14 lt16 (g 14)
      ∗ slotPts c 15 lt16 (g 15))
      ⊢ (iprop(∃ f : Buf (Elt F) ((c : Thread nD τ).loc cc0_scratch1), ((c : Thread nD τ).loc cc0_scratch1) ↦{fullShare} f) : sProp 𝕄) := by
  iintro H
  iexists (fun i : S16x8x256.Idx => g (i 0).val i)
  iapply (recv_join_at c g)
  iexact H

/-! ## What a landed copy leaves in its slot -/

/-- An 8 × 256 block written whole through slot k's memref stands, on row k, at (k, r, l) ↦ block (r, l). -/
theorem slot_write_apply (k : ℕ) (hk : k < 16) (fd : S16x8x256.Idx → Elt F .f32) (b : S8x256.Idx → Elt F .f32)
    (i : S16x8x256.Idx) (hi : i ∈ ((slotM k hk).view.set : Finset S16x8x256.Idx)) :
    (slotM k hk).view.write (Elt F) fd b Finset.univ i = b (ValueIdx.ix2 (i 1) (i 2)) := by
  obtain ⟨y, -, hyi⟩ := Finset.mem_map.mp hi
  have hv := slot_emb_val k hk y i hyi
  have hy : (ValueIdx.ix2 (i 1) (i 2) : S8x256.Idx) = y := by
    funext a
    match a with
    | ⟨0, _⟩ => exact Fin.ext hv.2.1
    | ⟨1, _⟩ => exact Fin.ext hv.2.2
  have hw : (slotM k hk).view.write (Elt F) fd b Finset.univ i = b y := by
    rw [← hyi, View.write_emb_of_mem _ _ (Finset.mem_univ y)]
    rfl
  exact hw.trans (congrArg b hy.symm)

/-- The landing of device d's moments in slot k of device c, as the send rule writes it, is the slot at d's moments. -/
theorem landed_eq (m : (ℓ : Loc nD τ sig) → Buf (Elt F) ℓ) (ρ : Dev nD → PrngReg) (c : Dev nD) (k : ℕ) (hk : k < 16)
    (fd : Buf (Elt F) ((slotM k hk).view.loc (c : Thread nD τ))) (d : Dev nD) :
    (slotPts c k hk ((slotM k hk).view.write (Elt F) fd
        ((aM : Memref sig .tc .vmem S8x256 .f32).view.read (Elt F) (accOf m ρ d)) Finset.univ) : sProp 𝕄)
      = slotPts c k hk (fun i : S16x8x256.Idx => accOf m ρ d (ValueIdx.ix2 (i 1) (i 2))) := by
  unfold slotPts
  exact pointsTo_congr fun i hi => slot_write_apply k hk fd (accOf m ρ d) i hi

theorem landed_congr (m : (ℓ : Loc nD τ sig) → Buf (Elt F) ℓ) (ρ : Dev nD → PrngReg) (c : Dev nD) (k : ℕ) (hk : k < 16)
    (fd : Buf (Elt F) ((slotM k hk).view.loc (c : Thread nD τ))) (d : Dev nD) :
    (slotPts c k hk ((slotM k hk).view.write (Elt F) fd
        ((aM : Memref sig .tc .vmem S8x256 .f32).view.read (Elt F) (accOf m ρ d)) Finset.univ) : sProp 𝕄)
      ⊣⊢ slotPts c k hk (fun i : S16x8x256.Idx => accOf m ρ d (ValueIdx.ix2 (i 1) (i 2))) :=
  BiEntails.of_eq (landed_eq m ρ c k hk fd d)

/-- With d the device k places before c: the slot at the schedule's own valuation. -/
theorem landed_slot (m : (ℓ : Loc nD τ sig) → Buf (Elt F) ℓ) (ρ : Dev nD → PrngReg) (c : Dev nD) (k : ℕ) (hk : k < 16)
    (fd : Buf (Elt F) ((slotM k hk).view.loc (c : Thread nD τ))) :
    (slotPts c k hk ((slotM k hk).view.write (Elt F) fd
        ((aM : Memref sig .tc .vmem S8x256 .f32).view.read (Elt F) (accOf m ρ (back c k))) Finset.univ) : sProp 𝕄)
      = slotPts c k hk (landed m ρ c k) :=
  landed_eq m ρ c k hk fd (back c k)

/-! ## Reading a slot back through the receive buffer -/

/-- A load of row k through the whole receive buffer, over a valuation that spreads the block b on every row, reads b. -/
theorem read_slot_block (k : ℕ) (hk : k < 16) (b : FVec F S8x256 .f32) :
    (rM : Memref sig .tc .vmem S16x8x256 .f32).view.readAt (Elt F) (slotR k hk).toLoadRect
        (fun i : S16x8x256.Idx => b (ValueIdx.ix2 (i 1) (i 2))) = KTerms.slotV b := by
  refine funext fun (x : S1x8x256.Idx) => ?_
  have hx : (ValueIdx.ix2 (((slotR k hk).toLoadRect.idx x) 1) (((slotR k hk).toLoadRect.idx x) 2) : S8x256.Idx)
      = ValueIdx.ix2 (x 1) (x 2) := by
    funext a
    match a with
    | ⟨0, _⟩ =>
      apply Fin.ext
      show 0 + 1 * (x 1).val = (x 1).val
      omega
    | ⟨1, _⟩ =>
      apply Fin.ext
      show 0 + 1 * (x 2).val = (x 2).val
      omega
  exact congrArg b hx

theorem read_slot (m : (ℓ : Loc nD τ sig) → Buf (Elt F) ℓ) (ρ : Dev nD → PrngReg) (k : ℕ) (hk : k < 16) (d : Dev nD) :
    (rM : Memref sig .tc .vmem S16x8x256 .f32).view.readAt (Elt F) (slotR k hk).toLoadRect
        (fun i : S16x8x256.Idx => accOf m ρ d (ValueIdx.ix2 (i 1) (i 2))) = KTerms.slotV (accOf m ρ d) :=
  read_slot_block k hk (accOf m ρ d)

/-- The same over the schedule's valuation of slot k. -/
theorem read_landed (m : (ℓ : Loc nD τ sig) → Buf (Elt F) ℓ) (ρ : Dev nD → PrngReg) (c : Dev nD) (k : ℕ) (hk : k < 16) :
    (rM : Memref sig .tc .vmem S16x8x256 .f32).view.readAt (Elt F) (slotR k hk).toLoadRect (landed m ρ c k)
      = KTerms.slotV (accOf m ρ (back c k)) :=
  read_slot_block k hk (accOf m ρ (back c k))

/-- The elements a load of row k through the whole receive buffer reads are exactly slot k's. -/
theorem slot_setOn (k : ℕ) (hk : k < 16) :
    ((rM : Memref sig .tc .vmem S16x8x256 .f32).view.setOn (slotR k hk).toLoadRect.set : Finset S16x8x256.Idx)
      = (slotM k hk).view.set := by
  rw [slot_set]
  show Finset.map (Function.Embedding.refl _) (slotR k hk).set = (slotR k hk).set
  exact Finset.map_refl

theorem slot_setOn_subset (k : ℕ) (hk : k < 16) :
    ((rM : Memref sig .tc .vmem S16x8x256 .f32).view.setOn (slotR k hk).toLoadRect.set : Finset S16x8x256.Idx)
      ⊆ (slotM k hk).view.set := Finset.subset_of_eq (slot_setOn k hk)

/-- The same for the view an access at the rectangle of row k goes through. -/
theorem slot_access_set (k : ℕ) (hk : k < 16) :
    (((rM : Memref sig .tc .vmem S16x8x256 .f32).access (slotR k hk)).set : Finset S16x8x256.Idx)
      = (slotM k hk).view.set :=
  (View.set_slice_whole cc0_scratch1 (slotR k hk)).trans (slot_set k hk).symm

theorem slot_access_subset (k : ℕ) (hk : k < 16) :
    (((rM : Memref sig .tc .vmem S16x8x256 .f32).access (slotR k hk)).set : Finset S16x8x256.Idx)
      ⊆ (slotM k hk).view.set := Finset.subset_of_eq (slot_access_set k hk)

/-! ## The moments buffer by shares -/

theorem acc_set : ((aM : Memref sig .tc .vmem S8x256 .f32).view.set : Finset S8x256.Idx) = Finset.univ := View.set_whole _

/-- A share of the moments buffer through its memref is that share of the whole buffer. -/
theorem acc_whole_eq (c : Dev nD) (q : PosShare TreeShare) (f : Buf (Elt F) ((c : Thread nD τ).loc cc0_scratch0)) :
    (accPts c q f : sProp 𝕄) = (((c : Thread nD τ).loc cc0_scratch0) ↦[Finset.univ]{q} f : sProp 𝕄) := by
  unfold accPts; rw [acc_set]

/-- The moments buffer whole is the kept share and the sixteen lent shares. -/
theorem acc_toks (c : Dev nD) (f : Buf (Elt F) ((c : Thread nD τ).loc cc0_scratch0)) :
    (accPts c fullShare f : sProp 𝕄)
      ⊣⊢ iprop(accPts c shrKeep f
      ∗ accPts c (shr 0 lt16) f
      ∗ accPts c (shr 1 lt16) f
      ∗ accPts c (shr 2 lt16) f
      ∗ accPts c (shr 3 lt16) f
      ∗ accPts c (shr 4 lt16) f
      ∗ accPts c (shr 5 lt16) f
      ∗ accPts c (shr 6 lt16) f
      ∗ accPts c (shr 7 lt16) f
      ∗ accPts c (shr 8 lt16) f
      ∗ accPts c (shr 9 lt16) f
      ∗ accPts c (shr 10 lt16) f
      ∗ accPts c (shr 11 lt16) f
      ∗ accPts c (shr 12 lt16) f
      ∗ accPts c (shr 13 lt16) f
      ∗ accPts c (shr 14 lt16) f
      ∗ accPts c (shr 15 lt16) f) := by
  unfold accPts
  have h := Transfers.pointsTo_toks (nD := nD) (τ := τ) (sig := sig) (Ix := Unit) (Val := Elt F) (Name := ℕ) (U := UU) (Lvl := ℕ)
    (ℓ := (aM : Memref sig .tc .vmem S8x256 .f32).view.loc (c : Thread nD τ))
    (S := (aM : Memref sig .tc .vmem S8x256 .f32).view.set) (f := f) fullShare 16
  rw [bigSep_univ_eq_bigSepL [(⟨0, by decide⟩ : Fin 16), (⟨1, by decide⟩ : Fin 16), (⟨2, by decide⟩ : Fin 16), (⟨3, by decide⟩ : Fin 16), (⟨4, by decide⟩ : Fin 16), (⟨5, by decide⟩ : Fin 16), (⟨6, by decide⟩ : Fin 16), (⟨7, by decide⟩ : Fin 16), (⟨8, by decide⟩ : Fin 16), (⟨9, by decide⟩ : Fin 16), (⟨10, by decide⟩ : Fin 16), (⟨11, by decide⟩ : Fin 16), (⟨12, by decide⟩ : Fin 16), (⟨13, by decide⟩ : Fin 16), (⟨14, by decide⟩ : Fin 16), (⟨15, by decide⟩ : Fin 16)] (by decide) (by decide)] at h
  exact h

theorem acc_split (c : Dev nD) (f : Buf (Elt F) ((c : Thread nD τ).loc cc0_scratch0)) :
    (accPts c fullShare f : sProp 𝕄)
      ⊢ iprop(accPts c shrKeep f
      ∗ accPts c (shr 0 lt16) f
      ∗ accPts c (shr 1 lt16) f
      ∗ accPts c (shr 2 lt16) f
      ∗ accPts c (shr 3 lt16) f
      ∗ accPts c (shr 4 lt16) f
      ∗ accPts c (shr 5 lt16) f
      ∗ accPts c (shr 6 lt16) f
      ∗ accPts c (shr 7 lt16) f
      ∗ accPts c (shr 8 lt16) f
      ∗ accPts c (shr 9 lt16) f
      ∗ accPts c (shr 10 lt16) f
      ∗ accPts c (shr 11 lt16) f
      ∗ accPts c (shr 12 lt16) f
      ∗ accPts c (shr 13 lt16) f
      ∗ accPts c (shr 14 lt16) f
      ∗ accPts c (shr 15 lt16) f) := (acc_toks c f).1

theorem acc_join (c : Dev nD) (f : Buf (Elt F) ((c : Thread nD τ).loc cc0_scratch0)) :
    iprop(accPts c shrKeep f
      ∗ accPts c (shr 0 lt16) f
      ∗ accPts c (shr 1 lt16) f
      ∗ accPts c (shr 2 lt16) f
      ∗ accPts c (shr 3 lt16) f
      ∗ accPts c (shr 4 lt16) f
      ∗ accPts c (shr 5 lt16) f
      ∗ accPts c (shr 6 lt16) f
      ∗ accPts c (shr 7 lt16) f
      ∗ accPts c (shr 8 lt16) f
      ∗ accPts c (shr 9 lt16) f
      ∗ accPts c (shr 10 lt16) f
      ∗ accPts c (shr 11 lt16) f
      ∗ accPts c (shr 12 lt16) f
      ∗ accPts c (shr 13 lt16) f
      ∗ accPts c (shr 14 lt16) f
      ∗ accPts c (shr 15 lt16) f)
      ⊢ (accPts c fullShare f : sProp 𝕄) := (acc_toks c f).2

/-- info: 'Cert.Kernel.KP.recv_split' depends on axioms: [propext, Classical.choice, Quot.sound] -/
#guard_msgs in #print axioms recv_split

/-- info: 'Cert.Kernel.KP.recv_join' depends on axioms: [propext, Classical.choice, Quot.sound] -/
#guard_msgs in #print axioms recv_join

/-- info: 'Cert.Kernel.KP.landed_eq' depends on axioms: [propext, Classical.choice, Quot.sound] -/
#guard_msgs in #print axioms landed_eq

/-- info: 'Cert.Kernel.KP.read_slot' depends on axioms: [propext, Classical.choice, Quot.sound] -/
#guard_msgs in #print axioms read_slot

/-- info: 'Cert.Kernel.KP.acc_toks' depends on axioms: [propext, Classical.choice, Quot.sound] -/
#guard_msgs in #print axioms acc_toks

end Cert.Kernel.KP

end
-- ==== Proof.WRows.lean ====
/-
  The result buffer by batch rows: view geometry only.

  Batch row b of the 4 × 256 × 128 result buffer is the set of its indices whose first coordinate is b. A store of a
  1 × 256 × 128 vector w through the rectangle of row b leaves w (0, s, j) at (b, s, j) and every other row as it was.
  The four rows cover the buffer, so the four stores of the rows 0, 1, 2, 3, one after the other, leave a buffer that
  no longer depends on what it held before: at (b, s, j) it holds the b-th stored vector at (0, s, j).
-/
import proofs.«900516_g7700000000000517_dist_diff_adaln_cshard_i_b4_s256_c128_v7x_i16_bf16_1_alg».proof.Proof.WDefs

noncomputable section

namespace Cert.Kernel.KP

open Cert.Kernel Cert.Kernel.Gen Cert.Kernel.KTerms

open Idealize.ShloMosaic
open Idealize.ShloMosaic.TcCoe

variable {F : FTy → Type} [FloatOps F]

/-- `b < 4` for a literal `b`, as a closed term. -/
local macro "lt4" : term => `(of_decide_eq_true (Eq.refl true))

/-! ## A row's rectangle -/

theorem inb_row (b : ℕ) (hb : b < 4) : ∀ a, (![b, 0, 0] : Fin 3 → Nat) a + S1x256x128.size a ≤ S4x256x128.size a := by
  intro a; fin_cases a
  · show b + 1 ≤ 4; omega
  · show 0 + 256 ≤ 256; omega
  · show 0 + 128 ≤ 128; omega

/-- Batch row b of the result buffer as a rectangle: one row from b, all 256 positions, all 128 channels. -/
abbrev rowR (b : ℕ) (hb : b < 4) : Rect S4x256x128 := Rect.unit (s := S4x256x128) ![b, 0, 0] S1x256x128.size (inb_row b hb)

/-- An index of the result buffer lies in the rectangle of row b exactly when its first coordinate is b. -/
theorem mem_row (b : ℕ) (hb : b < 4) (i : S4x256x128.Idx) : i ∈ (rowR b hb).set ↔ (i 0).val = b := by
  rw [Rect.mem_set_unit]
  constructor
  · intro h
    have h0 : b ≤ (i 0).val ∧ (i 0).val < b + 1 := h 0
    omega
  · intro h a
    match a with
    | ⟨0, _⟩ =>
      show b ≤ (i 0).val ∧ (i 0).val < b + 1
      omega
    | ⟨1, _⟩ =>
      have h1 : (i 1).val < 256 := (i 1).isLt
      show 0 ≤ (i 1).val ∧ (i 1).val < 0 + 256
      omega
    | ⟨2, _⟩ =>
      have h2 : (i 2).val < 128 := (i 2).isLt
      show 0 ≤ (i 2).val ∧ (i 2).val < 0 + 128
      omega

/-- Where the rectangle of row b places the index (0, s, j) of a 1 × 256 × 128 vector: at (b, s, j). -/
theorem row_emb (b : ℕ) (hb : b < 4) (i : S4x256x128.Idx) (h : (i 0).val = b) :
    ((oM : Memref sig .tc .vmem S4x256x128 .f32).access (rowR b hb)).emb (ValueIdx.ix3 (0 : Fin 1) (i 1) (i 2)) = i := by
  funext a
  apply Fin.ext
  match a with
  | ⟨0, _⟩ =>
    show b + 1 * 0 = (i 0).val
    omega
  | ⟨1, _⟩ =>
    show 0 + 1 * (i 1).val = (i 1).val
    omega
  | ⟨2, _⟩ =>
    show 0 + 1 * (i 2).val = (i 2).val
    omega

/-! ## A store of one row -/

/-- A 1 × 256 × 128 vector stored whole through the rectangle of row b stands at (b, s, j) ↦ w (0, s, j); the other
    rows keep what they held. -/
theorem row_write_apply (b : ℕ) (hb : b < 4) (f : S4x256x128.Idx → Elt F .f32) (w : S1x256x128.Idx → Elt F .f32)
    (i : S4x256x128.Idx) :
    ((oM : Memref sig .tc .vmem S4x256x128 .f32).access (rowR b hb)).write (Elt F) f w Finset.univ i
      = if (i 0).val = b then w (ValueIdx.ix3 (0 : Fin 1) (i 1) (i 2)) else f i := by
  by_cases h : (i 0).val = b
  · rw [if_pos h]
    have hw := View.write_emb_of_mem (v := ((oM : Memref sig .tc .vmem S4x256x128 .f32).access (rowR b hb)))
      (Val := Elt F) f w (M := Finset.univ) (x := ValueIdx.ix3 (0 : Fin 1) (i 1) (i 2)) (Finset.mem_univ _)
    rw [row_emb b hb i h] at hw
    exact hw
  · rw [if_neg h]
    refine View.write_of_not_mem (v := ((oM : Memref sig .tc .vmem S4x256x128 .f32).access (rowR b hb)))
      (Val := Elt F) f w Finset.univ ?_
    rw [View.setOn_univ]
    intro hi
    have hi' : i ∈ (rowR b hb).set := (View.set_slice_whole cc0_stg4_0 (rowR b hb)) ▸ hi
    exact h ((mem_row b hb i).mp hi')

/-! ## The four stores -/

/-- The stored row depends on the row's number only through its value. -/
theorem outRow_congr (p q : Fin 4) (h : p.val = q.val) (x : Vec F S4x256x128 .f32) (t : Vec F S4x128 .f32)
    (ws wh : Vec F S128x128 .f32) (tot : FVec F S8x256 .f32) :
    outRow p x t ws wh tot = outRow q x t ws wh tot := by
  rw [Fin.ext h]

/-- The body's four stores, of the rows 0, 1, 2, 3 in this order over any contents, leave the result block. -/
theorem rows_write (c : Dev nD)
    (f : Buf (Elt F) (((oM : Memref sig .tc .vmem S4x256x128 .f32).access (rowR 0 lt4)).loc (c : Thread nD τ)))
    (x : Vec F S4x256x128 .f32) (t : Vec F S4x128 .f32) (ws wh : Vec F S128x128 .f32) (tot : FVec F S8x256 .f32) :
    ((oM : Memref sig .tc .vmem S4x256x128 .f32).access (rowR 3 lt4)).write (Elt F)
        (((oM : Memref sig .tc .vmem S4x256x128 .f32).access (rowR 2 lt4)).write (Elt F)
          (((oM : Memref sig .tc .vmem S4x256x128 .f32).access (rowR 1 lt4)).write (Elt F)
            (((oM : Memref sig .tc .vmem S4x256x128 .f32).access (rowR 0 lt4)).write (Elt F) f
              (outRow 0 x t ws wh tot) Finset.univ)
            (outRow 1 x t ws wh tot) Finset.univ)
          (outRow 2 x t ws wh tot) Finset.univ)
        (outRow 3 x t ws wh tot) Finset.univ
      = outOf x t ws wh tot := by
  funext i
  rw [row_write_apply, row_write_apply, row_write_apply, row_write_apply]
  have h4 : (i 0).val < 4 := (i 0).isLt
  show _ = outRow (i 0) x t ws wh tot (ValueIdx.ix3 (0 : Fin 1) (i 1) (i 2))
  rcases (by omega : (i 0).val = 0 ∨ (i 0).val = 1 ∨ (i 0).val = 2 ∨ (i 0).val = 3) with h | h | h | h
  · rw [if_neg (by omega), if_neg (by omega), if_neg (by omega), if_pos h]
    exact congrFun (outRow_congr 0 (i 0) h.symm x t ws wh tot) _
  · rw [if_neg (by omega), if_neg (by omega), if_pos h]
    exact congrFun (outRow_congr 1 (i 0) h.symm x t ws wh tot) _
  · rw [if_neg (by omega), if_pos h]
    exact congrFun (outRow_congr 2 (i 0) h.symm x t ws wh tot) _
  · rw [if_pos h]
    exact congrFun (outRow_congr 3 (i 0) h.symm x t ws wh tot) _

/-- info: 'Cert.Kernel.KP.row_write_apply' depends on axioms: [propext, Classical.choice, Quot.sound] -/
#guard_msgs in #print axioms row_write_apply

/-- info: 'Cert.Kernel.KP.rows_write' depends on axioms: [propext, Classical.choice, Quot.sound] -/
#guard_msgs in #print axioms rows_write

end Cert.Kernel.KP

end
-- ==== Proof.WFinish.lean ====
/-
  The end of a device's body: the thirty cells whose rounds are all consumed are closed (their counters, at zero, go back to
  the core), the sixteen shares of the moments buffer and the sixteen slots of the receive buffer are joined whole again,
  and what is held is regrouped as the pipeline's post.
-/
import proofs.«900516_g7700000000000517_dist_diff_adaln_cshard_i_b4_s256_c128_v7x_i16_bf16_1_alg».proof.Proof.WDefs
import proofs.«900516_g7700000000000517_dist_diff_adaln_cshard_i_b4_s256_c128_v7x_i16_bf16_1_alg».proof.Proof.WSched
import proofs.«900516_g7700000000000517_dist_diff_adaln_cshard_i_b4_s256_c128_v7x_i16_bf16_1_alg».proof.Proof.WSlots

noncomputable section

namespace Cert.Kernel.KP

open Cert.Kernel Cert.Kernel.Gen Cert.Kernel.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is held when the body's last store is done, offset by offset, then the rest. -/
def finalHeld (K : Names) (c : Dev nD) (W : Waits sig Unit) (fr : Buf (Elt F) ((c : Thread nD τ).loc cc0_scratch1))
    (fo : Buf (Elt F) ((c : Thread nD τ).loc cc0_stg4_0)) : sProp 𝕄 :=
  iprop(cellInv ER (sched m ρ) (kS K c 1 (of_decide_eq_true (Eq.refl true))) (sendCell c 1 (of_decide_eq_true (Eq.refl true))) ∗ cellInv ER (sched m ρ) (kR K c 1 (of_decide_eq_true (Eq.refl true))) (recvCell c 1 (of_decide_eq_true (Eq.refl true)))
        ∗ atPos ER (sendCell c 1 (of_decide_eq_true (Eq.refl true))) 1 ∅ 0 ∗ atPos ER (recvCell c 1 (of_decide_eq_true (Eq.refl true))) 1 ∅ 0
        ∗ accPts c (shr 1 (of_decide_eq_true (Eq.refl true))) (accOf m ρ c) ∗ slotPts c 1 (of_decide_eq_true (Eq.refl true)) (landed m ρ c 1)
      ∗ cellInv ER (sched m ρ) (kS K c 2 (of_decide_eq_true (Eq.refl true))) (sendCell c 2 (of_decide_eq_true (Eq.refl true))) ∗ cellInv ER (sched m ρ) (kR K c 2 (of_decide_eq_true (Eq.refl true))) (recvCell c 2 (of_decide_eq_true (Eq.refl true)))
        ∗ atPos ER (sendCell c 2 (of_decide_eq_true (Eq.refl true))) 1 ∅ 0 ∗ atPos ER (recvCell c 2 (of_decide_eq_true (Eq.refl true))) 1 ∅ 0
        ∗ accPts c (shr 2 (of_decide_eq_true (Eq.refl true))) (accOf m ρ c) ∗ slotPts c 2 (of_decide_eq_true (Eq.refl true)) (landed m ρ c 2)
      ∗ cellInv ER (sched m ρ) (kS K c 3 (of_decide_eq_true (Eq.refl true))) (sendCell c 3 (of_decide_eq_true (Eq.refl true))) ∗ cellInv ER (sched m ρ) (kR K c 3 (of_decide_eq_true (Eq.refl true))) (recvCell c 3 (of_decide_eq_true (Eq.refl true)))
        ∗ atPos ER (sendCell c 3 (of_decide_eq_true (Eq.refl true))) 1 ∅ 0 ∗ atPos ER (recvCell c 3 (of_decide_eq_true (Eq.refl true))) 1 ∅ 0
        ∗ accPts c (shr 3 (of_decide_eq_true (Eq.refl true))) (accOf m ρ c) ∗ slotPts c 3 (of_decide_eq_true (Eq.refl true)) (landed m ρ c 3)
      ∗ cellInv ER (sched m ρ) (kS K c 4 (of_decide_eq_true (Eq.refl true))) (sendCell c 4 (of_decide_eq_true (Eq.refl true))) ∗ cellInv ER (sched m ρ) (kR K c 4 (of_decide_eq_true (Eq.refl true))) (recvCell c 4 (of_decide_eq_true (Eq.refl true)))
        ∗ atPos ER (sendCell c 4 (of_decide_eq_true (Eq.refl true))) 1 ∅ 0 ∗ atPos ER (recvCell c 4 (of_decide_eq_true (Eq.refl true))) 1 ∅ 0
        ∗ accPts c (shr 4 (of_decide_eq_true (Eq.refl true))) (accOf m ρ c) ∗ slotPts c 4 (of_decide_eq_true (Eq.refl true)) (landed m ρ c 4)
      ∗ cellInv ER (sched m ρ) (kS K c 5 (of_decide_eq_true (Eq.refl true))) (sendCell c 5 (of_decide_eq_true (Eq.refl true))) ∗ cellInv ER (sched m ρ) (kR K c 5 (of_decide_eq_true (Eq.refl true))) (recvCell c 5 (of_decide_eq_true (Eq.refl true)))
        ∗ atPos ER (sendCell c 5 (of_decide_eq_true (Eq.refl true))) 1 ∅ 0 ∗ atPos ER (recvCell c 5 (of_decide_eq_true (Eq.refl true))) 1 ∅ 0
        ∗ accPts c (shr 5 (of_decide_eq_true (Eq.refl true))) (accOf m ρ c) ∗ slotPts c 5 (of_decide_eq_true (Eq.refl true)) (landed m ρ c 5)
      ∗ cellInv ER (sched m ρ) (kS K c 6 (of_decide_eq_true (Eq.refl true))) (sendCell c 6 (of_decide_eq_true (Eq.refl true))) ∗ cellInv ER (sched m ρ) (kR K c 6 (of_decide_eq_true (Eq.refl true))) (recvCell c 6 (of_decide_eq_true (Eq.refl true)))
        ∗ atPos ER (sendCell c 6 (of_decide_eq_true (Eq.refl true))) 1 ∅ 0 ∗ atPos ER (recvCell c 6 (of_decide_eq_true (Eq.refl true))) 1 ∅ 0
        ∗ accPts c (shr 6 (of_decide_eq_true (Eq.refl true))) (accOf m ρ c) ∗ slotPts c 6 (of_decide_eq_true (Eq.refl true)) (landed m ρ c 6)
      ∗ cellInv ER (sched m ρ) (kS K c 7 (of_decide_eq_true (Eq.refl true))) (sendCell c 7 (of_decide_eq_true (Eq.refl true))) ∗ cellInv ER (sched m ρ) (kR K c 7 (of_decide_eq_true (Eq.refl true))) (recvCell c 7 (of_decide_eq_true (Eq.refl true)))
        ∗ atPos ER (sendCell c 7 (of_decide_eq_true (Eq.refl true))) 1 ∅ 0 ∗ atPos ER (recvCell c 7 (of_decide_eq_true (Eq.refl true))) 1 ∅ 0
        ∗ accPts c (shr 7 (of_decide_eq_true (Eq.refl true))) (accOf m ρ c) ∗ slotPts c 7 (of_decide_eq_true (Eq.refl true)) (landed m ρ c 7)
      ∗ cellInv ER (sched m ρ) (kS K c 8 (of_decide_eq_true (Eq.refl true))) (sendCell c 8 (of_decide_eq_true (Eq.refl true))) ∗ cellInv ER (sched m ρ) (kR K c 8 (of_decide_eq_true (Eq.refl true))) (recvCell c 8 (of_decide_eq_true (Eq.refl true)))
        ∗ atPos ER (sendCell c 8 (of_decide_eq_true (Eq.refl true))) 1 ∅ 0 ∗ atPos ER (recvCell c 8 (of_decide_eq_true (Eq.refl true))) 1 ∅ 0
        ∗ accPts c (shr 8 (of_decide_eq_true (Eq.refl true))) (accOf m ρ c) ∗ slotPts c 8 (of_decide_eq_true (Eq.refl true)) (landed m ρ c 8)
      ∗ cellInv ER (sched m ρ) (kS K c 9 (of_decide_eq_true (Eq.refl true))) (sendCell c 9 (of_decide_eq_true (Eq.refl true))) ∗ cellInv ER (sched m ρ) (kR K c 9 (of_decide_eq_true (Eq.refl true))) (recvCell c 9 (of_decide_eq_true (Eq.refl true)))
        ∗ atPos ER (sendCell c 9 (of_decide_eq_true (Eq.refl true))) 1 ∅ 0 ∗ atPos ER (recvCell c 9 (of_decide_eq_true (Eq.refl true))) 1 ∅ 0
        ∗ accPts c (shr 9 (of_decide_eq_true (Eq.refl true))) (accOf m ρ c) ∗ slotPts c 9 (of_decide_eq_true (Eq.refl true)) (landed m ρ c 9)
      ∗ cellInv ER (sched m ρ) (kS K c 10 (of_decide_eq_true (Eq.refl true))) (sendCell c 10 (of_decide_eq_true (Eq.refl true))) ∗ cellInv ER (sched m ρ) (kR K c 10 (of_decide_eq_true (Eq.refl true))) (recvCell c 10 (of_decide_eq_true (Eq.refl true)))
        ∗ atPos ER (sendCell c 10 (of_decide_eq_true (Eq.refl true))) 1 ∅ 0 ∗ atPos ER (recvCell c 10 (of_decide_eq_true (Eq.refl true))) 1 ∅ 0
        ∗ accPts c (shr 10 (of_decide_eq_true (Eq.refl true))) (accOf m ρ c) ∗ slotPts c 10 (of_decide_eq_true (Eq.refl true)) (landed m ρ c 10)
      ∗ cellInv ER (sched m ρ) (kS K c 11 (of_decide_eq_true (Eq.refl true))) (sendCell c 11 (of_decide_eq_true (Eq.refl true))) ∗ cellInv ER (sched m ρ) (kR K c 11 (of_decide_eq_true (Eq.refl true))) (recvCell c 11 (of_decide_eq_true (Eq.refl true)))
        ∗ atPos ER (sendCell c 11 (of_decide_eq_true (Eq.refl true))) 1 ∅ 0 ∗ atPos ER (recvCell c 11 (of_decide_eq_true (Eq.refl true))) 1 ∅ 0
        ∗ accPts c (shr 11 (of_decide_eq_true (Eq.refl true))) (accOf m ρ c) ∗ slotPts c 11 (of_decide_eq_true (Eq.refl true)) (landed m ρ c 11)
      ∗ cellInv ER (sched m ρ) (kS K c 12 (of_decide_eq_true (Eq.refl true))) (sendCell c 12 (of_decide_eq_true (Eq.refl true))) ∗ cellInv ER (sched m ρ) (kR K c 12 (of_decide_eq_true (Eq.refl true))) (recvCell c 12 (of_decide_eq_true (Eq.refl true)))
        ∗ atPos ER (sendCell c 12 (of_decide_eq_true (Eq.refl true))) 1 ∅ 0 ∗ atPos ER (recvCell c 12 (of_decide_eq_true (Eq.refl true))) 1 ∅ 0
        ∗ accPts c (shr 12 (of_decide_eq_true (Eq.refl true))) (accOf m ρ c) ∗ slotPts c 12 (of_decide_eq_true (Eq.refl true)) (landed m ρ c 12)
      ∗ cellInv ER (sched m ρ) (kS K c 13 (of_decide_eq_true (Eq.refl true))) (sendCell c 13 (of_decide_eq_true (Eq.refl true))) ∗ cellInv ER (sched m ρ) (kR K c 13 (of_decide_eq_true (Eq.refl true))) (recvCell c 13 (of_decide_eq_true (Eq.refl true)))
        ∗ atPos ER (sendCell c 13 (of_decide_eq_true (Eq.refl true))) 1 ∅ 0 ∗ atPos ER (recvCell c 13 (of_decide_eq_true (Eq.refl true))) 1 ∅ 0
        ∗ accPts c (shr 13 (of_decide_eq_true (Eq.refl true))) (accOf m ρ c) ∗ slotPts c 13 (of_decide_eq_true (Eq.refl true)) (landed m ρ c 13)
      ∗ cellInv ER (sched m ρ) (kS K c 14 (of_decide_eq_true (Eq.refl true))) (sendCell c 14 (of_decide_eq_true (Eq.refl true))) ∗ cellInv ER (sched m ρ) (kR K c 14 (of_decide_eq_true (Eq.refl true))) (recvCell c 14 (of_decide_eq_true (Eq.refl true)))
        ∗ atPos ER (sendCell c 14 (of_decide_eq_true (Eq.refl true))) 1 ∅ 0 ∗ atPos ER (recvCell c 14 (of_decide_eq_true (Eq.refl true))) 1 ∅ 0
        ∗ accPts c (shr 14 (of_decide_eq_true (Eq.refl true))) (accOf m ρ c) ∗ slotPts c 14 (of_decide_eq_true (Eq.refl true)) (landed m ρ c 14)
      ∗ cellInv ER (sched m ρ) (kS K c 15 (of_decide_eq_true (Eq.refl true))) (sendCell c 15 (of_decide_eq_true (Eq.refl true))) ∗ cellInv ER (sched m ρ) (kR K c 15 (of_decide_eq_true (Eq.refl true))) (recvCell c 15 (of_decide_eq_true (Eq.refl true)))
        ∗ atPos ER (sendCell c 15 (of_decide_eq_true (Eq.refl true))) 1 ∅ 0 ∗ atPos ER (recvCell c 15 (of_decide_eq_true (Eq.refl true))) 1 ∅ 0
        ∗ accPts c (shr 15 (of_decide_eq_true (Eq.refl true))) (accOf m ρ c) ∗ slotPts c 15 (of_decide_eq_true (Eq.refl true)) (landed m ρ c 15)
      ∗ accPts c shrKeep (accOf m ρ c) ∗ accPts c (shr 0 (of_decide_eq_true (Eq.refl true))) (accOf m ρ c) ∗ slotPts c 0 (of_decide_eq_true (Eq.refl true)) fr
      ∗ semVal (sendCell c 0 (of_decide_eq_true (Eq.refl true))) 0 ∗ semVal (recvCell c 0 (of_decide_eq_true (Eq.refl true))) 0
      ∗ owes (c : Thread nD τ) 0 W
      ∗ (((c : Thread nD τ).loc cc0_stg0_0) ↦{fullShare} xstg m ρ c) ∗ (((c : Thread nD τ).loc cc0_stg1_0) ↦{fullShare} tstg m ρ c)
      ∗ (((c : Thread nD τ).loc cc0_stg2_0) ↦{fullShare} wsstg m ρ c) ∗ (((c : Thread nD τ).loc cc0_stg3_0) ↦{fullShare} whstg m ρ c)
      ∗ (((c : Thread nD τ).loc cc0_stg4_0) ↦{fullShare} fo))

/-- `k < 16` for a literal `k`, as a closed term. -/
local macro "lt16" : term => `(of_decide_eq_true (Eq.refl true))

/-! ## Closing one offset's two cells -/

/-- The send and the receive cell of one offset, past their one round with nothing taken of the next: both close, and
    their counters, at zero, are the core's again. -/
theorem close_pair (K : Names) (c : Dev nD) (k : ℕ) (hk : k < 16) :
    iprop(cellInv ER (sched m ρ) (kS K c k hk) (sendCell c k hk) ∗ cellInv ER (sched m ρ) (kR K c k hk) (recvCell c k hk)
        ∗ atPos ER (sendCell c k hk) 1 ∅ 0 ∗ atPos ER (recvCell c k hk) 1 ∅ 0)
      ⊢ (iprop(|={Set.univ}[frame]=> (semVal (sendCell c k hk) 0 ∗ semVal (recvCell c k hk) 0)) : sProp 𝕄) := by
  iintro ⟨HIS, HIR, HaS, HaR⟩
  imod (Rounds.cell_close ER (sched m ρ) (Set.mem_univ (kS K c k hk)) (fun h => h) (R := 1)
    (duties_later m ρ (sendCell c k hk))) $$ [HIS HaS] with HzS
  · isplitl [HIS]
    · iexact HIS
    iexact HaS
  imod (Rounds.cell_close ER (sched m ρ) (Set.mem_univ (kR K c k hk)) (fun h => h) (R := 1)
    (duties_later m ρ (recvCell c k hk))) $$ [HIR HaR] with HzR
  · isplitl [HIR]
    · iexact HIR
    iexact HaR
  imodintro
  isplitl [HzS]
  · iexact HzS
  iexact HzR

/-! ## The two scratch buffers whole again -/

/-- The kept share and the sixteen lent shares of the moments buffer, all at the device's moments, are the buffer whole. -/
theorem acc_whole (c : Dev nD) :
    iprop(accPts c shrKeep (accOf m ρ c)
      ∗ accPts c (shr 0 lt16) (accOf m ρ c)
      ∗ accPts c (shr 1 lt16) (accOf m ρ c)
      ∗ accPts c (shr 2 lt16) (accOf m ρ c)
      ∗ accPts c (shr 3 lt16) (accOf m ρ c)
      ∗ accPts c (shr 4 lt16) (accOf m ρ c)
      ∗ accPts c (shr 5 lt16) (accOf m ρ c)
      ∗ accPts c (shr 6 lt16) (accOf m ρ c)
      ∗ accPts c (shr 7 lt16) (accOf m ρ c)
      ∗ accPts c (shr 8 lt16) (accOf m ρ c)
      ∗ accPts c (shr 9 lt16) (accOf m ρ c)
      ∗ accPts c (shr 10 lt16) (accOf m ρ c)
      ∗ accPts c (shr 11 lt16) (accOf m ρ c)
      ∗ accPts c (shr 12 lt16) (accOf m ρ c)
      ∗ accPts c (shr 13 lt16) (accOf m ρ c)
      ∗ accPts c (shr 14 lt16) (accOf m ρ c)
      ∗ accPts c (shr 15 lt16) (accOf m ρ c))
      ⊢ (iprop(∃ f : Buf (Elt F) ((c : Thread nD τ).loc cc0_scratch0), ((c : Thread nD τ).loc cc0_scratch0) ↦{fullShare} f) : sProp 𝕄) := by
  iintro H
  iexists (accOf m ρ c)
  iapply (BiEntails.of_eq (acc_whole_eq c fullShare (accOf m ρ c))).1
  iapply (acc_join c (accOf m ρ c))
  iexact H

/-- Slot 0 at any contents and the slots 1 … 15 at what landed in them are the receive buffer whole. -/
theorem recv_whole (c : Dev nD) (fr : Buf (Elt F) ((c : Thread nD τ).loc cc0_scratch1)) :
    iprop(slotPts c 0 lt16 fr
      ∗ slotPts c 1 lt16 (landed m ρ c 1)
      ∗ slotPts c 2 lt16 (landed m ρ c 2)
      ∗ slotPts c 3 lt16 (landed m ρ c 3)
      ∗ slotPts c 4 lt16 (landed m ρ c 4)
      ∗ slotPts c 5 lt16 (landed m ρ c 5)
      ∗ slotPts c 6 lt16 (landed m ρ c 6)
      ∗ slotPts c 7 lt16 (landed m ρ c 7)
      ∗ slotPts c 8 lt16 (landed m ρ c 8)
      ∗ slotPts c 9 lt16 (landed m ρ c 9)
      ∗ slotPts c 10 lt16 (landed m ρ c 10)
      ∗ slotPts c 11 lt16 (landed m ρ c 11)
      ∗ slotPts c 12 lt16 (landed m ρ c 12)
      ∗ slotPts c 13 lt16 (landed m ρ c 13)
      ∗ slotPts c 14 lt16 (landed m ρ c 14)
      ∗ slotPts c 15 lt16 (landed m ρ c 15))
      ⊢ (iprop(∃ f : Buf (Elt F) ((c : Thread nD τ).loc cc0_scratch1), ((c : Thread nD τ).loc cc0_scratch1) ↦{fullShare} f) : sProp 𝕄) :=
  recv_join c (fun k => match k with
    | 0 => fr
    | k + 1 => (landed m ρ c (k + 1) : Buf (Elt F) ((c : Thread nD τ).loc cc0_scratch1)))

/-! ## The pipeline's post -/

abbrev stgF (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The pipeline's one step. -/
def t₀F : Fin cfg0.N := ⟨0, by decide⟩

/-- What the launch takes back after the body: the scratch buffers whole, the own counters closed at zero, nothing owed,
    the four argument stages as loaded and the result stage at the device's result block. -/
def postF (c : Dev nD) : sProp 𝕄 :=
  iprop(Φ₁ c ∗ (dats m ρ 0 c).owesAt () t₀F.succ
    ∗ stgF c cc0_stg0_0 (xstg m ρ c) ∗ stgF c cc0_stg1_0 (tstg m ρ c) ∗ stgF c cc0_stg2_0 (wsstg m ρ c) ∗ stgF c cc0_stg3_0 (whstg m ρ c)
    ∗ stgF c cc0_stg4_0 (outAt m ρ c))

/-- From what is held after the last store to the pipeline's post: close the thirty cells, join the two scratch buffers,
    regroup. -/
theorem finish (K : Names) (c : Dev nD) (W : Waits sig Unit) (fr : Buf (Elt F) ((c : Thread nD τ).loc cc0_scratch1))
    (fo : Buf (Elt F) ((c : Thread nD τ).loc cc0_stg4_0)) (hfo : fo = outAt m ρ c) :
    finalHeld m ρ K c W fr fo ⊢ (iprop(|={Set.univ}[frame]=> postF m ρ c) : sProp 𝕄) := by
  unfold finalHeld
  iintro ⟨HIS1, HIR1, HaS1, HaR1, Hac1, Hsl1,
    HIS2, HIR2, HaS2, HaR2, Hac2, Hsl2,
    HIS3, HIR3, HaS3, HaR3, Hac3, Hsl3,
    HIS4, HIR4, HaS4, HaR4, Hac4, Hsl4,
    HIS5, HIR5, HaS5, HaR5, Hac5, Hsl5,
    HIS6, HIR6, HaS6, HaR6, Hac6, Hsl6,
    HIS7, HIR7, HaS7, HaR7, Hac7, Hsl7,
    HIS8, HIR8, HaS8, HaR8, Hac8, Hsl8,
    HIS9, HIR9, HaS9, HaR9, Hac9, Hsl9,
    HIS10, HIR10, HaS10, HaR10, Hac10, Hsl10,
    HIS11, HIR11, HaS11, HaR11, Hac11, Hsl11,
    HIS12, HIR12, HaS12, HaR12, Hac12, Hsl12,
    HIS13, HIR13, HaS13, HaR13, Hac13, Hsl13,
    HIS14, HIR14, HaS14, HaR14, Hac14, Hsl14,
    HIS15, HIR15, HaS15, HaR15, Hac15, Hsl15,
    Hkeep, Hac0, Hsl0, Hs0, Hr0, HO, Hx, Ht, Hws, Hwh, Hout⟩
  imod (close_pair m ρ K c 1 lt16) $$ [HIS1 HIR1 HaS1 HaR1] with ⟨HzS1, HzR1⟩
  · isplitl [HIS1]
    · iexact HIS1
    isplitl [HIR1]
    · iexact HIR1
    isplitl [HaS1]
    · iexact HaS1
    iexact HaR1
  imod (close_pair m ρ K c 2 lt16) $$ [HIS2 HIR2 HaS2 HaR2] with ⟨HzS2, HzR2⟩
  · isplitl [HIS2]
    · iexact HIS2
    isplitl [HIR2]
    · iexact HIR2
    isplitl [HaS2]
    · iexact HaS2
    iexact HaR2
  imod (close_pair m ρ K c 3 lt16) $$ [HIS3 HIR3 HaS3 HaR3] with ⟨HzS3, HzR3⟩
  · isplitl [HIS3]
    · iexact HIS3
    isplitl [HIR3]
    · iexact HIR3
    isplitl [HaS3]
    · iexact HaS3
    iexact HaR3
  imod (close_pair m ρ K c 4 lt16) $$ [HIS4 HIR4 HaS4 HaR4] with ⟨HzS4, HzR4⟩
  · isplitl [HIS4]
    · iexact HIS4
    isplitl [HIR4]
    · iexact HIR4
    isplitl [HaS4]
    · iexact HaS4
    iexact HaR4
  imod (close_pair m ρ K c 5 lt16) $$ [HIS5 HIR5 HaS5 HaR5] with ⟨HzS5, HzR5⟩
  · isplitl [HIS5]
    · iexact HIS5
    isplitl [HIR5]
    · iexact HIR5
    isplitl [HaS5]
    · iexact HaS5
    iexact HaR5
  imod (close_pair m ρ K c 6 lt16) $$ [HIS6 HIR6 HaS6 HaR6] with ⟨HzS6, HzR6⟩
  · isplitl [HIS6]
    · iexact HIS6
    isplitl [HIR6]
    · iexact HIR6
    isplitl [HaS6]
    · iexact HaS6
    iexact HaR6
  imod (close_pair m ρ K c 7 lt16) $$ [HIS7 HIR7 HaS7 HaR7] with ⟨HzS7, HzR7⟩
  · isplitl [HIS7]
    · iexact HIS7
    isplitl [HIR7]
    · iexact HIR7
    isplitl [HaS7]
    · iexact HaS7
    iexact HaR7
  imod (close_pair m ρ K c 8 lt16) $$ [HIS8 HIR8 HaS8 HaR8] with ⟨HzS8, HzR8⟩
  · isplitl [HIS8]
    · iexact HIS8
    isplitl [HIR8]
    · iexact HIR8
    isplitl [HaS8]
    · iexact HaS8
    iexact HaR8
  imod (close_pair m ρ K c 9 lt16) $$ [HIS9 HIR9 HaS9 HaR9] with ⟨HzS9, HzR9⟩
  · isplitl [HIS9]
    · iexact HIS9
    isplitl [HIR9]
    · iexact HIR9
    isplitl [HaS9]
    · iexact HaS9
    iexact HaR9
  imod (close_pair m ρ K c 10 lt16) $$ [HIS10 HIR10 HaS10 HaR10] with ⟨HzS10, HzR10⟩
  · isplitl [HIS10]
    · iexact HIS10
    isplitl [HIR10]
    · iexact HIR10
    isplitl [HaS10]
    · iexact HaS10
    iexact HaR10
  imod (close_pair m ρ K c 11 lt16) $$ [HIS11 HIR11 HaS11 HaR11] with ⟨HzS11, HzR11⟩
  · isplitl [HIS11]
    · iexact HIS11
    isplitl [HIR11]
    · iexact HIR11
    isplitl [HaS11]
    · iexact HaS11
    iexact HaR11
  imod (close_pair m ρ K c 12 lt16) $$ [HIS12 HIR12 HaS12 HaR12] with ⟨HzS12, HzR12⟩
  · isplitl [HIS12]
    · iexact HIS12
    isplitl [HIR12]
    · iexact HIR12
    isplitl [HaS12]
    · iexact HaS12
    iexact HaR12
  imod (close_pair m ρ K c 13 lt16) $$ [HIS13 HIR13 HaS13 HaR13] with ⟨HzS13, HzR13⟩
  · isplitl [HIS13]
    · iexact HIS13
    isplitl [HIR13]
    · iexact HIR13
    isplitl [HaS13]
    · iexact HaS13
    iexact HaR13
  imod (close_pair m ρ K c 14 lt16) $$ [HIS14 HIR14 HaS14 HaR14] with ⟨HzS14, HzR14⟩
  · isplitl [HIS14]
    · iexact HIS14
    isplitl [HIR14]
    · iexact HIR14
    isplitl [HaS14]
    · iexact HaS14
    iexact HaR14
  imod (close_pair m ρ K c 15 lt16) $$ [HIS15 HIR15 HaS15 HaR15] with ⟨HzS15, HzR15⟩
  · isplitl [HIS15]
    · iexact HIS15
    isplitl [HIR15]
    · iexact HIR15
    isplitl [HaS15]
    · iexact HaS15
    iexact HaR15
  imodintro
  unfold postF Φ₁ Dat.owesAt Pipeline.owesWithin
  rw [show (dats m ρ 0 c).owed t₀F.succ = 0 from rfl]
  isplitl [Hkeep Hac0 Hac1 Hac2 Hac3 Hac4 Hac5 Hac6 Hac7 Hac8 Hac9 Hac10 Hac11 Hac12 Hac13 Hac14 Hac15 Hsl0 Hsl1 Hsl2 Hsl3 Hsl4 Hsl5 Hsl6 Hsl7 Hsl8 Hsl9 Hsl10 Hsl11 Hsl12 Hsl13 Hsl14 Hsl15 HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15 Hs0 Hr0]
  · isplitl [Hkeep Hac0 Hac1 Hac2 Hac3 Hac4 Hac5 Hac6 Hac7 Hac8 Hac9 Hac10 Hac11 Hac12 Hac13 Hac14 Hac15 Hsl0 Hsl1 Hsl2 Hsl3 Hsl4 Hsl5 Hsl6 Hsl7 Hsl8 Hsl9 Hsl10 Hsl11 Hsl12 Hsl13 Hsl14 Hsl15]
    · unfold scr
      isplitl [Hkeep Hac0 Hac1 Hac2 Hac3 Hac4 Hac5 Hac6 Hac7 Hac8 Hac9 Hac10 Hac11 Hac12 Hac13 Hac14 Hac15]
      · iapply (acc_whole m ρ c)
        isplitl [Hkeep]
        · iexact Hkeep
        isplitl [Hac0]
        · iexact Hac0
        isplitl [Hac1]
        · iexact Hac1
        isplitl [Hac2]
        · iexact Hac2
        isplitl [Hac3]
        · iexact Hac3
        isplitl [Hac4]
        · iexact Hac4
        isplitl [Hac5]
        · iexact Hac5
        isplitl [Hac6]
        · iexact Hac6
        isplitl [Hac7]
        · iexact Hac7
        isplitl [Hac8]
        · iexact Hac8
        isplitl [Hac9]
        · iexact Hac9
        isplitl [Hac10]
        · iexact Hac10
        isplitl [Hac11]
        · iexact Hac11
        isplitl [Hac12]
        · iexact Hac12
        isplitl [Hac13]
        · iexact Hac13
        isplitl [Hac14]
        · iexact Hac14
        iexact Hac15
      · iapply (recv_whole m ρ c fr)
        isplitl [Hsl0]
        · iexact Hsl0
        isplitl [Hsl1]
        · iexact Hsl1
        isplitl [Hsl2]
        · iexact Hsl2
        isplitl [Hsl3]
        · iexact Hsl3
        isplitl [Hsl4]
        · iexact Hsl4
        isplitl [Hsl5]
        · iexact Hsl5
        isplitl [Hsl6]
        · iexact Hsl6
        isplitl [Hsl7]
        · iexact Hsl7
        isplitl [Hsl8]
        · iexact Hsl8
        isplitl [Hsl9]
        · iexact Hsl9
        isplitl [Hsl10]
        · iexact Hsl10
        isplitl [Hsl11]
        · iexact Hsl11
        isplitl [Hsl12]
        · iexact Hsl12
        isplitl [Hsl13]
        · iexact Hsl13
        isplitl [Hsl14]
        · iexact Hsl14
        iexact Hsl15
    isplitl [HzS1 HzR1 HzS2 HzR2 HzS3 HzR3 HzS4 HzR4 HzS5 HzR5 HzS6 HzR6 HzS7 HzR7 HzS8 HzR8 HzS9 HzR9 HzS10 HzR10 HzS11 HzR11 HzS12 HzR12 HzS13 HzR13 HzS14 HzR14 HzS15 HzR15]
    · unfold closedSems
      isplitl [HzS1]
      · iexact HzS1
      isplitl [HzR1]
      · iexact HzR1
      isplitl [HzS2]
      · iexact HzS2
      isplitl [HzR2]
      · iexact HzR2
      isplitl [HzS3]
      · iexact HzS3
      isplitl [HzR3]
      · iexact HzR3
      isplitl [HzS4]
      · iexact HzS4
      isplitl [HzR4]
      · iexact HzR4
      isplitl [HzS5]
      · iexact HzS5
      isplitl [HzR5]
      · iexact HzR5
      isplitl [HzS6]
      · iexact HzS6
      isplitl [HzR6]
      · iexact HzR6
      isplitl [HzS7]
      · iexact HzS7
      isplitl [HzR7]
      · iexact HzR7
      isplitl [HzS8]
      · iexact HzS8
      isplitl [HzR8]
      · iexact HzR8
      isplitl [HzS9]
      · iexact HzS9
      isplitl [HzR9]
      · iexact HzR9
      isplitl [HzS10]
      · iexact HzS10
      isplitl [HzR10]
      · iexact HzR10
      isplitl [HzS11]
      · iexact HzS11
      isplitl [HzR11]
      · iexact HzR11
      isplitl [HzS12]
      · iexact HzS12
      isplitl [HzR12]
      · iexact HzR12
      isplitl [HzS13]
      · iexact HzS13
      isplitl [HzR13]
      · iexact HzR13
      isplitl [HzS14]
      · iexact HzS14
      isplitl [HzR14]
      · iexact HzR14
      isplitl [HzS15]
      · iexact HzS15
      iexact HzR15
    isplitl [Hs0]
    · iexact Hs0
    iexact Hr0
  isplitl [HO]
  · iexists W
    isplitr
    · ipureintro
      exact fun _ _ => Or.inl trivial
    iexact HO
  isplitl [Hx]
  · iexists _
    isplitr
    · ipureintro
      rfl
    iexact Hx
  isplitl [Ht]
  · iexists _
    isplitr
    · ipureintro
      rfl
    iexact Ht
  isplitl [Hws]
  · iexists _
    isplitr
    · ipureintro
      rfl
    iexact Hws
  isplitl [Hwh]
  · iexists _
    isplitr
    · ipureintro
      rfl
    iexact Hwh
  iexists _
  isplitr
  · ipureintro
    exact hfo
  iexact Hout

/-- info: 'Cert.Kernel.KP.finish' depends on axioms: [propext, Classical.choice, Quot.sound] -/
#guard_msgs in #print axioms finish

end Cert.Kernel.KP

end
-- ==== Proof.WBody.lean ====
/-
  One device's body, stepped from the protocol's ghost state to what the launch takes back.
-/
import proofs.«900516_g7700000000000517_dist_diff_adaln_cshard_i_b4_s256_c128_v7x_i16_bf16_1_alg».proof.Proof.WDefs
import proofs.«900516_g7700000000000517_dist_diff_adaln_cshard_i_b4_s256_c128_v7x_i16_bf16_1_alg».proof.Proof.WSched
import proofs.«900516_g7700000000000517_dist_diff_adaln_cshard_i_b4_s256_c128_v7x_i16_bf16_1_alg».proof.Proof.WSlots
import proofs.«900516_g7700000000000517_dist_diff_adaln_cshard_i_b4_s256_c128_v7x_i16_bf16_1_alg».proof.Proof.WRows
import proofs.«900516_g7700000000000517_dist_diff_adaln_cshard_i_b4_s256_c128_v7x_i16_bf16_1_alg».proof.Proof.WFinish

noncomputable section

namespace Cert.Kernel.KP

open Cert.Kernel Cert.Kernel.Gen Cert.Kernel.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ### The buffers, held through their memrefs' views -/

def xPts (c : Dev nD) (f : Buf (Elt F) ((xM : Memref sig .tc .vmem S4x256x128 .f32).view.loc (c : Thread nD τ))) : sProp 𝕄 :=
  (xM : Memref sig .tc .vmem S4x256x128 .f32).view.loc (c : Thread nD τ) ↦[(xM : Memref sig .tc .vmem S4x256x128 .f32).view.set]{fullShare} f
omit [FloatOps F] in
theorem xPts_eq (c : Dev nD) (f : Buf (Elt F) ((c : Thread nD τ).loc cc0_stg0_0)) :
    xPts c f = (((c : Thread nD τ).loc cc0_stg0_0) ↦{fullShare} f : sProp 𝕄) := by unfold xPts; rw [View.set_whole]
def tPts (c : Dev nD) (f : Buf (Elt F) ((tM : Memref sig .tc .vmem S4x128 .f32).view.loc (c : Thread nD τ))) : sProp 𝕄 :=
  (tM : Memref sig .tc .vmem S4x128 .f32).view.loc (c : Thread nD τ) ↦[(tM : Memref sig .tc .vmem S4x128 .f32).view.set]{fullShare} f
omit [FloatOps F] in
theorem tPts_eq (c : Dev nD) (f : Buf (Elt F) ((c : Thread nD τ).loc cc0_stg1_0)) :
    tPts c f = (((c : Thread nD τ).loc cc0_stg1_0) ↦{fullShare} f : sProp 𝕄) := by unfold tPts; rw [View.set_whole]
def wsPts (c : Dev nD) (f : Buf (Elt F) ((wsM : Memref sig .tc .vmem S128x128 .f32).view.loc (c : Thread nD τ))) : sProp 𝕄 :=
  (wsM : Memref sig .tc .vmem S128x128 .f32).view.loc (c : Thread nD τ) ↦[(wsM : Memref sig .tc .vmem S128x128 .f32).view.set]{fullShare} f
omit [FloatOps F] in
theorem wsPts_eq (c : Dev nD) (f : Buf (Elt F) ((c : Thread nD τ).loc cc0_stg2_0)) :
    wsPts c f = (((c : Thread nD τ).loc cc0_stg2_0) ↦{fullShare} f : sProp 𝕄) := by unfold wsPts; rw [View.set_whole]
def whPts (c : Dev nD) (f : Buf (Elt F) ((whM : Memref sig .tc .vmem S128x128 .f32).view.loc (c : Thread nD τ))) : sProp 𝕄 :=
  (whM : Memref sig .tc .vmem S128x128 .f32).view.loc (c : Thread nD τ) ↦[(whM : Memref sig .tc .vmem S128x128 .f32).view.set]{fullShare} f
omit [FloatOps F] in
theorem whPts_eq (c : Dev nD) (f : Buf (Elt F) ((c : Thread nD τ).loc cc0_stg3_0)) :
    whPts c f = (((c : Thread nD τ).loc cc0_stg3_0) ↦{fullShare} f : sProp 𝕄) := by unfold whPts; rw [View.set_whole]
def oPts (c : Dev nD) (f : Buf (Elt F) ((oM : Memref sig .tc .vmem S4x256x128 .f32).view.loc (c : Thread nD τ))) : sProp 𝕄 :=
  (oM : Memref sig .tc .vmem S4x256x128 .f32).view.loc (c : Thread nD τ) ↦[(oM : Memref sig .tc .vmem S4x256x128 .f32).view.set]{fullShare} f
omit [FloatOps F] in
theorem oPts_eq (c : Dev nD) (f : Buf (Elt F) ((c : Thread nD τ).loc cc0_stg4_0)) :
    oPts c f = (((c : Thread nD τ).loc cc0_stg4_0) ↦{fullShare} f : sProp 𝕄) := by unfold oPts; rw [View.set_whole]
def rPts (c : Dev nD) (f : Buf (Elt F) ((rM : Memref sig .tc .vmem S16x8x256 .f32).view.loc (c : Thread nD τ))) : sProp 𝕄 :=
  (rM : Memref sig .tc .vmem S16x8x256 .f32).view.loc (c : Thread nD τ) ↦[(rM : Memref sig .tc .vmem S16x8x256 .f32).view.set]{fullShare} f
omit [FloatOps F] in
theorem rPts_eq (c : Dev nD) (f : Buf (Elt F) ((c : Thread nD τ).loc cc0_scratch1)) :
    rPts c f = (((c : Thread nD τ).loc cc0_scratch1) ↦{fullShare} f : sProp 𝕄) := by unfold rPts; rw [View.set_whole]

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq

/-- Binding a returned value is applying the continuation. -/
theorem prog_ret_bind {E : Type → Type} {α β : Type} (a : α) (k : α → Prog E β) : (Prog.ret a).bind k = k a := rfl

/-! ### What the body's whole-buffer loads read -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) :
    (xM : Memref sig .tc .vmem S4x256x128 .f32).view.readAt (Elt F) (Rect.unit (s := S4x256x128) ![0, 0, 0] S4x256x128.size inb_S4x256x128_S4x256x128_0_0_0).toLoadRect f = f :=
  Memref.readAt_unit_zero (Elt F) cc0_stg0_0 hz3 _ f
omit [FloatOps F] in
theorem read_t (f : (cc0_stg1_0 : Ref sig .tc).ty.Contents (Elt F)) :
    (tM : Memref sig .tc .vmem S4x128 .f32).view.readAt (Elt F) (Rect.unit (s := S4x128) ![0, 0] S4x128.size inb_S4x128_S4x128_0_0).toLoadRect f = f :=
  Memref.readAt_unit_zero (Elt F) cc0_stg1_0 hz2 _ f
omit [FloatOps F] in
theorem read_ws (f : (cc0_stg2_0 : Ref sig .tc).ty.Contents (Elt F)) :
    (wsM : Memref sig .tc .vmem S128x128 .f32).view.readAt (Elt F) (Rect.unit (s := S128x128) ![0, 0] S128x128.size inb_S128x128_S128x128_0_0).toLoadRect f = f :=
  Memref.readAt_unit_zero (Elt F) cc0_stg2_0 hz2 _ f
omit [FloatOps F] in
theorem read_wh (f : (cc0_stg3_0 : Ref sig .tc).ty.Contents (Elt F)) :
    (whM : Memref sig .tc .vmem S128x128 .f32).view.readAt (Elt F) (Rect.unit (s := S128x128) ![0, 0] S128x128.size inb_S128x128_S128x128_0_0).toLoadRect f = f :=
  Memref.readAt_unit_zero (Elt F) cc0_stg3_0 hz2 _ f
omit [FloatOps F] in
theorem read_a (f : (cc0_scratch0 : Ref sig .tc).ty.Contents (Elt F)) :
    (aM : Memref sig .tc .vmem S8x256 .f32).view.readAt (Elt F) (Rect.unit (s := S8x256) ![0, 0] S8x256.size inb_S8x256_S8x256_0_0).toLoadRect f = f :=
  Memref.readAt_unit_zero (Elt F) cc0_scratch0 hz2 _ f
omit [FloatOps F] in
theorem back_zero (c : Dev nD) : back c 0 = c := by
  apply Fin.ext; show (c.val + (16 - 0 % 16)) % 16 = c.val; have h16 : c.val < 16 := c.isLt; omega

/-- A slot held through the receive buffer's own memref under the slot's rectangle is the slot. -/
theorem slot_fold (c : Dev nD) (k : ℕ) (hk : k < 16) (f : Buf (Elt F) ((c : Thread nD τ).loc cc0_scratch1)) :
    ((rM : Memref sig .tc .vmem S16x8x256 .f32).view.loc (c : Thread nD τ) ↦[(rM : Memref sig .tc .vmem S16x8x256 .f32).view.setOn (slotR k hk).toLoadRect.set]{fullShare} f : sProp 𝕄)
      ⊢ slotPts c k hk f := by
  unfold slotPts; rw [slot_setOn k hk]

/-! ### The four stores of the result's rows, as one list of writes -/

theorem out_writes (c : Dev nD) (g : Buf (Elt F) ((c : Thread nD τ).loc cc0_stg4_0)) (x : Vec F S4x256x128 .f32) (t : Vec F S4x128 .f32)
    (ws wh : Vec F S128x128 .f32) (tot : FVec F S8x256 .f32) :
    (oM : Memref sig .tc .vmem S4x256x128 .f32).view.writes (Elt F) g
        [⟨Rect.unit (s := S4x256x128) ![3, 0, 0] S1x256x128.size inb_S4x256x128_S1x256x128_3_0_0, outRow 3 x t ws wh tot⟩,
         ⟨Rect.unit (s := S4x256x128) ![2, 0, 0] S1x256x128.size inb_S4x256x128_S1x256x128_2_0_0, outRow 2 x t ws wh tot⟩,
         ⟨Rect.unit (s := S4x256x128) ![1, 0, 0] S1x256x128.size inb_S4x256x128_S1x256x128_1_0_0, outRow 1 x t ws wh tot⟩,
         ⟨Rect.unit (s := S4x256x128) ![0, 0, 0] S1x256x128.size inb_S4x256x128_S1x256x128_0_0_0, outRow 0 x t ws wh tot⟩]
      = outOf x t ws wh tot := by
  simp only [View.writes_cons, View.writes_nil]
  exact rows_write c g x t ws wh tot

/-- The total as the body's own fold: its own moments first. -/
theorem totOf_unfold (c : Dev nD) :
    totOf m ρ c
      = k0_pay7
          (k0_pay6 (k0_pay5 (accOf m ρ c) (slotV (accOf m ρ (back c 1)))) (slotV (accOf m ρ (back c 2))) (slotV (accOf m ρ (back c 3)))
            (slotV (accOf m ρ (back c 4))) (slotV (accOf m ρ (back c 5))) (slotV (accOf m ρ (back c 6))) (slotV (accOf m ρ (back c 7)))
            (slotV (accOf m ρ (back c 8))) (slotV (accOf m ρ (back c 9))) (slotV (accOf m ρ (back c 10))) (slotV (accOf m ρ (back c 11))))
          (slotV (accOf m ρ (back c 12))) (slotV (accOf m ρ (back c 13))) (slotV (accOf m ρ (back c 14))) (slotV (accOf m ρ (back c 15))) := by
  unfold totOf totFold
  simp only [back_zero]

section Body

variable (K : Names)

def bodyPre (c : Dev nD) : sProp 𝕄 :=
  iprop((ghost m ρ K c ∗ cred (tallyAt (barCell c) () 15) ∗ recvCreds c ∗ levAts L lv ∗ scr c
      ∗ semVal (sendCell c 0 (by decide)) 0 ∗ semVal (recvCell c 0 (by decide)) 0)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

def bodyPost (c : Dev nD) : sProp 𝕄 := postF m ρ c

/-! ### What each signal hands over and what the barrier wait hands back, offset by offset, the points-to spelt out -/

theorem barPay_out_1 (c : Dev nD) :
    (barPay (peer c 1) (1 : Fin 16) : sProp 𝕄)
      = iprop((∃ f, ((slotM 15 (of_decide_eq_true (Eq.refl true))).view.loc (c : Thread nD τ) ↦[(slotM 15 (of_decide_eq_true (Eq.refl true))).view.set]{fullShare} f))
          ∗ reached ER (recvCell c 15 (of_decide_eq_true (Eq.refl true))) 0) := barPay_out c 1 (of_decide_eq_true (Eq.refl true)) (by decide)
theorem barPay_in_1 (c : Dev nD) :
    (barPay c (15 : Fin 16) : sProp 𝕄)
      = iprop((∃ f, ((slotM 1 (of_decide_eq_true (Eq.refl true))).view.loc (peer c 1 : Thread nD τ) ↦[(slotM 1 (of_decide_eq_true (Eq.refl true))).view.set]{fullShare} f))
          ∗ reached ER (recvCell (peer c 1) 1 (of_decide_eq_true (Eq.refl true))) 0) := barPay_in c 1 (of_decide_eq_true (Eq.refl true)) (by decide)
theorem barPay_out_2 (c : Dev nD) :
    (barPay (peer c 2) (2 : Fin 16) : sProp 𝕄)
      = iprop((∃ f, ((slotM 14 (of_decide_eq_true (Eq.refl true))).view.loc (c : Thread nD τ) ↦[(slotM 14 (of_decide_eq_true (Eq.refl true))).view.set]{fullShare} f))
          ∗ reached ER (recvCell c 14 (of_decide_eq_true (Eq.refl true))) 0) := barPay_out c 2 (of_decide_eq_true (Eq.refl true)) (by decide)
theorem barPay_in_2 (c : Dev nD) :
    (barPay c (14 : Fin 16) : sProp 𝕄)
      = iprop((∃ f, ((slotM 2 (of_decide_eq_true (Eq.refl true))).view.loc (peer c 2 : Thread nD τ) ↦[(slotM 2 (of_decide_eq_true (Eq.refl true))).view.set]{fullShare} f))
          ∗ reached ER (recvCell (peer c 2) 2 (of_decide_eq_true (Eq.refl true))) 0) := barPay_in c 2 (of_decide_eq_true (Eq.refl true)) (by decide)
theorem barPay_out_3 (c : Dev nD) :
    (barPay (peer c 3) (3 : Fin 16) : sProp 𝕄)
      = iprop((∃ f, ((slotM 13 (of_decide_eq_true (Eq.refl true))).view.loc (c : Thread nD τ) ↦[(slotM 13 (of_decide_eq_true (Eq.refl true))).view.set]{fullShare} f))
          ∗ reached ER (recvCell c 13 (of_decide_eq_true (Eq.refl true))) 0) := barPay_out c 3 (of_decide_eq_true (Eq.refl true)) (by decide)
theorem barPay_in_3 (c : Dev nD) :
    (barPay c (13 : Fin 16) : sProp 𝕄)
      = iprop((∃ f, ((slotM 3 (of_decide_eq_true (Eq.refl true))).view.loc (peer c 3 : Thread nD τ) ↦[(slotM 3 (of_decide_eq_true (Eq.refl true))).view.set]{fullShare} f))
          ∗ reached ER (recvCell (peer c 3) 3 (of_decide_eq_true (Eq.refl true))) 0) := barPay_in c 3 (of_decide_eq_true (Eq.refl true)) (by decide)
theorem barPay_out_4 (c : Dev nD) :
    (barPay (peer c 4) (4 : Fin 16) : sProp 𝕄)
      = iprop((∃ f, ((slotM 12 (of_decide_eq_true (Eq.refl true))).view.loc (c : Thread nD τ) ↦[(slotM 12 (of_decide_eq_true (Eq.refl true))).view.set]{fullShare} f))
          ∗ reached ER (recvCell c 12 (of_decide_eq_true (Eq.refl true))) 0) := barPay_out c 4 (of_decide_eq_true (Eq.refl true)) (by decide)
theorem barPay_in_4 (c : Dev nD) :
    (barPay c (12 : Fin 16) : sProp 𝕄)
      = iprop((∃ f, ((slotM 4 (of_decide_eq_true (Eq.refl true))).view.loc (peer c 4 : Thread nD τ) ↦[(slotM 4 (of_decide_eq_true (Eq.refl true))).view.set]{fullShare} f))
          ∗ reached ER (recvCell (peer c 4) 4 (of_decide_eq_true (Eq.refl true))) 0) := barPay_in c 4 (of_decide_eq_true (Eq.refl true)) (by decide)
theorem barPay_out_5 (c : Dev nD) :
    (barPay (peer c 5) (5 : Fin 16) : sProp 𝕄)
      = iprop((∃ f, ((slotM 11 (of_decide_eq_true (Eq.refl true))).view.loc (c : Thread nD τ) ↦[(slotM 11 (of_decide_eq_true (Eq.refl true))).view.set]{fullShare} f))
          ∗ reached ER (recvCell c 11 (of_decide_eq_true (Eq.refl true))) 0) := barPay_out c 5 (of_decide_eq_true (Eq.refl true)) (by decide)
theorem barPay_in_5 (c : Dev nD) :
    (barPay c (11 : Fin 16) : sProp 𝕄)
      = iprop((∃ f, ((slotM 5 (of_decide_eq_true (Eq.refl true))).view.loc (peer c 5 : Thread nD τ) ↦[(slotM 5 (of_decide_eq_true (Eq.refl true))).view.set]{fullShare} f))
          ∗ reached ER (recvCell (peer c 5) 5 (of_decide_eq_true (Eq.refl true))) 0) := barPay_in c 5 (of_decide_eq_true (Eq.refl true)) (by decide)
theorem barPay_out_6 (c : Dev nD) :
    (barPay (peer c 6) (6 : Fin 16) : sProp 𝕄)
      = iprop((∃ f, ((slotM 10 (of_decide_eq_true (Eq.refl true))).view.loc (c : Thread nD τ) ↦[(slotM 10 (of_decide_eq_true (Eq.refl true))).view.set]{fullShare} f))
          ∗ reached ER (recvCell c 10 (of_decide_eq_true (Eq.refl true))) 0) := barPay_out c 6 (of_decide_eq_true (Eq.refl true)) (by decide)
theorem barPay_in_6 (c : Dev nD) :
    (barPay c (10 : Fin 16) : sProp 𝕄)
      = iprop((∃ f, ((slotM 6 (of_decide_eq_true (Eq.refl true))).view.loc (peer c 6 : Thread nD τ) ↦[(slotM 6 (of_decide_eq_true (Eq.refl true))).view.set]{fullShare} f))
          ∗ reached ER (recvCell (peer c 6) 6 (of_decide_eq_true (Eq.refl true))) 0) := barPay_in c 6 (of_decide_eq_true (Eq.refl true)) (by decide)
theorem barPay_out_7 (c : Dev nD) :
    (barPay (peer c 7) (7 : Fin 16) : sProp 𝕄)
      = iprop((∃ f, ((slotM 9 (of_decide_eq_true (Eq.refl true))).view.loc (c : Thread nD τ) ↦[(slotM 9 (of_decide_eq_true (Eq.refl true))).view.set]{fullShare} f))
          ∗ reached ER (recvCell c 9 (of_decide_eq_true (Eq.refl true))) 0) := barPay_out c 7 (of_decide_eq_true (Eq.refl true)) (by decide)
theorem barPay_in_7 (c : Dev nD) :
    (barPay c (9 : Fin 16) : sProp 𝕄)
      = iprop((∃ f, ((slotM 7 (of_decide_eq_true (Eq.refl true))).view.loc (peer c 7 : Thread nD τ) ↦[(slotM 7 (of_decide_eq_true (Eq.refl true))).view.set]{fullShare} f))
          ∗ reached ER (recvCell (peer c 7) 7 (of_decide_eq_true (Eq.refl true))) 0) := barPay_in c 7 (of_decide_eq_true (Eq.refl true)) (by decide)
theorem barPay_out_8 (c : Dev nD) :
    (barPay (peer c 8) (8 : Fin 16) : sProp 𝕄)
      = iprop((∃ f, ((slotM 8 (of_decide_eq_true (Eq.refl true))).view.loc (c : Thread nD τ) ↦[(slotM 8 (of_decide_eq_true (Eq.refl true))).view.set]{fullShare} f))
          ∗ reached ER (recvCell c 8 (of_decide_eq_true (Eq.refl true))) 0) := barPay_out c 8 (of_decide_eq_true (Eq.refl true)) (by decide)
theorem barPay_in_8 (c : Dev nD) :
    (barPay c (8 : Fin 16) : sProp 𝕄)
      = iprop((∃ f, ((slotM 8 (of_decide_eq_true (Eq.refl true))).view.loc (peer c 8 : Thread nD τ) ↦[(slotM 8 (of_decide_eq_true (Eq.refl true))).view.set]{fullShare} f))
          ∗ reached ER (recvCell (peer c 8) 8 (of_decide_eq_true (Eq.refl true))) 0) := barPay_in c 8 (of_decide_eq_true (Eq.refl true)) (by decide)
theorem barPay_out_9 (c : Dev nD) :
    (barPay (peer c 9) (9 : Fin 16) : sProp 𝕄)
      = iprop((∃ f, ((slotM 7 (of_decide_eq_true (Eq.refl true))).view.loc (c : Thread nD τ) ↦[(slotM 7 (of_decide_eq_true (Eq.refl true))).view.set]{fullShare} f))
          ∗ reached ER (recvCell c 7 (of_decide_eq_true (Eq.refl true))) 0) := barPay_out c 9 (of_decide_eq_true (Eq.refl true)) (by decide)
theorem barPay_in_9 (c : Dev nD) :
    (barPay c (7 : Fin 16) : sProp 𝕄)
      = iprop((∃ f, ((slotM 9 (of_decide_eq_true (Eq.refl true))).view.loc (peer c 9 : Thread nD τ) ↦[(slotM 9 (of_decide_eq_true (Eq.refl true))).view.set]{fullShare} f))
          ∗ reached ER (recvCell (peer c 9) 9 (of_decide_eq_true (Eq.refl true))) 0) := barPay_in c 9 (of_decide_eq_true (Eq.refl true)) (by decide)
theorem barPay_out_10 (c : Dev nD) :
    (barPay (peer c 10) (10 : Fin 16) : sProp 𝕄)
      = iprop((∃ f, ((slotM 6 (of_decide_eq_true (Eq.refl true))).view.loc (c : Thread nD τ) ↦[(slotM 6 (of_decide_eq_true (Eq.refl true))).view.set]{fullShare} f))
          ∗ reached ER (recvCell c 6 (of_decide_eq_true (Eq.refl true))) 0) := barPay_out c 10 (of_decide_eq_true (Eq.refl true)) (by decide)
theorem barPay_in_10 (c : Dev nD) :
    (barPay c (6 : Fin 16) : sProp 𝕄)
      = iprop((∃ f, ((slotM 10 (of_decide_eq_true (Eq.refl true))).view.loc (peer c 10 : Thread nD τ) ↦[(slotM 10 (of_decide_eq_true (Eq.refl true))).view.set]{fullShare} f))
          ∗ reached ER (recvCell (peer c 10) 10 (of_decide_eq_true (Eq.refl true))) 0) := barPay_in c 10 (of_decide_eq_true (Eq.refl true)) (by decide)
theorem barPay_out_11 (c : Dev nD) :
    (barPay (peer c 11) (11 : Fin 16) : sProp 𝕄)
      = iprop((∃ f, ((slotM 5 (of_decide_eq_true (Eq.refl true))).view.loc (c : Thread nD τ) ↦[(slotM 5 (of_decide_eq_true (Eq.refl true))).view.set]{fullShare} f))
          ∗ reached ER (recvCell c 5 (of_decide_eq_true (Eq.refl true))) 0) := barPay_out c 11 (of_decide_eq_true (Eq.refl true)) (by decide)
theorem barPay_in_11 (c : Dev nD) :
    (barPay c (5 : Fin 16) : sProp 𝕄)
      = iprop((∃ f, ((slotM 11 (of_decide_eq_true (Eq.refl true))).view.loc (peer c 11 : Thread nD τ) ↦[(slotM 11 (of_decide_eq_true (Eq.refl true))).view.set]{fullShare} f))
          ∗ reached ER (recvCell (peer c 11) 11 (of_decide_eq_true (Eq.refl true))) 0) := barPay_in c 11 (of_decide_eq_true (Eq.refl true)) (by decide)
theorem barPay_out_12 (c : Dev nD) :
    (barPay (peer c 12) (12 : Fin 16) : sProp 𝕄)
      = iprop((∃ f, ((slotM 4 (of_decide_eq_true (Eq.refl true))).view.loc (c : Thread nD τ) ↦[(slotM 4 (of_decide_eq_true (Eq.refl true))).view.set]{fullShare} f))
          ∗ reached ER (recvCell c 4 (of_decide_eq_true (Eq.refl true))) 0) := barPay_out c 12 (of_decide_eq_true (Eq.refl true)) (by decide)
theorem barPay_in_12 (c : Dev nD) :
    (barPay c (4 : Fin 16) : sProp 𝕄)
      = iprop((∃ f, ((slotM 12 (of_decide_eq_true (Eq.refl true))).view.loc (peer c 12 : Thread nD τ) ↦[(slotM 12 (of_decide_eq_true (Eq.refl true))).view.set]{fullShare} f))
          ∗ reached ER (recvCell (peer c 12) 12 (of_decide_eq_true (Eq.refl true))) 0) := barPay_in c 12 (of_decide_eq_true (Eq.refl true)) (by decide)
theorem barPay_out_13 (c : Dev nD) :
    (barPay (peer c 13) (13 : Fin 16) : sProp 𝕄)
      = iprop((∃ f, ((slotM 3 (of_decide_eq_true (Eq.refl true))).view.loc (c : Thread nD τ) ↦[(slotM 3 (of_decide_eq_true (Eq.refl true))).view.set]{fullShare} f))
          ∗ reached ER (recvCell c 3 (of_decide_eq_true (Eq.refl true))) 0) := barPay_out c 13 (of_decide_eq_true (Eq.refl true)) (by decide)
theorem barPay_in_13 (c : Dev nD) :
    (barPay c (3 : Fin 16) : sProp 𝕄)
      = iprop((∃ f, ((slotM 13 (of_decide_eq_true (Eq.refl true))).view.loc (peer c 13 : Thread nD τ) ↦[(slotM 13 (of_decide_eq_true (Eq.refl true))).view.set]{fullShare} f))
          ∗ reached ER (recvCell (peer c 13) 13 (of_decide_eq_true (Eq.refl true))) 0) := barPay_in c 13 (of_decide_eq_true (Eq.refl true)) (by decide)
theorem barPay_out_14 (c : Dev nD) :
    (barPay (peer c 14) (14 : Fin 16) : sProp 𝕄)
      = iprop((∃ f, ((slotM 2 (of_decide_eq_true (Eq.refl true))).view.loc (c : Thread nD τ) ↦[(slotM 2 (of_decide_eq_true (Eq.refl true))).view.set]{fullShare} f))
          ∗ reached ER (recvCell c 2 (of_decide_eq_true (Eq.refl true))) 0) := barPay_out c 14 (of_decide_eq_true (Eq.refl true)) (by decide)
theorem barPay_in_14 (c : Dev nD) :
    (barPay c (2 : Fin 16) : sProp 𝕄)
      = iprop((∃ f, ((slotM 14 (of_decide_eq_true (Eq.refl true))).view.loc (peer c 14 : Thread nD τ) ↦[(slotM 14 (of_decide_eq_true (Eq.refl true))).view.set]{fullShare} f))
          ∗ reached ER (recvCell (peer c 14) 14 (of_decide_eq_true (Eq.refl true))) 0) := barPay_in c 14 (of_decide_eq_true (Eq.refl true)) (by decide)
theorem barPay_out_15 (c : Dev nD) :
    (barPay (peer c 15) (15 : Fin 16) : sProp 𝕄)
      = iprop((∃ f, ((slotM 1 (of_decide_eq_true (Eq.refl true))).view.loc (c : Thread nD τ) ↦[(slotM 1 (of_decide_eq_true (Eq.refl true))).view.set]{fullShare} f))
          ∗ reached ER (recvCell c 1 (of_decide_eq_true (Eq.refl true))) 0) := barPay_out c 15 (of_decide_eq_true (Eq.refl true)) (by decide)
theorem barPay_in_15 (c : Dev nD) :
    (barPay c (1 : Fin 16) : sProp 𝕄)
      = iprop((∃ f, ((slotM 15 (of_decide_eq_true (Eq.refl true))).view.loc (peer c 15 : Thread nD τ) ↦[(slotM 15 (of_decide_eq_true (Eq.refl true))).view.set]{fullShare} f))
          ∗ reached ER (recvCell (peer c 15) 15 (of_decide_eq_true (Eq.refl true))) 0) := barPay_in c 15 (of_decide_eq_true (Eq.refl true)) (by decide)

attribute [local sl_rounds] barPay_out_1 barPay_out_2 barPay_out_3 barPay_out_4 barPay_out_5 barPay_out_6 barPay_out_7 barPay_out_8 barPay_out_9 barPay_out_10 barPay_out_11 barPay_out_12 barPay_out_13 barPay_out_14 barPay_out_15

/-- Slot 0 of the receive buffer, which no copy ever touches, kept apart. -/
def hold0 (c : Dev nD) (f : Buf (Elt F) ((c : Thread nD τ).loc cc0_scratch1)) : sProp 𝕄 := slotPts c 0 (of_decide_eq_true (Eq.refl true)) f

/-- The receive buffer whole is the sixteen slots, the last first. -/
theorem recv_split_rev (c : Dev nD) (f : Buf (Elt F) ((c : Thread nD τ).loc cc0_scratch1)) :
    ((((c : Thread nD τ).loc cc0_scratch1) ↦{fullShare} f : sProp 𝕄))
      ⊣⊢ iprop(slotPts c 15 (of_decide_eq_true (Eq.refl true)) f
      ∗ slotPts c 14 (of_decide_eq_true (Eq.refl true)) f
      ∗ slotPts c 13 (of_decide_eq_true (Eq.refl true)) f
      ∗ slotPts c 12 (of_decide_eq_true (Eq.refl true)) f
      ∗ slotPts c 11 (of_decide_eq_true (Eq.refl true)) f
      ∗ slotPts c 10 (of_decide_eq_true (Eq.refl true)) f
      ∗ slotPts c 9 (of_decide_eq_true (Eq.refl true)) f
      ∗ slotPts c 8 (of_decide_eq_true (Eq.refl true)) f
      ∗ slotPts c 7 (of_decide_eq_true (Eq.refl true)) f
      ∗ slotPts c 6 (of_decide_eq_true (Eq.refl true)) f
      ∗ slotPts c 5 (of_decide_eq_true (Eq.refl true)) f
      ∗ slotPts c 4 (of_decide_eq_true (Eq.refl true)) f
      ∗ slotPts c 3 (of_decide_eq_true (Eq.refl true)) f
      ∗ slotPts c 2 (of_decide_eq_true (Eq.refl true)) f
      ∗ slotPts c 1 (of_decide_eq_true (Eq.refl true)) f
      ∗ hold0 c f) := by
  unfold hold0
  rw [recv_bigSep c f, bigSep_univ_eq_bigSepL [(⟨15, by decide⟩ : Fin 16), (⟨14, by decide⟩ : Fin 16), (⟨13, by decide⟩ : Fin 16), (⟨12, by decide⟩ : Fin 16), (⟨11, by decide⟩ : Fin 16), (⟨10, by decide⟩ : Fin 16), (⟨9, by decide⟩ : Fin 16), (⟨8, by decide⟩ : Fin 16), (⟨7, by decide⟩ : Fin 16), (⟨6, by decide⟩ : Fin 16), (⟨5, by decide⟩ : Fin 16), (⟨4, by decide⟩ : Fin 16), (⟨3, by decide⟩ : Fin 16), (⟨2, by decide⟩ : Fin 16), (⟨1, by decide⟩ : Fin 16), (⟨0, by decide⟩ : Fin 16)] (by decide) (by decide)]
  exact BiEntails.rfl

/-! ### The copies' payloads, the points-to spelt out -/

theorem recvPay_lit (c : Dev nD) (k : ℕ) (hk : k < 16) :
    (recvPay m ρ c k : sProp 𝕄) = ((slotM k hk).view.loc (c : Thread nD τ) ↦[(slotM k hk).view.set]{fullShare} landed m ρ c k) :=
  recvPay_eq m ρ c k hk
theorem sendPay_lit (c : Dev nD) (k : ℕ) (hk : k < 16) :
    (sendPay m ρ c k : sProp 𝕄)
      = ((aM : Memref sig .tc .vmem S8x256 .f32).view.loc (c : Thread nD τ) ↦[(aM : Memref sig .tc .vmem S8x256 .f32).view.set]{shr k hk} accOf m ρ c) :=
  sendPay_eq m ρ c k hk
theorem recvPay_lit_1 (c : Dev nD) : (recvPay m ρ c 1 : sProp 𝕄) = ((rM : Memref sig .tc .vmem S16x8x256 .f32).view.loc (c : Thread nD τ) ↦[(rM : Memref sig .tc .vmem S16x8x256 .f32).view.setOn (slotR 1 (of_decide_eq_true (Eq.refl true))).toLoadRect.set]{fullShare} landed m ρ c 1) :=
  (recvPay_lit m ρ c 1 (of_decide_eq_true (Eq.refl true))).trans (by rw [slot_setOn 1 (of_decide_eq_true (Eq.refl true))])
theorem sendPay_lit_1 (c : Dev nD) : (sendPay m ρ c 1 : sProp 𝕄) = ((aM : Memref sig .tc .vmem S8x256 .f32).view.loc (c : Thread nD τ) ↦[(aM : Memref sig .tc .vmem S8x256 .f32).view.set]{shr 1 (of_decide_eq_true (Eq.refl true))} accOf m ρ c) := sendPay_lit m ρ c 1 (of_decide_eq_true (Eq.refl true))
theorem recvPay_lit_2 (c : Dev nD) : (recvPay m ρ c 2 : sProp 𝕄) = ((rM : Memref sig .tc .vmem S16x8x256 .f32).view.loc (c : Thread nD τ) ↦[(rM : Memref sig .tc .vmem S16x8x256 .f32).view.setOn (slotR 2 (of_decide_eq_true (Eq.refl true))).toLoadRect.set]{fullShare} landed m ρ c 2) :=
  (recvPay_lit m ρ c 2 (of_decide_eq_true (Eq.refl true))).trans (by rw [slot_setOn 2 (of_decide_eq_true (Eq.refl true))])
theorem sendPay_lit_2 (c : Dev nD) : (sendPay m ρ c 2 : sProp 𝕄) = ((aM : Memref sig .tc .vmem S8x256 .f32).view.loc (c : Thread nD τ) ↦[(aM : Memref sig .tc .vmem S8x256 .f32).view.set]{shr 2 (of_decide_eq_true (Eq.refl true))} accOf m ρ c) := sendPay_lit m ρ c 2 (of_decide_eq_true (Eq.refl true))
theorem recvPay_lit_3 (c : Dev nD) : (recvPay m ρ c 3 : sProp 𝕄) = ((rM : Memref sig .tc .vmem S16x8x256 .f32).view.loc (c : Thread nD τ) ↦[(rM : Memref sig .tc .vmem S16x8x256 .f32).view.setOn (slotR 3 (of_decide_eq_true (Eq.refl true))).toLoadRect.set]{fullShare} landed m ρ c 3) :=
  (recvPay_lit m ρ c 3 (of_decide_eq_true (Eq.refl true))).trans (by rw [slot_setOn 3 (of_decide_eq_true (Eq.refl true))])
theorem sendPay_lit_3 (c : Dev nD) : (sendPay m ρ c 3 : sProp 𝕄) = ((aM : Memref sig .tc .vmem S8x256 .f32).view.loc (c : Thread nD τ) ↦[(aM : Memref sig .tc .vmem S8x256 .f32).view.set]{shr 3 (of_decide_eq_true (Eq.refl true))} accOf m ρ c) := sendPay_lit m ρ c 3 (of_decide_eq_true (Eq.refl true))
theorem recvPay_lit_4 (c : Dev nD) : (recvPay m ρ c 4 : sProp 𝕄) = ((rM : Memref sig .tc .vmem S16x8x256 .f32).view.loc (c : Thread nD τ) ↦[(rM : Memref sig .tc .vmem S16x8x256 .f32).view.setOn (slotR 4 (of_decide_eq_true (Eq.refl true))).toLoadRect.set]{fullShare} landed m ρ c 4) :=
  (recvPay_lit m ρ c 4 (of_decide_eq_true (Eq.refl true))).trans (by rw [slot_setOn 4 (of_decide_eq_true (Eq.refl true))])
theorem sendPay_lit_4 (c : Dev nD) : (sendPay m ρ c 4 : sProp 𝕄) = ((aM : Memref sig .tc .vmem S8x256 .f32).view.loc (c : Thread nD τ) ↦[(aM : Memref sig .tc .vmem S8x256 .f32).view.set]{shr 4 (of_decide_eq_true (Eq.refl true))} accOf m ρ c) := sendPay_lit m ρ c 4 (of_decide_eq_true (Eq.refl true))
theorem recvPay_lit_5 (c : Dev nD) : (recvPay m ρ c 5 : sProp 𝕄) = ((rM : Memref sig .tc .vmem S16x8x256 .f32).view.loc (c : Thread nD τ) ↦[(rM : Memref sig .tc .vmem S16x8x256 .f32).view.setOn (slotR 5 (of_decide_eq_true (Eq.refl true))).toLoadRect.set]{fullShare} landed m ρ c 5) :=
  (recvPay_lit m ρ c 5 (of_decide_eq_true (Eq.refl true))).trans (by rw [slot_setOn 5 (of_decide_eq_true (Eq.refl true))])
theorem sendPay_lit_5 (c : Dev nD) : (sendPay m ρ c 5 : sProp 𝕄) = ((aM : Memref sig .tc .vmem S8x256 .f32).view.loc (c : Thread nD τ) ↦[(aM : Memref sig .tc .vmem S8x256 .f32).view.set]{shr 5 (of_decide_eq_true (Eq.refl true))} accOf m ρ c) := sendPay_lit m ρ c 5 (of_decide_eq_true (Eq.refl true))
theorem recvPay_lit_6 (c : Dev nD) : (recvPay m ρ c 6 : sProp 𝕄) = ((rM : Memref sig .tc .vmem S16x8x256 .f32).view.loc (c : Thread nD τ) ↦[(rM : Memref sig .tc .vmem S16x8x256 .f32).view.setOn (slotR 6 (of_decide_eq_true (Eq.refl true))).toLoadRect.set]{fullShare} landed m ρ c 6) :=
  (recvPay_lit m ρ c 6 (of_decide_eq_true (Eq.refl true))).trans (by rw [slot_setOn 6 (of_decide_eq_true (Eq.refl true))])
theorem sendPay_lit_6 (c : Dev nD) : (sendPay m ρ c 6 : sProp 𝕄) = ((aM : Memref sig .tc .vmem S8x256 .f32).view.loc (c : Thread nD τ) ↦[(aM : Memref sig .tc .vmem S8x256 .f32).view.set]{shr 6 (of_decide_eq_true (Eq.refl true))} accOf m ρ c) := sendPay_lit m ρ c 6 (of_decide_eq_true (Eq.refl true))
theorem recvPay_lit_7 (c : Dev nD) : (recvPay m ρ c 7 : sProp 𝕄) = ((rM : Memref sig .tc .vmem S16x8x256 .f32).view.loc (c : Thread nD τ) ↦[(rM : Memref sig .tc .vmem S16x8x256 .f32).view.setOn (slotR 7 (of_decide_eq_true (Eq.refl true))).toLoadRect.set]{fullShare} landed m ρ c 7) :=
  (recvPay_lit m ρ c 7 (of_decide_eq_true (Eq.refl true))).trans (by rw [slot_setOn 7 (of_decide_eq_true (Eq.refl true))])
theorem sendPay_lit_7 (c : Dev nD) : (sendPay m ρ c 7 : sProp 𝕄) = ((aM : Memref sig .tc .vmem S8x256 .f32).view.loc (c : Thread nD τ) ↦[(aM : Memref sig .tc .vmem S8x256 .f32).view.set]{shr 7 (of_decide_eq_true (Eq.refl true))} accOf m ρ c) := sendPay_lit m ρ c 7 (of_decide_eq_true (Eq.refl true))
theorem recvPay_lit_8 (c : Dev nD) : (recvPay m ρ c 8 : sProp 𝕄) = ((rM : Memref sig .tc .vmem S16x8x256 .f32).view.loc (c : Thread nD τ) ↦[(rM : Memref sig .tc .vmem S16x8x256 .f32).view.setOn (slotR 8 (of_decide_eq_true (Eq.refl true))).toLoadRect.set]{fullShare} landed m ρ c 8) :=
  (recvPay_lit m ρ c 8 (of_decide_eq_true (Eq.refl true))).trans (by rw [slot_setOn 8 (of_decide_eq_true (Eq.refl true))])
theorem sendPay_lit_8 (c : Dev nD) : (sendPay m ρ c 8 : sProp 𝕄) = ((aM : Memref sig .tc .vmem S8x256 .f32).view.loc (c : Thread nD τ) ↦[(aM : Memref sig .tc .vmem S8x256 .f32).view.set]{shr 8 (of_decide_eq_true (Eq.refl true))} accOf m ρ c) := sendPay_lit m ρ c 8 (of_decide_eq_true (Eq.refl true))
theorem recvPay_lit_9 (c : Dev nD) : (recvPay m ρ c 9 : sProp 𝕄) = ((rM : Memref sig .tc .vmem S16x8x256 .f32).view.loc (c : Thread nD τ) ↦[(rM : Memref sig .tc .vmem S16x8x256 .f32).view.setOn (slotR 9 (of_decide_eq_true (Eq.refl true))).toLoadRect.set]{fullShare} landed m ρ c 9) :=
  (recvPay_lit m ρ c 9 (of_decide_eq_true (Eq.refl true))).trans (by rw [slot_setOn 9 (of_decide_eq_true (Eq.refl true))])
theorem sendPay_lit_9 (c : Dev nD) : (sendPay m ρ c 9 : sProp 𝕄) = ((aM : Memref sig .tc .vmem S8x256 .f32).view.loc (c : Thread nD τ) ↦[(aM : Memref sig .tc .vmem S8x256 .f32).view.set]{shr 9 (of_decide_eq_true (Eq.refl true))} accOf m ρ c) := sendPay_lit m ρ c 9 (of_decide_eq_true (Eq.refl true))
theorem recvPay_lit_10 (c : Dev nD) : (recvPay m ρ c 10 : sProp 𝕄) = ((rM : Memref sig .tc .vmem S16x8x256 .f32).view.loc (c : Thread nD τ) ↦[(rM : Memref sig .tc .vmem S16x8x256 .f32).view.setOn (slotR 10 (of_decide_eq_true (Eq.refl true))).toLoadRect.set]{fullShare} landed m ρ c 10) :=
  (recvPay_lit m ρ c 10 (of_decide_eq_true (Eq.refl true))).trans (by rw [slot_setOn 10 (of_decide_eq_true (Eq.refl true))])
theorem sendPay_lit_10 (c : Dev nD) : (sendPay m ρ c 10 : sProp 𝕄) = ((aM : Memref sig .tc .vmem S8x256 .f32).view.loc (c : Thread nD τ) ↦[(aM : Memref sig .tc .vmem S8x256 .f32).view.set]{shr 10 (of_decide_eq_true (Eq.refl true))} accOf m ρ c) := sendPay_lit m ρ c 10 (of_decide_eq_true (Eq.refl true))
theorem recvPay_lit_11 (c : Dev nD) : (recvPay m ρ c 11 : sProp 𝕄) = ((rM : Memref sig .tc .vmem S16x8x256 .f32).view.loc (c : Thread nD τ) ↦[(rM : Memref sig .tc .vmem S16x8x256 .f32).view.setOn (slotR 11 (of_decide_eq_true (Eq.refl true))).toLoadRect.set]{fullShare} landed m ρ c 11) :=
  (recvPay_lit m ρ c 11 (of_decide_eq_true (Eq.refl true))).trans (by rw [slot_setOn 11 (of_decide_eq_true (Eq.refl true))])
theorem sendPay_lit_11 (c : Dev nD) : (sendPay m ρ c 11 : sProp 𝕄) = ((aM : Memref sig .tc .vmem S8x256 .f32).view.loc (c : Thread nD τ) ↦[(aM : Memref sig .tc .vmem S8x256 .f32).view.set]{shr 11 (of_decide_eq_true (Eq.refl true))} accOf m ρ c) := sendPay_lit m ρ c 11 (of_decide_eq_true (Eq.refl true))
theorem recvPay_lit_12 (c : Dev nD) : (recvPay m ρ c 12 : sProp 𝕄) = ((rM : Memref sig .tc .vmem S16x8x256 .f32).view.loc (c : Thread nD τ) ↦[(rM : Memref sig .tc .vmem S16x8x256 .f32).view.setOn (slotR 12 (of_decide_eq_true (Eq.refl true))).toLoadRect.set]{fullShare} landed m ρ c 12) :=
  (recvPay_lit m ρ c 12 (of_decide_eq_true (Eq.refl true))).trans (by rw [slot_setOn 12 (of_decide_eq_true (Eq.refl true))])
theorem sendPay_lit_12 (c : Dev nD) : (sendPay m ρ c 12 : sProp 𝕄) = ((aM : Memref sig .tc .vmem S8x256 .f32).view.loc (c : Thread nD τ) ↦[(aM : Memref sig .tc .vmem S8x256 .f32).view.set]{shr 12 (of_decide_eq_true (Eq.refl true))} accOf m ρ c) := sendPay_lit m ρ c 12 (of_decide_eq_true (Eq.refl true))
theorem recvPay_lit_13 (c : Dev nD) : (recvPay m ρ c 13 : sProp 𝕄) = ((rM : Memref sig .tc .vmem S16x8x256 .f32).view.loc (c : Thread nD τ) ↦[(rM : Memref sig .tc .vmem S16x8x256 .f32).view.setOn (slotR 13 (of_decide_eq_true (Eq.refl true))).toLoadRect.set]{fullShare} landed m ρ c 13) :=
  (recvPay_lit m ρ c 13 (of_decide_eq_true (Eq.refl true))).trans (by rw [slot_setOn 13 (of_decide_eq_true (Eq.refl true))])
theorem sendPay_lit_13 (c : Dev nD) : (sendPay m ρ c 13 : sProp 𝕄) = ((aM : Memref sig .tc .vmem S8x256 .f32).view.loc (c : Thread nD τ) ↦[(aM : Memref sig .tc .vmem S8x256 .f32).view.set]{shr 13 (of_decide_eq_true (Eq.refl true))} accOf m ρ c) := sendPay_lit m ρ c 13 (of_decide_eq_true (Eq.refl true))
theorem recvPay_lit_14 (c : Dev nD) : (recvPay m ρ c 14 : sProp 𝕄) = ((rM : Memref sig .tc .vmem S16x8x256 .f32).view.loc (c : Thread nD τ) ↦[(rM : Memref sig .tc .vmem S16x8x256 .f32).view.setOn (slotR 14 (of_decide_eq_true (Eq.refl true))).toLoadRect.set]{fullShare} landed m ρ c 14) :=
  (recvPay_lit m ρ c 14 (of_decide_eq_true (Eq.refl true))).trans (by rw [slot_setOn 14 (of_decide_eq_true (Eq.refl true))])
theorem sendPay_lit_14 (c : Dev nD) : (sendPay m ρ c 14 : sProp 𝕄) = ((aM : Memref sig .tc .vmem S8x256 .f32).view.loc (c : Thread nD τ) ↦[(aM : Memref sig .tc .vmem S8x256 .f32).view.set]{shr 14 (of_decide_eq_true (Eq.refl true))} accOf m ρ c) := sendPay_lit m ρ c 14 (of_decide_eq_true (Eq.refl true))
theorem recvPay_lit_15 (c : Dev nD) : (recvPay m ρ c 15 : sProp 𝕄) = ((rM : Memref sig .tc .vmem S16x8x256 .f32).view.loc (c : Thread nD τ) ↦[(rM : Memref sig .tc .vmem S16x8x256 .f32).view.setOn (slotR 15 (of_decide_eq_true (Eq.refl true))).toLoadRect.set]{fullShare} landed m ρ c 15) :=
  (recvPay_lit m ρ c 15 (of_decide_eq_true (Eq.refl true))).trans (by rw [slot_setOn 15 (of_decide_eq_true (Eq.refl true))])
theorem sendPay_lit_15 (c : Dev nD) : (sendPay m ρ c 15 : sProp 𝕄) = ((aM : Memref sig .tc .vmem S8x256 .f32).view.loc (c : Thread nD τ) ↦[(aM : Memref sig .tc .vmem S8x256 .f32).view.set]{shr 15 (of_decide_eq_true (Eq.refl true))} accOf m ρ c) := sendPay_lit m ρ c 15 (of_decide_eq_true (Eq.refl true))

attribute [local sl_rounds] recvPay_lit_1 sendPay_lit_1 recvPay_lit_2 sendPay_lit_2 recvPay_lit_3 sendPay_lit_3 recvPay_lit_4 sendPay_lit_4 recvPay_lit_5 sendPay_lit_5 recvPay_lit_6 sendPay_lit_6 recvPay_lit_7 sendPay_lit_7 recvPay_lit_8 sendPay_lit_8 recvPay_lit_9 sendPay_lit_9 recvPay_lit_10 sendPay_lit_10 recvPay_lit_11 sendPay_lit_11 recvPay_lit_12 sendPay_lit_12 recvPay_lit_13 sendPay_lit_13 recvPay_lit_14 sendPay_lit_14 recvPay_lit_15 sendPay_lit_15

/-! ### The protocol's four kinds of step, at offset k -/

/-- Copy k: `acc`, held at the share lent to this copy, into slot k of the device k places on, paying the one duty of
    this device's send cell k (its payload: that share) and the one duty of the target's receive cell k (its payload:
    the slot filled with this device's moments). -/
theorem wp_send_k (c n : Dev nD) (k : ℕ) (hk : k < 16) (h0 : 0 < k) (hn : n = peer c k)
    {hsc : (slotM k hk : Memref sig (Dev.tc n : Thread nD τ).2.kind .vmem S8x256 .f32).view.ref.isScScratch = false}
    {hsrc : (aM : Memref sig .tc .vmem S8x256 .f32).view.WordExact} {hdst : (slotM k hk).view.WordExact}
    {hsem : DmaTarget.Typed .vmem (.dma (recvS k hk)) (.remote (Dev.tc n : Thread nD τ) (slotM k hk) (.dma (sendS k hk)) hsc)}
    {α : Type} {Q : α → sProp 𝕄} {kont : PUnit → Prog (TpuEff nD τ sig (Elt F) Λ₀ .tc) α}
    (fn : Buf (Elt F) ((slotM k hk).view.loc (peer c k : Thread nD τ))) (W : Waits sig Unit) (O : CellTallies nD τ sig Unit) :
    iprop(cellInv ER (sched m ρ) (kS K c k hk) (sendCell c k hk) ∗ cellInv ER (sched m ρ) (kR K (peer c k) k hk) (recvCell (peer c k) k hk)
        ∗ accPts c (shr k hk) (accOf m ρ c) ∗ slotPts (peer c k) k hk fn
        ∗ owes (c : Thread nD τ) (O + tallyAt (recvCell (peer c k) k hk) () N) W
        ∗ dutyTok ER (sendCell c k hk) 0 0 ∗ reached ER (sendCell c k hk) 0
        ∗ dutyTok ER (recvCell (peer c k) k hk) 0 0 ∗ reached ER (recvCell (peer c k) k hk) 0)
      ⊢ iprop(((cred (tallyAt (sendCell c k hk) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma aM (.remote (Dev.tc n : Thread nD τ) (slotM k hk) (.dma (sendS k hk)) hsc) (.dma (recvS k hk)) hsrc hdst hsem) kont) Q) := by
  subst hn
  unfold accPts slotPts
  exact Rounds.wp_send_pointsTo 𝒱₀ ER (sched m ρ) (c : Thread nD τ) none (κ₁ := kS K c k hk) (κ₂ := kR K (peer c k) k hk)
    (r₁ := 0) (r₂ := 0) (d₁ := 0) (d₂ := 0) (fd := fn) (q := shr k hk) (fs := accOf m ρ c)
    (src := aM) (dst := slotM k hk) (c' := (peer c k : Thread nD τ))
    (by rw [duties_send m ρ c k hk h0]; exact Finset.mem_singleton_self _)
    (by rw [duties_recv m ρ (peer c k) k hk h0]; exact Finset.mem_singleton_self _)
    () () N rfl (amount_send m ρ c k hk 0) (amount_recv m ρ (peer c k) k hk 0) O rfl (W := W)
    (by rw [payload_send m ρ c k hk h0, sendPay_eq m ρ c k hk]; exact BI.Entails.refl _)
    (by
      rw [payload_recv m ρ (peer c k) k hk h0, recvPay_eq m ρ (peer c k) k hk]
      have h := landed_slot m ρ (peer c k) k hk fn
      rw [back_peer c k] at h
      exact Entails.of_eq h)

/-- The hypotheses the four staged inputs arrive with: each buffer holds its block as launched. -/
theorem before_in (c : Dev nD) (w : Fin 5) (hw : (cfg0.win w).fetch t₀ = true) (d) :
    (dats m ρ 0 c).before w t₀ d = (dats m ρ 0 c).fetched w t₀ d := by
  unfold Dat.before; rw [if_pos hw]

/-- Signal k: one unit to the barrier cell of the device k places on, paying its duty k; handed over: this device's
    slot (16 − k), over whatever it holds, and that the slot's receive cell is open. -/
theorem wp_sig_k (c n : Dev nD) (k : ℕ) (hk : k < 16) (h0 : 0 < k) (hn : n = peer c k)
    {α : Type} {Q : α → sProp 𝕄} {kont : PUnit → Prog (TpuEff nD τ sig (Elt F) Λ₀ .tc) α}
    (f : Buf (Elt F) ((slotM (16 - k) (sub_lt16 k h0)).view.loc (c : Thread nD τ))) (W : Waits sig Unit) (O : CellTallies nD τ sig Unit) :
    iprop(cellInv ER (sched m ρ) (kB K (peer c k)) (barCell (peer c k))
        ∗ owes (c : Thread nD τ) (O + tallyAt (barCell (peer c k)) () 1) W
        ∗ dutyTok ER (barCell (peer c k)) 0 ⟨k, hk⟩
        ∗ slotPts c (16 - k) (sub_lt16 k h0) f ∗ reached ER (recvCell c (16 - k) (sub_lt16 k h0)) 0
        ∗ reached ER (barCell (peer c k)) 0)
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (n : Thread nD τ) barS 1) kont) Q) := by
  subst hn
  iintro ⟨#HI, HO, Ht, Hs, #Hr, #Hrb⟩
  iapply (Rounds.wp_signal 𝒱₀ ER (sched m ρ) (c : Thread nD τ) none (dst := (peer c k : Thread nD τ)) (κ := kB K (peer c k))
      (d := (⟨k, hk⟩ : Fin 16)) (by rw [duties_bar]; exact Finset.mem_erase.mpr ⟨fun h => by have := congrArg Fin.val h; simp at this; omega, Finset.mem_univ _⟩)
      (amount_bar m ρ (peer c k) ⟨k, hk⟩) () O rfl)
  isplitr; · iexact HI
  isplitl [HO]; · iexact HO
  isplitl [Ht]; · iexact Ht
  isplitl [Hs]
  · rw [payload_bar m ρ (peer c k) ⟨k, hk⟩ (fun h => by have := congrArg Fin.val h; simp at this; omega), barPay_out c k hk h0]
    isplitl [Hs]; · iexists f; iexact Hs
    iexact Hr
  · iexact Hrb

/-- The wait on receive cell k, owing nothing: slot k comes back holding the moments of the device k places back. -/
theorem wp_recvwait_k (c : Dev nD) (k : ℕ) (hk : k < 16) (h0 : 0 < k)
    {hsrc : (aM : Memref sig .tc .vmem S8x256 .f32).view.WordExact} {hdst : (slotM k hk).view.WordExact}
    {α : Type} {Q : α → sProp 𝕄} {kont : PUnit → Prog (TpuEff nD τ sig (Elt F) Λ₀ .tc) α} (W : Waits sig Unit) :
    iprop(cellInv ER (sched m ρ) (kR K c k hk) (recvCell c k hk) ∗ cred (tallyAt (recvCell c k hk) () N)
        ∗ owes (c : Thread nD τ) 0 W ∗ atPos ER (recvCell c k hk) 0 ∅ 0)
      ⊢ iprop(((owes (c : Thread nD τ) 0 (insert (SemLoc.dma (recvS k hk), ()) W) ∗ atPos ER (recvCell c k hk) 1 ∅ 0 ∗ slotPts c k hk (landed m ρ c k))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS k hk) aM (slotM k hk) hsrc hdst) kont) Q) := by
  iintro ⟨#HI, Hc, HO, Hat⟩ Hk
  iapply (Rounds.wp_wait_rest_token 𝒱₀ ER (sched m ρ) (c : Thread nD τ) none (κ := kR K c k hk)
      (wpE_waitDma2_eq 𝒱₀ (c : Thread nD τ) none Set.univ) (Set.mem_univ _) () (O := 0) (W := W) (R := 0) (m := 0) (T := ∅)
      (by rw [Nat.zero_add, expect_recv m ρ c k hk h0])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_recv m ρ c k hk h0).trans (recvPay_eq m ρ c k hk))) $$ Hpay
  iapply Hk
  isplitl [HO]; · iexact HO
  isplitl [Hat]; · iexact Hat
  iexact Hp

/-- The wait on send cell k, owing nothing: the share of `acc` lent to copy k comes back. -/
theorem wp_sendwait_k (c : Dev nD) (k : ℕ) (hk : k < 16) (h0 : 0 < k)
    {hsrc : (slotM k hk).view.WordExact} {hdst : (aM : Memref sig .tc .vmem S8x256 .f32).view.WordExact}
    {α : Type} {Q : α → sProp 𝕄} {kont : PUnit → Prog (TpuEff nD τ sig (Elt F) Λ₀ .tc) α} (W : Waits sig Unit) :
    iprop(cellInv ER (sched m ρ) (kS K c k hk) (sendCell c k hk) ∗ cred (tallyAt (sendCell c k hk) () N)
        ∗ owes (c : Thread nD τ) 0 W ∗ atPos ER (sendCell c k hk) 0 ∅ 0)
      ⊢ iprop(((owes (c : Thread nD τ) 0 (insert (SemLoc.dma (sendS k hk), ()) W) ∗ atPos ER (sendCell c k hk) 1 ∅ 0 ∗ accPts c (shr k hk) (accOf m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS k hk) (slotM k hk) aM hsrc hdst) kont) Q) := by
  iintro ⟨#HI, Hc, HO, Hat⟩ Hk
  iapply (Rounds.wp_wait_rest_token 𝒱₀ ER (sched m ρ) (c : Thread nD τ) none (κ := kS K c k hk)
      (wpE_waitDma2_eq 𝒱₀ (c : Thread nD τ) none Set.univ) (Set.mem_univ _) () (O := 0) (W := W) (R := 0) (m := 0) (T := ∅)
      (by rw [Nat.zero_add, expect_send m ρ c k hk h0])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq ((rest_send m ρ c k hk h0).trans (sendPay_eq m ρ c k hk))) $$ Hpay
  iapply Hk
  isplitl [HO]; · iexact HO
  isplitl [Hat]; · iexact Hat
  iexact Hp

set_option maxHeartbeats 16000000 in
set_option maxRecDepth 65536 in
/-- The body, from `bodyPre` to `bodyPost` (under an update: the thirty cells are closed at the end). -/
theorem sound_body (c : Dev nD) :
    bodyPre m ρ K c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3)
          (fun _ => iprop(|={Set.univ}[frame]=> bodyPost m ρ c)) := by
  unfold bodyPre ghost ghostK scr recvCreds
  iintro ⟨⟨⟨#HIbar, HatB, ⟨#HIs1, #HIr1, #HIbp1, #HIrp1, HatS1, HatR1, #HrBp1, #HrRp1, #HrS1, #HrR1, HtB1, HtRp1, HtS1⟩, ⟨#HIs2, #HIr2, #HIbp2, #HIrp2, HatS2, HatR2, #HrBp2, #HrRp2, #HrS2, #HrR2, HtB2, HtRp2, HtS2⟩, ⟨#HIs3, #HIr3, #HIbp3, #HIrp3, HatS3, HatR3, #HrBp3, #HrRp3, #HrS3, #HrR3, HtB3, HtRp3, HtS3⟩, ⟨#HIs4, #HIr4, #HIbp4, #HIrp4, HatS4, HatR4, #HrBp4, #HrRp4, #HrS4, #HrR4, HtB4, HtRp4, HtS4⟩, ⟨#HIs5, #HIr5, #HIbp5, #HIrp5, HatS5, HatR5, #HrBp5, #HrRp5, #HrS5, #HrR5, HtB5, HtRp5, HtS5⟩, ⟨#HIs6, #HIr6, #HIbp6, #HIrp6, HatS6, HatR6, #HrBp6, #HrRp6, #HrS6, #HrR6, HtB6, HtRp6, HtS6⟩, ⟨#HIs7, #HIr7, #HIbp7, #HIrp7, HatS7, HatR7, #HrBp7, #HrRp7, #HrS7, #HrR7, HtB7, HtRp7, HtS7⟩, ⟨#HIs8, #HIr8, #HIbp8, #HIrp8, HatS8, HatR8, #HrBp8, #HrRp8, #HrS8, #HrR8, HtB8, HtRp8, HtS8⟩, ⟨#HIs9, #HIr9, #HIbp9, #HIrp9, HatS9, HatR9, #HrBp9, #HrRp9, #HrS9, #HrR9, HtB9, HtRp9, HtS9⟩, ⟨#HIs10, #HIr10, #HIbp10, #HIrp10, HatS10, HatR10, #HrBp10, #HrRp10, #HrS10, #HrR10, HtB10, HtRp10, HtS10⟩, ⟨#HIs11, #HIr11, #HIbp11, #HIrp11, HatS11, HatR11, #HrBp11, #HrRp11, #HrS11, #HrR11, HtB11, HtRp11, HtS11⟩, ⟨#HIs12, #HIr12, #HIbp12, #HIrp12, HatS12, HatR12, #HrBp12, #HrRp12, #HrS12, #HrR12, HtB12, HtRp12, HtS12⟩, ⟨#HIs13, #HIr13, #HIbp13, #HIrp13, HatS13, HatR13, #HrBp13, #HrRp13, #HrS13, #HrR13, HtB13, HtRp13, HtS13⟩, ⟨#HIs14, #HIr14, #HIbp14, #HIrp14, HatS14, HatR14, #HrBp14, #HrRp14, #HrS14, #HrR14, HtB14, HtRp14, HtS14⟩, ⟨#HIs15, #HIr15, #HIbp15, #HIrp15, HatS15, HatR15, #HrBp15, #HrRp15, #HrS15, #HrR15, HtB15, HtRp15, HtS15⟩⟩, HcB, ⟨Hcr1, Hcr2, Hcr3, Hcr4, Hcr5, Hcr6, Hcr7, Hcr8, Hcr9, Hcr10, Hcr11, Hcr12, Hcr13, Hcr14, Hcr15⟩, #Hlev, ⟨⟨%fa, Hacc⟩, ⟨%fr, Hrecv⟩⟩, Hs0, Hr0⟩, Ho, ⟨%d0, %g0, %hg0, Hx⟩, ⟨%d1, %g1, %hg1, Ht⟩, ⟨%d2, %g2, %hg2, Hws⟩, ⟨%d3, %g3, %hg3, Hwh⟩, ⟨%d4, %g4, %hg4, Hout⟩⟩
  have hx : g0 = xstg m ρ c := by rw [hg0]; unfold Dat.before; rw [if_pos (by rfl)]; rfl
  have ht : g1 = tstg m ρ c := by rw [hg1]; unfold Dat.before; rw [if_pos (by rfl)]; rfl
  have hws : g2 = wsstg m ρ c := by rw [hg2]; unfold Dat.before; rw [if_pos (by rfl)]; rfl
  have hwh : g3 = whstg m ρ c := by rw [hg3]; unfold Dat.before; rw [if_pos (by rfl)]; rfl
  subst hx ht hws hwh
  ihave Hxv := (Entails.of_eq (xPts_eq c _).symm) $$ Hx
  ihave Htv := (Entails.of_eq (tPts_eq c _).symm) $$ Ht
  ihave Hwsv := (Entails.of_eq (wsPts_eq c _).symm) $$ Hws
  ihave Hwhv := (Entails.of_eq (whPts_eq c _).symm) $$ Hwh
  ihave Houtv := (Entails.of_eq (oPts_eq c g4).symm) $$ Hout
  ihave Haccv := (Entails.of_eq (acc_whole_eq c fullShare fa).symm) $$ Hacc
  ihave Hsl := (recv_split_rev c fr).1 $$ Hrecv
  icases Hsl with ⟨Hsl15, Hsl14, Hsl13, Hsl12, Hsl11, Hsl10, Hsl9, Hsl8, Hsl7, Hsl6, Hsl5, Hsl4, Hsl3, Hsl2, Hsl1, Hsl0⟩
  unfold xPts tPts wsPts whPts oPts accPts slotPts
  unfold Dat.owesAt Pipeline.owesWithin
  icases Ho with ⟨%W, %hW, HO⟩
  rw [show (dats m ρ 0 c).owed t₀.castSucc = O₀ c from rfl]
  have hOexp : O₀ c = (0 : CellTallies nD τ sig Unit) + tallyAt (recvCell (peer c 15) 15 (of_decide_eq_true (Eq.refl true))) () N + tallyAt (recvCell (peer c 14) 14 (of_decide_eq_true (Eq.refl true))) () N + tallyAt (recvCell (peer c 13) 13 (of_decide_eq_true (Eq.refl true))) () N + tallyAt (recvCell (peer c 12) 12 (of_decide_eq_true (Eq.refl true))) () N + tallyAt (recvCell (peer c 11) 11 (of_decide_eq_true (Eq.refl true))) () N + tallyAt (recvCell (peer c 10) 10 (of_decide_eq_true (Eq.refl true))) () N + tallyAt (recvCell (peer c 9) 9 (of_decide_eq_true (Eq.refl true))) () N + tallyAt (recvCell (peer c 8) 8 (of_decide_eq_true (Eq.refl true))) () N + tallyAt (recvCell (peer c 7) 7 (of_decide_eq_true (Eq.refl true))) () N + tallyAt (recvCell (peer c 6) 6 (of_decide_eq_true (Eq.refl true))) () N + tallyAt (recvCell (peer c 5) 5 (of_decide_eq_true (Eq.refl true))) () N + tallyAt (recvCell (peer c 4) 4 (of_decide_eq_true (Eq.refl true))) () N + tallyAt (recvCell (peer c 3) 3 (of_decide_eq_true (Eq.refl true))) () N + tallyAt (recvCell (peer c 2) 2 (of_decide_eq_true (Eq.refl true))) () N + tallyAt (recvCell (peer c 1) 1 (of_decide_eq_true (Eq.refl true))) () N + tallyAt (barCell (peer c 15)) () 1 + tallyAt (barCell (peer c 14)) () 1 + tallyAt (barCell (peer c 13)) () 1 + tallyAt (barCell (peer c 12)) () 1 + tallyAt (barCell (peer c 11)) () 1 + tallyAt (barCell (peer c 10)) () 1 + tallyAt (barCell (peer c 9)) () 1 + tallyAt (barCell (peer c 8)) () 1 + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 := rfl
  rw [hOexp]
  have hmwBar : (levAts L lv : sProp 𝕄) ⊢ MayWait (c : Thread nD τ) (.reg barS) () ((0 : CellTallies nD τ sig Unit) + tallyAt (recvCell (peer c 15) 15 (of_decide_eq_true (Eq.refl true))) () N + tallyAt (recvCell (peer c 14) 14 (of_decide_eq_true (Eq.refl true))) () N + tallyAt (recvCell (peer c 13) 13 (of_decide_eq_true (Eq.refl true))) () N + tallyAt (recvCell (peer c 12) 12 (of_decide_eq_true (Eq.refl true))) () N + tallyAt (recvCell (peer c 11) 11 (of_decide_eq_true (Eq.refl true))) () N + tallyAt (recvCell (peer c 10) 10 (of_decide_eq_true (Eq.refl true))) () N + tallyAt (recvCell (peer c 9) 9 (of_decide_eq_true (Eq.refl true))) () N + tallyAt (recvCell (peer c 8) 8 (of_decide_eq_true (Eq.refl true))) () N + tallyAt (recvCell (peer c 7) 7 (of_decide_eq_true (Eq.refl true))) () N + tallyAt (recvCell (peer c 6) 6 (of_decide_eq_true (Eq.refl true))) () N + tallyAt (recvCell (peer c 5) 5 (of_decide_eq_true (Eq.refl true))) () N + tallyAt (recvCell (peer c 4) 4 (of_decide_eq_true (Eq.refl true))) () N + tallyAt (recvCell (peer c 3) 3 (of_decide_eq_true (Eq.refl true))) () N + tallyAt (recvCell (peer c 2) 2 (of_decide_eq_true (Eq.refl true))) () N + tallyAt (recvCell (peer c 1) 1 (of_decide_eq_true (Eq.refl true))) () N) := mayWait_bar c
  have hsubC1 : (rM : Memref sig .tc .vmem S16x8x256 .f32).view.setOn (slotR 1 (of_decide_eq_true (Eq.refl true))).toLoadRect.set ⊆ (rM : Memref sig .tc .vmem S16x8x256 .f32).view.setOn (slotR 1 (of_decide_eq_true (Eq.refl true))).toLoadRect.set := Finset.Subset.refl _
  have hsubC2 : (rM : Memref sig .tc .vmem S16x8x256 .f32).view.setOn (slotR 2 (of_decide_eq_true (Eq.refl true))).toLoadRect.set ⊆ (rM : Memref sig .tc .vmem S16x8x256 .f32).view.setOn (slotR 2 (of_decide_eq_true (Eq.refl true))).toLoadRect.set := Finset.Subset.refl _
  have hsubC3 : (rM : Memref sig .tc .vmem S16x8x256 .f32).view.setOn (slotR 3 (of_decide_eq_true (Eq.refl true))).toLoadRect.set ⊆ (rM : Memref sig .tc .vmem S16x8x256 .f32).view.setOn (slotR 3 (of_decide_eq_true (Eq.refl true))).toLoadRect.set := Finset.Subset.refl _
  have hsubC4 : (rM : Memref sig .tc .vmem S16x8x256 .f32).view.setOn (slotR 4 (of_decide_eq_true (Eq.refl true))).toLoadRect.set ⊆ (rM : Memref sig .tc .vmem S16x8x256 .f32).view.setOn (slotR 4 (of_decide_eq_true (Eq.refl true))).toLoadRect.set := Finset.Subset.refl _
  have hsubC5 : (rM : Memref sig .tc .vmem S16x8x256 .f32).view.setOn (slotR 5 (of_decide_eq_true (Eq.refl true))).toLoadRect.set ⊆ (rM : Memref sig .tc .vmem S16x8x256 .f32).view.setOn (slotR 5 (of_decide_eq_true (Eq.refl true))).toLoadRect.set := Finset.Subset.refl _
  have hsubC6 : (rM : Memref sig .tc .vmem S16x8x256 .f32).view.setOn (slotR 6 (of_decide_eq_true (Eq.refl true))).toLoadRect.set ⊆ (rM : Memref sig .tc .vmem S16x8x256 .f32).view.setOn (slotR 6 (of_decide_eq_true (Eq.refl true))).toLoadRect.set := Finset.Subset.refl _
  have hsubC7 : (rM : Memref sig .tc .vmem S16x8x256 .f32).view.setOn (slotR 7 (of_decide_eq_true (Eq.refl true))).toLoadRect.set ⊆ (rM : Memref sig .tc .vmem S16x8x256 .f32).view.setOn (slotR 7 (of_decide_eq_true (Eq.refl true))).toLoadRect.set := Finset.Subset.refl _
  have hsubC8 : (rM : Memref sig .tc .vmem S16x8x256 .f32).view.setOn (slotR 8 (of_decide_eq_true (Eq.refl true))).toLoadRect.set ⊆ (rM : Memref sig .tc .vmem S16x8x256 .f32).view.setOn (slotR 8 (of_decide_eq_true (Eq.refl true))).toLoadRect.set := Finset.Subset.refl _
  have hsubC9 : (rM : Memref sig .tc .vmem S16x8x256 .f32).view.setOn (slotR 9 (of_decide_eq_true (Eq.refl true))).toLoadRect.set ⊆ (rM : Memref sig .tc .vmem S16x8x256 .f32).view.setOn (slotR 9 (of_decide_eq_true (Eq.refl true))).toLoadRect.set := Finset.Subset.refl _
  have hsubC10 : (rM : Memref sig .tc .vmem S16x8x256 .f32).view.setOn (slotR 10 (of_decide_eq_true (Eq.refl true))).toLoadRect.set ⊆ (rM : Memref sig .tc .vmem S16x8x256 .f32).view.setOn (slotR 10 (of_decide_eq_true (Eq.refl true))).toLoadRect.set := Finset.Subset.refl _
  have hsubC11 : (rM : Memref sig .tc .vmem S16x8x256 .f32).view.setOn (slotR 11 (of_decide_eq_true (Eq.refl true))).toLoadRect.set ⊆ (rM : Memref sig .tc .vmem S16x8x256 .f32).view.setOn (slotR 11 (of_decide_eq_true (Eq.refl true))).toLoadRect.set := Finset.Subset.refl _
  have hsubC12 : (rM : Memref sig .tc .vmem S16x8x256 .f32).view.setOn (slotR 12 (of_decide_eq_true (Eq.refl true))).toLoadRect.set ⊆ (rM : Memref sig .tc .vmem S16x8x256 .f32).view.setOn (slotR 12 (of_decide_eq_true (Eq.refl true))).toLoadRect.set := Finset.Subset.refl _
  have hsubC13 : (rM : Memref sig .tc .vmem S16x8x256 .f32).view.setOn (slotR 13 (of_decide_eq_true (Eq.refl true))).toLoadRect.set ⊆ (rM : Memref sig .tc .vmem S16x8x256 .f32).view.setOn (slotR 13 (of_decide_eq_true (Eq.refl true))).toLoadRect.set := Finset.Subset.refl _
  have hsubC14 : (rM : Memref sig .tc .vmem S16x8x256 .f32).view.setOn (slotR 14 (of_decide_eq_true (Eq.refl true))).toLoadRect.set ⊆ (rM : Memref sig .tc .vmem S16x8x256 .f32).view.setOn (slotR 14 (of_decide_eq_true (Eq.refl true))).toLoadRect.set := Finset.Subset.refl _
  have hsubC15 : (rM : Memref sig .tc .vmem S16x8x256 .f32).view.setOn (slotR 15 (of_decide_eq_true (Eq.refl true))).toLoadRect.set ⊆ (rM : Memref sig .tc .vmem S16x8x256 .f32).view.setOn (slotR 15 (of_decide_eq_true (Eq.refl true))).toLoadRect.set := Finset.Subset.refl _
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  -- the moments just stored are this device's
  have hacc : (aM : Memref sig .tc .vmem S8x256 .f32).view.writes (Elt F) fa (sound_body.sl.Haccv_1 m ρ c) = accOf m ρ c := by
    unfold sound_body.sl.Haccv_1
    rw [View.writes_singleton]
    refine (Memref.write_access_unit_zero_univ (Elt F) cc0_scratch0 hz2 _ _ _).trans ?_
    unfold accOf
    exact congrArg k0_pay2 (Memref.readAt_unit_zero (Elt F) cc0_stg0_0 hz3 _ _)
  rw [hacc]
  ihave Hsh := (show ((aM : Memref sig .tc .vmem S8x256 .f32).view.loc (c : Thread nD τ) ↦[(aM : Memref sig .tc .vmem S8x256 .f32).view.set]{fullShare} accOf m ρ c : sProp 𝕄) ⊢ _ from acc_split c (accOf m ρ c)) $$ Haccv
  icases Hsh with ⟨Hkeep, Hq0, Hq1, Hq2, Hq3, Hq4, Hq5, Hq6, Hq7, Hq8, Hq9, Hq10, Hq11, Hq12, Hq13, Hq14, Hq15⟩
  ihave Hbi1 := (Entails.of_eq (barPay_in_1 c)) $$ HatB_pay15
  icases Hbi1 with ⟨⟨%fp1, Hps1⟩, -⟩
  ihave Hbi2 := (Entails.of_eq (barPay_in_2 c)) $$ HatB_pay14
  icases Hbi2 with ⟨⟨%fp2, Hps2⟩, -⟩
  ihave Hbi3 := (Entails.of_eq (barPay_in_3 c)) $$ HatB_pay13
  icases Hbi3 with ⟨⟨%fp3, Hps3⟩, -⟩
  ihave Hbi4 := (Entails.of_eq (barPay_in_4 c)) $$ HatB_pay12
  icases Hbi4 with ⟨⟨%fp4, Hps4⟩, -⟩
  ihave Hbi5 := (Entails.of_eq (barPay_in_5 c)) $$ HatB_pay11
  icases Hbi5 with ⟨⟨%fp5, Hps5⟩, -⟩
  ihave Hbi6 := (Entails.of_eq (barPay_in_6 c)) $$ HatB_pay10
  icases Hbi6 with ⟨⟨%fp6, Hps6⟩, -⟩
  ihave Hbi7 := (Entails.of_eq (barPay_in_7 c)) $$ HatB_pay9
  icases Hbi7 with ⟨⟨%fp7, Hps7⟩, -⟩
  ihave Hbi8 := (Entails.of_eq (barPay_in_8 c)) $$ HatB_pay8
  icases Hbi8 with ⟨⟨%fp8, Hps8⟩, -⟩
  ihave Hbi9 := (Entails.of_eq (barPay_in_9 c)) $$ HatB_pay7
  icases Hbi9 with ⟨⟨%fp9, Hps9⟩, -⟩
  ihave Hbi10 := (Entails.of_eq (barPay_in_10 c)) $$ HatB_pay6
  icases Hbi10 with ⟨⟨%fp10, Hps10⟩, -⟩
  ihave Hbi11 := (Entails.of_eq (barPay_in_11 c)) $$ HatB_pay5
  icases Hbi11 with ⟨⟨%fp11, Hps11⟩, -⟩
  ihave Hbi12 := (Entails.of_eq (barPay_in_12 c)) $$ HatB_pay4
  icases Hbi12 with ⟨⟨%fp12, Hps12⟩, -⟩
  ihave Hbi13 := (Entails.of_eq (barPay_in_13 c)) $$ HatB_pay3
  icases Hbi13 with ⟨⟨%fp13, Hps13⟩, -⟩
  ihave Hbi14 := (Entails.of_eq (barPay_in_14 c)) $$ HatB_pay2
  icases Hbi14 with ⟨⟨%fp14, Hps14⟩, -⟩
  ihave Hbi15 := (Entails.of_eq (barPay_in_15 c)) $$ HatB_pay1
  icases Hbi15 with ⟨⟨%fp15, Hps15⟩, -⟩
  iapply (wp_send_k m ρ K c _ 1 (of_decide_eq_true (Eq.refl true)) (by decide) rfl fp1 _ _) $$ [Hq1 Hps1 HO HtS1 HtRp1]
  · isplitr; · iexact HIs1
    isplitr; · iexact HIrp1
    isplitl [Hq1]; · iexact Hq1
    isplitl [Hps1]; · unfold slotPts; iexact Hps1
    isplitl [HO]; · iexact HO
    isplitl [HtS1]; · iexact HtS1
    isplitr; · iexact HrS1
    isplitl [HtRp1]; · iexact HtRp1
    iexact HrRp1
  iintro ⟨HcS1, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 2 (of_decide_eq_true (Eq.refl true)) (by decide) rfl fp2 _ _) $$ [Hq2 Hps2 HO HtS2 HtRp2]
  · isplitr; · iexact HIs2
    isplitr; · iexact HIrp2
    isplitl [Hq2]; · iexact Hq2
    isplitl [Hps2]; · unfold slotPts; iexact Hps2
    isplitl [HO]; · iexact HO
    isplitl [HtS2]; · iexact HtS2
    isplitr; · iexact HrS2
    isplitl [HtRp2]; · iexact HtRp2
    iexact HrRp2
  iintro ⟨HcS2, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 3 (of_decide_eq_true (Eq.refl true)) (by decide) rfl fp3 _ _) $$ [Hq3 Hps3 HO HtS3 HtRp3]
  · isplitr; · iexact HIs3
    isplitr; · iexact HIrp3
    isplitl [Hq3]; · iexact Hq3
    isplitl [Hps3]; · unfold slotPts; iexact Hps3
    isplitl [HO]; · iexact HO
    isplitl [HtS3]; · iexact HtS3
    isplitr; · iexact HrS3
    isplitl [HtRp3]; · iexact HtRp3
    iexact HrRp3
  iintro ⟨HcS3, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 4 (of_decide_eq_true (Eq.refl true)) (by decide) rfl fp4 _ _) $$ [Hq4 Hps4 HO HtS4 HtRp4]
  · isplitr; · iexact HIs4
    isplitr; · iexact HIrp4
    isplitl [Hq4]; · iexact Hq4
    isplitl [Hps4]; · unfold slotPts; iexact Hps4
    isplitl [HO]; · iexact HO
    isplitl [HtS4]; · iexact HtS4
    isplitr; · iexact HrS4
    isplitl [HtRp4]; · iexact HtRp4
    iexact HrRp4
  iintro ⟨HcS4, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 5 (of_decide_eq_true (Eq.refl true)) (by decide) rfl fp5 _ _) $$ [Hq5 Hps5 HO HtS5 HtRp5]
  · isplitr; · iexact HIs5
    isplitr; · iexact HIrp5
    isplitl [Hq5]; · iexact Hq5
    isplitl [Hps5]; · unfold slotPts; iexact Hps5
    isplitl [HO]; · iexact HO
    isplitl [HtS5]; · iexact HtS5
    isplitr; · iexact HrS5
    isplitl [HtRp5]; · iexact HtRp5
    iexact HrRp5
  iintro ⟨HcS5, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 6 (of_decide_eq_true (Eq.refl true)) (by decide) rfl fp6 _ _) $$ [Hq6 Hps6 HO HtS6 HtRp6]
  · isplitr; · iexact HIs6
    isplitr; · iexact HIrp6
    isplitl [Hq6]; · iexact Hq6
    isplitl [Hps6]; · unfold slotPts; iexact Hps6
    isplitl [HO]; · iexact HO
    isplitl [HtS6]; · iexact HtS6
    isplitr; · iexact HrS6
    isplitl [HtRp6]; · iexact HtRp6
    iexact HrRp6
  iintro ⟨HcS6, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 7 (of_decide_eq_true (Eq.refl true)) (by decide) rfl fp7 _ _) $$ [Hq7 Hps7 HO HtS7 HtRp7]
  · isplitr; · iexact HIs7
    isplitr; · iexact HIrp7
    isplitl [Hq7]; · iexact Hq7
    isplitl [Hps7]; · unfold slotPts; iexact Hps7
    isplitl [HO]; · iexact HO
    isplitl [HtS7]; · iexact HtS7
    isplitr; · iexact HrS7
    isplitl [HtRp7]; · iexact HtRp7
    iexact HrRp7
  iintro ⟨HcS7, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 8 (of_decide_eq_true (Eq.refl true)) (by decide) rfl fp8 _ _) $$ [Hq8 Hps8 HO HtS8 HtRp8]
  · isplitr; · iexact HIs8
    isplitr; · iexact HIrp8
    isplitl [Hq8]; · iexact Hq8
    isplitl [Hps8]; · unfold slotPts; iexact Hps8
    isplitl [HO]; · iexact HO
    isplitl [HtS8]; · iexact HtS8
    isplitr; · iexact HrS8
    isplitl [HtRp8]; · iexact HtRp8
    iexact HrRp8
  iintro ⟨HcS8, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 9 (of_decide_eq_true (Eq.refl true)) (by decide) rfl fp9 _ _) $$ [Hq9 Hps9 HO HtS9 HtRp9]
  · isplitr; · iexact HIs9
    isplitr; · iexact HIrp9
    isplitl [Hq9]; · iexact Hq9
    isplitl [Hps9]; · unfold slotPts; iexact Hps9
    isplitl [HO]; · iexact HO
    isplitl [HtS9]; · iexact HtS9
    isplitr; · iexact HrS9
    isplitl [HtRp9]; · iexact HtRp9
    iexact HrRp9
  iintro ⟨HcS9, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 10 (of_decide_eq_true (Eq.refl true)) (by decide) rfl fp10 _ _) $$ [Hq10 Hps10 HO HtS10 HtRp10]
  · isplitr; · iexact HIs10
    isplitr; · iexact HIrp10
    isplitl [Hq10]; · iexact Hq10
    isplitl [Hps10]; · unfold slotPts; iexact Hps10
    isplitl [HO]; · iexact HO
    isplitl [HtS10]; · iexact HtS10
    isplitr; · iexact HrS10
    isplitl [HtRp10]; · iexact HtRp10
    iexact HrRp10
  iintro ⟨HcS10, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 11 (of_decide_eq_true (Eq.refl true)) (by decide) rfl fp11 _ _) $$ [Hq11 Hps11 HO HtS11 HtRp11]
  · isplitr; · iexact HIs11
    isplitr; · iexact HIrp11
    isplitl [Hq11]; · iexact Hq11
    isplitl [Hps11]; · unfold slotPts; iexact Hps11
    isplitl [HO]; · iexact HO
    isplitl [HtS11]; · iexact HtS11
    isplitr; · iexact HrS11
    isplitl [HtRp11]; · iexact HtRp11
    iexact HrRp11
  iintro ⟨HcS11, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 12 (of_decide_eq_true (Eq.refl true)) (by decide) rfl fp12 _ _) $$ [Hq12 Hps12 HO HtS12 HtRp12]
  · isplitr; · iexact HIs12
    isplitr; · iexact HIrp12
    isplitl [Hq12]; · iexact Hq12
    isplitl [Hps12]; · unfold slotPts; iexact Hps12
    isplitl [HO]; · iexact HO
    isplitl [HtS12]; · iexact HtS12
    isplitr; · iexact HrS12
    isplitl [HtRp12]; · iexact HtRp12
    iexact HrRp12
  iintro ⟨HcS12, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 13 (of_decide_eq_true (Eq.refl true)) (by decide) rfl fp13 _ _) $$ [Hq13 Hps13 HO HtS13 HtRp13]
  · isplitr; · iexact HIs13
    isplitr; · iexact HIrp13
    isplitl [Hq13]; · iexact Hq13
    isplitl [Hps13]; · unfold slotPts; iexact Hps13
    isplitl [HO]; · iexact HO
    isplitl [HtS13]; · iexact HtS13
    isplitr; · iexact HrS13
    isplitl [HtRp13]; · iexact HtRp13
    iexact HrRp13
  iintro ⟨HcS13, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 14 (of_decide_eq_true (Eq.refl true)) (by decide) rfl fp14 _ _) $$ [Hq14 Hps14 HO HtS14 HtRp14]
  · isplitr; · iexact HIs14
    isplitr; · iexact HIrp14
    isplitl [Hq14]; · iexact Hq14
    isplitl [Hps14]; · unfold slotPts; iexact Hps14
    isplitl [HO]; · iexact HO
    isplitl [HtS14]; · iexact HtS14
    isplitr; · iexact HrS14
    isplitl [HtRp14]; · iexact HtRp14
    iexact HrRp14
  iintro ⟨HcS14, HO⟩
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  iapply (wp_send_k m ρ K c _ 15 (of_decide_eq_true (Eq.refl true)) (by decide) rfl fp15 _ _) $$ [Hq15 Hps15 HO HtS15 HtRp15]
  · isplitr; · iexact HIs15
    isplitr; · iexact HIrp15
    isplitl [Hq15]; · iexact Hq15
    isplitl [Hps15]; · unfold slotPts; iexact Hps15
    isplitl [HO]; · iexact HO
    isplitl [HtS15]; · iexact HtS15
    isplitr; · iexact HrS15
    isplitl [HtRp15]; · iexact HtRp15
    iexact HrRp15
  iintro ⟨HcS15, HO⟩
  unfold accPts
  sl_exec_parts (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  -- the fifteen slots are read through the receive buffer's own memref, each under its rectangle
  iapply (wp_load 𝒱₀ (c : Thread nD τ) none Set.univ (m := rM) hsubC1) $$ HatR1_pay1; iintro HatR1_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC2) $$ HatR2_pay1; iintro HatR2_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC3) $$ HatR3_pay1; iintro HatR3_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC4) $$ HatR4_pay1; iintro HatR4_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC5) $$ HatR5_pay1; iintro HatR5_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC6) $$ HatR6_pay1; iintro HatR6_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC7) $$ HatR7_pay1; iintro HatR7_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC8) $$ HatR8_pay1; iintro HatR8_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC9) $$ HatR9_pay1; iintro HatR9_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC10) $$ HatR10_pay1; iintro HatR10_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC11) $$ HatR11_pay1; iintro HatR11_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC12) $$ HatR12_pay1; iintro HatR12_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC13) $$ HatR13_pay1; iintro HatR13_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC14) $$ HatR14_pay1; iintro HatR14_pay1
  first | rw [prog_ret_bind] | skip
  first | sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq]) | skip
  iapply (wp_load 𝒱₀ (c : Thread nD τ) none Set.univ (m := rM) hsubC15) $$ HatR15_pay1; iintro HatR15_pay1
  first | rw [prog_ret_bind] | skip
  sl_exec (disch := simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq])
  sl_unfold_words
  have htot : (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15))) = totOf m ρ c := by
    rw [read_a, read_landed m ρ c 1 (of_decide_eq_true (Eq.refl true)), read_landed m ρ c 2 (of_decide_eq_true (Eq.refl true)), read_landed m ρ c 3 (of_decide_eq_true (Eq.refl true)), read_landed m ρ c 4 (of_decide_eq_true (Eq.refl true)), read_landed m ρ c 5 (of_decide_eq_true (Eq.refl true)), read_landed m ρ c 6 (of_decide_eq_true (Eq.refl true)), read_landed m ρ c 7 (of_decide_eq_true (Eq.refl true)), read_landed m ρ c 8 (of_decide_eq_true (Eq.refl true)), read_landed m ρ c 9 (of_decide_eq_true (Eq.refl true)), read_landed m ρ c 10 (of_decide_eq_true (Eq.refl true)), read_landed m ρ c 11 (of_decide_eq_true (Eq.refl true)), read_landed m ρ c 12 (of_decide_eq_true (Eq.refl true)), read_landed m ρ c 13 (of_decide_eq_true (Eq.refl true)), read_landed m ρ c 14 (of_decide_eq_true (Eq.refl true)), read_landed m ρ c 15 (of_decide_eq_true (Eq.refl true))]
    exact (totOf_unfold m ρ c).symm
  have hfo : (oM : Memref sig .tc .vmem S4x256x128 .f32).view.writes (Elt F) g4
      [⟨Rect.unit (s := S4x256x128) ![3, 0, 0] S1x256x128.size inb_S4x256x128_S1x256x128_3_0_0, k0_pay14 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay8 (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15)))) (k0_pay9 (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))))⟩,
       ⟨Rect.unit (s := S4x256x128) ![2, 0, 0] S1x256x128.size inb_S4x256x128_S1x256x128_2_0_0, k0_pay13 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay8 (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15)))) (k0_pay9 (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))))⟩,
       ⟨Rect.unit (s := S4x256x128) ![1, 0, 0] S1x256x128.size inb_S4x256x128_S1x256x128_1_0_0, k0_pay12 (k0_pay11 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15))))⟩,
       ⟨Rect.unit (s := S4x256x128) ![0, 0, 0] S1x256x128.size inb_S4x256x128_S1x256x128_0_0_0, k0_pay10 (k0_pay1 ((xM : Memref sig .tc .vmem S4x256x128 .f32).view.readAt (Elt F) (Rect.unit (s := S4x256x128) ![0, 0, 0] S4x256x128.size inb_S4x256x128_S4x256x128_0_0_0).toLoadRect (xstg m ρ c))) (k0_pay3 ((tM : Memref sig .tc .vmem S4x128 .f32).view.readAt (Elt F) (Rect.unit (s := S4x128) ![0, 0] S4x128.size inb_S4x128_S4x128_0_0).toLoadRect (tstg m ρ c)) ((wsM : Memref sig .tc .vmem S128x128 .f32).view.readAt (Elt F) (Rect.unit (s := S128x128) ![0, 0] S128x128.size inb_S128x128_S128x128_0_0).toLoadRect (wsstg m ρ c))) (k0_pay4 ((tM : Memref sig .tc .vmem S4x128 .f32).view.readAt (Elt F) (Rect.unit (s := S4x128) ![0, 0] S4x128.size inb_S4x128_S4x128_0_0).toLoadRect (tstg m ρ c)) ((whM : Memref sig .tc .vmem S128x128 .f32).view.readAt (Elt F) (Rect.unit (s := S128x128) ![0, 0] S128x128.size inb_S128x128_S128x128_0_0).toLoadRect (whstg m ρ c))) (k0_pay7 (k0_pay6 (k0_pay5 ((aM : Memref sig .tc .vmem S8x256 .f32).view.readAt (Elt F) (Rect.unit (s := S8x256) ![0, 0] S8x256.size inb_S8x256_S8x256_0_0).toLoadRect (accOf m ρ c)) ((rM : Memref sig .tc .vmem S16x8x256 .f32).view.readAt (Elt F) (slotR 1 (of_decide_eq_true (Eq.refl true))).toLoadRect (landed m ρ c 1))) ((rM : Memref sig .tc .vmem S16x8x256 .f32).view.readAt (Elt F) (slotR 2 (of_decide_eq_true (Eq.refl true))).toLoadRect (landed m ρ c 2)) ((rM : Memref sig .tc .vmem S16x8x256 .f32).view.readAt (Elt F) (slotR 3 (of_decide_eq_true (Eq.refl true))).toLoadRect (landed m ρ c 3)) ((rM : Memref sig .tc .vmem S16x8x256 .f32).view.readAt (Elt F) (slotR 4 (of_decide_eq_true (Eq.refl true))).toLoadRect (landed m ρ c 4)) ((rM : Memref sig .tc .vmem S16x8x256 .f32).view.readAt (Elt F) (slotR 5 (of_decide_eq_true (Eq.refl true))).toLoadRect (landed m ρ c 5)) ((rM : Memref sig .tc .vmem S16x8x256 .f32).view.readAt (Elt F) (slotR 6 (of_decide_eq_true (Eq.refl true))).toLoadRect (landed m ρ c 6)) ((rM : Memref sig .tc .vmem S16x8x256 .f32).view.readAt (Elt F) (slotR 7 (of_decide_eq_true (Eq.refl true))).toLoadRect (landed m ρ c 7)) ((rM : Memref sig .tc .vmem S16x8x256 .f32).view.readAt (Elt F) (slotR 8 (of_decide_eq_true (Eq.refl true))).toLoadRect (landed m ρ c 8)) ((rM : Memref sig .tc .vmem S16x8x256 .f32).view.readAt (Elt F) (slotR 9 (of_decide_eq_true (Eq.refl true))).toLoadRect (landed m ρ c 9)) ((rM : Memref sig .tc .vmem S16x8x256 .f32).view.readAt (Elt F) (slotR 10 (of_decide_eq_true (Eq.refl true))).toLoadRect (landed m ρ c 10)) ((rM : Memref sig .tc .vmem S16x8x256 .f32).view.readAt (Elt F) (slotR 11 (of_decide_eq_true (Eq.refl true))).toLoadRect (landed m ρ c 11))) ((rM : Memref sig .tc .vmem S16x8x256 .f32).view.readAt (Elt F) (slotR 12 (of_decide_eq_true (Eq.refl true))).toLoadRect (landed m ρ c 12)) ((rM : Memref sig .tc .vmem S16x8x256 .f32).view.readAt (Elt F) (slotR 13 (of_decide_eq_true (Eq.refl true))).toLoadRect (landed m ρ c 13)) ((rM : Memref sig .tc .vmem S16x8x256 .f32).view.readAt (Elt F) (slotR 14 (of_decide_eq_true (Eq.refl true))).toLoadRect (landed m ρ c 14)) ((rM : Memref sig .tc .vmem S16x8x256 .f32).view.readAt (Elt F) (slotR 15 (of_decide_eq_true (Eq.refl true))).toLoadRect (landed m ρ c 15)))⟩] = outAt m ρ c := by
    rw [htot, read_x, read_t, read_ws, read_wh]
    exact out_writes c g4 (xstg m ρ c) (tstg m ρ c) (wsstg m ρ c) (whstg m ρ c) (totOf m ρ c)
  ihave Hx := (show ((xM : Memref sig .tc .vmem S4x256x128 .f32).view.loc (c : Thread nD τ) ↦[(xM : Memref sig .tc .vmem S4x256x128 .f32).view.set]{fullShare} xstg m ρ c : sProp 𝕄) ⊢ _ from Entails.of_eq (xPts_eq c (xstg m ρ c))) $$ Hxv
  ihave Ht := (show ((tM : Memref sig .tc .vmem S4x128 .f32).view.loc (c : Thread nD τ) ↦[(tM : Memref sig .tc .vmem S4x128 .f32).view.set]{fullShare} tstg m ρ c : sProp 𝕄) ⊢ _ from Entails.of_eq (tPts_eq c (tstg m ρ c))) $$ Htv
  ihave Hws := (show ((wsM : Memref sig .tc .vmem S128x128 .f32).view.loc (c : Thread nD τ) ↦[(wsM : Memref sig .tc .vmem S128x128 .f32).view.set]{fullShare} wsstg m ρ c : sProp 𝕄) ⊢ _ from Entails.of_eq (wsPts_eq c (wsstg m ρ c))) $$ Hwsv
  ihave Hwh := (show ((whM : Memref sig .tc .vmem S128x128 .f32).view.loc (c : Thread nD τ) ↦[(whM : Memref sig .tc .vmem S128x128 .f32).view.set]{fullShare} whstg m ρ c : sProp 𝕄) ⊢ _ from Entails.of_eq (whPts_eq c (whstg m ρ c))) $$ Hwhv
  ihave Hout := (show ((oM : Memref sig .tc .vmem S4x256x128 .f32).view.loc (c : Thread nD τ) ↦[(oM : Memref sig .tc .vmem S4x256x128 .f32).view.set]{fullShare} _ : sProp 𝕄) ⊢ _ from Entails.of_eq (oPts_eq c _)) $$ Houtv
  first | iapply (le_wp_ret _ _ _ _ _) | (rw [wp_ret]; imodintro)
  unfold bodyPost
  iapply (finish m ρ K c _ fr _ hfo)
  unfold finalHeld
  isplitr; · iexact HIs1
  isplitr; · iexact HIr1
  isplitl [HatS1]; · iexact HatS1
  isplitl [HatR1]; · iexact HatR1
  isplitl [HatS1_pay1]; · unfold accPts; iexact HatS1_pay1
  isplitl [HatR1_pay1]; · iapply (slot_fold c 1 (of_decide_eq_true (Eq.refl true)) _); iexact HatR1_pay1
  isplitr; · iexact HIs2
  isplitr; · iexact HIr2
  isplitl [HatS2]; · iexact HatS2
  isplitl [HatR2]; · iexact HatR2
  isplitl [HatS2_pay1]; · unfold accPts; iexact HatS2_pay1
  isplitl [HatR2_pay1]; · iapply (slot_fold c 2 (of_decide_eq_true (Eq.refl true)) _); iexact HatR2_pay1
  isplitr; · iexact HIs3
  isplitr; · iexact HIr3
  isplitl [HatS3]; · iexact HatS3
  isplitl [HatR3]; · iexact HatR3
  isplitl [HatS3_pay1]; · unfold accPts; iexact HatS3_pay1
  isplitl [HatR3_pay1]; · iapply (slot_fold c 3 (of_decide_eq_true (Eq.refl true)) _); iexact HatR3_pay1
  isplitr; · iexact HIs4
  isplitr; · iexact HIr4
  isplitl [HatS4]; · iexact HatS4
  isplitl [HatR4]; · iexact HatR4
  isplitl [HatS4_pay1]; · unfold accPts; iexact HatS4_pay1
  isplitl [HatR4_pay1]; · iapply (slot_fold c 4 (of_decide_eq_true (Eq.refl true)) _); iexact HatR4_pay1
  isplitr; · iexact HIs5
  isplitr; · iexact HIr5
  isplitl [HatS5]; · iexact HatS5
  isplitl [HatR5]; · iexact HatR5
  isplitl [HatS5_pay1]; · unfold accPts; iexact HatS5_pay1
  isplitl [HatR5_pay1]; · iapply (slot_fold c 5 (of_decide_eq_true (Eq.refl true)) _); iexact HatR5_pay1
  isplitr; · iexact HIs6
  isplitr; · iexact HIr6
  isplitl [HatS6]; · iexact HatS6
  isplitl [HatR6]; · iexact HatR6
  isplitl [HatS6_pay1]; · unfold accPts; iexact HatS6_pay1
  isplitl [HatR6_pay1]; · iapply (slot_fold c 6 (of_decide_eq_true (Eq.refl true)) _); iexact HatR6_pay1
  isplitr; · iexact HIs7
  isplitr; · iexact HIr7
  isplitl [HatS7]; · iexact HatS7
  isplitl [HatR7]; · iexact HatR7
  isplitl [HatS7_pay1]; · unfold accPts; iexact HatS7_pay1
  isplitl [HatR7_pay1]; · iapply (slot_fold c 7 (of_decide_eq_true (Eq.refl true)) _); iexact HatR7_pay1
  isplitr; · iexact HIs8
  isplitr; · iexact HIr8
  isplitl [HatS8]; · iexact HatS8
  isplitl [HatR8]; · iexact HatR8
  isplitl [HatS8_pay1]; · unfold accPts; iexact HatS8_pay1
  isplitl [HatR8_pay1]; · iapply (slot_fold c 8 (of_decide_eq_true (Eq.refl true)) _); iexact HatR8_pay1
  isplitr; · iexact HIs9
  isplitr; · iexact HIr9
  isplitl [HatS9]; · iexact HatS9
  isplitl [HatR9]; · iexact HatR9
  isplitl [HatS9_pay1]; · unfold accPts; iexact HatS9_pay1
  isplitl [HatR9_pay1]; · iapply (slot_fold c 9 (of_decide_eq_true (Eq.refl true)) _); iexact HatR9_pay1
  isplitr; · iexact HIs10
  isplitr; · iexact HIr10
  isplitl [HatS10]; · iexact HatS10
  isplitl [HatR10]; · iexact HatR10
  isplitl [HatS10_pay1]; · unfold accPts; iexact HatS10_pay1
  isplitl [HatR10_pay1]; · iapply (slot_fold c 10 (of_decide_eq_true (Eq.refl true)) _); iexact HatR10_pay1
  isplitr; · iexact HIs11
  isplitr; · iexact HIr11
  isplitl [HatS11]; · iexact HatS11
  isplitl [HatR11]; · iexact HatR11
  isplitl [HatS11_pay1]; · unfold accPts; iexact HatS11_pay1
  isplitl [HatR11_pay1]; · iapply (slot_fold c 11 (of_decide_eq_true (Eq.refl true)) _); iexact HatR11_pay1
  isplitr; · iexact HIs12
  isplitr; · iexact HIr12
  isplitl [HatS12]; · iexact HatS12
  isplitl [HatR12]; · iexact HatR12
  isplitl [HatS12_pay1]; · unfold accPts; iexact HatS12_pay1
  isplitl [HatR12_pay1]; · iapply (slot_fold c 12 (of_decide_eq_true (Eq.refl true)) _); iexact HatR12_pay1
  isplitr; · iexact HIs13
  isplitr; · iexact HIr13
  isplitl [HatS13]; · iexact HatS13
  isplitl [HatR13]; · iexact HatR13
  isplitl [HatS13_pay1]; · unfold accPts; iexact HatS13_pay1
  isplitl [HatR13_pay1]; · iapply (slot_fold c 13 (of_decide_eq_true (Eq.refl true)) _); iexact HatR13_pay1
  isplitr; · iexact HIs14
  isplitr; · iexact HIr14
  isplitl [HatS14]; · iexact HatS14
  isplitl [HatR14]; · iexact HatR14
  isplitl [HatS14_pay1]; · unfold accPts; iexact HatS14_pay1
  isplitl [HatR14_pay1]; · iapply (slot_fold c 14 (of_decide_eq_true (Eq.refl true)) _); iexact HatR14_pay1
  isplitr; · iexact HIs15
  isplitr; · iexact HIr15
  isplitl [HatS15]; · iexact HatS15
  isplitl [HatR15]; · iexact HatR15
  isplitl [HatS15_pay1]; · unfold accPts; iexact HatS15_pay1
  isplitl [HatR15_pay1]; · iapply (slot_fold c 15 (of_decide_eq_true (Eq.refl true)) _); iexact HatR15_pay1
  isplitl [Hkeep]; · unfold accPts; iexact Hkeep
  isplitl [Hq0]; · unfold accPts; iexact Hq0
  isplitl [Hsl0]; · unfold hold0; iexact Hsl0
  isplitl [Hs0]; · iexact Hs0
  isplitl [Hr0]; · iexact Hr0
  isplitl [HO]; · iexact HO
  isplitl [Hx]; · iexact Hx
  isplitl [Ht]; · iexact Ht
  isplitl [Hws]; · iexact Hws
  isplitl [Hwh]; · iexact Hwh
  iexact Hout

end Body

/-! ### The library's body obligation -/

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 16000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3) (fun _ => bodyPost m ρ c)
  refine BIBase.Entails.trans ?_ (wp_fupd _ _ _ _ _)
  unfold bodyPre' Φ₀ start
  iintro ⟨⟨⟨⟨%K, Hg⟩, Hrest⟩, Hscr, Hs0, Hr0⟩, Ho, Hx, Ht, Hws, Hwh, Hout⟩
  iapply (sound_body m ρ K c)
  unfold bodyPre
  isplitl [Hg Hrest Hscr Hs0 Hr0]
  · isplitl [Hg]; · iexact Hg
    icases Hrest with ⟨H1, H2, H3⟩
    isplitl [H1]; · iexact H1
    isplitl [H2]; · iexact H2
    isplitl [H3]; · iexact H3
    isplitl [Hscr]; · iexact Hscr
    isplitl [Hs0] <;> iassumption
  isplitl [Ho]; · iexact Ho
  isplitl [Hx]; · iexact Hx
  isplitl [Ht]; · iexact Ht
  isplitl [Hws]; · iexact Hws
  isplitl [Hwh] <;> iassumption

end Cert.Kernel.KP

end
-- ==== Proof.WLaunch.lean ====
/-
  The launch of the sixteen-device kernel: the protocol's cells and duty tokens funded in the second copy of the
  rounds algebra, the cells' invariants allocated for all devices at once, the duty tokens dealt to the devices that
  pay them, the launch credit of each device's barrier and receive cells, and the run of @main with every device's
  result named.
-/
import proofs.«900516_g7700000000000517_dist_diff_adaln_cshard_i_b4_s256_c128_v7x_i16_bf16_1_alg».proof.Proof.WDefs
import proofs.«900516_g7700000000000517_dist_diff_adaln_cshard_i_b4_s256_c128_v7x_i16_bf16_1_alg».proof.Proof.WSched
import Idealize.ShloMosaic.Lib.Pipeline.Launch
import Idealize.ShloMosaic.Lib.Pipeline.Kit
import Idealize.ShloMosaic.Lib.Tactic

noncomputable section

namespace Cert.Kernel.KP

open Cert.Kernel Cert.Kernel.Gen Cert.Kernel.KTerms

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own scoped semaphores: DMA semaphores 5 … 36 -/

/-- Own semaphore i is DMA semaphore 5 + i: send semaphore i for i < 16, receive semaphore i − 16 from 16 on. -/
abbrev osem : Fin 32 → SemLoc sig := fun i => .dma ⟨5 + i.val, by have := i.isLt; show 5 + i.val < 37; omega⟩

theorem ownSemFacts : Pipeline.OwnSemFacts cfg0.spec osem := by decide

theorem osem_send (k : ℕ) (hk : k < 16) : osem ⟨k, by omega⟩ = .dma (sendS k hk) :=
  congrArg SemLoc.dma (Fin.ext (sendS_val k hk).symm)
theorem osem_recv (k : ℕ) (hk : k < 16) : osem ⟨16 + k, by omega⟩ = .dma (recvS k hk) :=
  congrArg SemLoc.dma (Fin.ext (by rw [recvS_val]; show 5 + (16 + k) = 21 + k; omega))

/-! ## The protocol's cells: per device the barrier cell and the send and receive cells of offsets 1 … 15 -/

theorem off_lt (j : Fin 15) : j.val + 1 < 16 := by have := j.isLt; omega
theorem off_pos (j : Fin 15) : 0 < j.val + 1 := Nat.succ_pos _

abbrev J : Type := Unit ⊕ Fin 15 ⊕ Fin 15

abbrev csem : J → SemLoc sig
  | .inl _ => .reg barS
  | .inr (.inl j) => .dma (sendS (j.val + 1) (off_lt j))
  | .inr (.inr j) => .dma (recvS (j.val + 1) (off_lt j))
abbrev kcell (cj : Dev nD × J) : GSem nD τ sig := ((cj.1 : Thread nD τ), csem cj.2)

theorem csem_injective : Function.Injective csem := by
  rintro (_ | j | j) (_ | j' | j') h
  · rfl
  · exact absurd h.symm (send_ne_bar _ _)
  · exact absurd h.symm (recv_ne_bar _ _)
  · exact absurd h (send_ne_bar _ _)
  · have := sendS_inj (SemLoc.dma.inj h); exact congrArg (fun x : Fin 15 => (Sum.inr (Sum.inl x) : J)) (Fin.ext (by omega))
  · exact absurd h (send_ne_recv _ _ _ _)
  · exact absurd h (recv_ne_bar _ _)
  · exact absurd h (recv_ne_send _ _ _ _)
  · have := recvS_inj (SemLoc.dma.inj h); exact congrArg (fun x : Fin 15 => (Sum.inr (Sum.inr x) : J)) (Fin.ext (by omega))

theorem kcell_injective : Function.Injective (kcell : Dev nD × J → GSem nD τ sig) := by
  rintro ⟨c, j⟩ ⟨c', j'⟩ h
  have h1 : c = c' := congrArg (fun g : GSem nD τ sig => g.1.1) h
  subst h1
  have h2 : csem j = csem j' := congrArg Prod.snd h
  rw [csem_injective h2]
def ringCells : Finset (GSem nD τ sig) := Finset.univ.map ⟨kcell, kcell_injective⟩

/-! ## The duty tokens of a device's own cells: barrier duties 1 … 15, duty 0 of each send and receive cell -/

abbrev T : Type := Fin 15 ⊕ Fin 15 ⊕ Fin 15
abbrev dty (j : Fin 15) : Fin 16 := ⟨j.val + 1, off_lt j⟩

abbrev tokOf (ct : Dev nD × T) : GSem nD τ sig × ℕ × Fin 16 := match ct.2 with
  | .inl j => (barCell ct.1, 0, dty j)
  | .inr (.inl j) => (sendCell ct.1 (j.val + 1) (off_lt j), 0, 0)
  | .inr (.inr j) => (recvCell ct.1 (j.val + 1) (off_lt j), 0, 0)

theorem tokOf_injective : Function.Injective (tokOf : Dev nD × T → GSem nD τ sig × ℕ × Fin 16) := by
  rintro ⟨c, t⟩ ⟨c', t'⟩ h
  have h1 : c = c' := by
    have := congrArg (fun x : GSem nD τ sig × ℕ × Fin 16 => x.1.1.1) h
    rcases t with j | j | j <;> rcases t' with j' | j' | j' <;> exact this
  subst h1
  have hs := congrArg (fun x : GSem nD τ sig × ℕ × Fin 16 => x.1.2) h
  have hd := congrArg (fun x : GSem nD τ sig × ℕ × Fin 16 => x.2.2.val) h
  rcases t with j | j | j <;> rcases t' with j' | j' | j'
  · have : j = j' := Fin.ext (by have : j.val + 1 = j'.val + 1 := hd; omega)
    rw [this]
  · exact absurd hs.symm (send_ne_bar _ _)
  · exact absurd hs.symm (recv_ne_bar _ _)
  · exact absurd hs (send_ne_bar _ _)
  · have := sendS_inj (SemLoc.dma.inj hs); have : j = j' := Fin.ext (by omega)
    rw [this]
  · exact absurd hs (send_ne_recv _ _ _ _)
  · exact absurd hs (recv_ne_bar _ _)
  · exact absurd hs (recv_ne_send _ _ _ _)
  · have := recvS_inj (SemLoc.dma.inj hs); have : j = j' := Fin.ext (by omega)
    rw [this]
def ringToks : Finset (GSem nD τ sig × ℕ × Fin 16) := Finset.univ.map ⟨tokOf, tokOf_injective⟩

def u₀ : UU :=
  (initOf (Pipeline.cells cfgs cellOf_inj) (Pipeline.launchToks cfgs cellOf_inj), initOf ringCells ringToks)

/-! ## What the launch deals each device, and what the global step makes of it -/

/-- The duty tokens of device c's own cells. -/
def toks (c : Dev nD) : sProp 𝕄 :=
  iprop((bigSep Finset.univ fun j : Fin 15 => dutyTok ER (barCell c) 0 (dty j))
    ∗ (bigSep Finset.univ fun j : Fin 15 => dutyTok ER (sendCell c (j.val + 1) (off_lt j)) 0 0)
    ∗ (bigSep Finset.univ fun j : Fin 15 => dutyTok ER (recvCell c (j.val + 1) (off_lt j)) 0 0))

/-- What the launch element deals device c. -/
def G (c : Dev nD) : sProp 𝕄 :=
  iprop((bigSep Finset.univ fun j : J => roundState ER (sched m ρ) (kcell (c, j)) 0)
    ∗ (bigSep Finset.univ fun j : J => iprop(atPos ER (kcell (c, j)) 0 ∅ 0 ∗ reached ER (kcell (c, j)) 0)) ∗ toks c)

/-- The two semaphores of offset 0, which no copy uses: their counters at zero stay with the device. -/
def idle0 (c : Dev nD) : sProp 𝕄 := iprop(semVal (sendCell c 0 (by decide)) 0 ∗ semVal (recvCell c 0 (by decide)) 0)

/-- What the global step makes of it: the ghost state at some names, and the two idle counters. -/
def G' (c : Dev nD) : sProp 𝕄 := iprop((∃ K, ghost m ρ K c) ∗ idle0 c)

theorem bigSep_J (Φ : J → sProp 𝕄) : bigSep Finset.univ Φ
    = iprop(Φ (.inl ()) ∗ (bigSep Finset.univ fun j : Fin 15 => Φ (.inr (.inl j))) ∗ (bigSep Finset.univ fun j : Fin 15 => Φ (.inr (.inr j)))) := by
  rw [bigSep_univ_sum, bigSep_univ_sum, bigSep_univ_of_subsingleton ()]
  rfl
theorem bigSep_T (Φ : T → sProp 𝕄) : bigSep Finset.univ Φ
    = iprop((bigSep Finset.univ fun j : Fin 15 => Φ (.inl j)) ∗ (bigSep Finset.univ fun j : Fin 15 => Φ (.inr (.inl j))) ∗ (bigSep Finset.univ fun j : Fin 15 => Φ (.inr (.inr j)))) := by
  rw [bigSep_univ_sum, bigSep_univ_sum]
  rfl

theorem fund : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun j : J => Φ (kcell (c, j)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_T]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores the global step takes: the own ones and the runtime's barrier semaphore -/

theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

/-- The kernel's own thirty-two counters, offset by offset, those of offset 0 last. -/
theorem ownSems0_chain (c : Dev nD) : (Pipeline.ownSems0 (Ix := Unit) (Name := ℕ) (U := UU) (Lvl := ℕ) (Val := Elt F) (τ := τ) osem c : sProp 𝕄)
    = iprop(semVal (sendCell c 1 (by decide)) 0 ∗ semVal (recvCell c 1 (by decide)) 0
      ∗ semVal (sendCell c 2 (by decide)) 0 ∗ semVal (recvCell c 2 (by decide)) 0
      ∗ semVal (sendCell c 3 (by decide)) 0 ∗ semVal (recvCell c 3 (by decide)) 0
      ∗ semVal (sendCell c 4 (by decide)) 0 ∗ semVal (recvCell c 4 (by decide)) 0
      ∗ semVal (sendCell c 5 (by decide)) 0 ∗ semVal (recvCell c 5 (by decide)) 0
      ∗ semVal (sendCell c 6 (by decide)) 0 ∗ semVal (recvCell c 6 (by decide)) 0
      ∗ semVal (sendCell c 7 (by decide)) 0 ∗ semVal (recvCell c 7 (by decide)) 0
      ∗ semVal (sendCell c 8 (by decide)) 0 ∗ semVal (recvCell c 8 (by decide)) 0
      ∗ semVal (sendCell c 9 (by decide)) 0 ∗ semVal (recvCell c 9 (by decide)) 0
      ∗ semVal (sendCell c 10 (by decide)) 0 ∗ semVal (recvCell c 10 (by decide)) 0
      ∗ semVal (sendCell c 11 (by decide)) 0 ∗ semVal (recvCell c 11 (by decide)) 0
      ∗ semVal (sendCell c 12 (by decide)) 0 ∗ semVal (recvCell c 12 (by decide)) 0
      ∗ semVal (sendCell c 13 (by decide)) 0 ∗ semVal (recvCell c 13 (by decide)) 0
      ∗ semVal (sendCell c 14 (by decide)) 0 ∗ semVal (recvCell c 14 (by decide)) 0
      ∗ semVal (sendCell c 15 (by decide)) 0 ∗ semVal (recvCell c 15 (by decide)) 0
      ∗ semVal (sendCell c 0 (by decide)) 0 ∗ semVal (recvCell c 0 (by decide)) 0) := by
  rw [Pipeline.ownSems0_eq_of_list c osem [⟨1, by decide⟩, ⟨16 + 1, by decide⟩, ⟨2, by decide⟩, ⟨16 + 2, by decide⟩, ⟨3, by decide⟩, ⟨16 + 3, by decide⟩, ⟨4, by decide⟩, ⟨16 + 4, by decide⟩, ⟨5, by decide⟩, ⟨16 + 5, by decide⟩, ⟨6, by decide⟩, ⟨16 + 6, by decide⟩, ⟨7, by decide⟩, ⟨16 + 7, by decide⟩, ⟨8, by decide⟩, ⟨16 + 8, by decide⟩, ⟨9, by decide⟩, ⟨16 + 9, by decide⟩, ⟨10, by decide⟩, ⟨16 + 10, by decide⟩, ⟨11, by decide⟩, ⟨16 + 11, by decide⟩, ⟨12, by decide⟩, ⟨16 + 12, by decide⟩, ⟨13, by decide⟩, ⟨16 + 13, by decide⟩, ⟨14, by decide⟩, ⟨16 + 14, by decide⟩, ⟨15, by decide⟩, ⟨16 + 15, by decide⟩, ⟨0, by decide⟩, ⟨16 + 0, by decide⟩] (by decide) (by decide)]
  rfl

theorem ownSems0_split (c : Dev nD) : (Pipeline.ownSems0 (Ix := Unit) (Name := ℕ) (U := UU) (Lvl := ℕ) (Val := Elt F) (τ := τ) osem c : sProp 𝕄)
    ⊢ iprop(closedSems c ∗ idle0 c) := by
  rw [ownSems0_chain]; unfold closedSems idle0
  iintro ⟨HS1, HR1, HS2, HR2, HS3, HR3, HS4, HR4, HS5, HR5, HS6, HR6, HS7, HR7, HS8, HR8, HS9, HR9, HS10, HR10, HS11, HR11, HS12, HR12, HS13, HR13, HS14, HR14, HS15, HR15, HS0, HR0⟩
  iframe

theorem ownSems0_join (c : Dev nD) : iprop(closedSems c ∗ idle0 c)
    ⊢ (Pipeline.ownSems0 (Ix := Unit) (Name := ℕ) (U := UU) (Lvl := ℕ) (Val := Elt F) (τ := τ) osem c : sProp 𝕄) := by
  rw [ownSems0_chain]; unfold closedSems idle0
  iintro ⟨⟨HS1, HR1, HS2, HR2, HS3, HR3, HS4, HR4, HS5, HR5, HS6, HR6, HS7, HR7, HS8, HR8, HS9, HR9, HS10, HR10, HS11, HR11, HS12, HR12, HS13, HR13, HS14, HR14, HS15, HR15⟩, HS0, HR0⟩
  iframe

/-- The kernel's own semaphores at zero are the thirty closed ones and the two idle ones. -/
theorem ownSems0_eq (c : Dev nD) : (Pipeline.ownSems0 (Ix := Unit) (Name := ℕ) (U := UU) (Lvl := ℕ) (Val := Elt F) (τ := τ) osem c : sProp 𝕄)
    ⊣⊢ iprop(closedSems c ∗ idle0 c) := ⟨ownSems0_split c, ownSems0_join c⟩

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters of the thirty-one protocol cells of a device, and the two idle ones. -/
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun j : J => semVal (kcell (c, j)) 0) ∗ idle0 c : sProp 𝕄) := by
  rw [ownSems0_chain, unscopedSems0_eq, bigSep_J, bigSep_fin15, bigSep_fin15]; unfold idle0
  show _ ⊢ iprop((semVal (barCell c) 0 ∗ (semVal (sendCell c 1 (by decide)) 0 ∗ semVal (sendCell c 2 (by decide)) 0 ∗ semVal (sendCell c 3 (by decide)) 0 ∗ semVal (sendCell c 4 (by decide)) 0 ∗ semVal (sendCell c 5 (by decide)) 0 ∗ semVal (sendCell c 6 (by decide)) 0 ∗ semVal (sendCell c 7 (by decide)) 0 ∗ semVal (sendCell c 8 (by decide)) 0 ∗ semVal (sendCell c 9 (by decide)) 0 ∗ semVal (sendCell c 10 (by decide)) 0 ∗ semVal (sendCell c 11 (by decide)) 0 ∗ semVal (sendCell c 12 (by decide)) 0 ∗ semVal (sendCell c 13 (by decide)) 0 ∗ semVal (sendCell c 14 (by decide)) 0 ∗ semVal (sendCell c 15 (by decide)) 0)
      ∗ (semVal (recvCell c 1 (by decide)) 0 ∗ semVal (recvCell c 2 (by decide)) 0 ∗ semVal (recvCell c 3 (by decide)) 0 ∗ semVal (recvCell c 4 (by decide)) 0 ∗ semVal (recvCell c 5 (by decide)) 0 ∗ semVal (recvCell c 6 (by decide)) 0 ∗ semVal (recvCell c 7 (by decide)) 0 ∗ semVal (recvCell c 8 (by decide)) 0 ∗ semVal (recvCell c 9 (by decide)) 0 ∗ semVal (recvCell c 10 (by decide)) 0 ∗ semVal (recvCell c 11 (by decide)) 0 ∗ semVal (recvCell c 12 (by decide)) 0 ∗ semVal (recvCell c 13 (by decide)) 0 ∗ semVal (recvCell c 14 (by decide)) 0 ∗ semVal (recvCell c 15 (by decide)) 0))
    ∗ semVal (sendCell c 0 (by decide)) 0 ∗ semVal (recvCell c 0 (by decide)) 0 : sProp 𝕄)
  iintro ⟨⟨HS1, HR1, HS2, HR2, HS3, HR3, HS4, HR4, HS5, HR5, HS6, HR6, HS7, HR7, HS8, HR8, HS9, HR9, HS10, HR10, HS11, HR11, HS12, HR12, HS13, HR13, HS14, HR14, HS15, HR15, HS0, HR0⟩, HB⟩
  iframe

/-- What one device holds once its thirty-one cells' invariants are allocated. -/
def alloc (c : Dev nD) : sProp 𝕄 :=
  iprop((bigSep Finset.univ fun j : J => iprop(∃ κ : ℕ, cellInv ER (sched m ρ) κ (kcell (c, j))))
    ∗ (bigSep Finset.univ fun j : J => iprop(atPos ER (kcell (c, j)) 0 ∅ 0 ∗ reached ER (kcell (c, j)) 0)) ∗ toks c ∗ idle0 c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> alloc m ρ c := by
  unfold G alloc
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun j : J => semVal (kcell (c, j)) 0) ∗ bigSep Finset.univ fun j : J => roundState ER (sched m ρ) (kcell (c, j)) 0)
      ⊢ (|={Set.univ}=> bigSep Finset.univ fun j : J => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ### The names, the records every device reads, and the tokens dealt to their payers -/

/-- The names as the body reads them (per device: the barrier cell, and each DMA semaphore), from the names the
    allocation chose per protocol cell. -/
def namesOf (K' : Dev nD × J → ℕ) : Names := fun x => match x.2 with
  | none => K' (x.1, .inl ())
  | some q =>
    if h : 6 ≤ q.val ∧ q.val ≤ 20 then K' (x.1, .inr (.inl ⟨q.val - 6, by omega⟩))
    else if h' : 22 ≤ q.val ∧ q.val ≤ 36 then K' (x.1, .inr (.inr ⟨q.val - 22, by omega⟩))
    else 0

theorem namesOf_bar (K' : Dev nD × J → ℕ) (c : Dev nD) : namesOf K' (c, none) = K' (c, .inl ()) := rfl
theorem namesOf_send (K' : Dev nD × J → ℕ) (c : Dev nD) (j : Fin 15) :
    namesOf K' (c, some (sendS (j.val + 1) (off_lt j))) = K' (c, .inr (.inl j)) := by
  have hv := sendS_val (j.val + 1) (off_lt j)
  have hj := j.isLt
  show (if h : 6 ≤ (sendS (j.val + 1) (off_lt j)).val ∧ (sendS (j.val + 1) (off_lt j)).val ≤ 20 then _ else _) = _
  rw [dif_pos ⟨by omega, by omega⟩]
  exact congrArg (fun x : Fin 15 => K' (c, .inr (.inl x))) (Fin.ext (by show (sendS (j.val + 1) (off_lt j)).val - 6 = j.val; omega))
theorem namesOf_recv (K' : Dev nD × J → ℕ) (c : Dev nD) (j : Fin 15) :
    namesOf K' (c, some (recvS (j.val + 1) (off_lt j))) = K' (c, .inr (.inr j)) := by
  have hv := recvS_val (j.val + 1) (off_lt j)
  have hj := j.isLt
  show (if h : 6 ≤ (recvS (j.val + 1) (off_lt j)).val ∧ (recvS (j.val + 1) (off_lt j)).val ≤ 20 then _ else _) = _
  rw [dif_neg (fun h => by omega), dif_pos ⟨by omega, by omega⟩]
  exact congrArg (fun x : Fin 15 => K' (c, .inr (.inr x))) (Fin.ext (by show (recvS (j.val + 1) (off_lt j)).val - 22 = j.val; omega))

/-- Every cell's invariant at its name, and that every cell is at round 0: persistent, read by every device. -/
def records (K' : Dev nD × J → ℕ) : sProp 𝕄 :=
  iprop((bigSep Finset.univ fun cj : Dev nD × J => cellInv ER (sched m ρ) (K' cj) (kcell cj))
    ∗ bigSep Finset.univ fun cj : Dev nD × J => reached ER (kcell cj) 0)

instance records_persistent (K' : Dev nD × J → ℕ) : BI.Persistent (records m ρ K') := by unfold records; infer_instance

theorem inv_at (K' : Dev nD × J → ℕ) (cj : Dev nD × J) :
    (bigSep Finset.univ fun cj : Dev nD × J => (cellInv ER (sched m ρ) (K' cj) (kcell cj) : sProp 𝕄)) ⊢ cellInv ER (sched m ρ) (K' cj) (kcell cj) :=
  bigSep_elim (Finset.mem_univ cj)
theorem reached_at (cj : Dev nD × J) :
    (bigSep Finset.univ fun cj : Dev nD × J => (reached ER (kcell cj) 0 : sProp 𝕄)) ⊢ reached ER (kcell cj) 0 :=
  bigSep_elim (Finset.mem_univ cj)

/-- The ring at offset k: the device k places on, and back. -/
def ringEquiv (k : ℕ) : Dev nD ≃ Dev nD := ⟨fun c => peer c k, fun c => back c k, fun c => back_peer c k, fun c => peer_back c k⟩

/-- A family over (device, offset) dealt around the ring: device c gets, at offset j + 1, the member of the device j + 1 places on. -/
theorem around (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (peer c (j.val + 1)) j := by
  rw [bigSep_univ_comm Φ, bigSep_univ_comm (fun (c : Dev nD) (j : Fin 15) => Φ (peer c (j.val + 1)) j)]
  exact bigSep_congr fun j _ => bigSep_univ_equiv (ringEquiv (j.val + 1)) (fun c => Φ c j)

/-- The tokens of the duties device c pays: per offset, the barrier duty and the receive duty of the device that
    many places on, and its own send duty. -/
def payToks (c : Dev nD) : sProp 𝕄 :=
  iprop((bigSep Finset.univ fun j : Fin 15 => dutyTok ER (barCell (peer c (j.val + 1))) 0 (dty j))
    ∗ (bigSep Finset.univ fun j : Fin 15 => dutyTok ER (sendCell c (j.val + 1) (off_lt j)) 0 0)
    ∗ (bigSep Finset.univ fun j : Fin 15 => dutyTok ER (recvCell (peer c (j.val + 1)) (j.val + 1) (off_lt j)) 0 0))

theorem toks_around : (bigSep Finset.univ fun c : Dev nD => (toks c : sProp 𝕄)) ⊢ bigSep Finset.univ fun c : Dev nD => payToks c := by
  refine Entails.of_eq ?_
  unfold toks payToks
  rw [bigSep_sep', bigSep_sep', bigSep_sep', bigSep_sep',
    around (fun (c : Dev nD) (j : Fin 15) => (dutyTok ER (barCell c) 0 (dty j) : sProp 𝕄)),
    around (fun (c : Dev nD) (j : Fin 15) => (dutyTok ER (recvCell c (j.val + 1) (off_lt j)) 0 0 : sProp 𝕄))]

/-- The ghost state, its fifteen offsets as one family. -/
theorem ghost_eq (K : Names) (c : Dev nD) : ghost m ρ K c
    = iprop(cellInv ER (sched m ρ) (kB K c) (barCell c) ∗ atPos ER (barCell c) 0 ∅ 0
        ∗ bigSep Finset.univ fun j : Fin 15 => ghostK m ρ K c (j.val + 1) (off_lt j)) := by
  unfold ghost; rw [bigSep_fin15]; rfl

/-- What device c holds linearly for offset j + 1: its positions at its send and receive cells and the three tokens it pays with. -/
def linK (c : Dev nD) (j : Fin 15) : sProp 𝕄 :=
  iprop(atPos ER (sendCell c (j.val + 1) (off_lt j)) 0 ∅ 0 ∗ atPos ER (recvCell c (j.val + 1) (off_lt j)) 0 ∅ 0
    ∗ dutyTok ER (barCell (peer c (j.val + 1))) 0 (dty j)
    ∗ dutyTok ER (recvCell (peer c (j.val + 1)) (j.val + 1) (off_lt j)) 0 0
    ∗ dutyTok ER (sendCell c (j.val + 1) (off_lt j)) 0 0)

theorem ghostK_intro (K' : Dev nD × J → ℕ) (c : Dev nD) (j : Fin 15) :
    iprop(records m ρ K' ∗ linK c j) ⊢ ghostK m ρ (namesOf K') c (j.val + 1) (off_lt j) := by
  unfold records linK ghostK
  dsimp only [kS, kR, kB]
  rw [namesOf_send K' c j, namesOf_recv K' c j, namesOf_recv K' (peer c (j.val + 1)) j, namesOf_bar K' (peer c (j.val + 1))]
  iintro ⟨⟨#HI, #HR⟩, HaS, HaR, HtB, HtR, HtS⟩
  isplitr; · iapply (inv_at m ρ K' (c, .inr (.inl j))); iexact HI
  isplitr; · iapply (inv_at m ρ K' (c, .inr (.inr j))); iexact HI
  isplitr; · iapply (inv_at m ρ K' (peer c (j.val + 1), .inl ())); iexact HI
  isplitr; · iapply (inv_at m ρ K' (peer c (j.val + 1), .inr (.inr j))); iexact HI
  isplitl [HaS]; · iexact HaS
  isplitl [HaR]; · iexact HaR
  isplitr; · iapply (reached_at (F := F) (peer c (j.val + 1), .inl ())); iexact HR
  isplitr; · iapply (reached_at (F := F) (peer c (j.val + 1), .inr (.inr j))); iexact HR
  isplitr; · iapply (reached_at (F := F) (c, .inr (.inl j))); iexact HR
  isplitr; · iapply (reached_at (F := F) (c, .inr (.inr j))); iexact HR
  isplitl [HtB]; · iexact HtB
  isplitl [HtR]; · iexact HtR
  iexact HtS

/-- What stays with device c: its position at its barrier cell, and per offset the above. -/
def lin (c : Dev nD) : sProp 𝕄 := iprop(atPos ER (barCell c) 0 ∅ 0 ∗ bigSep Finset.univ fun j : Fin 15 => linK c j)

theorem lin_intro (c : Dev nD) :
    iprop((bigSep Finset.univ fun j : J => (atPos ER (kcell (c, j)) 0 ∅ 0 : sProp 𝕄)) ∗ payToks c) ⊢ lin c := by
  rw [bigSep_J]; unfold payToks lin linK
  simp only [bigSep_sep']
  iintro ⟨⟨HaB, HaS, HaR⟩, HtB, HtS, HtR⟩
  isplitl [HaB]; · iexact HaB
  isplitl [HaS]; · iexact HaS
  isplitl [HaR]; · iexact HaR
  isplitl [HtB]; · iexact HtB
  isplitl [HtR]; · iexact HtR
  iexact HtS

theorem ghost_intro (K' : Dev nD × J → ℕ) (c : Dev nD) : iprop(records m ρ K' ∗ lin c ∗ idle0 c) ⊢ G' m ρ c := by
  unfold G'
  iintro ⟨#HR, HL, Hi⟩
  isplitl [HL]
  · iexists namesOf K'
    rw [ghost_eq]; unfold lin
    icases HL with ⟨HaB, HL⟩
    isplitr
    · dsimp only [kB]; rw [namesOf_bar]
      unfold records; icases HR with ⟨#HI, -⟩
      iapply (inv_at m ρ K' (c, .inl ())); iexact HI
    isplitl [HaB]; · iexact HaB
    iapply (bigSep_with_persistent (R := records m ρ K') fun j _ => ghostK_intro m ρ K' c j)
    isplitr; · iexact HR
    iexact HL
  · iexact Hi

/-- The allocated cells of all devices regrouped: one choice of names, the records shared, the tokens dealt to their payers. -/
theorem regroup : (bigSep Finset.univ fun c : Dev nD => alloc m ρ c : sProp 𝕄) ⊢ bigSep Finset.univ (G' m ρ) := by
  unfold alloc
  rw [bigSep_sep', bigSep_sep', bigSep_sep', ← bigSep_univ_prod (fun cj : Dev nD × J => iprop(∃ κ : ℕ, cellInv ER (sched m ρ) κ (kcell cj))),
    bigSep_congr (s := Finset.univ) (fun (c : Dev nD) _ => bigSep_sep' Finset.univ (fun j : J => (atPos ER (kcell (c, j)) 0 ∅ 0 : sProp 𝕄)) (fun j => reached ER (kcell (c, j)) 0)),
    bigSep_sep', ← bigSep_univ_prod (fun cj : Dev nD × J => (reached ER (kcell cj) 0 : sProp 𝕄))]
  iintro ⟨HI, ⟨Hat, #HR⟩, Htok, Hidle⟩
  ihave HK := (BI.bigSep_exists_pi Finset.univ (fun (cj : Dev nD × J) (κ : ℕ) => (cellInv ER (sched m ρ) κ (kcell cj) : sProp 𝕄))) $$ HI
  icases HK with ⟨%K', #HI⟩
  ihave Htk := (toks_around (F := F)) $$ Htok
  iapply (bigSep_with_persistent (R := records m ρ K') fun c _ => ghost_intro m ρ K' c)
  isplitr
  · unfold records; isplitl; · iexact HI
    iexact HR
  · iapply (show iprop((bigSep Finset.univ fun c : Dev nD => bigSep Finset.univ fun j : J => (atPos ER (kcell (c, j)) 0 ∅ 0 : sProp 𝕄))
          ∗ (bigSep Finset.univ fun c : Dev nD => payToks c) ∗ bigSep Finset.univ fun c : Dev nD => idle0 c)
        ⊢ (bigSep Finset.univ fun c : Dev nD => iprop(lin c ∗ idle0 c) : sProp 𝕄) from by
      rw [← bigSep_sep', ← bigSep_sep']
      exact bigSep_mono fun c _ => show iprop((bigSep Finset.univ fun j : J => (atPos ER (kcell (c, j)) 0 ∅ 0 : sProp 𝕄)) ∗ payToks c ∗ idle0 c) ⊢ iprop(lin c ∗ idle0 c) from by
        iintro ⟨Ha, Ht, Hi⟩
        isplitl [Ha Ht]
        · iapply (lin_intro (F := F) c); isplitl [Ha] <;> iassumption
        · iexact Hi)
    isplitl [Hat]; · iexact Hat
    isplitl [Htk]; · iexact Htk
    iexact Hidle

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem OsendR_eq (c : Dev nD) : ∀ i, OsendR c i = ∑ x ∈ Finset.range i, recvOwe c (15 - x)
  | 0 => (show OsendR c 0 = 0 from rfl).trans (Finset.sum_range_zero _).symm
  | i + 1 => (show OsendR c (i + 1) = OsendR c i + recvOwe c (15 - i) from rfl).trans (by rw [Finset.sum_range_succ, ← OsendR_eq c i])
theorem OsigR_eq (c : Dev nD) : ∀ i, OsigR c i = Osend c 0 + ∑ x ∈ Finset.range i, barOwe c (15 - x)
  | 0 => (show OsigR c 0 = Osend c 0 from rfl).trans (by rw [Finset.sum_range_zero, add_zero])
  | i + 1 => (show OsigR c (i + 1) = OsigR c i + barOwe c (15 - i) from rfl).trans (by rw [Finset.sum_range_succ, ← add_assoc, ← OsigR_eq c i])
/-- What a device owes at launch: the credit of the fifteen receive cells it copies into, and a unit to the fifteen
    barrier cells it signals. -/
theorem O₀_eq_sum (c : Dev nD) :
    O₀ c = (∑ x ∈ Finset.range 15, recvOwe c (15 - x)) + ∑ x ∈ Finset.range 15, barOwe c (15 - x) := by
  show OsigR c 15 = _
  rw [OsigR_eq, show Osend c 0 = OsendR c 15 from rfl, OsendR_eq]

theorem sum_tallyAt_one (g : GSem nD τ sig) (n : ℕ) :
    ∑ _x ∈ Finset.range n, (tallyAt g () 1 : CellTallies nD τ sig Unit) = tallyAt g () n := by
  induction n with
  | zero => rw [Finset.sum_range_zero, tallyAt_zero]
  | succ n ih => rw [Finset.sum_range_succ, ih, tallyAt_add]

/-- The unit every device owes the barrier cell k places on: device c's cell gets it from the device k places back. -/
theorem cred_bar (c : Dev nD) (k : ℕ) :
    (Pipeline.launchCred (fun d : Dev nD => barOwe d k) c : sProp 𝕄) ⊢ cred (tallyAt (barCell c) () 1) :=
  Pipeline.launchCred_tallyAt (.reg barS) (fun d => peer d k) (fun d => back d k) (fun d => peer_back d k) (fun d => back_peer d k) () 1 c

theorem cred_recv (c : Dev nD) (k : ℕ) (hk : k < 16) :
    (Pipeline.launchCred (fun d : Dev nD => recvOwe d k) c : sProp 𝕄) ⊢ cred (tallyAt (recvCell c k hk) () N) := by
  rw [show (fun d : Dev nD => recvOwe d k) = fun d : Dev nD => tallyAt (((peer d k).tc : Thread nD τ), SemLoc.dma (recvS k hk)) () N from
    funext fun d => recvOwe_eq d k hk]
  exact Pipeline.launchCred_tallyAt (.dma (recvS k hk)) (fun d => peer d k) (fun d => back d k) (fun d => peer_back d k) (fun d => back_peer d k) () N c

theorem bar_credit (c : Dev nD) :
    (bigSep (Finset.range 15) fun x => (Pipeline.launchCred (fun d : Dev nD => barOwe d (15 - x)) c : sProp 𝕄)) ⊢ cred (tallyAt (barCell c) () 15) := by
  refine (bigSep_mono fun x _ => cred_bar c (15 - x)).trans ?_
  exact (Entails.of_eq (Pipeline.cred_finsetSum (Finset.range 15) (fun _ => (tallyAt (barCell c) () 1 : CellTallies nD τ sig Unit))).symm).trans
    (Entails.of_eq (congrArg cred (sum_tallyAt_one (barCell c) 15)))

theorem recv_credit (c : Dev nD) :
    (bigSep (Finset.range 15) fun x => (Pipeline.launchCred (fun d : Dev nD => recvOwe d (15 - x)) c : sProp 𝕄)) ⊢ recvCreds c := by
  rw [bigSep_eq_bigSepL_of_eq [14, 13, 12, 11, 10, 9, 8, 7, 6, 5, 4, 3, 2, 1, 0] (by decide) (by decide)]
  show iprop((Pipeline.launchCred (fun d : Dev nD => recvOwe d 1) c : sProp 𝕄)
      ∗ (Pipeline.launchCred (fun d : Dev nD => recvOwe d 2) c : sProp 𝕄)
      ∗ (Pipeline.launchCred (fun d : Dev nD => recvOwe d 3) c : sProp 𝕄)
      ∗ (Pipeline.launchCred (fun d : Dev nD => recvOwe d 4) c : sProp 𝕄)
      ∗ (Pipeline.launchCred (fun d : Dev nD => recvOwe d 5) c : sProp 𝕄)
      ∗ (Pipeline.launchCred (fun d : Dev nD => recvOwe d 6) c : sProp 𝕄)
      ∗ (Pipeline.launchCred (fun d : Dev nD => recvOwe d 7) c : sProp 𝕄)
      ∗ (Pipeline.launchCred (fun d : Dev nD => recvOwe d 8) c : sProp 𝕄)
      ∗ (Pipeline.launchCred (fun d : Dev nD => recvOwe d 9) c : sProp 𝕄)
      ∗ (Pipeline.launchCred (fun d : Dev nD => recvOwe d 10) c : sProp 𝕄)
      ∗ (Pipeline.launchCred (fun d : Dev nD => recvOwe d 11) c : sProp 𝕄)
      ∗ (Pipeline.launchCred (fun d : Dev nD => recvOwe d 12) c : sProp 𝕄)
      ∗ (Pipeline.launchCred (fun d : Dev nD => recvOwe d 13) c : sProp 𝕄)
      ∗ (Pipeline.launchCred (fun d : Dev nD => recvOwe d 14) c : sProp 𝕄)
      ∗ (Pipeline.launchCred (fun d : Dev nD => recvOwe d 15) c : sProp 𝕄)) ⊢ recvCreds c
  unfold recvCreds
  iintro ⟨H1, H2, H3, H4, H5, H6, H7, H8, H9, H10, H11, H12, H13, H14, H15⟩
  isplitl [H1]; · iapply (cred_recv (F := F) c 1 _); iexact H1
  isplitl [H2]; · iapply (cred_recv (F := F) c 2 _); iexact H2
  isplitl [H3]; · iapply (cred_recv (F := F) c 3 _); iexact H3
  isplitl [H4]; · iapply (cred_recv (F := F) c 4 _); iexact H4
  isplitl [H5]; · iapply (cred_recv (F := F) c 5 _); iexact H5
  isplitl [H6]; · iapply (cred_recv (F := F) c 6 _); iexact H6
  isplitl [H7]; · iapply (cred_recv (F := F) c 7 _); iexact H7
  isplitl [H8]; · iapply (cred_recv (F := F) c 8 _); iexact H8
  isplitl [H9]; · iapply (cred_recv (F := F) c 9 _); iexact H9
  isplitl [H10]; · iapply (cred_recv (F := F) c 10 _); iexact H10
  isplitl [H11]; · iapply (cred_recv (F := F) c 11 _); iexact H11
  isplitl [H12]; · iapply (cred_recv (F := F) c 12 _); iexact H12
  isplitl [H13]; · iapply (cred_recv (F := F) c 13 _); iexact H13
  isplitl [H14]; · iapply (cred_recv (F := F) c 14 _); iexact H14
  iapply (cred_recv (F := F) c 15 _); iexact H15

/-- The launch credit of device c: the fifteen units of its barrier cell and the credit of its fifteen receive cells. -/
theorem creds (c : Dev nD) :
    (Pipeline.launchCred O₀ c : sProp 𝕄) ⊢ iprop(cred (tallyAt (barCell c) () 15) ∗ recvCreds c) := by
  rw [show (O₀ : Dev nD → CellTallies nD τ sig Unit)
        = fun d => (∑ x ∈ Finset.range 15, recvOwe d (15 - x)) + ∑ x ∈ Finset.range 15, barOwe d (15 - x) from funext O₀_eq_sum,
    Pipeline.launchCred_add, Pipeline.launchCred_sum (Finset.range 15) (fun x (d : Dev nD) => recvOwe d (15 - x)),
    Pipeline.launchCred_sum (Finset.range 15) (fun x (d : Dev nD) => barOwe d (15 - x))]
  iintro ⟨HR, HB⟩
  isplitl [HB]
  · iapply (bar_credit (F := F) c); iexact HB
  · iapply (recv_credit (F := F) c); iexact HR

/-! ### The launch theorem's side conditions -/

/-- What a device routes into the pipeline's invariant: what its body starts from, and the two idle counters. -/
def X (c : Dev nD) : sProp 𝕄 := iprop(start m ρ c ∗ idle0 c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(X m ρ c ∗ emp) := by
  iintro ⟨-, Hlev, Hcr, -, HG⟩
  ihave Hc := (creds (F := F) c) $$ Hcr
  icases Hc with ⟨H1, HN⟩
  unfold G'
  icases HG with ⟨HG, Hi⟩
  imodintro
  unfold X start
  isplitl
  · isplitl [HG H1 HN Hlev]
    · isplitl [HG]; · iexact HG
      isplitl [H1]; · iexact H1
      isplitl [HN]; · iexact HN
      iexact Hlev
    · iexact Hi
  · iempintro

theorem phi0_intro (c : Dev nD) :
    iprop(X m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ X scr idle0
  iintro ⟨⟨Hs, Hi0, Hi1⟩, -, Hr⟩
  isplitl [Hs]; · iexact Hs
  isplitl [Hr]; · iexact Hr
  isplitl [Hi0]; · iexact Hi0
  iexact Hi1

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scr
  iintro ⟨Hr, Hcl, Hi⟩
  isplitr; · iempintro
  isplitl [Hcl Hi]
  · iapply (ownSems0_join (F := F) c)
    isplitl [Hcl]; · iexact Hcl
    unfold idle0; iexact Hi
  · iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ### The run -/

/-- The input arrays after the run hold what they held. -/
theorem finalA_in (c : Dev nD) (w : Fin cfg0.W) (hin : (cfg0.win w).isOut = false) :
    (dats m ρ 0 c).arrAt w cfg0.N = m ((cfg0.win w).arr.view.loc (c : Thread nD τ)) :=
  (dats (F := F) m ρ 0 c).arrAt_in w hin _

/-- The result array after the run: its one block is the whole array, written back once, with what the body left in the
    staging buffer. -/
theorem finalA_out (c : Dev nD) : (dats m ρ 0 c).arrAt (4 : Fin 5) cfg0.N = outAt m ρ c := by
  show (dats m ρ 0 c).arrAt (4 : Fin 5) ((t0_0 : Fin cfg0.N).val + 1) = outAt m ρ c
  rw [(dats m ρ 0 c).arrAt_succ (4 : Fin 5) t0_0, if_pos (by decide)]
  exact Memref.write_access_unit_zero_univ (Elt F) main_v1 (funext fun a => Nat.zero_mul _) _ _ _

set_option maxRecDepth 8000 in
/-- At the compiled mesh of sixteen devices, for any float values, from any memory with zero counters: every weakly
    fair execution of @main — the sixteen kernels meeting on the runtime's barrier semaphore, each copying its row moments
    to the fifteen others and summing what it receives — terminates, and every final state has each device's result array
    at the contents the pipeline's proof data name and its four arguments unchanged. -/
theorem run_main (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = (dats m ρ 0 c).arrAt (4 : Fin 5) cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (KP.fund m ρ) $$ HX with HG
      imodintro
      isplitl [HP] <;> iassumption)
    (hglob := glob m ρ)
    (hA := fun _ _ => rfl) (hpf := fun _ k => k.elim0)
    (X := X m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c =>
      ⟨(h c).1 (4 : Fin 5),
       ((h c).1 (0 : Fin 5)).trans (finalA_in m ρ c (0 : Fin 5) rfl),
       ((h c).1 (1 : Fin 5)).trans (finalA_in m ρ c (1 : Fin 5) rfl),
       ((h c).1 (2 : Fin 5)).trans (finalA_in m ρ c (2 : Fin 5) rfl),
       ((h c).1 (3 : Fin 5)).trans (finalA_in m ρ c (3 : Fin 5) rfl)⟩)

/-- The run with every device's result named: its block of the output as `outAt` computes it from the launch memory. -/
theorem run_main_val (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = outAt m ρ c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun _ h c => ⟨(h c).1.trans (finalA_out m ρ c), (h c).2⟩) (run_main m ρ hbody)

/-- info: 'Cert.Kernel.KP.run_main' depends on axioms: [propext, Classical.choice, Quot.sound] -/
#guard_msgs in #print axioms run_main

end Cert.Kernel.KP

end
-- ==== Proof.KValueA.lean ====
/-
  The kernel's moments, running total and matrix products read at an index, at the ideal values.

  For one device's block x (4 batch rows × 256 positions × 128 channels) the moment block has, in row b, the sum of x
  over the 128 channels and, in row 4 + b, the sum of the squares; the running total of sixteen such blocks is their
  sum, entry by entry; the transposed total scaled by 2⁻¹¹ holds at (s, r) the total's entry (r, s) times that constant;
  and each product of t (4 × 128) with a 128 × 128 block is, at (b, j), the sum over k of t(b, k) · w(k, j).
  Every statement is over explicit coordinates b : Fin 4, s : Fin 256, j : Fin 128, r : Fin 8.
-/
import proofs.«900516_g7700000000000517_dist_diff_adaln_cshard_i_b4_s256_c128_v7x_i16_bf16_1_alg».proof.Proof.KTerms
import proofs.«900516_g7700000000000517_dist_diff_adaln_cshard_i_b4_s256_c128_v7x_i16_bf16_1_alg».proof.Proof.Spec
import Idealize.ShloMosaic.Lib.Pipeline.Value
import Idealize.ShloMosaic.Lib.ValueLayout
import Idealize.ShloMosaic.PureOps.Ideal.Laws

noncomputable section

namespace Cert.KernelIdeal.KValue

open Idealize.ShloMosaic Idealize.ShloMosaic.ValueIdx
open Cert.KernelIdeal Cert.KernelIdeal.Gen Cert.KernelIdeal.KTerms

/-! ## The first payload is the identity -/

/-- A shape cast of the block to its own shape changes nothing. -/
theorem pay1_eq (x : FVec Ideal S4x256x128 .f32) : k0_pay1 (F := Ideal) x = x := by
  unfold k0_pay1
  exact shapeCast_self x _

/-! ## The sum over the channels -/

/-- The index of the block over the reduced index (b, s) with channel l put back is (b, s, l). -/
theorem lift_eq (h : S4x256x128.Reduces [2] S4x256) (b : Fin 4) (s : Fin 256) (l : Fin 128) :
    h.lift (ix2 b s) l = ix3 b s l := by
  funext a
  refine Fin.ext ?_
  match a with
  | ⟨0, _⟩ => rfl
  | ⟨1, _⟩ => rfl
  | ⟨2, _⟩ => rfl

/-- The reduction of a block over its channel axis, read at (b, s), is the sum over the 128 channels. -/
theorem lane_sum (v : FVec Ideal S4x256x128 .f32) (h : S4x256x128.Reduces [2] S4x256) (hφ : FKind.Formats .f32)
    (hacc : (0x00000000#32 : BitVec 32) = FKind.add.neutral .f32 hφ) (b : Fin 4) (s : Fin 256) :
    multiReduction (F := Ideal) .add [2] S4x256 v 0x00000000#32 h hφ hacc (ix2 b s) = ∑ l : Fin 128, v (ix3 b s l) := by
  refine (Ideal.multiReduction_add_single v _ h hφ hacc (ix2 b s)).trans ?_
  exact Finset.sum_congr rfl fun l _ => congrArg v (lift_eq h b s l)

/-! ## The moment block -/

/-- Row r = b of the moment block (b below 4) holds at s the sum of x(b, s, ·) over the channels. -/
theorem pay2_lo (x : FVec Ideal S4x256x128 .f32) (b : Fin 4) (s : Fin 256) (r : Fin 8) (hr : r.val = b.val) :
    k0_pay2 (F := Ideal) x (ix2 r s) = ∑ l : Fin 128, x (ix3 b s l) := by
  unfold k0_pay2
  rw [pay1_eq]
  dsimp only
  refine (congrFun (shapeCast_self _ _) (ix2 r s)).trans ?_
  refine (concatenate_pair_apply_left (s₁ := S4x256) (s₂ := S4x256) _ _ _ _ (ix2 r s) rfl (ix2 b s) fun a => ?_).trans
    (lane_sum x _ _ _ b s)
  match a with
  | ⟨0, _⟩ => exact hr.symm
  | ⟨1, _⟩ => rfl

/-- Row r = 4 + b of the moment block holds at s the sum of x(b, s, ·)² over the channels. -/
theorem pay2_hi (x : FVec Ideal S4x256x128 .f32) (b : Fin 4) (s : Fin 256) (r : Fin 8) (hr : r.val = 4 + b.val) :
    k0_pay2 (F := Ideal) x (ix2 r s) = ∑ l : Fin 128, x (ix3 b s l) * x (ix3 b s l) := by
  unfold k0_pay2
  rw [pay1_eq]
  dsimp only
  refine (congrFun (shapeCast_self _ _) (ix2 r s)).trans ?_
  refine (concatenate_pair_apply_right (s₁ := S4x256) (s₂ := S4x256) _ _ _ _ (ix2 r s) rfl rfl (ix2 b s) (fun a ha => ?_) ?_).trans
    (lane_sum (mulf x x) _ _ _ b s)
  · match a with
    | ⟨0, _⟩ => exact (ha rfl).elim
    | ⟨1, _⟩ => rfl
  · show b.val + 4 = r.val
    omega

/-- The sum of the sixteen devices' moment blocks, rows 0 to 3: the sums over all devices and channels. -/
theorem tot_lo (xs : Fin 16 → FVec Ideal S4x256x128 .f32) (b : Fin 4) (s : Fin 256) (r : Fin 8) (hr : r.val = b.val) :
    (∑ d : Fin 16, k0_pay2 (F := Ideal) (xs d) (ix2 r s)) = ∑ d : Fin 16, ∑ l : Fin 128, xs d (ix3 b s l) :=
  Finset.sum_congr rfl fun d _ => pay2_lo (xs d) b s r hr

/-- Rows 4 to 7: the sums of the squares over all devices and channels. -/
theorem tot_hi (xs : Fin 16 → FVec Ideal S4x256x128 .f32) (b : Fin 4) (s : Fin 256) (r : Fin 8) (hr : r.val = 4 + b.val) :
    (∑ d : Fin 16, k0_pay2 (F := Ideal) (xs d) (ix2 r s))
      = ∑ d : Fin 16, ∑ l : Fin 128, xs d (ix3 b s l) * xs d (ix3 b s l) :=
  Finset.sum_congr rfl fun d _ => pay2_hi (xs d) b s r hr

/-! ## The running total -/

/-- A moment block loaded back from its slot of the receive buffer and viewed as 8 × 256 is the block. -/
theorem slot_cast (a : FVec Ideal S8x256 .f32) (h : S1x8x256.ShapeCasts S8x256) :
    shapeCast S8x256 (slotV (F := Ideal) a) h = a := by
  funext i
  obtain ⟨r, s, rfl⟩ : ∃ (r : Fin 8) (s : Fin 256), i = ix2 r s := ⟨i 0, i 1, eq_ix2 i⟩
  exact shapeCast_1ab_ab_apply (slotV (F := Ideal) a) h r s

/-- The running total of the sixteen blocks is, entry by entry, their sum. -/
theorem totFold_apply (R : ℕ → FVec Ideal S8x256 .f32) (i : S8x256.Idx) :
    totFold (F := Ideal) R i = ∑ k ∈ Finset.range 16, R k i := by
  unfold totFold k0_pay7 k0_pay6 k0_pay5
  simp only [addf_apply]
  repeat rw [slot_cast]
  simp only [Finset.sum_range_succ, Finset.sum_range_zero, zero_add]

/-! ## The transposed total scaled by 2⁻¹¹, and one plus the scale -/

/-- Entry (s, r) of the scaled transpose is entry (r, s) of the total times the constant 2⁻¹¹. -/
theorem pay8_apply (tot : FVec Ideal S8x256 .f32) (s : Fin 256) (r : Fin 8) :
    k0_pay8 (F := Ideal) tot (ix2 s r) = tot (ix2 r s) * Cert.Spec.cInv := by
  unfold k0_pay8
  exact congrArg (· * Cert.Spec.cInv) (transpose_ix2_apply tot _ s r)

/-- One plus the scale, entry by entry. -/
theorem pay9_apply (v : FVec Ideal S4x128 .f32) (i : S4x128.Idx) :
    k0_pay9 (F := Ideal) v i = Cert.Spec.cOne + v i := rfl

/-! ## The products with t -/

/-- The left operand's row is the result's row … -/
theorem lhs_ax0 (i : S4x128.Idx) (q : dot_S4x128_S128x128_S4x128_1_0_0_1_n_n.contr.Idx) :
    (dot_S4x128_S128x128_S4x128_1_0_0_1_n_n.lhsIdx i q 0).val = (i 0).val := by
  unfold DotDims.lhsIdx
  rw [dif_neg (show ¬(0 : Fin S4x128.rank) ∈ dot_S4x128_S128x128_S4x128_1_0_0_1_n_n.lhsBatch by decide),
    dif_pos (show (0 : Fin S4x128.rank) ∈ dot_S4x128_S128x128_S4x128_1_0_0_1_n_n.lhsNonContracting by decide)]
  rfl

/-- … its column the contraction index; … -/
theorem lhs_ax1 (i : S4x128.Idx) (q : dot_S4x128_S128x128_S4x128_1_0_0_1_n_n.contr.Idx) :
    (dot_S4x128_S128x128_S4x128_1_0_0_1_n_n.lhsIdx i q 1).val = (q ⟨0, by decide⟩).val :=
  dot_S4x128_S128x128_S4x128_1_0_0_1_n_n.lhsIdx_val_of_single rfl i q

/-- … the right operand's row is the contraction index … -/
theorem rhs_ax0 (i : S4x128.Idx) (q : dot_S4x128_S128x128_S4x128_1_0_0_1_n_n.contr.Idx) :
    (dot_S4x128_S128x128_S4x128_1_0_0_1_n_n.rhsIdx i q 0).val = (q ⟨0, by decide⟩).val :=
  dot_S4x128_S128x128_S4x128_1_0_0_1_n_n.rhsIdx_val_of_single rfl i q

/-- … and its column the result's column. -/
theorem rhs_ax1 (i : S4x128.Idx) (q : dot_S4x128_S128x128_S4x128_1_0_0_1_n_n.contr.Idx) :
    (dot_S4x128_S128x128_S4x128_1_0_0_1_n_n.rhsIdx i q 1).val = (i 1).val := by
  unfold DotDims.rhsIdx
  rw [dif_neg (show ¬(1 : Fin S128x128.rank) ∈ dot_S4x128_S128x128_S4x128_1_0_0_1_n_n.rhsBatch by decide),
    dif_pos (show (1 : Fin S128x128.rank) ∈ dot_S4x128_S128x128_S4x128_1_0_0_1_n_n.rhsNonContracting by decide)]
  rfl

/-- The product of a 4 × 128 matrix with a 128 × 128 one, accumulated onto zero, read at (b, j). -/
theorem matmul_at (t : FVec Ideal S4x128 .f32) (w : FVec Ideal S128x128 .f32) (b : Fin 4) (j : Fin 128) :
    matmul dot_S4x128_S128x128_S4x128_1_0_0_1_n_n none t w (constant (F := Ideal) S4x128 .f32 0x00000000#32) (ix2 b j)
      = ∑ k : Fin 128, t (ix2 b k) * w (ix2 k j) := by
  refine (Ideal.matmul_constant_zero_apply dot_S4x128_S128x128_S4x128_1_0_0_1_n_n none t w (ix2 b j)).trans ?_
  rw [← Equiv.sum_comp (contrEquiv1 dot_S4x128_S128x128_S4x128_1_0_0_1_n_n 128 rfl rfl).symm]
  refine Finset.sum_congr rfl fun k _ => ?_
  have hk := contrEquiv1_symm_val dot_S4x128_S128x128_S4x128_1_0_0_1_n_n 128 rfl rfl k
  have el : dot_S4x128_S128x128_S4x128_1_0_0_1_n_n.lhsIdx (ix2 b j) ((contrEquiv1 dot_S4x128_S128x128_S4x128_1_0_0_1_n_n 128 rfl rfl).symm k) = ix2 b k :=
    funext fun a => Fin.ext (by
      match a with
      | ⟨0, _⟩ => exact lhs_ax0 _ _
      | ⟨1, _⟩ => exact (lhs_ax1 _ _).trans hk)
  have er : dot_S4x128_S128x128_S4x128_1_0_0_1_n_n.rhsIdx (ix2 b j) ((contrEquiv1 dot_S4x128_S128x128_S4x128_1_0_0_1_n_n 128 rfl rfl).symm k) = ix2 k j :=
    funext fun a => Fin.ext (by
      match a with
      | ⟨0, _⟩ => exact (rhs_ax0 _ _).trans hk
      | ⟨1, _⟩ => exact rhs_ax1 _ _)
  rw [el, er]

/-- The scale's product: (t · ws)(b, j) = Σ_k t(b, k) · ws(k, j). -/
theorem pay3_apply (t : FVec Ideal S4x128 .f32) (w : FVec Ideal S128x128 .f32) (b : Fin 4) (j : Fin 128) :
    k0_pay3 (F := Ideal) t w (ix2 b j) = ∑ k : Fin 128, t (ix2 b k) * w (ix2 k j) := by
  unfold k0_pay3
  rw [shapeCast_self, shapeCast_self]
  exact matmul_at t w b j

/-- The shift's product: (t · wh)(b, j) = Σ_k t(b, k) · wh(k, j). -/
theorem pay4_apply (t : FVec Ideal S4x128 .f32) (w : FVec Ideal S128x128 .f32) (b : Fin 4) (j : Fin 128) :
    k0_pay4 (F := Ideal) t w (ix2 b j) = ∑ k : Fin 128, t (ix2 b k) * w (ix2 k j) := by
  unfold k0_pay4
  rw [shapeCast_self, shapeCast_self]
  exact matmul_at t w b j

end Cert.KernelIdeal.KValue

end
-- ==== Proof.KValue.lean ====
/-
  The kernel's result block read at an index, at the ideal values: each batch row of the block is the layer's value
  there. For batch row b the body takes column b of the transposed, scaled total as the mean m and column 4 + b as the
  mean of the squares e2, and stores (x[b] − m) · rsqrt(e2 − m · m + ε) · (1 + scale)[b] + shift[b], the mean and the
  normaliser broadcast along the 128 channels, the scale's and the shift's rows broadcast along the 256 positions.
  With the total the sum of the sixteen devices' moment blocks this is the specification's value for the device.
-/
import proofs.«900516_g7700000000000517_dist_diff_adaln_cshard_i_b4_s256_c128_v7x_i16_bf16_1_alg».proof.Proof.KValueA

noncomputable section

namespace Cert.KernelIdeal.KValue

open Idealize.ShloMosaic Idealize.ShloMosaic.ValueIdx
open Cert.KernelIdeal Cert.KernelIdeal.Gen Cert.KernelIdeal.KTerms

/-! ## The layout operations of one batch row, read at an index -/

section Readers
variable {α : Type}

/-- A column `[a, 1]` broadcast along a second axis to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column c of a 256 × 8 array, cut out as a 256 × 1 column, reads at (s, 0) the array at (s, c). -/
theorem col_apply (o : Nat) (X : S256x8.Idx → α) (h : S256x8.Slices ![0, o] S256x1) (s : Fin 256) (c : Fin 8)
    (hc : c.val = o) : extractStridedSlice S256x1 ![0, o] X h (ix2 s (0 : Fin 1)) = X (ix2 s c) :=
  slice2_axis1_apply o X h s (0 : Fin 1) c (hc.trans (Nat.add_zero o).symm)

/-- Batch row b of the block, cut out as 1 × 256 × 128 and viewed 256 × 128, reads at (s, j) the block at (b, s, j). -/
theorem xrow_apply (o : Nat) (x : S4x256x128.Idx → α) (hx : S4x256x128.Slices ![o, 0, 0] S1x256x128)
    (h1 : S1x256x128.ShapeCasts S256x128) (b : Fin 4) (hb : b.val = o) (s : Fin 256) (j : Fin 128) :
    shapeCast S256x128 (extractStridedSlice S1x256x128 ![o, 0, 0] x hx) h1 (ix2 s j) = x (ix3 b s j) := by
  refine (shapeCast_1ab_ab_apply _ h1 s j).trans ?_
  refine extractStridedSlice_apply _ x hx _ _ fun ax => ?_
  match ax with
  | ⟨0, _⟩ => exact hb.trans (Nat.add_zero o).symm
  | ⟨1, _⟩ => exact (Nat.zero_add _).symm
  | ⟨2, _⟩ => exact (Nat.zero_add _).symm

/-- Row b of a 4 × 128 array, cut out as a 1 × 128 row, reads at (0, j) the array at (b, j). -/
theorem srow_apply (o : Nat) (X : S4x128.Idx → α) (h : S4x128.Slices ![o, 0] S1x128) (b : Fin 4) (hb : b.val = o)
    (j : Fin 128) : extractStridedSlice S1x128 ![o, 0] X h (ix2 (0 : Fin 1) j) = X (ix2 b j) :=
  slice2_axis0_apply o X h (0 : Fin 1) j b (hb.trans (Nat.add_zero o).symm)

end Readers

/-- The inverse square root of a vector, entry by entry, is the extended reals' inverse square root. -/
theorem rsqrt_apply {s : Shape} {φ : FTy} (v : FVec Ideal s φ) (i : s.Idx) : rsqrt v i = Ideal.rsqrt (v i) := rfl

/-! ## One batch row of the result -/

/-- The value the body stores for batch row b at (s, j): from the block x, the scale factor sc = 1 + t · ws, the shift
    sh = t · wh, and the transposed scaled total m8, whose column cm is the mean and column ce the mean of the squares. -/
def rowVal (x : S4x256x128.Idx → EReal) (sc sh : S4x128.Idx → EReal) (m8 : S256x8.Idx → EReal)
    (b : Fin 4) (cm ce : Fin 8) (s : Fin 256) (j : Fin 128) : EReal :=
  (x (ix3 b s j) - m8 (ix2 s cm)) * Ideal.rsqrt (m8 (ix2 s ce) - m8 (ix2 s cm) * m8 (ix2 s cm) + Cert.Spec.cEps)
    * sc (ix2 b j) + sh (ix2 b j)

/-- The body's arithmetic for the batch row at offset ob, with the mean in column om and the mean of the squares in
    column oe of the transposed total, read at (0, s, j): the mean and the normaliser are columns broadcast along the
    channels, the scale's and the shift's rows are broadcast along the positions. -/
theorem row_apply (ob om oe : Nat) (x : FVec Ideal S4x256x128 .f32) (sc sh : FVec Ideal S4x128 .f32)
    (m8 : FVec Ideal S256x8 .f32)
    (hm : S256x8.Slices ![0, om] S256x1) (he : S256x8.Slices ![0, oe] S256x1)
    (hx : S4x256x128.Slices ![ob, 0, 0] S1x256x128) (hs : S4x128.Slices ![ob, 0] S1x128)
    (h1 : S1x256x128.ShapeCasts S256x128) (h2 : S256x1.Broadcasts S256x128) (h3 : S1x128.Broadcasts S256x128)
    (h4 : S256x128.ShapeCasts S1x256x128)
    (b : Fin 4) (cm ce : Fin 8) (hb : b.val = ob) (hcm : cm.val = om) (hce : ce.val = oe) (s : Fin 256) (j : Fin 128) :
    shapeCast S1x256x128
        (addf
          (mulf
            (mulf
              (subf (shapeCast S256x128 (extractStridedSlice S1x256x128 ![ob, 0, 0] x hx) h1)
                (broadcastTo S256x128 (extractStridedSlice S256x1 ![0, om] m8 hm) h2))
              (broadcastTo S256x128
                (rsqrt
                  (addf
                    (subf (extractStridedSlice S256x1 ![0, oe] m8 he)
                      (mulf (extractStridedSlice S256x1 ![0, om] m8 hm) (extractStridedSlice S256x1 ![0, om] m8 hm)))
                    (broadcast S256x1 (FloatOps.ofBits (F := Ideal) .f32 0x3727C5AC#32))))
                h2))
            (broadcastTo S256x128 (extractStridedSlice S1x128 ![ob, 0] sc hs) h3))
          (broadcastTo S256x128 (extractStridedSlice S1x128 ![ob, 0] sh hs) h3))
        h4 (ix3 (0 : Fin 1) s j)
      = rowVal x sc sh m8 b cm ce s j := by
  rw [shapeCast_ab_1ab_apply]
  simp only [addf_apply, mulf_apply, subf_apply, rsqrt_apply, broadcast_apply, broadcastTo_a1_ab_apply,
    broadcastTo_1b_ab_apply, xrow_apply ob x hx h1 b hb, srow_apply ob sc hs b hb, srow_apply ob sh hs b hb,
    col_apply om m8 hm s cm hcm, col_apply oe m8 he s ce hce]
  rfl

/-- Batch row 0 as the body stores it. -/
theorem pay10_apply (x : FVec Ideal S4x256x128 .f32) (v227 v232 : FVec Ideal S4x128 .f32)
    (tot : FVec Ideal S8x256 .f32) (s : Fin 256) (j : Fin 128) :
    k0_pay10 (F := Ideal) x v227 v232 tot (ix3 (0 : Fin 1) s j)
      = rowVal x (k0_pay9 (F := Ideal) v227) v232 (k0_pay8 (F := Ideal) tot) 0 0 4 s j := by
  unfold k0_pay10
  exact row_apply 0 0 4 x (k0_pay9 (F := Ideal) v227) v232 (k0_pay8 (F := Ideal) tot) _ _ _ _ _ _ _ _ 0 0 4 rfl rfl rfl s j

/-- Batch row 1. -/
theorem pay12_apply (x : FVec Ideal S4x256x128 .f32) (v227 v232 : FVec Ideal S4x128 .f32)
    (tot : FVec Ideal S8x256 .f32) (s : Fin 256) (j : Fin 128) :
    k0_pay12 (F := Ideal) (k0_pay11 x v227 v232 tot) (ix3 (0 : Fin 1) s j)
      = rowVal x (k0_pay9 (F := Ideal) v227) v232 (k0_pay8 (F := Ideal) tot) 1 1 5 s j := by
  unfold k0_pay12 k0_pay11
  exact row_apply 1 1 5 x (k0_pay9 (F := Ideal) v227) v232 (k0_pay8 (F := Ideal) tot) _ _ _ _ _ _ _ _ 1 1 5 rfl rfl rfl s j

/-- Batch row 2. -/
theorem pay13_apply (x : FVec Ideal S4x256x128 .f32) (v232 : FVec Ideal S4x128 .f32) (m8 : FVec Ideal S256x8 .f32)
    (sc : FVec Ideal S4x128 .f32) (s : Fin 256) (j : Fin 128) :
    k0_pay13 (F := Ideal) x v232 m8 sc (ix3 (0 : Fin 1) s j) = rowVal x sc v232 m8 2 2 6 s j := by
  unfold k0_pay13
  exact row_apply 2 2 6 x sc v232 m8 _ _ _ _ _ _ _ _ 2 2 6 rfl rfl rfl s j

/-- Batch row 3. -/
theorem pay14_apply (x : FVec Ideal S4x256x128 .f32) (v232 : FVec Ideal S4x128 .f32) (m8 : FVec Ideal S256x8 .f32)
    (sc : FVec Ideal S4x128 .f32) (s : Fin 256) (j : Fin 128) :
    k0_pay14 (F := Ideal) x v232 m8 sc (ix3 (0 : Fin 1) s j) = rowVal x sc v232 m8 3 3 7 s j := by
  unfold k0_pay14
  exact row_apply 3 3 7 x sc v232 m8 _ _ _ _ _ _ _ _ 3 3 7 rfl rfl rfl s j

/-! ## A row's value is the layer's -/

/-- The specification's value for device c at (b, s, j), written out. -/
theorem Kat_eq (xs : Fin 16 → FVec Ideal S4x256x128 .f32) (t : FVec Ideal S4x128 .f32) (wsb whb : FVec Ideal S128x128 .f32)
    (c : Fin 16) (b : Fin 4) (s : Fin 256) (j : Fin 128) :
    Cert.Spec.Kat xs t wsb whb c b s j
      = (xs c (ix3 b s j) - (∑ d : Fin 16, ∑ l : Fin 128, xs d (ix3 b s l)) * Cert.Spec.cInv)
          * Ideal.rsqrt ((∑ d : Fin 16, ∑ l : Fin 128, xs d (ix3 b s l) * xs d (ix3 b s l)) * Cert.Spec.cInv
              - (∑ d : Fin 16, ∑ l : Fin 128, xs d (ix3 b s l)) * Cert.Spec.cInv
                * ((∑ d : Fin 16, ∑ l : Fin 128, xs d (ix3 b s l)) * Cert.Spec.cInv) + Cert.Spec.cEps)
          * (Cert.Spec.cOne + ∑ k : Fin 128, t (ix2 b k) * wsb (ix2 k j))
        + ∑ k : Fin 128, t (ix2 b k) * whb (ix2 k j) := rfl

/-- With the total the sum of the sixteen devices' moment blocks, the mean in column cm = b and the mean of the squares
    in column ce = 4 + b, the row's value is the specification's. -/
theorem rowVal_eq_Kat (xs : Fin 16 → FVec Ideal S4x256x128 .f32) (t : FVec Ideal S4x128 .f32)
    (wsb whb : FVec Ideal S128x128 .f32) (c : Fin 16) (b : Fin 4) (cm ce : Fin 8) (hcm : cm.val = b.val)
    (hce : ce.val = 4 + b.val) (s : Fin 256) (j : Fin 128) :
    rowVal (xs c) (k0_pay9 (F := Ideal) (k0_pay3 (F := Ideal) t wsb)) (k0_pay4 (F := Ideal) t whb)
        (k0_pay8 (F := Ideal) (fun i => ∑ d : Fin 16, k0_pay2 (F := Ideal) (xs d) i)) b cm ce s j
      = Cert.Spec.Kat xs t wsb whb c b s j := by
  rw [Kat_eq]
  unfold rowVal
  rw [pay8_apply, pay8_apply, pay9_apply, pay3_apply, pay4_apply, tot_lo xs b s cm hcm, tot_hi xs b s ce hce]

/-! ## The result block -/

/-- Each batch row of the result block, read at (0, s, j), is the specification's value at (b, s, j). -/
theorem outRow_eq (xs : Fin 16 → FVec Ideal S4x256x128 .f32) (t : FVec Ideal S4x128 .f32)
    (wsb whb : FVec Ideal S128x128 .f32) (c : Fin 16) (b : Fin 4) (s : Fin 256) (j : Fin 128) :
    outRow (F := Ideal) b (xs c) t wsb whb (fun i => ∑ d : Fin 16, k0_pay2 (F := Ideal) (xs d) i)
        (ix3 (0 : Fin 1) s j)
      = Cert.Spec.Kat xs t wsb whb c b s j := by
  match b with
  | 0 =>
    show k0_pay10 (F := Ideal) (k0_pay1 (xs c)) (k0_pay3 t wsb) (k0_pay4 t whb) _ (ix3 (0 : Fin 1) s j) = _
    rw [pay1_eq, pay10_apply]
    exact rowVal_eq_Kat xs t wsb whb c 0 0 4 rfl rfl s j
  | 1 =>
    show k0_pay12 (F := Ideal) (k0_pay11 (k0_pay1 (xs c)) (k0_pay3 t wsb) (k0_pay4 t whb) _) (ix3 (0 : Fin 1) s j) = _
    rw [pay1_eq, pay12_apply]
    exact rowVal_eq_Kat xs t wsb whb c 1 1 5 rfl rfl s j
  | 2 =>
    show k0_pay13 (F := Ideal) (k0_pay1 (xs c)) (k0_pay4 t whb) (k0_pay8 _) (k0_pay9 (k0_pay3 t wsb))
      (ix3 (0 : Fin 1) s j) = _
    rw [pay1_eq, pay13_apply]
    exact rowVal_eq_Kat xs t wsb whb c 2 2 6 rfl rfl s j
  | 3 =>
    show k0_pay14 (F := Ideal) (k0_pay1 (xs c)) (k0_pay4 t whb) (k0_pay8 _) (k0_pay9 (k0_pay3 t wsb))
      (ix3 (0 : Fin 1) s j) = _
    rw [pay1_eq, pay14_apply]
    exact rowVal_eq_Kat xs t wsb whb c 3 3 7 rfl rfl s j

/-- THE KERNEL'S RESULT ON DEVICE c: from its own block, the shared t, its blocks of the two weight matrices and the sum
    of the sixteen devices' moment blocks as the total, the result block is the specification's block for c. -/
theorem outOf_eq_K (xs : Fin 16 → FVec Ideal S4x256x128 .f32) (t : FVec Ideal S4x128 .f32)
    (wsb whb : FVec Ideal S128x128 .f32) (c : Fin 16) :
    outOf (F := Ideal) (xs c) t wsb whb (fun i => ∑ d : Fin 16, k0_pay2 (xs d) i) = Cert.Spec.K xs t wsb whb c := by
  funext i
  obtain ⟨b, s, j, rfl⟩ : ∃ (b : Fin 4) (s : Fin 256) (j : Fin 128), i = ix3 b s j := ⟨i 0, i 1, i 2, eq_ix3 i⟩
  exact outRow_eq xs t wsb whb c b s j

/-- info: 'Cert.KernelIdeal.KValue.totFold_apply' depends on axioms: [propext, Classical.choice, Quot.sound] -/
#guard_msgs in
#print axioms totFold_apply

/-- info: 'Cert.KernelIdeal.KValue.outOf_eq_K' depends on axioms: [propext, Classical.choice, Quot.sound] -/
#guard_msgs in
#print axioms outOf_eq_K

end Cert.KernelIdeal.KValue

end
-- ==== Proof.Glue.lean ====
/-
  From the run's named result to the claim's: device c's result block is block c of the reference's result.
  Three facts meet here: the staged blocks are the argument arrays as launched; the body's running total over the ring
  (its own moments, then those of the devices 1, 2, …, 15 places back) is the sum over all sixteen devices; and the
  layer computed from the blocks is the layer computed from the whole arrays wherever x is finite.
-/
import proofs.«900516_g7700000000000517_dist_diff_adaln_cshard_i_b4_s256_c128_v7x_i16_bf16_1_alg».proof.Proof.KDefs
import proofs.«900516_g7700000000000517_dist_diff_adaln_cshard_i_b4_s256_c128_v7x_i16_bf16_1_alg».proof.Proof.KValue
import proofs.«900516_g7700000000000517_dist_diff_adaln_cshard_i_b4_s256_c128_v7x_i16_bf16_1_alg».proof.Proof.Spec
import proofs.«900516_g7700000000000517_dist_diff_adaln_cshard_i_b4_s256_c128_v7x_i16_bf16_1_alg».proof.Proof.Finite
import proofs.«900516_g7700000000000517_dist_diff_adaln_cshard_i_b4_s256_c128_v7x_i16_bf16_1_alg».proof.Pre_finite_inputs_Kernel
import proofs.«900516_g7700000000000517_dist_diff_adaln_cshard_i_b4_s256_c128_v7x_i16_bf16_1_alg».proof.Proof.Gen.Pre_finite_inputs_Kernel
import proofs.«900516_g7700000000000517_dist_diff_adaln_cshard_i_b4_s256_c128_v7x_i16_bf16_1_alg».proof.ReferenceIdeal

noncomputable section

namespace Cert.KernelIdeal.Glue

open Cert.KernelIdeal Cert.KernelIdeal.Gen Cert.KernelIdeal.KTerms Cert.KernelIdeal.KP Cert.KernelIdeal.KValue
open Idealize.ShloMosaic Idealize.ShloMosaic.TcCoe

/-- Going k places back, for k = 0 … 15, visits every device once. -/
def backEquiv (c : Dev nD) : Fin 16 ≃ Dev nD where
  toFun k := back c k.val
  invFun d := ⟨(c.val + 16 - d.val) % 16, Nat.mod_lt _ (by decide)⟩
  left_inv k := by
    apply Fin.ext
    show (c.val + 16 - (c.val + (16 - k.val % 16)) % 16) % 16 = k.val
    have h16 : c.val < 16 := c.isLt; have := k.isLt; omega
  right_inv d := by
    apply Fin.ext
    show (c.val + (16 - (c.val + 16 - d.val) % 16 % 16)) % 16 = d.val
    have h16 : c.val < 16 := c.isLt; have h16' : d.val < 16 := d.isLt; omega

theorem sum_back {M : Type} [AddCommMonoid M] (c : Dev nD) (f : Dev nD → M) :
    ∑ k ∈ Finset.range 16, f (back c k) = ∑ d : Dev nD, f d := by
  rw [← Fin.sum_univ_eq_sum_range (fun k => f (back c k)) 16]
  exact Fintype.sum_equiv (backEquiv c) _ _ (fun _ => rfl)

variable (m : (ℓ : Loc nD τ sig) → Buf (Elt Ideal) ℓ) (ρ : Dev nD → PrngReg)

/-- The running total is the sum of all sixteen devices' moments. -/
theorem totOf_eq (c : Dev nD) :
    totOf (F := Ideal) m ρ c = fun i => ∑ d : Fin 16, (k0_pay2 (F := Ideal) (xstg m ρ d) : FVec Ideal S8x256 .f32) i := by
  funext i
  unfold totOf
  rw [totFold_apply]
  exact sum_back (M := EReal) c (fun d => (k0_pay2 (F := Ideal) (xstg m ρ d) : FVec Ideal S8x256 .f32) i)

/-- A staged input is the argument array as launched: the window's one block is the whole array. -/
theorem xstg_eq (c : Dev nD) : xstg m ρ c = m ((c : Thread nD τ).loc main_arg0) :=
  Memref.read_access_unit_zero (Elt Ideal) main_arg0 (funext fun a => Nat.zero_mul _) _ _
theorem tstg_eq (c : Dev nD) : tstg m ρ c = m ((c : Thread nD τ).loc main_arg1) :=
  Memref.read_access_unit_zero (Elt Ideal) main_arg1 (funext fun a => Nat.zero_mul _) _ _
theorem wsstg_eq (c : Dev nD) : wsstg m ρ c = m ((c : Thread nD τ).loc main_arg2) :=
  Memref.read_access_unit_zero (Elt Ideal) main_arg2 (funext fun a => Nat.zero_mul _) _ _
theorem whstg_eq (c : Dev nD) : whstg m ρ c = m ((c : Thread nD τ).loc main_arg3) :=
  Memref.read_access_unit_zero (Elt Ideal) main_arg3 (funext fun a => Nat.zero_mul _) _ _

/-- Device c's named result is block c of the reference's formula of the whole arrays. -/
theorem out_value
    (m' : (ℓ : Loc Cert.ReferenceIdeal.nD Cert.ReferenceIdeal.τ Cert.ReferenceIdeal.sig) → Buf (Elt Ideal) ℓ)
    (hpre : ∀ c : Dev nD, (Cert.Pre_finite_inputs_Kernel.fn (F := Ideal) (m ((c.tc : Thread nD τ).loc main_arg0)) (m ((c.tc : Thread nD τ).loc main_arg1)) (m ((c.tc : Thread nD τ).loc main_arg2)) (m ((c.tc : Thread nD τ).loc main_arg3))) = (fun _ => 1#1))
    (hagree : ∀ c : Dev nD,
      m ((c.tc : Thread nD τ).loc main_arg0) = Layout.block ⟨3, ![4, 256, 128]⟩ ⟨3, ![4, 256, 2048]⟩ 2 16 c (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)
      ∧ m ((c.tc : Thread nD τ).loc main_arg2) = Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg2))
      ∧ m ((c.tc : Thread nD τ).loc main_arg3) = Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg3)))
    (c : Dev nD) :
    outAt (F := Ideal) m ρ c
      = Layout.block ⟨3, ![4, 256, 128]⟩ ⟨3, ![4, 256, 2048]⟩ 2 16 c
          (Cert.Spec.G (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))
            (m' (((0 : Dev Cert.ReferenceIdeal.nD).tc : Thread Cert.ReferenceIdeal.nD Cert.ReferenceIdeal.τ).loc Cert.ReferenceIdeal.main_arg2))
            (m' (((0 : Dev Cert.ReferenceIdeal.nD).tc : Thread Cert.ReferenceIdeal.nD Cert.ReferenceIdeal.τ).loc Cert.ReferenceIdeal.main_arg3))) := by
  have hx : ∀ i, ∃ r : ℝ, (m' (((0 : Dev Cert.ReferenceIdeal.nD).tc : Thread Cert.ReferenceIdeal.nD Cert.ReferenceIdeal.τ).loc Cert.ReferenceIdeal.main_arg0)) i = (r : EReal) :=
    Cert.Finite.whole_real _ fun d => by
      rw [← (hagree d).1]
      exact Cert.Finite.block_real _ _ _ _ (hpre d)
  have hb := Cert.Spec.block_G
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)) hx c
  refine Eq.trans ?_ hb.symm
  unfold outAt
  rw [totOf_eq, xstg_eq, tstg_eq, wsstg_eq, whstg_eq, (hagree c).2.1, (hagree c).2.2.1, (hagree c).2.2.2]
  have hk := Cert.KernelIdeal.KValue.outOf_eq_K (fun d : Dev nD => m ((d.tc : Thread nD τ).loc main_arg0))
    (m' (((0 : Dev Cert.ReferenceIdeal.nD).tc : Thread Cert.ReferenceIdeal.nD Cert.ReferenceIdeal.τ).loc Cert.ReferenceIdeal.main_arg1))
    (Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg2)))
    (Layout.block ⟨2, ![128, 128]⟩ ⟨2, ![128, 2048]⟩ 1 16 c (m' (((0 : Dev Cert.ReferenceIdeal.nD).tc : Thread Cert.ReferenceIdeal.nD Cert.ReferenceIdeal.τ).loc Cert.ReferenceIdeal.main_arg3))) c
  have hxs : (fun d : Dev nD => m ((d.tc : Thread nD τ).loc main_arg0))
      = fun d => Layout.block ⟨3, ![4, 256, 128]⟩ ⟨3, ![4, 256, 2048]⟩ 2 16 d (m' (((0 : Dev Cert.ReferenceIdeal.nD).tc : Thread Cert.ReferenceIdeal.nD Cert.ReferenceIdeal.τ).loc Cert.ReferenceIdeal.main_arg0)) :=
    funext fun d => (hagree d).1
  rw [hxs] at hk
  simp only [accOf, xstg_eq]
  exact hk

/-- info: 'Cert.KernelIdeal.Glue.out_value' depends on axioms: [propext, Classical.choice, Quot.sound] -/
#guard_msgs in #print axioms out_value

end Cert.KernelIdeal.Glue

end
-- ==== Proof.lean ====
/-
  The five claims, assembled.

  Kernel and its idealization: one run theorem per instance (the protocol's launch over the body, each device's result
  named as a pure term of the blocks the devices hold); each frame is that run with the value dropped. The reference: its
  run, ending at the layer's formula G of the whole arrays, on its one device. The idealization rewrote no operation, so
  there is nothing to preserve. The algebraic claim: at the exact values device c's named result is block c of G, because
  the ring's total is the sum over all sixteen devices and the layer computed from blocks with E[x²] − E[x]² and an
  inverse square root is the layer computed with the centred variance and a division by the square root wherever x is
  finite, which the precondition says of every block.
-/
import proofs.«900516_g7700000000000517_dist_diff_adaln_cshard_i_b4_s256_c128_v7x_i16_bf16_1_alg».proof.Defs
import proofs.«900516_g7700000000000517_dist_diff_adaln_cshard_i_b4_s256_c128_v7x_i16_bf16_1_alg».proof.Proof.Gen.Kernel
import proofs.«900516_g7700000000000517_dist_diff_adaln_cshard_i_b4_s256_c128_v7x_i16_bf16_1_alg».proof.Proof.Gen.KernelIdeal
import proofs.«900516_g7700000000000517_dist_diff_adaln_cshard_i_b4_s256_c128_v7x_i16_bf16_1_alg».proof.Proof.Gen.ReferenceIdeal
import proofs.«900516_g7700000000000517_dist_diff_adaln_cshard_i_b4_s256_c128_v7x_i16_bf16_1_alg».proof.Proof.Gen.Pre_finite_inputs_Kernel
import proofs.«900516_g7700000000000517_dist_diff_adaln_cshard_i_b4_s256_c128_v7x_i16_bf16_1_alg».proof.Proof.Gen.Pre_finite_inputs_ReferenceIdeal
import proofs.«900516_g7700000000000517_dist_diff_adaln_cshard_i_b4_s256_c128_v7x_i16_bf16_1_alg».proof.Proof.Spec
import proofs.«900516_g7700000000000517_dist_diff_adaln_cshard_i_b4_s256_c128_v7x_i16_bf16_1_alg».proof.Proof.Finite
import proofs.«900516_g7700000000000517_dist_diff_adaln_cshard_i_b4_s256_c128_v7x_i16_bf16_1_alg».proof.Proof.RefValue
import proofs.«900516_g7700000000000517_dist_diff_adaln_cshard_i_b4_s256_c128_v7x_i16_bf16_1_alg».proof.Proof.KBody
import proofs.«900516_g7700000000000517_dist_diff_adaln_cshard_i_b4_s256_c128_v7x_i16_bf16_1_alg».proof.Proof.KLaunch
import proofs.«900516_g7700000000000517_dist_diff_adaln_cshard_i_b4_s256_c128_v7x_i16_bf16_1_alg».proof.Proof.WBody
import proofs.«900516_g7700000000000517_dist_diff_adaln_cshard_i_b4_s256_c128_v7x_i16_bf16_1_alg».proof.Proof.WLaunch
import proofs.«900516_g7700000000000517_dist_diff_adaln_cshard_i_b4_s256_c128_v7x_i16_bf16_1_alg».proof.Proof.Glue
import Idealize.ShloMosaic.Adequacy
import Idealize.ShloMosaic.Init

noncomputable section

namespace Cert.Proof

open Idealize.ShloMosaic Idealize.SL.Sem

/-- The kernel as printed runs, and leaves its arguments as they were: its run with the result's value dropped. -/
theorem frame_k : Cert.frame_Kernel := fun m g _ =>
  (θ_run (Cert.Kernel.defs (F := Bits)) _ _).mono (fun _ h c => (h c).2)
    (Cert.Kernel.KP.run_main_val (F := Bits) m g (Cert.Kernel.KP.body_obligation m g))

/-- The same of the kernel at the exact values. -/
theorem frame_ki : Cert.frame_KernelIdeal := fun m g _ =>
  (θ_run (Cert.KernelIdeal.defs (F := Ideal)) _ _).mono (fun _ h c => (h c).2)
    (Cert.KernelIdeal.KP.run_main_val (F := Ideal) m g (Cert.KernelIdeal.KP.body_obligation m g))

/-- The reference runs on its one device, and leaves its arguments as they were. -/
theorem frame_ri : Cert.frame_ReferenceIdeal := fun m g _ =>
  (θ_run (Cert.ReferenceIdeal.defs (F := Ideal)) _ _).mono (fun _ h c => by
      have hc : c = 0 := Subsingleton.elim _ _
      subst hc; exact h.2)
    (Cert.ReferenceIdeal.RefRun.ref_run m g)

/-- Both run; the reference's result is the layer G of the whole arrays, and device c's result is block c of it. -/
theorem algebraic : Cert.algebraic_KernelIdeal_ReferenceIdeal := by
  intro m g m' g' hpre hagree
  refine ⟨Cert.Spec.G
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    ?_, Cert.ReferenceIdeal.RefRun.ref_run m' g'⟩
  exact (θ_run (Cert.KernelIdeal.defs (F := Ideal)) _ _).mono
    (fun _ h c => ⟨(h c).1.trans (Cert.KernelIdeal.Glue.out_value m g m' hpre hagree c), (h c).2⟩)
    (Cert.KernelIdeal.KP.run_main_val (F := Ideal) m g (Cert.KernelIdeal.KP.body_obligation m g))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
